-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x192x48x48 : Shape := ⟨4, ![2, 192, 48, 48]⟩
abbrev S2x2x48x48 : Shape := ⟨4, ![2, 2, 48, 48]⟩
abbrev S2x2x192x4800x1 : Shape := ⟨5, ![2, 2, 192, 4800, 1]⟩
abbrev S2x2x192x1 : Shape := ⟨4, ![2, 2, 192, 1]⟩
abbrev S_ : Shape := ⟨0, ![]⟩

class Facts : Prop where
  bcast_S_S2x192x48x48 : S_.BroadcastsInDim S2x192x48x48 (![] : Fin 0 → Fin S2x192x48x48.rank)
  reducesTo_S2x192x48x48_S_d0_1_2_3 : S2x192x48x48.ReducesTo [0, 1, 2, 3] S_
  h_S_ : 0 < S_.numel
  bcast_S_S2x2x192x4800x1 : S_.BroadcastsInDim S2x2x192x4800x1 (![] : Fin 0 → Fin S2x2x192x4800x1.rank)
  reducesTo_S2x2x192x4800x1_S_d0_1_2_3_4 : S2x2x192x4800x1.ReducesTo [0, 1, 2, 3, 4] S_
  bcast_S_S2x2x192x1 : S_.BroadcastsInDim S2x2x192x1 (![] : Fin 0 → Fin S2x2x192x1.rank)
  reducesTo_S2x2x192x1_S_d0_1_2_3 : S2x2x192x1.ReducesTo [0, 1, 2, 3] S_

variable [Facts]

def fn {F : FTy → Type} [FloatOps F] (main_arg0 : FVec F S2x192x48x48 .f32) (main_arg1 : IVec S2x2x48x48 32) (main_arg2 : FVec F S2x2x192x4800x1 .f32) (main_arg3 : FVec F S2x2x192x1 .f32) : IVec S_ 1 :=
  let main_v0 : FVec F S2x192x48x48 .f32 := Host.absf main_arg0
  let main_cst : FVec F S_ .f32 := constant S_ .f32 0x7F800000#32
  let main_v1 : FVec F S2x192x48x48 .f32 := broadcastInDim S2x192x48x48 ![] bcast_S_S2x192x48x48 main_cst
  let main_v2 : IVec S2x192x48x48 1 := cmpf .olt main_v0 main_v1
  let main_c : IVec S_ 1 := constantI S_ 1 1#1
  let main_v3 : IVec S_ 1 := (fun x v => Host.reduce IntOp.andi x v reducesTo_S2x192x48x48_S_d0_1_2_3 h_S_) main_v2 main_c
  let main_v4 : FVec F S2x2x192x4800x1 .f32 := Host.absf main_arg2
  let main_cst_0 : FVec F S_ .f32 := constant S_ .f32 0x7F800000#32
  let main_v5 : FVec F S2x2x192x4800x1 .f32 := broadcastInDim S2x2x192x4800x1 ![] bcast_S_S2x2x192x4800x1 main_cst_0
  let main_v6 : IVec S2x2x192x4800x1 1 := cmpf .olt main_v4 main_v5
  let main_c_1 : IVec S_ 1 := constantI S_ 1 1#1
  let main_v7 : IVec S_ 1 := (fun x v => Host.reduce IntOp.andi x v reducesTo_S2x2x192x4800x1_S_d0_1_2_3_4 h_S_) main_v6 main_c_1
  let main_v8 : IVec S_ 1 := andi main_v3 main_v7
  let main_v9 : FVec F S2x2x192x1 .f32 := Host.absf main_arg3
  let main_cst_2 : FVec F S_ .f32 := constant S_ .f32 0x7F800000#32
  let main_v10 : FVec F S2x2x192x1 .f32 := broadcastInDim S2x2x192x1 ![] bcast_S_S2x2x192x1 main_cst_2
  let main_v11 : IVec S2x2x192x1 1 := cmpf .olt main_v9 main_v10
  let main_c_3 : IVec S_ 1 := constantI S_ 1 1#1
  let main_v12 : IVec S_ 1 := (fun x v => Host.reduce IntOp.andi x v reducesTo_S2x2x192x1_S_d0_1_2_3 h_S_) main_v11 main_c_3
  let main_v13 : IVec S_ 1 := andi main_v8 main_v12
  main_v13
-- ==== Kernel.lean ====
abbrev S2x192x48x48 : Shape := ⟨4, ![2, 192, 48, 48]⟩
abbrev S2x2x48x48 : Shape := ⟨4, ![2, 2, 48, 48]⟩
abbrev S2x2x192x4800x1 : Shape := ⟨5, ![2, 2, 192, 4800, 1]⟩
abbrev S2x2x192x1 : Shape := ⟨4, ![2, 2, 192, 1]⟩
abbrev S_ : Shape := ⟨0, ![]⟩
abbrev S2x192x52x52 : Shape := ⟨4, ![2, 192, 52, 52]⟩
abbrev S2x1x192x48x48 : Shape := ⟨5, ![2, 1, 192, 48, 48]⟩
abbrev S2x16x192x48x48 : Shape := ⟨5, ![2, 16, 192, 48, 48]⟩
abbrev S2x9x192x48x48 : Shape := ⟨5, ![2, 9, 192, 48, 48]⟩
abbrev S2x25x192x48x48 : Shape := ⟨5, ![2, 25, 192, 48, 48]⟩
abbrev S2x25x192x2304 : Shape := ⟨4, ![2, 25, 192, 2304]⟩
abbrev S2x2x52x52 : Shape := ⟨4, ![2, 2, 52, 52]⟩
abbrev S2x1x2x48x48 : Shape := ⟨5, ![2, 1, 2, 48, 48]⟩
abbrev S2x16x2x48x48 : Shape := ⟨5, ![2, 16, 2, 48, 48]⟩
abbrev S2x9x2x48x48 : Shape := ⟨5, ![2, 9, 2, 48, 48]⟩
abbrev S2x25x2x48x48 : Shape := ⟨5, ![2, 25, 2, 48, 48]⟩
abbrev S2x25x2x2304 : Shape := ⟨4, ![2, 25, 2, 2304]⟩
abbrev S2x2x2304 : Shape := ⟨3, ![2, 2, 2304]⟩
abbrev S2x1x25x2x2304 : Shape := ⟨5, ![2, 1, 25, 2, 2304]⟩
abbrev S2x2x1x1x2304 : Shape := ⟨5, ![2, 2, 1, 1, 2304]⟩
abbrev S2x2x25x2x2304 : Shape := ⟨5, ![2, 2, 25, 2, 2304]⟩
abbrev S2x2x192x192x25 : Shape := ⟨5, ![2, 2, 192, 192, 25]⟩
abbrev S2x2x25x192x192 : Shape := ⟨5, ![2, 2, 25, 192, 192]⟩
abbrev S2x2x192x2304 : Shape := ⟨4, ![2, 2, 192, 2304]⟩
abbrev S1x1x192x2304 : Shape := ⟨4, ![1, 1, 192, 2304]⟩
abbrev S1x1x1x192x192 : Shape := ⟨5, ![1, 1, 1, 192, 192]⟩
abbrev S1x1x1x2x2304 : Shape := ⟨5, ![1, 1, 1, 2, 2304]⟩
abbrev S1x1x192x1 : Shape := ⟨4, ![1, 1, 192, 1]⟩
abbrev S192x2304 : Shape := ⟨2, ![192, 2304]⟩
abbrev S2x2304 : Shape := ⟨2, ![2, 2304]⟩
abbrev S1x2304 : Shape := ⟨2, ![1, 2304]⟩
abbrev S96x2304 : Shape := ⟨2, ![96, 2304]⟩
abbrev S192x192 : Shape := ⟨2, ![192, 192]⟩
abbrev S192x1 : Shape := ⟨2, ![192, 1]⟩
abbrev S2x384x48x48 : Shape := ⟨4, ![2, 384, 48, 48]⟩

abbrev nBuf : Space → Nat
  | .hbm => 140
  | .vmem => 11
  | .smem => 0
  | _ => 0

abbrev hbmTy0_0 (i : Nat) : BufTy := match i % 128 with
  | 0 => ⟨S2x192x48x48, .f32⟩
  | 1 => ⟨S2x2x48x48, .i32⟩
  | 2 => ⟨S2x2x192x4800x1, .f32⟩
  | 3 => ⟨S2x2x192x1, .f32⟩
  | 4 => ⟨S_, .i32⟩
  | 5 => ⟨S_, .f32⟩
  | 6 => ⟨S2x192x52x52, .f32⟩
  | 7 => ⟨S2x192x48x48, .f32⟩
  | 8 => ⟨S2x192x48x48, .f32⟩
  | 9 => ⟨S2x192x48x48, .f32⟩
  | 10 => ⟨S2x192x48x48, .f32⟩
  | 11 => ⟨S2x192x48x48, .f32⟩
  | 12 => ⟨S2x192x48x48, .f32⟩
  | 13 => ⟨S2x192x48x48, .f32⟩
  | 14 => ⟨S2x192x48x48, .f32⟩
  | 15 => ⟨S2x192x48x48, .f32⟩
  | 16 => ⟨S2x192x48x48, .f32⟩
  | 17 => ⟨S2x192x48x48, .f32⟩
  | 18 => ⟨S2x192x48x48, .f32⟩
  | 19 => ⟨S2x192x48x48, .f32⟩
  | 20 => ⟨S2x192x48x48, .f32⟩
  | 21 => ⟨S2x192x48x48, .f32⟩
  | 22 => ⟨S2x192x48x48, .f32⟩
  | 23 => ⟨S2x192x48x48, .f32⟩
  | 24 => ⟨S2x192x48x48, .f32⟩
  | 25 => ⟨S2x192x48x48, .f32⟩
  | 26 => ⟨S2x192x48x48, .f32⟩
  | 27 => ⟨S2x192x48x48, .f32⟩
  | 28 => ⟨S2x192x48x48, .f32⟩
  | 29 => ⟨S2x192x48x48, .f32⟩
  | 30 => ⟨S2x192x48x48, .f32⟩
  | 31 => ⟨S2x192x48x48, .f32⟩
  | 32 => ⟨S2x1x192x48x48, .f32⟩
  | 33 => ⟨S2x1x192x48x48, .f32⟩
  | 34 => ⟨S2x1x192x48x48, .f32⟩
  | 35 => ⟨S2x1x192x48x48, .f32⟩
  | 36 => ⟨S2x1x192x48x48, .f32⟩
  | 37 => ⟨S2x1x192x48x48, .f32⟩
  | 38 => ⟨S2x1x192x48x48, .f32⟩
  | 39 => ⟨S2x1x192x48x48, .f32⟩
  | 40 => ⟨S2x1x192x48x48, .f32⟩
  | 41 => ⟨S2x1x192x48x48, .f32⟩
  | 42 => ⟨S2x1x192x48x48, .f32⟩
  | 43 => ⟨S2x1x192x48x48, .f32⟩
  | 44 => ⟨S2x1x192x48x48, .f32⟩
  | 45 => ⟨S2x1x192x48x48, .f32⟩
  | 46 => ⟨S2x1x192x48x48, .f32⟩
  | 47 => ⟨S2x1x192x48x48, .f32⟩
  | 48 => ⟨S2x1x192x48x48, .f32⟩
  | 49 => ⟨S2x1x192x48x48, .f32⟩
  | 50 => ⟨S2x1x192x48x48, .f32⟩
  | 51 => ⟨S2x1x192x48x48, .f32⟩
  | 52 => ⟨S2x1x192x48x48, .f32⟩
  | 53 => ⟨S2x1x192x48x48, .f32⟩
  | 54 => ⟨S2x1x192x48x48, .f32⟩
  | 55 => ⟨S2x1x192x48x48, .f32⟩
  | 56 => ⟨S2x1x192x48x48, .f32⟩
  | 57 => ⟨S2x16x192x48x48, .f32⟩
  | 58 => ⟨S2x9x192x48x48, .f32⟩
  | 59 => ⟨S2x25x192x48x48, .f32⟩
  | 60 => ⟨S2x25x192x2304, .f32⟩
  | 61 => ⟨S2x25x192x2304, .bf16⟩
  | 62 => ⟨S2x2x48x48, .f32⟩
  | 63 => ⟨S_, .f32⟩
  | 64 => ⟨S_, .f32⟩
  | 65 => ⟨S_, .f32⟩
  | 66 => ⟨S2x2x48x48, .f32⟩
  | 67 => ⟨S2x2x48x48, .f32⟩
  | 68 => ⟨S_, .f32⟩
  | 69 => ⟨S2x2x48x48, .f32⟩
  | 70 => ⟨S2x2x48x48, .f32⟩
  | 71 => ⟨S_, .i32⟩
  | 72 => ⟨S_, .f32⟩
  | 73 => ⟨S2x2x52x52, .f32⟩
  | 74 => ⟨S2x2x48x48, .f32⟩
  | 75 => ⟨S2x2x48x48, .f32⟩
  | 76 => ⟨S2x2x48x48, .f32⟩
  | 77 => ⟨S2x2x48x48, .f32⟩
  | 78 => ⟨S2x2x48x48, .f32⟩
  | 79 => ⟨S2x2x48x48, .f32⟩
  | 80 => ⟨S2x2x48x48, .f32⟩
  | 81 => ⟨S2x2x48x48, .f32⟩
  | 82 => ⟨S2x2x48x48, .f32⟩
  | 83 => ⟨S2x2x48x48, .f32⟩
  | 84 => ⟨S2x2x48x48, .f32⟩
  | 85 => ⟨S2x2x48x48, .f32⟩
  | 86 => ⟨S2x2x48x48, .f32⟩
  | 87 => ⟨S2x2x48x48, .f32⟩
  | 88 => ⟨S2x2x48x48, .f32⟩
  | 89 => ⟨S2x2x48x48, .f32⟩
  | 90 => ⟨S2x2x48x48, .f32⟩
  | 91 => ⟨S2x2x48x48, .f32⟩
  | 92 => ⟨S2x2x48x48, .f32⟩
  | 93 => ⟨S2x2x48x48, .f32⟩
  | 94 => ⟨S2x2x48x48, .f32⟩
  | 95 => ⟨S2x2x48x48, .f32⟩
  | 96 => ⟨S2x2x48x48, .f32⟩
  | 97 => ⟨S2x2x48x48, .f32⟩
  | 98 => ⟨S2x2x48x48, .f32⟩
  | 99 => ⟨S2x1x2x48x48, .f32⟩
  | 100 => ⟨S2x1x2x48x48, .f32⟩
  | 101 => ⟨S2x1x2x48x48, .f32⟩
  | 102 => ⟨S2x1x2x48x48, .f32⟩
  | 103 => ⟨S2x1x2x48x48, .f32⟩
  | 104 => ⟨S2x1x2x48x48, .f32⟩
  | 105 => ⟨S2x1x2x48x48, .f32⟩
  | 106 => ⟨S2x1x2x48x48, .f32⟩
  | 107 => ⟨S2x1x2x48x48, .f32⟩
  | 108 => ⟨S2x1x2x48x48, .f32⟩
  | 109 => ⟨S2x1x2x48x48, .f32⟩
  | 110 => ⟨S2x1x2x48x48, .f32⟩
  | 111 => ⟨S2x1x2x48x48, .f32⟩
  | 112 => ⟨S2x1x2x48x48, .f32⟩
  | 113 => ⟨S2x1x2x48x48, .f32⟩
  | 114 => ⟨S2x1x2x48x48, .f32⟩
  | 115 => ⟨S2x1x2x48x48, .f32⟩
  | 116 => ⟨S2x1x2x48x48, .f32⟩
  | 117 => ⟨S2x1x2x48x48, .f32⟩
  | 118 => ⟨S2x1x2x48x48, .f32⟩
  | 119 => ⟨S2x1x2x48x48, .f32⟩
  | 120 => ⟨S2x1x2x48x48, .f32⟩
  | 121 => ⟨S2x1x2x48x48, .f32⟩
  | 122 => ⟨S2x1x2x48x48, .f32⟩
  | 123 => ⟨S2x1x2x48x48, .f32⟩
  | 124 => ⟨S2x16x2x48x48, .f32⟩
  | 125 => ⟨S2x9x2x48x48, .f32⟩
  | 126 => ⟨S2x25x2x48x48, .f32⟩
  | 127 => ⟨S2x25x2x2304, .f32⟩
  | _ => ⟨S2x192x48x48, .f32⟩

abbrev hbmTy0_1 (i : Nat) : BufTy := match i % 128 with
  | 0 => ⟨S2x2x2304, .f32⟩
  | 1 => ⟨S2x1x25x2x2304, .f32⟩
  | 2 => ⟨S2x2x1x1x2304, .f32⟩
  | 3 => ⟨S2x2x25x2x2304, .f32⟩
  | 4 => ⟨S2x2x25x2x2304, .f32⟩
  | 5 => ⟨S2x2x25x2x2304, .i1⟩
  | 6 => ⟨S2x2x25x2x2304, .bf16⟩
  | 7 => ⟨S2x2x192x192x25, .f32⟩
  | 8 => ⟨S2x2x25x192x192, .f32⟩
  | 9 => ⟨S2x2x25x192x192, .bf16⟩
  | 10 => ⟨S2x2x192x2304, .f32⟩
  | 11 => ⟨S2x384x48x48, .f32⟩
  | _ => ⟨S2x192x48x48, .f32⟩

abbrev hbmTy (i : Nat) : BufTy := match i / 128 with
  | 0 => hbmTy0_0 i
  | 1 => hbmTy0_1 i
  | _ => ⟨S2x192x48x48, .f32⟩

abbrev bufTy : (tb : Table) → Fin (tcTables nBuf tb) → BufTy
  | .hbm, ⟨i, _⟩ => hbmTy i
  | .local _ .vmem, ⟨0, _⟩ => ⟨S1x1x192x2304, .bf16⟩
  | .local _ .vmem, ⟨1, _⟩ => ⟨S1x1x192x2304, .bf16⟩
  | .local _ .vmem, ⟨2, _⟩ => ⟨S1x1x1x192x192, .bf16⟩
  | .local _ .vmem, ⟨3, _⟩ => ⟨S1x1x1x192x192, .bf16⟩
  | .local _ .vmem, ⟨4, _⟩ => ⟨S1x1x1x2x2304, .bf16⟩
  | .local _ .vmem, ⟨5, _⟩ => ⟨S1x1x1x2x2304, .bf16⟩
  | .local _ .vmem, ⟨6, _⟩ => ⟨S1x1x192x1, .f32⟩
  | .local _ .vmem, ⟨7, _⟩ => ⟨S1x1x192x1, .f32⟩
  | .local _ .vmem, ⟨8, _⟩ => ⟨S1x1x192x2304, .f32⟩
  | .local _ .vmem, ⟨9, _⟩ => ⟨S1x1x192x2304, .f32⟩
  | .local _ .vmem, ⟨10, _⟩ => ⟨S192x2304, .f32⟩
  | _, _ => ⟨S2x192x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_0 : Ref sig .tc := ⟨.hbm, 68, rfl⟩
abbrev main_v61 : Ref sig .tc := ⟨.hbm, 69, rfl⟩
abbrev main_v62 : Ref sig .tc := ⟨.hbm, 70, rfl⟩
abbrev main_c_1 : Ref sig .tc := ⟨.hbm, 71, rfl⟩
abbrev main_call1_v0 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 25], ![false, false, false]⟩

def k0_cond2 (i : grid0.Coords) : BitVec 1 :=
  let arg2 : BitVec 32 := BitVec.ofNat 32 (i 2).val
  let c24_i32 : BitVec 32 := 24#32
  let v23 : BitVec 1 := Scalar.cmpi .eq arg2 c24_i32
  let v24 : BitVec 32 := Scalar.extui v23
  let c0_i32_18 : BitVec 32 := 0#32
  let v25 : BitVec 1 := Scalar.cmpi .ne v24 c0_i32_18
  v25

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x192x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1x192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x2x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x192x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S2x192x48x48_S2x192x52x52_000_000_220_220 : S2x192x48x48.Pads (![0, 0, 2, 2] : Fin 4 → Nat) ![0, 0, 2, 2] ![0, 0, 0, 0] S2x192x52x52
  h_S_ : 0 < S_.numel
  slices_S2x192x52x52_S2x192x48x48_0_0_0_0 : S2x192x52x52.Slices ![0, 0, 0, 0] S2x192x48x48
  slices_S2x192x52x52_S2x192x48x48_0_0_0_1 : S2x192x52x52.Slices ![0, 0, 0, 1] S2x192x48x48
  slices_S2x192x52x52_S2x192x48x48_0_0_0_2 : S2x192x52x52.Slices ![0, 0, 0, 2] S2x192x48x48
  slices_S2x192x52x52_S2x192x48x48_0_0_0_3 : S2x192x52x52.Slices ![0, 0, 0, 3] S2x192x48x48
  slices_S2x192x52x52_S2x192x48x48_0_0_0_4 : S2x192x52x52.Slices ![0, 0, 0, 4] S2x192x48x48
  slices_S2x192x52x52_S2x192x48x48_0_0_1_0 : S2x192x52x52.Slices ![0, 0, 1, 0] S2x192x48x48
  slices_S2x192x52x52_S2x192x48x48_0_0_1_1 : S2x192x52x52.Slices ![0, 0, 1, 1] S2x192x48x48
  slices_S2x192x52x52_S2x192x48x48_0_0_1_2 : S2x192x52x52.Slices ![0, 0, 1, 2] S2x192x48x48
  slices_S2x192x52x52_S2x192x48x48_0_0_1_3 : S2x192x52x52.Slices ![0, 0, 1, 3] S2x192x48x48
  slices_S2x192x52x52_S2x192x48x48_0_0_1_4 : S2x192x52x52.Slices ![0, 0, 1, 4] S2x192x48x48
  slices_S2x192x52x52_S2x192x48x48_0_0_2_0 : S2x192x52x52.Slices ![0, 0, 2, 0] S2x192x48x48
  slices_S2x192x52x52_S2x192x48x48_0_0_2_1 : S2x192x52x52.Slices ![0, 0, 2, 1] S2x192x48x48
  slices_S2x192x52x52_S2x192x48x48_0_0_2_2 : S2x192x52x52.Slices ![0, 0, 2, 2] S2x192x48x48
  slices_S2x192x52x52_S2x192x48x48_0_0_2_3 : S2x192x52x52.Slices ![0, 0, 2, 3] S2x192x48x48
  slices_S2x192x52x52_S2x192x48x48_0_0_2_4 : S2x192x52x52.Slices ![0, 0, 2, 4] S2x192x48x48
  slices_S2x192x52x52_S2x192x48x48_0_0_3_0 : S2x192x52x52.Slices ![0, 0, 3, 0] S2x192x48x48
  slices_S2x192x52x52_S2x192x48x48_0_0_3_1 : S2x192x52x52.Slices ![0, 0, 3, 1] S2x192x48x48
  slices_S2x192x52x52_S2x192x48x48_0_0_3_2 : S2x192x52x52.Slices ![0, 0, 3, 2] S2x192x48x48
  slices_S2x192x52x52_S2x192x48x48_0_0_3_3 : S2x192x52x52.Slices ![0, 0, 3, 3] S2x192x48x48
  slices_S2x192x52x52_S2x192x48x48_0_0_3_4 : S2x192x52x52.Slices ![0, 0, 3, 4] S2x192x48x48
  slices_S2x192x52x52_S2x192x48x48_0_0_4_0 : S2x192x52x52.Slices ![0, 0, 4, 0] S2x192x48x48
  slices_S2x192x52x52_S2x192x48x48_0_0_4_1 : S2x192x52x52.Slices ![0, 0, 4, 1] S2x192x48x48
  slices_S2x192x52x52_S2x192x48x48_0_0_4_2 : S2x192x52x52.Slices ![0, 0, 4, 2] S2x192x48x48
  slices_S2x192x52x52_S2x192x48x48_0_0_4_3 : S2x192x52x52.Slices ![0, 0, 4, 3] S2x192x48x48
  slices_S2x192x52x52_S2x192x48x48_0_0_4_4 : S2x192x52x52.Slices ![0, 0, 4, 4] S2x192x48x48
  bcast_S2x192x48x48_S2x1x192x48x48_0_2_3_4 : S2x192x48x48.BroadcastsInDim S2x1x192x48x48 (![0, 2, 3, 4] : Fin 4 → Fin S2x1x192x48x48.rank)
  concatenates_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x16x192x48x48_d1 : Shape.Concatenates [S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48] S2x16x192x48x48 1
  concatenates_S2x1x192x48x48_S2x1x192x48x48_S2x1x192x48x48_S2x1x192x48x48_S2x1x192x48x48_S2x1x192x48x48_S2x1x192x48x48_S2x1x192x48x48_S2x1x192x48x48_S2x9x192x48x48_d1 : Shape.Concatenates [S2x1x192x48x48, S2x1x192x48x48, S2x1x192x48x48, S2x1x192x48x48, S2x1x192x48x48, S2x1x192x48x48, S2x1x192x48x48, S2x1x192x48x48, S2x1x192x48x48] S2x9x192x48x48 1
  concatenates_S2x16x192x48x48_S2x9x192x48x48_S2x25x192x48x48_d1 : Shape.Concatenates [S2x16x192x48x48, S2x9x192x48x48] S2x25x192x48x48 1
  shapeCasts_S2x25x192x48x48_S2x25x192x2304 : S2x25x192x48x48.ShapeCasts S2x25x192x2304
  bitsLt_bf16_f32 : FTy.bits .bf16 < FTy.bits .f32
  reducesTo_S2x2x48x48_S_d0_1_2_3 : S2x2x48x48.ReducesTo [0, 1, 2, 3] S_
  bcast_S_S2x2x48x48 : S_.BroadcastsInDim S2x2x48x48 (![] : Fin 0 → Fin S2x2x48x48.rank)
  pads_S2x2x48x48_S2x2x52x52_000_000_220_220 : S2x2x48x48.Pads (![0, 0, 2, 2] : Fin 4 → Nat) ![0, 0, 2, 2] ![0, 0, 0, 0] S2x2x52x52
  slices_S2x2x52x52_S2x2x48x48_0_0_0_0 : S2x2x52x52.Slices ![0, 0, 0, 0] S2x2x48x48
  slices_S2x2x52x52_S2x2x48x48_0_0_0_1 : S2x2x52x52.Slices ![0, 0, 0, 1] S2x2x48x48
  slices_S2x2x52x52_S2x2x48x48_0_0_0_2 : S2x2x52x52.Slices ![0, 0, 0, 2] S2x2x48x48
  slices_S2x2x52x52_S2x2x48x48_0_0_0_3 : S2x2x52x52.Slices ![0, 0, 0, 3] S2x2x48x48
  slices_S2x2x52x52_S2x2x48x48_0_0_0_4 : S2x2x52x52.Slices ![0, 0, 0, 4] S2x2x48x48
  slices_S2x2x52x52_S2x2x48x48_0_0_1_0 : S2x2x52x52.Slices ![0, 0, 1, 0] S2x2x48x48
  slices_S2x2x52x52_S2x2x48x48_0_0_1_1 : S2x2x52x52.Slices ![0, 0, 1, 1] S2x2x48x48
  slices_S2x2x52x52_S2x2x48x48_0_0_1_2 : S2x2x52x52.Slices ![0, 0, 1, 2] S2x2x48x48
  slices_S2x2x52x52_S2x2x48x48_0_0_1_3 : S2x2x52x52.Slices ![0, 0, 1, 3] S2x2x48x48
  slices_S2x2x52x52_S2x2x48x48_0_0_1_4 : S2x2x52x52.Slices ![0, 0, 1, 4] S2x2x48x48
  slices_S2x2x52x52_S2x2x48x48_0_0_2_0 : S2x2x52x52.Slices ![0, 0, 2, 0] S2x2x48x48
  slices_S2x2x52x52_S2x2x48x48_0_0_2_1 : S2x2x52x52.Slices ![0, 0, 2, 1] S2x2x48x48
  slices_S2x2x52x52_S2x2x48x48_0_0_2_2 : S2x2x52x52.Slices ![0, 0, 2, 2] S2x2x48x48
  slices_S2x2x52x52_S2x2x48x48_0_0_2_3 : S2x2x52x52.Slices ![0, 0, 2, 3] S2x2x48x48
  slices_S2x2x52x52_S2x2x48x48_0_0_2_4 : S2x2x52x52.Slices ![0, 0, 2, 4] S2x2x48x48
  slices_S2x2x52x52_S2x2x48x48_0_0_3_0 : S2x2x52x52.Slices ![0, 0, 3, 0] S2x2x48x48
  slices_S2x2x52x52_S2x2x48x48_0_0_3_1 : S2x2x52x52.Slices ![0, 0, 3, 1] S2x2x48x48
  slices_S2x2x52x52_S2x2x48x48_0_0_3_2 : S2x2x52x52.Slices ![0, 0, 3, 2] S2x2x48x48
  slices_S2x2x52x52_S2x2x48x48_0_0_3_3 : S2x2x52x52.Slices ![0, 0, 3, 3] S2x2x48x48
  slices_S2x2x52x52_S2x2x48x48_0_0_3_4 : S2x2x52x52.Slices ![0, 0, 3, 4] S2x2x48x48
  slices_S2x2x52x52_S2x2x48x48_0_0_4_0 : S2x2x52x52.Slices ![0, 0, 4, 0] S2x2x48x48
  slices_S2x2x52x52_S2x2x48x48_0_0_4_1 : S2x2x52x52.Slices ![0, 0, 4, 1] S2x2x48x48
  slices_S2x2x52x52_S2x2x48x48_0_0_4_2 : S2x2x52x52.Slices ![0, 0, 4, 2] S2x2x48x48
  slices_S2x2x52x52_S2x2x48x48_0_0_4_3 : S2x2x52x52.Slices ![0, 0, 4, 3] S2x2x48x48
  slices_S2x2x52x52_S2x2x48x48_0_0_4_4 : S2x2x52x52.Slices ![0, 0, 4, 4] S2x2x48x48
  bcast_S2x2x48x48_S2x1x2x48x48_0_2_3_4 : S2x2x48x48.BroadcastsInDim S2x1x2x48x48 (![0, 2, 3, 4] : Fin 4 → Fin S2x1x2x48x48.rank)
  concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 : Shape.Concatenates [S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48] S2x16x2x48x48 1
  concatenates_S2x1x2x48x48_S2x1x2x48x48_S2x1x2x48x48_S2x1x2x48x48_S2x1x2x48x48_S2x1x2x48x48_S2x1x2x48x48_S2x1x2x48x48_S2x1x2x48x48_S2x9x2x48x48_d1 : Shape.Concatenates [S2x1x2x48x48, S2x1x2x48x48, S2x1x2x48x48, S2x1x2x48x48, S2x1x2x48x48, S2x1x2x48x48, S2x1x2x48x48, S2x1x2x48x48, S2x1x2x48x48] S2x9x2x48x48 1
  concatenates_S2x16x2x48x48_S2x9x2x48x48_S2x25x2x48x48_d1 : Shape.Concatenates [S2x16x2x48x48, S2x9x2x48x48] S2x25x2x48x48 1
  shapeCasts_S2x25x2x48x48_S2x25x2x2304 : S2x25x2x48x48.ShapeCasts S2x25x2x2304
  shapeCasts_S2x2x48x48_S2x2x2304 : S2x2x48x48.ShapeCasts S2x2x2304
  bcast_S2x25x2x2304_S2x1x25x2x2304_0_2_3_4 : S2x25x2x2304.BroadcastsInDim S2x1x25x2x2304 (![0, 2, 3, 4] : Fin 4 → Fin S2x1x25x2x2304.rank)
  bcast_S2x2x2304_S2x2x1x1x2304_0_1_4 : S2x2x2304.BroadcastsInDim S2x2x1x1x2304 (![0, 1, 4] : Fin 3 → Fin S2x2x1x1x2304.rank)
  bcast_S2x1x25x2x2304_S2x2x25x2x2304_0_1_2_3_4 : S2x1x25x2x2304.BroadcastsInDim S2x2x25x2x2304 (![0, 1, 2, 3, 4] : Fin 5 → Fin S2x2x25x2x2304.rank)
  bcast_S2x2x1x1x2304_S2x2x25x2x2304_0_1_2_3_4 : S2x2x1x1x2304.BroadcastsInDim S2x2x25x2x2304 (![0, 1, 2, 3, 4] : Fin 5 → Fin S2x2x25x2x2304.rank)
  shapeCasts_S2x2x192x4800x1_S2x2x192x192x25 : S2x2x192x4800x1.ShapeCasts S2x2x192x192x25
  transposes_S2x2x192x192x25_S2x2x25x192x192_0_1_4_2_3 : S2x2x192x192x25.Transposes [0, 1, 4, 2, 3] S2x2x25x192x192
  inb_S192x2304_S192x2304_0_0 : ∀ a, (![0, 0] : Fin 2 → Nat) a + S192x2304.size a ≤ S192x2304.size a
  h_S192x2304 : 0 < S192x2304.numel
  shapeCasts_S192x2304_S192x2304 : S192x2304.ShapeCasts S192x2304
  inb_S1x1x192x2304_S1x1x192x2304_0_0_0_0 : ∀ a, (![0, 0, 0, 0] : Fin 4 → Nat) a + S1x1x192x2304.size a ≤ S1x1x192x2304.size a
  h_S1x1x192x2304 : 0 < S1x1x192x2304.numel
  shapeCasts_S1x1x192x2304_S192x2304 : S1x1x192x2304.ShapeCasts S192x2304
  inb_S1x1x1x2x2304_S1x1x1x2x2304_0_0_0_0_0 : ∀ a, (![0, 0, 0, 0, 0] : Fin 5 → Nat) a + S1x1x1x2x2304.size a ≤ S1x1x1x2x2304.size a
  h_S1x1x1x2x2304 : 0 < S1x1x1x2x2304.numel
  shapeCasts_S1x1x1x2x2304_S2x2304 : S1x1x1x2x2304.ShapeCasts S2x2304
  slices_S2x2304_o0_0_S1x2304 : S2x2304.Slices ![0, 0] S1x2304
  slices_S2x2304_o1_0_S1x2304 : S2x2304.Slices ![1, 0] S1x2304
  shapeCasts_S1x2304_S1x2304 : S1x2304.ShapeCasts S1x2304
  broadcasts_S1x2304_S96x2304 : S1x2304.Broadcasts S96x2304
  concatenates_S96x2304_S96x2304_S192x2304_d0 : Shape.Concatenates [S96x2304, S96x2304] S192x2304 0
  inb_S1x1x1x192x192_S1x1x1x192x192_0_0_0_0_0 : ∀ a, (![0, 0, 0, 0, 0] : Fin 5 → Nat) a + S1x1x1x192x192.size a ≤ S1x1x1x192x192.size a
  h_S1x1x1x192x192 : 0 < S1x1x1x192x192.numel
  shapeCasts_S1x1x1x192x192_S192x192 : S1x1x1x192x192.ShapeCasts S192x192
  inb_S1x1x192x1_S1x1x192x1_0_0_0_0 : ∀ a, (![0, 0, 0, 0] : Fin 4 → Nat) a + S1x1x192x1.size a ≤ S1x1x192x1.size a
  h_S1x1x192x1 : 0 < S1x1x192x1.numel
  shapeCasts_S1x1x192x1_S192x1 : S1x1x192x1.ShapeCasts S192x1
  broadcasts_S192x1_S192x2304 : S192x1.Broadcasts S192x2304
  shapeCasts_S192x2304_S1x1x192x2304 : S192x2304.ShapeCasts S1x1x192x2304
  shapeCasts_S2x2x192x2304_S2x384x48x48 : S2x2x192x2304.ShapeCasts S2x384x48x48
  dot_S192x192_S192x2304_S192x2304_1_0_0_1_n_n_wf : DotDims.WF S192x192 S192x2304 S192x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x192x2304.size a ≤ S2x25x192x2304.size a
  hwx0_0 : ∀ i : grid0.Coords, EltTy.bits .bf16 = 32 ∨ (Rect.block (s := S2x25x192x2304) S1x1x192x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x192x192.size a ≤ S2x2x25x192x192.size a
  hwx0_1 : ∀ i : grid0.Coords, EltTy.bits .bf16 = 32 ∨ (Rect.block (s := S2x2x25x192x192) S1x1x1x192x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x2x2304.size a ≤ S2x2x25x2x2304.size a
  hwx0_2 : ∀ i : grid0.Coords, EltTy.bits .bf16 = 32 ∨ (Rect.block (s := S2x2x25x2x2304) S1x1x1x2x2304.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x192x1.size a ≤ S2x2x192x1.size a
  hwx0_3 : ∀ i : grid0.Coords, EltTy.bits .f32 = 32 ∨ (Rect.block (s := S2x2x192x1) S1x1x192x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x192x2304.size a ≤ S2x2x192x2304.size a
  hwx0_4 : ∀ i : grid0.Coords, EltTy.bits .f32 = 32 ∨ (Rect.block (s := S2x2x192x2304) S1x1x192x2304.size (cc0_transform_4 i) (hinb0_4 i)).WholeWords (EltTy.packing .f32)

variable [Facts₀]

def dot_S192x192_S192x2304_S192x2304_1_0_0_1_n_n : DotDims S192x192 S192x2304 S192x2304 where
  lhsContracting := [1]
  rhsContracting := [0]
  lhsNonContracting := [0]
  rhsNonContracting := [1]
  lhsBatch := []
  rhsBatch := []
  wf := dot_S192x192_S192x2304_S192x2304_1_0_0_1_n_n_wf

abbrev win0_0 : Pipeline.Window sig grid0 :=
  Pipeline.Window.ofSpec (Memref.whole main_v55) S1x1x192x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v127) S1x1x1x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v124) S1x1x1x2x2304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v128) S1x1x192x2304.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x192x48x48 : Shape := ⟨4, ![2, 192, 48, 48]⟩
abbrev S2x2x48x48 : Shape := ⟨4, ![2, 2, 48, 48]⟩
abbrev S2x2x192x4800x1 : Shape := ⟨5, ![2, 2, 192, 4800, 1]⟩
abbrev S2x2x192x1 : Shape := ⟨4, ![2, 2, 192, 1]⟩
abbrev S_ : Shape := ⟨0, ![]⟩
abbrev S2x192x52x52 : Shape := ⟨4, ![2, 192, 52, 52]⟩
abbrev S2x192x1x48x48 : Shape := ⟨5, ![2, 192, 1, 48, 48]⟩
abbrev S2x192x16x48x48 : Shape := ⟨5, ![2, 192, 16, 48, 48]⟩
abbrev S2x192x9x48x48 : Shape := ⟨5, ![2, 192, 9, 48, 48]⟩
abbrev S2x192x25x48x48 : Shape := ⟨5, ![2, 192, 25, 48, 48]⟩
abbrev S2x4800x2304 : Shape := ⟨3, ![2, 4800, 2304]⟩
abbrev S2x1x4800x2304 : Shape := ⟨4, ![2, 1, 4800, 2304]⟩
abbrev S2x2x1x2304 : Shape := ⟨4, ![2, 2, 1, 2304]⟩
abbrev S2x2x52x52 : Shape := ⟨4, ![2, 2, 52, 52]⟩
abbrev S2x2x1x48x48 : Shape := ⟨5, ![2, 2, 1, 48, 48]⟩
abbrev S2x2x16x48x48 : Shape := ⟨5, ![2, 2, 16, 48, 48]⟩
abbrev S2x2x9x48x48 : Shape := ⟨5, ![2, 2, 9, 48, 48]⟩
abbrev S2x2x25x48x48 : Shape := ⟨5, ![2, 2, 25, 48, 48]⟩
abbrev S2x50x2304 : Shape := ⟨3, ![2, 50, 2304]⟩
abbrev S2x1x50x2304 : Shape := ⟨4, ![2, 1, 50, 2304]⟩
abbrev S2x2x50x2304 : Shape := ⟨4, ![2, 2, 50, 2304]⟩
abbrev S2x2x2x1x25x2304 : Shape := ⟨6, ![2, 2, 2, 1, 25, 2304]⟩
abbrev S2x2x2x96x25x2304 : Shape := ⟨6, ![2, 2, 2, 96, 25, 2304]⟩
abbrev S2x2x4800x2304 : Shape := ⟨4, ![2, 2, 4800, 2304]⟩
abbrev S2x2x192x4800 : Shape := ⟨4, ![2, 2, 192, 4800]⟩
abbrev S2x2x192x2304 : Shape := ⟨4, ![2, 2, 192, 2304]⟩
abbrev S2x384x48x48 : Shape := ⟨4, ![2, 384, 48, 48]⟩

abbrev nBuf : Space → Nat
  | .hbm => 144
  | .vmem => 0
  | .smem => 0
  | _ => 0

abbrev hbmTy0_0 (i : Nat) : BufTy := match i % 128 with
  | 0 => ⟨S2x192x48x48, .f32⟩
  | 1 => ⟨S2x2x48x48, .i32⟩
  | 2 => ⟨S2x2x192x4800x1, .f32⟩
  | 3 => ⟨S2x2x192x1, .f32⟩
  | 4 => ⟨S_, .i32⟩
  | 5 => ⟨S_, .f32⟩
  | 6 => ⟨S2x192x52x52, .f32⟩
  | 7 => ⟨S2x192x48x48, .f32⟩
  | 8 => ⟨S2x192x48x48, .f32⟩
  | 9 => ⟨S2x192x48x48, .f32⟩
  | 10 => ⟨S2x192x48x48, .f32⟩
  | 11 => ⟨S2x192x48x48, .f32⟩
  | 12 => ⟨S2x192x48x48, .f32⟩
  | 13 => ⟨S2x192x48x48, .f32⟩
  | 14 => ⟨S2x192x48x48, .f32⟩
  | 15 => ⟨S2x192x48x48, .f32⟩
  | 16 => ⟨S2x192x48x48, .f32⟩
  | 17 => ⟨S2x192x48x48, .f32⟩
  | 18 => ⟨S2x192x48x48, .f32⟩
  | 19 => ⟨S2x192x48x48, .f32⟩
  | 20 => ⟨S2x192x48x48, .f32⟩
  | 21 => ⟨S2x192x48x48, .f32⟩
  | 22 => ⟨S2x192x48x48, .f32⟩
  | 23 => ⟨S2x192x48x48, .f32⟩
  | 24 => ⟨S2x192x48x48, .f32⟩
  | 25 => ⟨S2x192x48x48, .f32⟩
  | 26 => ⟨S2x192x48x48, .f32⟩
  | 27 => ⟨S2x192x48x48, .f32⟩
  | 28 => ⟨S2x192x48x48, .f32⟩
  | 29 => ⟨S2x192x48x48, .f32⟩
  | 30 => ⟨S2x192x48x48, .f32⟩
  | 31 => ⟨S2x192x48x48, .f32⟩
  | 32 => ⟨S2x192x1x48x48, .f32⟩
  | 33 => ⟨S2x192x1x48x48, .f32⟩
  | 34 => ⟨S2x192x1x48x48, .f32⟩
  | 35 => ⟨S2x192x1x48x48, .f32⟩
  | 36 => ⟨S2x192x1x48x48, .f32⟩
  | 37 => ⟨S2x192x1x48x48, .f32⟩
  | 38 => ⟨S2x192x1x48x48, .f32⟩
  | 39 => ⟨S2x192x1x48x48, .f32⟩
  | 40 => ⟨S2x192x1x48x48, .f32⟩
  | 41 => ⟨S2x192x1x48x48, .f32⟩
  | 42 => ⟨S2x192x1x48x48, .f32⟩
  | 43 => ⟨S2x192x1x48x48, .f32⟩
  | 44 => ⟨S2x192x1x48x48, .f32⟩
  | 45 => ⟨S2x192x1x48x48, .f32⟩
  | 46 => ⟨S2x192x1x48x48, .f32⟩
  | 47 => ⟨S2x192x1x48x48, .f32⟩
  | 48 => ⟨S2x192x1x48x48, .f32⟩
  | 49 => ⟨S2x192x1x48x48, .f32⟩
  | 50 => ⟨S2x192x1x48x48, .f32⟩
  | 51 => ⟨S2x192x1x48x48, .f32⟩
  | 52 => ⟨S2x192x1x48x48, .f32⟩
  | 53 => ⟨S2x192x1x48x48, .f32⟩
  | 54 => ⟨S2x192x1x48x48, .f32⟩
  | 55 => ⟨S2x192x1x48x48, .f32⟩
  | 56 => ⟨S2x192x1x48x48, .f32⟩
  | 57 => ⟨S2x192x16x48x48, .f32⟩
  | 58 => ⟨S2x192x9x48x48, .f32⟩
  | 59 => ⟨S2x192x25x48x48, .f32⟩
  | 60 => ⟨S2x4800x2304, .f32⟩
  | 61 => ⟨S2x1x4800x2304, .f32⟩
  | 62 => ⟨S2x2x48x48, .f32⟩
  | 63 => ⟨S_, .f32⟩
  | 64 => ⟨S_, .f32⟩
  | 65 => ⟨S_, .f32⟩
  | 66 => ⟨S2x2x48x48, .f32⟩
  | 67 => ⟨S2x2x48x48, .f32⟩
  | 68 => ⟨S_, .f32⟩
  | 69 => ⟨S2x2x48x48, .f32⟩
  | 70 => ⟨S2x2x48x48, .f32⟩
  | 71 => ⟨S2x2x1x2304, .f32⟩
  | 72 => ⟨S_, .i32⟩
  | 73 => ⟨S_, .f32⟩
  | 74 => ⟨S2x2x52x52, .f32⟩
  | 75 => ⟨S2x2x48x48, .f32⟩
  | 76 => ⟨S2x2x48x48, .f32⟩
  | 77 => ⟨S2x2x48x48, .f32⟩
  | 78 => ⟨S2x2x48x48, .f32⟩
  | 79 => ⟨S2x2x48x48, .f32⟩
  | 80 => ⟨S2x2x48x48, .f32⟩
  | 81 => ⟨S2x2x48x48, .f32⟩
  | 82 => ⟨S2x2x48x48, .f32⟩
  | 83 => ⟨S2x2x48x48, .f32⟩
  | 84 => ⟨S2x2x48x48, .f32⟩
  | 85 => ⟨S2x2x48x48, .f32⟩
  | 86 => ⟨S2x2x48x48, .f32⟩
  | 87 => ⟨S2x2x48x48, .f32⟩
  | 88 => ⟨S2x2x48x48, .f32⟩
  | 89 => ⟨S2x2x48x48, .f32⟩
  | 90 => ⟨S2x2x48x48, .f32⟩
  | 91 => ⟨S2x2x48x48, .f32⟩
  | 92 => ⟨S2x2x48x48, .f32⟩
  | 93 => ⟨S2x2x48x48, .f32⟩
  | 94 => ⟨S2x2x48x48, .f32⟩
  | 95 => ⟨S2x2x48x48, .f32⟩
  | 96 => ⟨S2x2x48x48, .f32⟩
  | 97 => ⟨S2x2x48x48, .f32⟩
  | 98 => ⟨S2x2x48x48, .f32⟩
  | 99 => ⟨S2x2x48x48, .f32⟩
  | 100 => ⟨S2x2x1x48x48, .f32⟩
  | 101 => ⟨S2x2x1x48x48, .f32⟩
  | 102 => ⟨S2x2x1x48x48, .f32⟩
  | 103 => ⟨S2x2x1x48x48, .f32⟩
  | 104 => ⟨S2x2x1x48x48, .f32⟩
  | 105 => ⟨S2x2x1x48x48, .f32⟩
  | 106 => ⟨S2x2x1x48x48, .f32⟩
  | 107 => ⟨S2x2x1x48x48, .f32⟩
  | 108 => ⟨S2x2x1x48x48, .f32⟩
  | 109 => ⟨S2x2x1x48x48, .f32⟩
  | 110 => ⟨S2x2x1x48x48, .f32⟩
  | 111 => ⟨S2x2x1x48x48, .f32⟩
  | 112 => ⟨S2x2x1x48x48, .f32⟩
  | 113 => ⟨S2x2x1x48x48, .f32⟩
  | 114 => ⟨S2x2x1x48x48, .f32⟩
  | 115 => ⟨S2x2x1x48x48, .f32⟩
  | 116 => ⟨S2x2x1x48x48, .f32⟩
  | 117 => ⟨S2x2x1x48x48, .f32⟩
  | 118 => ⟨S2x2x1x48x48, .f32⟩
  | 119 => ⟨S2x2x1x48x48, .f32⟩
  | 120 => ⟨S2x2x1x48x48, .f32⟩
  | 121 => ⟨S2x2x1x48x48, .f32⟩
  | 122 => ⟨S2x2x1x48x48, .f32⟩
  | 123 => ⟨S2x2x1x48x48, .f32⟩
  | 124 => ⟨S2x2x1x48x48, .f32⟩
  | 125 => ⟨S2x2x16x48x48, .f32⟩
  | 126 => ⟨S2x2x9x48x48, .f32⟩
  | 127 => ⟨S2x2x25x48x48, .f32⟩
  | _ => ⟨S2x192x48x48, .f32⟩

abbrev hbmTy0_1 (i : Nat) : BufTy := match i % 128 with
  | 0 => ⟨S2x50x2304, .f32⟩
  | 1 => ⟨S2x1x50x2304, .f32⟩
  | 2 => ⟨S2x2x50x2304, .f32⟩
  | 3 => ⟨S2x2x50x2304, .f32⟩
  | 4 => ⟨S2x2x50x2304, .i1⟩
  | 5 => ⟨S2x2x2x1x25x2304, .i1⟩
  | 6 => ⟨S2x2x2x96x25x2304, .i1⟩
  | 7 => ⟨S2x2x4800x2304, .i1⟩
  | 8 => ⟨S2x2x4800x2304, .f32⟩
  | 9 => ⟨S2x2x4800x2304, .f32⟩
  | 10 => ⟨S2x2x4800x2304, .f32⟩
  | 11 => ⟨S2x2x192x4800, .f32⟩
  | 12 => ⟨S2x2x192x2304, .f32⟩
  | 13 => ⟨S2x2x192x2304, .f32⟩
  | 14 => ⟨S2x2x192x2304, .f32⟩
  | 15 => ⟨S2x384x48x48, .f32⟩
  | _ => ⟨S2x192x48x48, .f32⟩

abbrev hbmTy (i : Nat) : BufTy := match i / 128 with
  | 0 => hbmTy0_0 i
  | 1 => hbmTy0_1 i
  | _ => ⟨S2x192x48x48, .f32⟩

abbrev bufTy : (tb : Table) → Fin (tcTables nBuf tb) → BufTy
  | .hbm, ⟨i, _⟩ => hbmTy i
  | _, _ => ⟨S2x192x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_0 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_c_1 : Ref sig .tc := ⟨.hbm, 72, rfl⟩
abbrev main_call1_v0 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩

abbrev nD : Nat := 1
abbrev τ : Topo := Topo.v7x

variable {F : FTy → Type} [FloatOps F]

class Facts₀ : Prop where
  pads_S2x192x48x48_S2x192x52x52_000_000_220_220 : S2x192x48x48.Pads (![0, 0, 2, 2] : Fin 4 → Nat) ![0, 0, 2, 2] ![0, 0, 0, 0] S2x192x52x52
  h_S_ : 0 < S_.numel
  slices_S2x192x52x52_S2x192x48x48_0_0_0_0 : S2x192x52x52.Slices ![0, 0, 0, 0] S2x192x48x48
  slices_S2x192x52x52_S2x192x48x48_0_0_0_1 : S2x192x52x52.Slices ![0, 0, 0, 1] S2x192x48x48
  slices_S2x192x52x52_S2x192x48x48_0_0_0_2 : S2x192x52x52.Slices ![0, 0, 0, 2] S2x192x48x48
  slices_S2x192x52x52_S2x192x48x48_0_0_0_3 : S2x192x52x52.Slices ![0, 0, 0, 3] S2x192x48x48
  slices_S2x192x52x52_S2x192x48x48_0_0_0_4 : S2x192x52x52.Slices ![0, 0, 0, 4] S2x192x48x48
  slices_S2x192x52x52_S2x192x48x48_0_0_1_0 : S2x192x52x52.Slices ![0, 0, 1, 0] S2x192x48x48
  slices_S2x192x52x52_S2x192x48x48_0_0_1_1 : S2x192x52x52.Slices ![0, 0, 1, 1] S2x192x48x48
  slices_S2x192x52x52_S2x192x48x48_0_0_1_2 : S2x192x52x52.Slices ![0, 0, 1, 2] S2x192x48x48
  slices_S2x192x52x52_S2x192x48x48_0_0_1_3 : S2x192x52x52.Slices ![0, 0, 1, 3] S2x192x48x48
  slices_S2x192x52x52_S2x192x48x48_0_0_1_4 : S2x192x52x52.Slices ![0, 0, 1, 4] S2x192x48x48
  slices_S2x192x52x52_S2x192x48x48_0_0_2_0 : S2x192x52x52.Slices ![0, 0, 2, 0] S2x192x48x48
  slices_S2x192x52x52_S2x192x48x48_0_0_2_1 : S2x192x52x52.Slices ![0, 0, 2, 1] S2x192x48x48
  slices_S2x192x52x52_S2x192x48x48_0_0_2_2 : S2x192x52x52.Slices ![0, 0, 2, 2] S2x192x48x48
  slices_S2x192x52x52_S2x192x48x48_0_0_2_3 : S2x192x52x52.Slices ![0, 0, 2, 3] S2x192x48x48
  slices_S2x192x52x52_S2x192x48x48_0_0_2_4 : S2x192x52x52.Slices ![0, 0, 2, 4] S2x192x48x48
  slices_S2x192x52x52_S2x192x48x48_0_0_3_0 : S2x192x52x52.Slices ![0, 0, 3, 0] S2x192x48x48
  slices_S2x192x52x52_S2x192x48x48_0_0_3_1 : S2x192x52x52.Slices ![0, 0, 3, 1] S2x192x48x48
  slices_S2x192x52x52_S2x192x48x48_0_0_3_2 : S2x192x52x52.Slices ![0, 0, 3, 2] S2x192x48x48
  slices_S2x192x52x52_S2x192x48x48_0_0_3_3 : S2x192x52x52.Slices ![0, 0, 3, 3] S2x192x48x48
  slices_S2x192x52x52_S2x192x48x48_0_0_3_4 : S2x192x52x52.Slices ![0, 0, 3, 4] S2x192x48x48
  slices_S2x192x52x52_S2x192x48x48_0_0_4_0 : S2x192x52x52.Slices ![0, 0, 4, 0] S2x192x48x48
  slices_S2x192x52x52_S2x192x48x48_0_0_4_1 : S2x192x52x52.Slices ![0, 0, 4, 1] S2x192x48x48
  slices_S2x192x52x52_S2x192x48x48_0_0_4_2 : S2x192x52x52.Slices ![0, 0, 4, 2] S2x192x48x48
  slices_S2x192x52x52_S2x192x48x48_0_0_4_3 : S2x192x52x52.Slices ![0, 0, 4, 3] S2x192x48x48
  slices_S2x192x52x52_S2x192x48x48_0_0_4_4 : S2x192x52x52.Slices ![0, 0, 4, 4] S2x192x48x48
  bcast_S2x192x48x48_S2x192x1x48x48_0_1_3_4 : S2x192x48x48.BroadcastsInDim S2x192x1x48x48 (![0, 1, 3, 4] : Fin 4 → Fin S2x192x1x48x48.rank)
  concatenates_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x16x48x48_d2 : Shape.Concatenates [S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48] S2x192x16x48x48 2
  concatenates_S2x192x1x48x48_S2x192x1x48x48_S2x192x1x48x48_S2x192x1x48x48_S2x192x1x48x48_S2x192x1x48x48_S2x192x1x48x48_S2x192x1x48x48_S2x192x1x48x48_S2x192x9x48x48_d2 : Shape.Concatenates [S2x192x1x48x48, S2x192x1x48x48, S2x192x1x48x48, S2x192x1x48x48, S2x192x1x48x48, S2x192x1x48x48, S2x192x1x48x48, S2x192x1x48x48, S2x192x1x48x48] S2x192x9x48x48 2
  concatenates_S2x192x16x48x48_S2x192x9x48x48_S2x192x25x48x48_d2 : Shape.Concatenates [S2x192x16x48x48, S2x192x9x48x48] S2x192x25x48x48 2
  shapeCasts_S2x192x25x48x48_S2x4800x2304 : S2x192x25x48x48.ShapeCasts S2x4800x2304
  bcast_S2x4800x2304_S2x1x4800x2304_0_2_3 : S2x4800x2304.BroadcastsInDim S2x1x4800x2304 (![0, 2, 3] : Fin 3 → Fin S2x1x4800x2304.rank)
  reducesTo_S2x2x48x48_S_d0_1_2_3 : S2x2x48x48.ReducesTo [0, 1, 2, 3] S_
  bcast_S_S2x2x48x48 : S_.BroadcastsInDim S2x2x48x48 (![] : Fin 0 → Fin S2x2x48x48.rank)
  shapeCasts_S2x2x48x48_S2x2x1x2304 : S2x2x48x48.ShapeCasts S2x2x1x2304
  pads_S2x2x48x48_S2x2x52x52_000_000_220_220 : S2x2x48x48.Pads (![0, 0, 2, 2] : Fin 4 → Nat) ![0, 0, 2, 2] ![0, 0, 0, 0] S2x2x52x52
  slices_S2x2x52x52_S2x2x48x48_0_0_0_0 : S2x2x52x52.Slices ![0, 0, 0, 0] S2x2x48x48
  slices_S2x2x52x52_S2x2x48x48_0_0_0_1 : S2x2x52x52.Slices ![0, 0, 0, 1] S2x2x48x48
  slices_S2x2x52x52_S2x2x48x48_0_0_0_2 : S2x2x52x52.Slices ![0, 0, 0, 2] S2x2x48x48
  slices_S2x2x52x52_S2x2x48x48_0_0_0_3 : S2x2x52x52.Slices ![0, 0, 0, 3] S2x2x48x48
  slices_S2x2x52x52_S2x2x48x48_0_0_0_4 : S2x2x52x52.Slices ![0, 0, 0, 4] S2x2x48x48
  slices_S2x2x52x52_S2x2x48x48_0_0_1_0 : S2x2x52x52.Slices ![0, 0, 1, 0] S2x2x48x48
  slices_S2x2x52x52_S2x2x48x48_0_0_1_1 : S2x2x52x52.Slices ![0, 0, 1, 1] S2x2x48x48
  slices_S2x2x52x52_S2x2x48x48_0_0_1_2 : S2x2x52x52.Slices ![0, 0, 1, 2] S2x2x48x48
  slices_S2x2x52x52_S2x2x48x48_0_0_1_3 : S2x2x52x52.Slices ![0, 0, 1, 3] S2x2x48x48
  slices_S2x2x52x52_S2x2x48x48_0_0_1_4 : S2x2x52x52.Slices ![0, 0, 1, 4] S2x2x48x48
  slices_S2x2x52x52_S2x2x48x48_0_0_2_0 : S2x2x52x52.Slices ![0, 0, 2, 0] S2x2x48x48
  slices_S2x2x52x52_S2x2x48x48_0_0_2_1 : S2x2x52x52.Slices ![0, 0, 2, 1] S2x2x48x48
  slices_S2x2x52x52_S2x2x48x48_0_0_2_2 : S2x2x52x52.Slices ![0, 0, 2, 2] S2x2x48x48
  slices_S2x2x52x52_S2x2x48x48_0_0_2_3 : S2x2x52x52.Slices ![0, 0, 2, 3] S2x2x48x48
  slices_S2x2x52x52_S2x2x48x48_0_0_2_4 : S2x2x52x52.Slices ![0, 0, 2, 4] S2x2x48x48
  slices_S2x2x52x52_S2x2x48x48_0_0_3_0 : S2x2x52x52.Slices ![0, 0, 3, 0] S2x2x48x48
  slices_S2x2x52x52_S2x2x48x48_0_0_3_1 : S2x2x52x52.Slices ![0, 0, 3, 1] S2x2x48x48
  slices_S2x2x52x52_S2x2x48x48_0_0_3_2 : S2x2x52x52.Slices ![0, 0, 3, 2] S2x2x48x48
  slices_S2x2x52x52_S2x2x48x48_0_0_3_3 : S2x2x52x52.Slices ![0, 0, 3, 3] S2x2x48x48
  slices_S2x2x52x52_S2x2x48x48_0_0_3_4 : S2x2x52x52.Slices ![0, 0, 3, 4] S2x2x48x48
  slices_S2x2x52x52_S2x2x48x48_0_0_4_0 : S2x2x52x52.Slices ![0, 0, 4, 0] S2x2x48x48
  slices_S2x2x52x52_S2x2x48x48_0_0_4_1 : S2x2x52x52.Slices ![0, 0, 4, 1] S2x2x48x48
  slices_S2x2x52x52_S2x2x48x48_0_0_4_2 : S2x2x52x52.Slices ![0, 0, 4, 2] S2x2x48x48
  slices_S2x2x52x52_S2x2x48x48_0_0_4_3 : S2x2x52x52.Slices ![0, 0, 4, 3] S2x2x48x48
  slices_S2x2x52x52_S2x2x48x48_0_0_4_4 : S2x2x52x52.Slices ![0, 0, 4, 4] S2x2x48x48
  bcast_S2x2x48x48_S2x2x1x48x48_0_1_3_4 : S2x2x48x48.BroadcastsInDim S2x2x1x48x48 (![0, 1, 3, 4] : Fin 4 → Fin S2x2x1x48x48.rank)
  concatenates_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x16x48x48_d2 : Shape.Concatenates [S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48] S2x2x16x48x48 2
  concatenates_S2x2x1x48x48_S2x2x1x48x48_S2x2x1x48x48_S2x2x1x48x48_S2x2x1x48x48_S2x2x1x48x48_S2x2x1x48x48_S2x2x1x48x48_S2x2x1x48x48_S2x2x9x48x48_d2 : Shape.Concatenates [S2x2x1x48x48, S2x2x1x48x48, S2x2x1x48x48, S2x2x1x48x48, S2x2x1x48x48, S2x2x1x48x48, S2x2x1x48x48, S2x2x1x48x48, S2x2x1x48x48] S2x2x9x48x48 2
  concatenates_S2x2x16x48x48_S2x2x9x48x48_S2x2x25x48x48_d2 : Shape.Concatenates [S2x2x16x48x48, S2x2x9x48x48] S2x2x25x48x48 2
  shapeCasts_S2x2x25x48x48_S2x50x2304 : S2x2x25x48x48.ShapeCasts S2x50x2304
  bcast_S2x50x2304_S2x1x50x2304_0_2_3 : S2x50x2304.BroadcastsInDim S2x1x50x2304 (![0, 2, 3] : Fin 3 → Fin S2x1x50x2304.rank)
  bcast_S2x1x50x2304_S2x2x50x2304_0_1_2_3 : S2x1x50x2304.BroadcastsInDim S2x2x50x2304 (![0, 1, 2, 3] : Fin 4 → Fin S2x2x50x2304.rank)
  bcast_S2x2x1x2304_S2x2x50x2304_0_1_2_3 : S2x2x1x2304.BroadcastsInDim S2x2x50x2304 (![0, 1, 2, 3] : Fin 4 → Fin S2x2x50x2304.rank)
  shapeCasts_S2x2x50x2304_S2x2x2x1x25x2304 : S2x2x50x2304.ShapeCasts S2x2x2x1x25x2304
  bcast_S2x2x2x1x25x2304_S2x2x2x96x25x2304_0_1_2_3_4_5 : S2x2x2x1x25x2304.BroadcastsInDim S2x2x2x96x25x2304 (![0, 1, 2, 3, 4, 5] : Fin 6 → Fin S2x2x2x96x25x2304.rank)
  shapeCasts_S2x2x2x96x25x2304_S2x2x4800x2304 : S2x2x2x96x25x2304.ShapeCasts S2x2x4800x2304
  bcast_S2x1x4800x2304_S2x2x4800x2304_0_1_2_3 : S2x1x4800x2304.BroadcastsInDim S2x2x4800x2304 (![0, 1, 2, 3] : Fin 4 → Fin S2x2x4800x2304.rank)
  shapeCasts_S2x2x192x4800x1_S2x2x192x4800 : S2x2x192x4800x1.ShapeCasts S2x2x192x4800
  bcast_S2x2x192x1_S2x2x192x2304_0_1_2_3 : S2x2x192x1.BroadcastsInDim S2x2x192x2304 (![0, 1, 2, 3] : Fin 4 → Fin S2x2x192x2304.rank)
  shapeCasts_S2x2x192x2304_S2x384x48x48 : S2x2x192x2304.ShapeCasts S2x384x48x48
  dot_S2x2x192x4800_S2x2x4800x2304_S2x2x192x2304_3_2_2_3_01_01_wf : DotDims.WF S2x2x192x4800 S2x2x4800x2304 S2x2x192x2304 [3] [2] [2] [3] [0, 1] [0, 1]

variable [Facts₀]

def dot_S2x2x192x4800_S2x2x4800x2304_S2x2x192x2304_3_2_2_3_01_01 : DotDims S2x2x192x4800 S2x2x4800x2304 S2x2x192x2304 where
  lhsContracting := [3]
  rhsContracting := [2]
  lhsNonContracting := [2]
  rhsNonContracting := [3]
  lhsBatch := [0, 1]
  rhsBatch := [0, 1]
  wf := dot_S2x2x192x4800_S2x2x4800x2304_S2x2x192x2304_3_2_2_3_01_01_wf

class Facts : Prop extends Facts₀ where

variable [Facts]
-- ==== Proof.K.Entry.lean ====
/-
  The contents of a core's buffers when the kernel's region is entered: the launch memory after the host
  operations that come before the region (the padding, the 25 shifted slices and their stacking, the group offsets,
  the gate array, the re-laid weights), as one valuation.  Everything said about what the region finds — that the
  arguments are untouched, what each operand array holds at an index — is said about this one term.
-/
import proofs.«113980_j13426067767599_1_alg».proof.Proof.Gen.Kernel.Launch

noncomputable section

namespace Cert.Kernel.Fr

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core c's buffer contents at the region's entry, as a valuation: the launch contents after the five stretches of
    host operations before the region. -/
abbrev V0 (c : Dev nD) : Valuation τ sig (Elt F) :=
  StableHlo.after (List.flatten [hostOps0, hostOps0_1, hostOps0_2, hostOps0_3, hostOps0_4]) (fun b => m (c, b))
/-- The same read at a reference of the core. -/
abbrev V (c : Dev nD) (b : Ref sig .tc) : Buf (Elt F) ((c : Thread nD τ).loc b) := V0 m c (Proc.devRef .tc b)

/-! ## The body's two branch conditions -/

/-- The body zeroes its accumulator exactly where the third grid coordinate (the shift) is 0. -/
abbrev cond0_0 (i : grid0.Coords) : Prop :=
  (Scalar.cmpi .ne (Scalar.extui (Scalar.cmpi .eq (BitVec.ofNat 32 (i 2).val) 0#32)) 0#32) = 1#1
/-- With 25 shifts per (image, output group) pair, those are the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The body adds the bias and stores the output block exactly where the shift is the last one, 24. -/
abbrev cond0_1 (i : grid0.Coords) : Prop := k0_cond2 i = 1#1
/-- Those are the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

end Cert.Kernel.Fr

end
-- ==== Proof.K.Kit.lean ====
/-
  The frame kit of the kernel program: what every run of its frame certificate shares.  The program is five
  stretches of host operations, one pipelined region over a grid of 2 × 2 × 25 = 100 points, and one closing reshape.
  Here: the host stretches allocate nothing; @main read as "prefix, region, suffix"; the four arguments reach the region
  as launched; each input window's staging buffer holds that window's block of its array at every point; where the
  output window is idle and where it is written back; the staging and scratch memrefs the body is called on; and how
  the frame run's post gives back the four arguments unchanged.
-/
import proofs.«113980_j13426067767599_1_alg».proof.Proof.K.Entry
import proofs.«113980_j13426067767599_1_alg».proof.Proof.Gen.Kernel.Skeleton
import proofs.«113980_j13426067767599_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main is the five host stretches, the region, and the closing reshape: running it reduces to running the region
    from the contents the five stretches leave (V), continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches only the pipeline's arrays and the buffers that bypass the region: its two
    buffers are unscoped references of the core, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the region's entry -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the region finds it (V). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The shifted-image window's current staging buffer holds its block at every point, for any proof data whose array is V's and whose body leaves the block in place: the window is an input, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weights window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the gate-rows window. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the bias window, which is fetched only where the shift is 0: at the other points its block index has not moved since the last fetch, so the buffer still holds this point's block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the closing reshape, a buffer that is no window's array and is not the reshape's result holds what it held
    when the region was entered: the region changes only the arrays, and the reshape writes only its result. -/
theorem tail_of_ne (dats : (p : Fin 1) → (c : Dev nD) → Dat τ (Elt F) Unit ℕ (UR sig nD τ) ℕ (cfgs p) c) (c : Dev nD) (b : Ref sig .tc)
    (hb : ∀ w, Pipeline.arrRef spec0 w ≠ b) (hy : b ≠ main_v129) :
    Pipeline.afterTail₀ cfgs dats 0 (V0 m) [hostOps1] c b = V m c b := by
  unfold Pipeline.afterTail₀
  simp only [List.flatten_cons, List.flatten_nil, List.append_nil, hostOps1, StableHlo.after_cons, StableHlo.after_nil]
  rw [StableHlo.reshape_result_ne (h := hy)]
  exact Pipeline.withArrays_of_ne _ c _ _ b hb

/-- Argument 0 is unscoped and is no window's array: it bypasses the region. -/
theorem main_arg0_rest : main_arg0 ∈ Pipeline.restRefs sig spec0 := Pipeline.mem_restRefs_of main_arg0 (by decide) (by decide)
/-- So does argument 1. -/
theorem main_arg1_rest : main_arg1 ∈ Pipeline.restRefs sig spec0 := Pipeline.mem_restRefs_of main_arg1 (by decide) (by decide)
/-- So does argument 2. -/
theorem main_arg2_rest : main_arg2 ∈ Pipeline.restRefs sig spec0 := Pipeline.mem_restRefs_of main_arg2 (by decide) (by decide)
/-- So does the closing reshape's result buffer: the region neither stages nor writes it. -/
theorem main_v129_rest : main_v129 ∈ Pipeline.restRefs sig spec0 := Pipeline.mem_restRefs_of main_v129 (by decide) (by decide)

/-- The four arguments are unchanged in any final state satisfying the frame post, for proof data whose arrays are the
    region-entry contents.  Arguments 0, 1, 2 bypass the region: the post's second clause gives their contents after the
    closing reshape, which writes another buffer, so they are the region-entry contents, hence the launch contents.
    Argument 3 is the bias window's array, an input: the post's first clause gives its entry contents. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 main_arg0_rest).trans ((tail_of_ne m dats c main_arg0 (by decide) (by decide)).trans (V_main_arg0 m c)),
    ((h c).2 main_arg1 main_arg1_rest).trans ((tail_of_ne m dats c main_arg1 (by decide) (by decide)).trans (V_main_arg1 m c)),
    ((h c).2 main_arg2 main_arg2_rest).trans ((tail_of_ne m dats c main_arg2 (by decide) (by decide)).trans (V_main_arg2 m c)),
    ((h c).1 3).trans (((dats 0 c).arrAt_in 3 rfl _).trans ((hA c 3).trans (V_main_arg3 m c)))⟩

/-- Hence a run to the frame post is a run to the frame claim's post: the four arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the shift is 0 (and not the last) the output window is idle: nothing is stored into it. -/
theorem idleAt0_4_A : ∀ t : Fin cfg0.N, cond0_0 (grid0.coords t) → ¬cond0_1 (grid0.coords t) → cfg0.idle 4 (grid0.coords t) = true := by decide +kernel
/-- And its block is not written back there. -/
theorem noFlush0_4_A : ∀ t : Fin cfg0.N, cond0_0 (grid0.coords t) → ¬cond0_1 (grid0.coords t) → (cfg0.win 4).flush t = false := by decide +kernel
/-- Where the shift is neither 0 nor the last the output window is idle. -/
theorem idleAt0_4_B : ∀ t : Fin cfg0.N, ¬cond0_0 (grid0.coords t) → ¬cond0_1 (grid0.coords t) → cfg0.idle 4 (grid0.coords t) = true := by decide +kernel
/-- And its block is not written back there. -/
theorem noFlush0_4_B : ∀ t : Fin cfg0.N, ¬cond0_0 (grid0.coords t) → ¬cond0_1 (grid0.coords t) → (cfg0.win 4).flush t = false := by decide +kernel
/-- Where the shift is the last one the output window is live: the body stores into it. -/
theorem liveAt0_4_C : ∀ t : Fin cfg0.N, ¬cond0_0 (grid0.coords t) → cond0_1 (grid0.coords t) → cfg0.idle 4 (grid0.coords t) = false := by decide +kernel

/-! ## The memrefs the body is called on -/

/-- One staging buffer of the output window, through which its contents are stated (which of the two does not matter). -/
abbrev VO0_4 : View sig .tc .vmem S1x1x192x2304 .f32 := (Memref.whole cc0_stg4_0 : Memref sig .tc .vmem S1x1x192x2304 .f32).view
/-- Each window's current staging memref at point t, spelled as the pipeline passes it to the body, and its wholeness. -/
abbrev ms0_0 (t : Fin cfg0.N) : Memref sig .tc .vmem S1x1x192x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x192x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x2x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x192x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x192x2304 .f32 := win0_4.stage (cfg0.slots t 4)
abbrev hs0_4 (t : Fin cfg0.N) : (ms0_4 t).IsWhole := hstage0_4 ((cfg0.slots t 4).cast nbuf0_4)
/-- The scratch operand: the accumulator, a whole scoped buffer of the kernel's own, passed beside the windows. -/
abbrev scM0_0 : Memref sig .tc .vmem S192x2304 .f32 := Memref.whole cc0_scratch0
/-- The accumulator as a view: what it holds between points is stated through it. -/
abbrev VS0_0 : View sig .tc .vmem S192x2304 .f32 := scM0_0.view

/-- The invariant the body obligation hands a run and takes back, with the accumulator as a memref owned at some
    contents: besides the staging buffers, the core's only scoped buffer is the accumulator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body of the kernel run as a whole at a grid point of the first shift (s = 0, not the last): a Hoare triple for all its loads and stores, with
  every memref argument whole.  Here the accumulator may hold anything on entry: the body
  first overwrites all of it with zeros, then reads those zeros back and stores zeros + W_0 · (X_0 ⊙ gate).  The output
  block is not touched and is returned at the contents it came with.
  The triple is found by executing the body's list of memory operations in order; what each store wrote is recorded
  as a list of pieces (rectangle, value), newest first, and those lists are the data this definition returns beside
  the triple.
-/
import proofs.«113980_j13426067767599_1_alg».proof.Proof.K.Entry
import proofs.«113980_j13426067767599_1_alg».proof.Proof.Gen.Kernel.Skeleton
import proofs.«113980_j13426067767599_1_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executed triple is a large term; closing the definition walks all of it
set_option maxHeartbeats 1000000 in
/-- Case "zero, then accumulate" (first test true, second false).  Returns the output's pieces (none) and the
    accumulator's two pieces, with the triple: from the four operand blocks at x0..x3, the output block at xi4 and the
    accumulator at any contents, the body reaches a state with the operands and the output unchanged and the
    accumulator overwritten by its pieces. -/
noncomputable def kernelRun0_A (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : cond0_0 i) (hc1 : ¬cond0_1 i)
    (x0 : Vec F S1x1x192x2304 .bf16) (x1 : Vec F S1x1x1x192x192 .bf16) (x2 : Vec F S1x1x1x2x2304 .bf16) (x3 : Vec F S1x1x192x1 .f32) :
    Σ' (L4 : List (View.Piece (Elt F) S1x1x192x2304 .f32)), { LS0 : List (View.Piece (Elt F) S192x2304 .f32) //
      ∀ (xi4 : Vec F S1x1x192x2304 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg3 harg3 arg4 harg4 arg5 harg5 arg6 harg6 arg7 harg7 arg8 harg8) K } := by
  refine ⟨[], ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    -- both branch tests are settled by the case; the accumulator is stored twice (zeros, then zeros + product)
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.RunB.lean ====
/-
  The body of the kernel run as a whole at a grid point of a middle shift (0 < s < 24): a Hoare triple for all its loads and stores, with
  every memref argument whole.  The accumulator holds the partial sum the previous point left; the
  body stores that sum + W_s · (X_s ⊙ gate) once.  The output block is not touched and is returned at the contents it
  came with.
  The triple is found by executing the body's list of memory operations in order; what each store wrote is recorded
  as a list of pieces (rectangle, value), newest first, and those lists are the data this definition returns beside
  the triple.
-/
import proofs.«113980_j13426067767599_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executed triple is a large term; closing the definition walks all of it
set_option maxHeartbeats 1000000 in
/-- Case "accumulate only" (both tests false).  Returns the output's pieces (none) and the accumulator's single
    piece, with the triple: from the four operand blocks at x0..x3, the output block at xi4 and the accumulator at
    xs0, the body reaches a state with the operands and the output unchanged and the accumulator overwritten by its
    piece (a value built from xs0 and the operands). -/
noncomputable def kernelRun0_B (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : ¬cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    Σ' (L4 : List (View.Piece (Elt F) S1x1x192x2304 .f32)), { LS0 : List (View.Piece (Elt F) S192x2304 .f32) //
      ∀ (xi4 : Vec F S1x1x192x2304 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg3 harg3 arg4 harg4 arg5 harg5 arg6 harg6 arg7 harg7 arg8 harg8) K } := by
  refine ⟨[], ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    -- neither branch is entered: four loads, then the one store of (carried sum + this shift's product)
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.RunC.lean ====
/-
  The body of the kernel run as a whole at a grid point of the last shift (s = 24): a Hoare triple for all its loads and stores, with
  every memref argument whole.  The accumulator holds the partial sum the previous point left; the body
  stores that sum + W_24 · (X_24 ⊙ gate), reads it back, adds the bias of each output channel along its row, and
  stores the result over the whole output block, whose earlier contents do not matter.
  The triple is found by executing the body's list of memory operations in order; what each store wrote is recorded
  as a list of pieces (rectangle, value), newest first, and those lists are the data this definition returns beside
  the triple.
-/
import proofs.«113980_j13426067767599_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executed triple is a large term; closing the definition walks all of it
set_option maxHeartbeats 1000000 in
/-- Case "accumulate, then emit" (first test false, second true).  Returns the output's single piece and the
    accumulator's single piece, with the triple: from the four operand blocks at x0..x3, the output block at any
    contents and the accumulator at xs0, the body reaches a state with the operands unchanged and both the
    accumulator and the output overwritten by their pieces. -/
noncomputable def kernelRun0_C (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    Σ' (L4 : List (View.Piece (Elt F) S1x1x192x2304 .f32)), { LS0 : List (View.Piece (Elt F) S192x2304 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg3 harg3 arg4 harg4 arg5 harg5 arg6 harg6 arg7 harg7 arg8 harg8) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    -- the first branch is skipped, the second entered: the accumulator is stored once, then read back and,
    -- with the bias added along each row, stored over the whole output block
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.Frame.lean ====
/-
  The frame of the kernel program: on every core, every weakly fair execution of @main terminates, and the
  four argument arrays end as they were launched.

  @main is five stretches of host operations, one pipelined region, and a closing reshape.  The region runs its body
  at the 100 points of the grid (image b, output group g, shift s) = (2, 2, 25), in the order t = (b*2+g)*25+s.  The
  body keeps a [192, 2304] accumulator in a buffer of its own, which survives from one point to the next:
    where s = 0   (t ≡ 0 mod 25)  it clears the accumulator, then adds this shift's product to it;
    where 0 < s < 24              it adds this shift's product to what the point before left;
    where s = 24  (t ≡ 24 mod 25) it does the same and then stores accumulator + bias into the output block.
  So the output window is written only at the last shift of each (b, g); at the other points the pipeline neither
  looks at its staging buffer nor writes it back.

  The certificate names, point by point, what the accumulator and the output's staging buffer hold after the body
  (outsAt0, by recursion on the point: a point with s > 0 starts from what the point before left in the accumulator),
  takes as the region's invariant "the accumulator holds what the point before left" (PhiS), shows that the body
  carries the invariant from each point to the next (sound_body, one run of the body per case), and hands this to the
  library's frame run for a region with host operations before and after it.
-/
import proofs.«113980_j13426067767599_1_alg».proof.Proof.K.Kit
import proofs.«113980_j13426067767599_1_alg».proof.Proof.K.RunC

-- deciding that pieces tile a [192, 2304] buffer walks the long axis coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, on any memrefs

A run of the body yields two lists of pieces: what it stored into the output's buffer and what it stored into the
accumulator.  Where the pieces cover the buffer, the buffer's contents afterwards are the pieces read back over
anything; that reading is the name the certificate gives those contents. -/

section first
variable (c : Dev nD) (i : grid0.Coords)
  (arg3 : Memref sig .tc .vmem S1x1x192x2304 .bf16) (harg3 : arg3.IsWhole)
  (arg4 : Memref sig .tc .vmem S1x1x1x192x192 .bf16) (harg4 : arg4.IsWhole)
  (arg5 : Memref sig .tc .vmem S1x1x1x2x2304 .bf16) (harg5 : arg5.IsWhole)
  (arg6 : Memref sig .tc .vmem S1x1x192x1 .f32) (harg6 : arg6.IsWhole)
  (arg7 : Memref sig .tc .vmem S1x1x192x2304 .f32) (harg7 : arg7.IsWhole)
  (arg8 : Memref sig .tc .vmem S192x2304 .f32) (harg8 : arg8.IsWhole)
  (hc0 : cond0_0 i) (hc1 : ¬cond0_1 i)
  (x0 : Vec F S1x1x192x2304 .bf16) (x1 : Vec F S1x1x1x192x192 .bf16) (x2 : Vec F S1x1x1x2x2304 .bf16) (x3 : Vec F S1x1x192x1 .f32)

local notation "runA" => kernelRun0_A c i arg3 harg3 arg4 harg4 arg5 harg5 arg6 harg6 arg7 harg7 arg8 harg8 hc0 hc1 x0 x1 x2 x3

/-- Shift 0: the accumulator is stored whole twice (the zeros, then zeros + this shift's product), so its pieces cover it. -/
theorem scover0_A_0 (y : S192x2304.Idx) : ∃ pc ∈ (runA).2.1, y ∈ pc.1.set :=
  View.cover_of_tiledL (runA).2.1 S192x2304.size (by sl_kernel_rfl) y

/-- Shift 0: what the accumulator holds afterwards. -/
def sout0_A_0 : Vec F S192x2304 .f32 :=
  VS0_0.read (Elt F) (VS0_0.writes (Elt F) VS0_0.junk (runA).2.1)

/-- Shift 0: nothing is stored into the output's buffer.  A placeholder (no pieces, read back over anything) that
    nothing reads: at these points the window is idle and its block is not written back. -/
def out0_A_4 : Vec F S1x1x192x2304 .f32 :=
  VO0_4.read (Elt F) (VO0_4.writes (Elt F) VO0_4.junk (runA).1)

end first

section middle
variable (c : Dev nD) (i : grid0.Coords)
  (arg3 : Memref sig .tc .vmem S1x1x192x2304 .bf16) (harg3 : arg3.IsWhole)
  (arg4 : Memref sig .tc .vmem S1x1x1x192x192 .bf16) (harg4 : arg4.IsWhole)
  (arg5 : Memref sig .tc .vmem S1x1x1x2x2304 .bf16) (harg5 : arg5.IsWhole)
  (arg6 : Memref sig .tc .vmem S1x1x192x1 .f32) (harg6 : arg6.IsWhole)
  (arg7 : Memref sig .tc .vmem S1x1x192x2304 .f32) (harg7 : arg7.IsWhole)
  (arg8 : Memref sig .tc .vmem S192x2304 .f32) (harg8 : arg8.IsWhole)
  (hc0 : ¬cond0_0 i) (hc1 : ¬cond0_1 i)
  (x0 : Vec F S1x1x192x2304 .bf16) (x1 : Vec F S1x1x1x192x192 .bf16) (x2 : Vec F S1x1x1x2x2304 .bf16) (x3 : Vec F S1x1x192x1 .f32)
  (xs0 : Vec F S192x2304 .f32)

local notation "runB" => kernelRun0_B c i arg3 harg3 arg4 harg4 arg5 harg5 arg6 harg6 arg7 harg7 arg8 harg8 hc0 hc1 x0 x1 x2 x3 xs0

/-- A shift strictly between the first and the last: the accumulator is stored whole once (xs0 + this shift's product). -/
theorem scover0_B_0 (y : S192x2304.Idx) : ∃ pc ∈ (runB).2.1, y ∈ pc.1.set :=
  View.cover_of_tiledL (runB).2.1 S192x2304.size (by sl_kernel_rfl) y

/-- A middle shift: what the accumulator holds afterwards, given that it held xs0 before. -/
def sout0_B_0 : Vec F S192x2304 .f32 :=
  VS0_0.read (Elt F) (VS0_0.writes (Elt F) VS0_0.junk (runB).2.1)

/-- A middle shift: nothing is stored into the output's buffer (a placeholder, as at shift 0). -/
def out0_B_4 : Vec F S1x1x192x2304 .f32 :=
  VO0_4.read (Elt F) (VO0_4.writes (Elt F) VO0_4.junk (runB).1)

end middle

section last
variable (c : Dev nD) (i : grid0.Coords)
  (arg3 : Memref sig .tc .vmem S1x1x192x2304 .bf16) (harg3 : arg3.IsWhole)
  (arg4 : Memref sig .tc .vmem S1x1x1x192x192 .bf16) (harg4 : arg4.IsWhole)
  (arg5 : Memref sig .tc .vmem S1x1x1x2x2304 .bf16) (harg5 : arg5.IsWhole)
  (arg6 : Memref sig .tc .vmem S1x1x192x1 .f32) (harg6 : arg6.IsWhole)
  (arg7 : Memref sig .tc .vmem S1x1x192x2304 .f32) (harg7 : arg7.IsWhole)
  (arg8 : Memref sig .tc .vmem S192x2304 .f32) (harg8 : arg8.IsWhole)
  (hc0 : ¬cond0_0 i) (hc1 : cond0_1 i)
  (x0 : Vec F S1x1x192x2304 .bf16) (x1 : Vec F S1x1x1x192x192 .bf16) (x2 : Vec F S1x1x1x2x2304 .bf16) (x3 : Vec F S1x1x192x1 .f32)
  (xs0 : Vec F S192x2304 .f32)

local notation "runC" => kernelRun0_C c i arg3 harg3 arg4 harg4 arg5 harg5 arg6 harg6 arg7 harg7 arg8 harg8 hc0 hc1 x0 x1 x2 x3 xs0

/-- Shift 24: the accumulator is stored whole once, as at a middle shift. -/
theorem scover0_C_0 (y : S192x2304.Idx) : ∃ pc ∈ (runC).2.1, y ∈ pc.1.set :=
  View.cover_of_tiledL (runC).2.1 S192x2304.size (by sl_kernel_rfl) y

/-- Shift 24: the one store into the output's buffer is of the whole block (accumulator + bias), so it covers it. -/
theorem cover0_C_4 (y : S1x1x192x2304.Idx) : ∃ pc ∈ (runC).1, y ∈ pc.1.set :=
  View.cover_of_tiledL (runC).1 S1x1x192x2304.size (by sl_kernel_rfl) y

/-- Shift 24: what the accumulator holds afterwards, given that it held xs0 before. -/
def sout0_C_0 : Vec F S192x2304 .f32 :=
  VS0_0.read (Elt F) (VS0_0.writes (Elt F) VS0_0.junk (runC).2.1)

/-- Shift 24: what the output's staging buffer holds afterwards. -/
def out0_C_4 : Vec F S1x1x192x2304 .f32 :=
  VO0_4.read (Elt F) (VO0_4.writes (Elt F) VO0_4.junk (runC).1)

end last

/-- A buffer into which a covering list of pieces was written, over whatever it held, is owned at the pieces read
    back over anything: what a covering list of writes leaves depends on neither the view nor the prior contents. -/
theorem owns_of_pieces (c : Dev nD) {sh : Shape} {e : EltTy} (M : Memref sig .tc .vmem sh e) (W : View sig .tc .vmem sh e)
    (g : W.ty.Contents (Elt F)) (L : List (View.Piece (Elt F) sh e)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (W.read (Elt F) (W.writes (Elt F) g L)) := by
  unfold owns
  iintro ⟨%f, H⟩
  iexists (M.view.writes (Elt F) f L)
  isplitr
  · ipureintro; exact View.read_writes_of_cover _ _ _ _ _ hL
  · iexact H

/-! ## What the accumulator and the output's buffer hold after each point -/

/-- The body's two conditions at grid point t, from their closed forms. -/
theorem isFirst {t : Fin cfg0.N} (h : t.val % 25 = 0) : cond0_0 (grid0.coords t) := (hcond0_0 t).mpr h
theorem notFirst {t : Fin cfg0.N} (h : ¬t.val % 25 = 0) : ¬cond0_0 (grid0.coords t) := fun h' => h ((hcond0_0 t).mp h')
theorem isLast {t : Fin cfg0.N} (h : t.val % 25 = 24) : cond0_1 (grid0.coords t) := (hcond0_1 t).mpr h
theorem notLast {t : Fin cfg0.N} (h : ¬t.val % 25 = 24) : ¬cond0_1 (grid0.coords t) := fun h' => h ((hcond0_1 t).mp h')

/-- A case's contents (f) taken at point t of core c: on the staging memrefs the pipeline is on at t and the
    accumulator, under that case's conditions h0 h1, with the four inputs' buffers at their blocks of the arrays the
    region finds.  Pure abbreviation: it expands to the application written out. -/
local macro "atPt[" f:term "; " m:term ", " c:term ", " t:term "; " h0:term ", " h1:term "]" : term =>
  `($f $c (grid0.coords $t) (ms0_0 $t) (hs0_0 $t) (ms0_1 $t) (hs0_1 $t) (ms0_2 $t) (hs0_2 $t) (ms0_3 $t) (hs0_3 $t) (ms0_4 $t) (hs0_4 $t)
      scM0_0 (Memref.isWhole_whole _) $h0 $h1 (iblk $m $c 0 $t) (iblk $m $c 1 $t) (iblk $m $c 2 $t) (iblk $m $c 3 $t))

/-- One point of the accumulation: (output buffer, accumulator) after the body at t, when the accumulator held prev
    before it.  Which case applies is read off t mod 25; a point with shift 0 does not look at prev. -/
def stepAt (c : Dev nD) (t : Fin cfg0.N) (prev : Vec F S192x2304 .f32) : Vec F S1x1x192x2304 .f32 × Vec F S192x2304 .f32 :=
  if h0 : t.val % 25 = 0 then
    (atPt[out0_A_4; m, c, t; isFirst h0, notLast (by omega)], atPt[sout0_A_0; m, c, t; isFirst h0, notLast (by omega)])
  else if h1 : t.val % 25 = 24 then
    (atPt[out0_C_4; m, c, t; notFirst h0, isLast h1] prev, atPt[sout0_C_0; m, c, t; notFirst h0, isLast h1] prev)
  else
    (atPt[out0_B_4; m, c, t; notFirst h0, notLast h1] prev, atPt[sout0_B_0; m, c, t; notFirst h0, notLast h1] prev)

/-- The accumulation, point by point.  (Output's staging buffer, accumulator) after the body at position n: point 0 has shift 0;
    a later point steps from the accumulator the point before left (nothing touches that buffer in between). -/
def outsAt0 (c : Dev nD) : (n : ℕ) → n < cfg0.N → Vec F S1x1x192x2304 .f32 × Vec F S192x2304 .f32
  | 0, hn => (atPt[out0_A_4; m, c, (⟨0, hn⟩ : Fin cfg0.N); isFirst (Nat.zero_mod 25), notLast (show ¬(0 : ℕ) % 25 = 24 by decide)],
      atPt[sout0_A_0; m, c, (⟨0, hn⟩ : Fin cfg0.N); isFirst (Nat.zero_mod 25), notLast (show ¬(0 : ℕ) % 25 = 24 by decide)])
  | n + 1, hn => stepAt m c ⟨n + 1, hn⟩ (outsAt0 c n (Nat.lt_of_succ_lt hn)).2

/-- At a point with shift 0: that case's contents. -/
theorem outsAt0_A (c : Dev nD) (t : Fin cfg0.N) (h0 : t.val % 25 = 0) (h1 : ¬t.val % 25 = 24) :
    outsAt0 m c t.val t.isLt
      = (atPt[out0_A_4; m, c, t; isFirst h0, notLast h1], atPt[sout0_A_0; m, c, t; isFirst h0, notLast h1]) := by
  obtain ⟨n, hn⟩ := t
  cases n with
  | zero => rfl
  | succ n => exact (dif_pos h0).trans rfl

/-- At a point with a middle shift: that case's contents, over the accumulator the point before left. -/
theorem outsAt0_B (c : Dev nD) (t : Fin cfg0.N) (h0 : ¬t.val % 25 = 0) (h1 : ¬t.val % 25 = 24) :
    outsAt0 m c t.val t.isLt
      = (atPt[out0_B_4; m, c, t; notFirst h0, notLast h1] (outsAt0 m c (t.val - 1) (Nat.lt_of_le_of_lt (Nat.sub_le _ _) t.isLt)).2,
         atPt[sout0_B_0; m, c, t; notFirst h0, notLast h1] (outsAt0 m c (t.val - 1) (Nat.lt_of_le_of_lt (Nat.sub_le _ _) t.isLt)).2) := by
  obtain ⟨n, hn⟩ := t
  cases n with
  | zero => exact absurd (Nat.zero_mod 25) h0
  | succ n => exact (dif_neg h0).trans ((dif_neg h1).trans rfl)

/-- At a point with shift 24: that case's contents, over the accumulator the point before left. -/
theorem outsAt0_C (c : Dev nD) (t : Fin cfg0.N) (h0 : ¬t.val % 25 = 0) (h1 : t.val % 25 = 24) :
    outsAt0 m c t.val t.isLt
      = (atPt[out0_C_4; m, c, t; notFirst h0, isLast h1] (outsAt0 m c (t.val - 1) (Nat.lt_of_le_of_lt (Nat.sub_le _ _) t.isLt)).2,
         atPt[sout0_C_0; m, c, t; notFirst h0, isLast h1] (outsAt0 m c (t.val - 1) (Nat.lt_of_le_of_lt (Nat.sub_le _ _) t.isLt)).2) := by
  obtain ⟨n, hn⟩ := t
  cases n with
  | zero => exact absurd (Nat.zero_mod 25) h0
  | succ n => exact (dif_neg h0).trans ((dif_pos h1).trans rfl)

/-! ## The region's invariant -/

/-- Before position n.  Before the first point: what the launch hands the region, the accumulator at anything.  After
    that: the accumulator at what point n - 1 left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- At any position the invariant can forget what the accumulator holds. -/
theorem PhiS_forget (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    · iexact Hg

/-! ## The pipeline's proof data -/

/-- On core c: the arrays as the region finds them; after the body at point t each input's buffer still at its block,
    the output's at outsAt0's first component; the invariant PhiS; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (by projecting the structure; V is never unfolded). -/
theorem A_eq (c : Dev nD) (w : Fin cfg0.W) : (dats m 0 c).A w = V m c (Pipeline.arrRef spec0 w) := by
  dsimp only [dats]

/-- The invariant at the start of point t. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Whatever the pipeline fetched at point t or earlier, each input's current staging buffer holds that window's block
    for t (the bias is fetched only where the shift is 0, and its block stays the same until the next such point). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An input window is live everywhere: the body must hand its buffer back at the block it found there. -/
theorem leaves0_0 (c : Dev nD) (t : Fin cfg0.N) :
    (dats m 0 c).leavesExact 0 t = owns (c : Thread nD τ) (ms0_0 t) fullShare (iblk m c 0 t) := by
  have h : (dats m 0 c).leavesExact 0 t = owns (c : Thread nD τ) (ms0_0 t) fullShare ((dats m 0 c).after 0 t) := by
    unfold Dat.leavesExact; rw [liveAt0_0 t]
  rw [h, after0_0]
theorem leaves0_1 (c : Dev nD) (t : Fin cfg0.N) :
    (dats m 0 c).leavesExact 1 t = owns (c : Thread nD τ) (ms0_1 t) fullShare (iblk m c 1 t) := by
  have h : (dats m 0 c).leavesExact 1 t = owns (c : Thread nD τ) (ms0_1 t) fullShare ((dats m 0 c).after 1 t) := by
    unfold Dat.leavesExact; rw [liveAt0_1 t]
  rw [h, after0_1]
theorem leaves0_2 (c : Dev nD) (t : Fin cfg0.N) :
    (dats m 0 c).leavesExact 2 t = owns (c : Thread nD τ) (ms0_2 t) fullShare (iblk m c 2 t) := by
  have h : (dats m 0 c).leavesExact 2 t = owns (c : Thread nD τ) (ms0_2 t) fullShare ((dats m 0 c).after 2 t) := by
    unfold Dat.leavesExact; rw [liveAt0_2 t]
  rw [h, after0_2]
theorem leaves0_3 (c : Dev nD) (t : Fin cfg0.N) :
    (dats m 0 c).leavesExact 3 t = owns (c : Thread nD τ) (ms0_3 t) fullShare (iblk m c 3 t) := by
  have h : (dats m 0 c).leavesExact 3 t = owns (c : Thread nD τ) (ms0_3 t) fullShare ((dats m 0 c).after 3 t) := by
    unfold Dat.leavesExact; rw [liveAt0_3 t]
  rw [h, after0_3]
/-- The output window is live where the shift is 24: there the body must leave outsAt0's first component. -/
theorem leaves0_4_C (c : Dev nD) (t : Fin cfg0.N) (h0 : ¬t.val % 25 = 0) (h1 : t.val % 25 = 24) :
    (dats m 0 c).leavesExact 4 t = owns (c : Thread nD τ) (ms0_4 t) fullShare (outsAt0 m c t.val t.isLt).1 := by
  have h : (dats m 0 c).leavesExact 4 t = owns (c : Thread nD τ) (ms0_4 t) fullShare ((dats m 0 c).after 4 t) := by
    unfold Dat.leavesExact; rw [liveAt0_4_C t (notFirst h0) (isLast h1)]
  rw [h, after0_4]

/-! ## The body obligation -/

/-- What the body is called with at point t: the invariant, what the core owes (nothing), and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it must return. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-! Every case starts with the same rewriting: the inputs' buffers at their blocks before and after the body, nothing
owed before or after, the invariant after the point as "the accumulator at outsAt0's second component", and the
invariant before it at position t. -/

/-- The body at a point with shift 0.  The accumulator comes in at anything (the invariant forgets what it held: the
    body overwrites it before reading anything it keeps), the output's buffer at whatever it held and goes back
    untouched (the window is idle and not written back); the run's pieces cover the accumulator, so it is owned
    afterwards at this point's contents. -/
theorem body_A (c : Dev nD) (t : Fin cfg0.N) (h0 : t.val % 25 = 0) (h1 : ¬t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ,
    leaves0_0, leaves0_1, leaves0_2, leaves0_3, PhiS_castSucc m c t]
  rw [Dat.leavesExact_idle (dats m 0 c) 4 t (idleAt0_4_A t (isFirst h0) (notLast h1)) (noFlush0_4_A t (isFirst h0) (notLast h1)),
    outsAt0_A m c t h0 h1]
  unfold sout0_A_0; dsimp only
  iintro ⟨HΦ, Ho, ⟨%d0, H0⟩, ⟨%d1, H1⟩, ⟨%d2, H2⟩, ⟨%d3, H3⟩, ⟨%d4, H4⟩⟩
  icases (PhiS_forget m c _ _) $$ HΦ with ⟨HS, Hg⟩
  iapply ((atPt[kernelRun0_A; m, c, t; isFirst h0, notLast h1]).2.2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iapply (owns_of_pieces c scM0_0 VS0_0 VS0_0.junk _ (atPt[scover0_A_0; m, c, t; isFirst h0, notLast h1]))
      iexact HS
    · iexact Hg
  isplitl [Ho]; · iexact Ho
  isplitl [H0]; · iexact H0
  isplitl [H1]; · iexact H1
  isplitl [H2]; · iexact H2
  isplitl [H3]; · iexact H3
  iexists _; iexact H4

/-- The body at a point with a middle shift: t is not 0, so the invariant hands over the accumulator at what point
    t - 1 left, which is what outsAt0 steps from; the output's buffer goes back untouched. -/
theorem body_B (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ,
    leaves0_0, leaves0_1, leaves0_2, leaves0_3, PhiS_castSucc m c t]
  rw [Dat.leavesExact_idle (dats m 0 c) 4 t (idleAt0_4_B t (notFirst h0) (notLast h1)) (noFlush0_4_B t (notFirst h0) (notLast h1)),
    outsAt0_B m c t h0 h1, PhiS_pos m c _ _ hz]
  unfold sout0_B_0; dsimp only
  iintro ⟨⟨HS, Hg⟩, Ho, ⟨%d0, H0⟩, ⟨%d1, H1⟩, ⟨%d2, H2⟩, ⟨%d3, H3⟩, ⟨%d4, H4⟩⟩
  iapply ((atPt[kernelRun0_B; m, c, t; notFirst h0, notLast h1] _).2.2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iapply (owns_of_pieces c scM0_0 VS0_0 VS0_0.junk _ (atPt[scover0_B_0; m, c, t; notFirst h0, notLast h1] _))
      iexact HS
    · iexact Hg
  isplitl [Ho]; · iexact Ho
  isplitl [H0]; · iexact H0
  isplitl [H1]; · iexact H1
  isplitl [H2]; · iexact H2
  isplitl [H3]; · iexact H3
  iexists _; iexact H4

/-- The body at a point with shift 24: the accumulator as at a middle shift; the output's buffer comes in at whatever it
    held, the body stores the whole block into it, and it goes back owned at this point's first component. -/
theorem body_C (c : Dev nD) (t : Fin cfg0.N) (h0 : ¬t.val % 25 = 0) (h1 : t.val % 25 = 24) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ,
    leaves0_0, leaves0_1, leaves0_2, leaves0_3, PhiS_castSucc m c t]
  rw [leaves0_4_C m c t h0 h1, outsAt0_C m c t h0 h1, PhiS_pos m c _ _ hz]
  unfold sout0_C_0 out0_C_4; dsimp only
  iintro ⟨⟨HS, Hg⟩, Ho, ⟨%d0, H0⟩, ⟨%d1, H1⟩, ⟨%d2, H2⟩, ⟨%d3, H3⟩, ⟨%d4, H4⟩⟩
  iapply ((atPt[kernelRun0_C; m, c, t; notFirst h0, isLast h1] _).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iapply (owns_of_pieces c scM0_0 VS0_0 VS0_0.junk _ (atPt[scover0_C_0; m, c, t; notFirst h0, isLast h1] _))
      iexact HS
    · iexact Hg
  isplitl [Ho]; · iexact Ho
  isplitl [H0]; · iexact H0
  isplitl [H1]; · iexact H1
  isplitl [H2]; · iexact H2
  isplitl [H3]; · iexact H3
  iapply (owns_of_pieces c (ms0_4 t) VO0_4 VO0_4.junk _ (atPt[cover0_C_4; m, c, t; notFirst h0, isLast h1] _))
  iexact H4

/-- The body at any point: t mod 25 says which of the three cases it is. -/
theorem sound_body (c : Dev nD) (t : Fin cfg0.N) :
    bodyPre m c t ⊢ wp frame (wpE (defs₀ (F := F)) Variants.none c none) Set.univ (bodyAt0 t) (fun _ => bodyPost m c t) := by
  by_cases h0 : t.val % 25 = 0
  · exact body_A m c t h0 (by omega)
  · by_cases h1 : t.val % 25 = 24
    · exact body_C m c t h0 h1
    · exact body_B m c t h0 h1

/-- The library's body obligation, at every point: its two products over the five windows written out are bodyPre and
    bodyPost. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_forget m c _ _

/-! ## The run and the frame -/

-- the library theorem's implicit arguments are found by unifying its conclusion with this one, through plain definitions in a metavariable's type
set_option backward.isDefEq.respectTransparency.types false in
/-- From any memory with zero counters, every weakly fair execution of @main on the cores terminates, and every final
    state has each array of the pipeline at what the library computes from the proof data, and every other unscoped
    buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any F: @main runs to the end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KI.Entry.lean ====
/-
  The contents of a core's buffers when the kernel's region is entered: the launch memory after the host
  operations that come before the region (the padding, the 25 shifted slices and their stacking, the group offsets,
  the gate array, the re-laid weights), as one valuation.  Everything said about what the region finds — that the
  arguments are untouched, what each operand array holds at an index — is said about this one term.
-/
import proofs.«113980_j13426067767599_1_alg».proof.Proof.Gen.KernelIdeal.Launch

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core c's buffer contents at the region's entry, as a valuation: the launch contents after the five stretches of
    host operations before the region. -/
abbrev V0 (c : Dev nD) : Valuation τ sig (Elt F) :=
  StableHlo.after (List.flatten [hostOps0, hostOps0_1, hostOps0_2, hostOps0_3, hostOps0_4]) (fun b => m (c, b))
/-- The same read at a reference of the core. -/
abbrev V (c : Dev nD) (b : Ref sig .tc) : Buf (Elt F) ((c : Thread nD τ).loc b) := V0 m c (Proc.devRef .tc b)

/-! ## The body's two branch conditions -/

/-- The body zeroes its accumulator exactly where the third grid coordinate (the shift) is 0. -/
abbrev cond0_0 (i : grid0.Coords) : Prop :=
  (Scalar.cmpi .ne (Scalar.extui (Scalar.cmpi .eq (BitVec.ofNat 32 (i 2).val) 0#32)) 0#32) = 1#1
/-- With 25 shifts per (image, output group) pair, those are the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The body adds the bias and stores the output block exactly where the shift is the last one, 24. -/
abbrev cond0_1 (i : grid0.Coords) : Prop := k0_cond2 i = 1#1
/-- Those are the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

end Cert.KernelIdeal.Fr

end
-- ==== Proof.KI.Kit.lean ====
/-
  The frame kit of the idealized kernel program: what every run of its frame certificate shares.  The program is five
  stretches of host operations, one pipelined region over a grid of 2 × 2 × 25 = 100 points, and one closing reshape.
  Here: the host stretches allocate nothing; @main read as "prefix, region, suffix"; the four arguments reach the region
  as launched; each input window's staging buffer holds that window's block of its array at every point; where the
  output window is idle and where it is written back; the staging and scratch memrefs the body is called on; and how
  the frame run's post gives back the four arguments unchanged.
-/
import proofs.«113980_j13426067767599_1_alg».proof.Proof.KI.Entry
import proofs.«113980_j13426067767599_1_alg».proof.Proof.Gen.KernelIdeal.Skeleton
import proofs.«113980_j13426067767599_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main is the five host stretches, the region, and the closing reshape: running it reduces to running the region
    from the contents the five stretches leave (V), continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches only the pipeline's arrays and the buffers that bypass the region: its two
    buffers are unscoped references of the core, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the region's entry -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the region finds it (V). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The shifted-image window's current staging buffer holds its block at every point, for any proof data whose array is V's and whose body leaves the block in place: the window is an input, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weights window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the gate-rows window. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the bias window, which is fetched only where the shift is 0: at the other points its block index has not moved since the last fetch, so the buffer still holds this point's block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the closing reshape, a buffer that is no window's array and is not the reshape's result holds what it held
    when the region was entered: the region changes only the arrays, and the reshape writes only its result. -/
theorem tail_of_ne (dats : (p : Fin 1) → (c : Dev nD) → Dat τ (Elt F) Unit ℕ (UR sig nD τ) ℕ (cfgs p) c) (c : Dev nD) (b : Ref sig .tc)
    (hb : ∀ w, Pipeline.arrRef spec0 w ≠ b) (hy : b ≠ main_v129) :
    Pipeline.afterTail₀ cfgs dats 0 (V0 m) [hostOps1] c b = V m c b := by
  unfold Pipeline.afterTail₀
  simp only [List.flatten_cons, List.flatten_nil, List.append_nil, hostOps1, StableHlo.after_cons, StableHlo.after_nil]
  rw [StableHlo.reshape_result_ne (h := hy)]
  exact Pipeline.withArrays_of_ne _ c _ _ b hb

/-- Argument 0 is unscoped and is no window's array: it bypasses the region. -/
theorem main_arg0_rest : main_arg0 ∈ Pipeline.restRefs sig spec0 := Pipeline.mem_restRefs_of main_arg0 (by decide) (by decide)
/-- So does argument 1. -/
theorem main_arg1_rest : main_arg1 ∈ Pipeline.restRefs sig spec0 := Pipeline.mem_restRefs_of main_arg1 (by decide) (by decide)
/-- So does argument 2. -/
theorem main_arg2_rest : main_arg2 ∈ Pipeline.restRefs sig spec0 := Pipeline.mem_restRefs_of main_arg2 (by decide) (by decide)
/-- So does the closing reshape's result buffer: the region neither stages nor writes it. -/
theorem main_v129_rest : main_v129 ∈ Pipeline.restRefs sig spec0 := Pipeline.mem_restRefs_of main_v129 (by decide) (by decide)

/-- The four arguments are unchanged in any final state satisfying the frame post, for proof data whose arrays are the
    region-entry contents.  Arguments 0, 1, 2 bypass the region: the post's second clause gives their contents after the
    closing reshape, which writes another buffer, so they are the region-entry contents, hence the launch contents.
    Argument 3 is the bias window's array, an input: the post's first clause gives its entry contents. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 main_arg0_rest).trans ((tail_of_ne m dats c main_arg0 (by decide) (by decide)).trans (V_main_arg0 m c)),
    ((h c).2 main_arg1 main_arg1_rest).trans ((tail_of_ne m dats c main_arg1 (by decide) (by decide)).trans (V_main_arg1 m c)),
    ((h c).2 main_arg2 main_arg2_rest).trans ((tail_of_ne m dats c main_arg2 (by decide) (by decide)).trans (V_main_arg2 m c)),
    ((h c).1 3).trans (((dats 0 c).arrAt_in 3 rfl _).trans ((hA c 3).trans (V_main_arg3 m c)))⟩

/-- Hence a run to the frame post is a run to the frame claim's post: the four arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the shift is 0 (and not the last) the output window is idle: nothing is stored into it. -/
theorem idleAt0_4_A : ∀ t : Fin cfg0.N, cond0_0 (grid0.coords t) → ¬cond0_1 (grid0.coords t) → cfg0.idle 4 (grid0.coords t) = true := by decide +kernel
/-- And its block is not written back there. -/
theorem noFlush0_4_A : ∀ t : Fin cfg0.N, cond0_0 (grid0.coords t) → ¬cond0_1 (grid0.coords t) → (cfg0.win 4).flush t = false := by decide +kernel
/-- Where the shift is neither 0 nor the last the output window is idle. -/
theorem idleAt0_4_B : ∀ t : Fin cfg0.N, ¬cond0_0 (grid0.coords t) → ¬cond0_1 (grid0.coords t) → cfg0.idle 4 (grid0.coords t) = true := by decide +kernel
/-- And its block is not written back there. -/
theorem noFlush0_4_B : ∀ t : Fin cfg0.N, ¬cond0_0 (grid0.coords t) → ¬cond0_1 (grid0.coords t) → (cfg0.win 4).flush t = false := by decide +kernel
/-- Where the shift is the last one the output window is live: the body stores into it. -/
theorem liveAt0_4_C : ∀ t : Fin cfg0.N, ¬cond0_0 (grid0.coords t) → cond0_1 (grid0.coords t) → cfg0.idle 4 (grid0.coords t) = false := by decide +kernel

/-! ## The memrefs the body is called on -/

/-- One staging buffer of the output window, through which its contents are stated (which of the two does not matter). -/
abbrev VO0_4 : View sig .tc .vmem S1x1x192x2304 .f32 := (Memref.whole cc0_stg4_0 : Memref sig .tc .vmem S1x1x192x2304 .f32).view
/-- Each window's current staging memref at point t, spelled as the pipeline passes it to the body, and its wholeness. -/
abbrev ms0_0 (t : Fin cfg0.N) : Memref sig .tc .vmem S1x1x192x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x192x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x2x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x192x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x192x2304 .f32 := win0_4.stage (cfg0.slots t 4)
abbrev hs0_4 (t : Fin cfg0.N) : (ms0_4 t).IsWhole := hstage0_4 ((cfg0.slots t 4).cast nbuf0_4)
/-- The scratch operand: the accumulator, a whole scoped buffer of the kernel's own, passed beside the windows. -/
abbrev scM0_0 : Memref sig .tc .vmem S192x2304 .f32 := Memref.whole cc0_scratch0
/-- The accumulator as a view: what it holds between points is stated through it. -/
abbrev VS0_0 : View sig .tc .vmem S192x2304 .f32 := scM0_0.view

/-- The invariant the body obligation hands a run and takes back, with the accumulator as a memref owned at some
    contents: besides the staging buffers, the core's only scoped buffer is the accumulator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body of the kernel run as a whole at a grid point of the first shift (s = 0, not the last): a Hoare triple for all its loads and stores, with
  every memref argument whole.  Here the accumulator may hold anything on entry: the body
  first overwrites all of it with zeros, then reads those zeros back and stores zeros + W_0 · (X_0 ⊙ gate).  The output
  block is not touched and is returned at the contents it came with.
  The triple is found by executing the body's list of memory operations in order; what each store wrote is recorded
  as a list of pieces (rectangle, value), newest first, and those lists are the data this definition returns beside
  the triple.
-/
import proofs.«113980_j13426067767599_1_alg».proof.Proof.KI.Entry
import proofs.«113980_j13426067767599_1_alg».proof.Proof.Gen.KernelIdeal.Skeleton
import proofs.«113980_j13426067767599_1_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executed triple is a large term; closing the definition walks all of it
set_option maxHeartbeats 1000000 in
/-- Case "zero, then accumulate" (first test true, second false).  Returns the output's pieces (none) and the
    accumulator's two pieces, with the triple: from the four operand blocks at x0..x3, the output block at xi4 and the
    accumulator at any contents, the body reaches a state with the operands and the output unchanged and the
    accumulator overwritten by its pieces. -/
noncomputable def kernelRun0_A (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : cond0_0 i) (hc1 : ¬cond0_1 i)
    (x0 : Vec F S1x1x192x2304 .bf16) (x1 : Vec F S1x1x1x192x192 .bf16) (x2 : Vec F S1x1x1x2x2304 .bf16) (x3 : Vec F S1x1x192x1 .f32) :
    Σ' (L4 : List (View.Piece (Elt F) S1x1x192x2304 .f32)), { LS0 : List (View.Piece (Elt F) S192x2304 .f32) //
      ∀ (xi4 : Vec F S1x1x192x2304 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg3 harg3 arg4 harg4 arg5 harg5 arg6 harg6 arg7 harg7 arg8 harg8) K } := by
  refine ⟨[], ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    -- both branch tests are settled by the case; the accumulator is stored twice (zeros, then zeros + product)
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.RunB.lean ====
/-
  The body of the kernel run as a whole at a grid point of a middle shift (0 < s < 24): a Hoare triple for all its loads and stores, with
  every memref argument whole.  The accumulator holds the partial sum the previous point left; the
  body stores that sum + W_s · (X_s ⊙ gate) once.  The output block is not touched and is returned at the contents it
  came with.
  The triple is found by executing the body's list of memory operations in order; what each store wrote is recorded
  as a list of pieces (rectangle, value), newest first, and those lists are the data this definition returns beside
  the triple.
-/
import proofs.«113980_j13426067767599_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executed triple is a large term; closing the definition walks all of it
set_option maxHeartbeats 1000000 in
/-- Case "accumulate only" (both tests false).  Returns the output's pieces (none) and the accumulator's single
    piece, with the triple: from the four operand blocks at x0..x3, the output block at xi4 and the accumulator at
    xs0, the body reaches a state with the operands and the output unchanged and the accumulator overwritten by its
    piece (a value built from xs0 and the operands). -/
noncomputable def kernelRun0_B (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : ¬cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    Σ' (L4 : List (View.Piece (Elt F) S1x1x192x2304 .f32)), { LS0 : List (View.Piece (Elt F) S192x2304 .f32) //
      ∀ (xi4 : Vec F S1x1x192x2304 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg3 harg3 arg4 harg4 arg5 harg5 arg6 harg6 arg7 harg7 arg8 harg8) K } := by
  refine ⟨[], ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    -- neither branch is entered: four loads, then the one store of (carried sum + this shift's product)
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.RunC.lean ====
/-
  The body of the kernel run as a whole at a grid point of the last shift (s = 24): a Hoare triple for all its loads and stores, with
  every memref argument whole.  The accumulator holds the partial sum the previous point left; the body
  stores that sum + W_24 · (X_24 ⊙ gate), reads it back, adds the bias of each output channel along its row, and
  stores the result over the whole output block, whose earlier contents do not matter.
  The triple is found by executing the body's list of memory operations in order; what each store wrote is recorded
  as a list of pieces (rectangle, value), newest first, and those lists are the data this definition returns beside
  the triple.
-/
import proofs.«113980_j13426067767599_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executed triple is a large term; closing the definition walks all of it
set_option maxHeartbeats 1000000 in
/-- Case "accumulate, then emit" (first test false, second true).  Returns the output's single piece and the
    accumulator's single piece, with the triple: from the four operand blocks at x0..x3, the output block at any
    contents and the accumulator at xs0, the body reaches a state with the operands unchanged and both the
    accumulator and the output overwritten by their pieces. -/
noncomputable def kernelRun0_C (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    Σ' (L4 : List (View.Piece (Elt F) S1x1x192x2304 .f32)), { LS0 : List (View.Piece (Elt F) S192x2304 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg3 harg3 arg4 harg4 arg5 harg5 arg6 harg6 arg7 harg7 arg8 harg8) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    -- the first branch is skipped, the second entered: the accumulator is stored once, then read back and,
    -- with the bias added along each row, stored over the whole output block
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.Frame.lean ====
/-
  The frame of the idealized kernel program: on every core, every weakly fair execution of @main terminates, and the
  four argument arrays end as they were launched.

  @main is five stretches of host operations, one pipelined region, and a closing reshape.  The region runs its body
  at the 100 points of the grid (image b, output group g, shift s) = (2, 2, 25), in the order t = (b*2+g)*25+s.  The
  body keeps a [192, 2304] accumulator in a buffer of its own, which survives from one point to the next:
    where s = 0   (t ≡ 0 mod 25)  it clears the accumulator, then adds this shift's product to it;
    where 0 < s < 24              it adds this shift's product to what the point before left;
    where s = 24  (t ≡ 24 mod 25) it does the same and then stores accumulator + bias into the output block.
  So the output window is written only at the last shift of each (b, g); at the other points the pipeline neither
  looks at its staging buffer nor writes it back.

  The certificate names, point by point, what the accumulator and the output's staging buffer hold after the body
  (outsAt0, by recursion on the point: a point with s > 0 starts from what the point before left in the accumulator),
  takes as the region's invariant "the accumulator holds what the point before left" (PhiS), shows that the body
  carries the invariant from each point to the next (sound_body, one run of the body per case), and hands this to the
  library's frame run for a region with host operations before and after it.
-/
import proofs.«113980_j13426067767599_1_alg».proof.Proof.KI.Kit
import proofs.«113980_j13426067767599_1_alg».proof.Proof.KI.RunC

-- deciding that pieces tile a [192, 2304] buffer walks the long axis coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, on any memrefs

A run of the body yields two lists of pieces: what it stored into the output's buffer and what it stored into the
accumulator.  Where the pieces cover the buffer, the buffer's contents afterwards are the pieces read back over
anything; that reading is the name the certificate gives those contents. -/

section first
variable (c : Dev nD) (i : grid0.Coords)
  (arg3 : Memref sig .tc .vmem S1x1x192x2304 .bf16) (harg3 : arg3.IsWhole)
  (arg4 : Memref sig .tc .vmem S1x1x1x192x192 .bf16) (harg4 : arg4.IsWhole)
  (arg5 : Memref sig .tc .vmem S1x1x1x2x2304 .bf16) (harg5 : arg5.IsWhole)
  (arg6 : Memref sig .tc .vmem S1x1x192x1 .f32) (harg6 : arg6.IsWhole)
  (arg7 : Memref sig .tc .vmem S1x1x192x2304 .f32) (harg7 : arg7.IsWhole)
  (arg8 : Memref sig .tc .vmem S192x2304 .f32) (harg8 : arg8.IsWhole)
  (hc0 : cond0_0 i) (hc1 : ¬cond0_1 i)
  (x0 : Vec F S1x1x192x2304 .bf16) (x1 : Vec F S1x1x1x192x192 .bf16) (x2 : Vec F S1x1x1x2x2304 .bf16) (x3 : Vec F S1x1x192x1 .f32)

local notation "runA" => kernelRun0_A c i arg3 harg3 arg4 harg4 arg5 harg5 arg6 harg6 arg7 harg7 arg8 harg8 hc0 hc1 x0 x1 x2 x3

/-- Shift 0: the accumulator is stored whole twice (the zeros, then zeros + this shift's product), so its pieces cover it. -/
theorem scover0_A_0 (y : S192x2304.Idx) : ∃ pc ∈ (runA).2.1, y ∈ pc.1.set :=
  View.cover_of_tiledL (runA).2.1 S192x2304.size (by sl_kernel_rfl) y

/-- Shift 0: what the accumulator holds afterwards. -/
def sout0_A_0 : Vec F S192x2304 .f32 :=
  VS0_0.read (Elt F) (VS0_0.writes (Elt F) VS0_0.junk (runA).2.1)

/-- Shift 0: nothing is stored into the output's buffer.  A placeholder (no pieces, read back over anything) that
    nothing reads: at these points the window is idle and its block is not written back. -/
def out0_A_4 : Vec F S1x1x192x2304 .f32 :=
  VO0_4.read (Elt F) (VO0_4.writes (Elt F) VO0_4.junk (runA).1)

end first

section middle
variable (c : Dev nD) (i : grid0.Coords)
  (arg3 : Memref sig .tc .vmem S1x1x192x2304 .bf16) (harg3 : arg3.IsWhole)
  (arg4 : Memref sig .tc .vmem S1x1x1x192x192 .bf16) (harg4 : arg4.IsWhole)
  (arg5 : Memref sig .tc .vmem S1x1x1x2x2304 .bf16) (harg5 : arg5.IsWhole)
  (arg6 : Memref sig .tc .vmem S1x1x192x1 .f32) (harg6 : arg6.IsWhole)
  (arg7 : Memref sig .tc .vmem S1x1x192x2304 .f32) (harg7 : arg7.IsWhole)
  (arg8 : Memref sig .tc .vmem S192x2304 .f32) (harg8 : arg8.IsWhole)
  (hc0 : ¬cond0_0 i) (hc1 : ¬cond0_1 i)
  (x0 : Vec F S1x1x192x2304 .bf16) (x1 : Vec F S1x1x1x192x192 .bf16) (x2 : Vec F S1x1x1x2x2304 .bf16) (x3 : Vec F S1x1x192x1 .f32)
  (xs0 : Vec F S192x2304 .f32)

local notation "runB" => kernelRun0_B c i arg3 harg3 arg4 harg4 arg5 harg5 arg6 harg6 arg7 harg7 arg8 harg8 hc0 hc1 x0 x1 x2 x3 xs0

/-- A shift strictly between the first and the last: the accumulator is stored whole once (xs0 + this shift's product). -/
theorem scover0_B_0 (y : S192x2304.Idx) : ∃ pc ∈ (runB).2.1, y ∈ pc.1.set :=
  View.cover_of_tiledL (runB).2.1 S192x2304.size (by sl_kernel_rfl) y

/-- A middle shift: what the accumulator holds afterwards, given that it held xs0 before. -/
def sout0_B_0 : Vec F S192x2304 .f32 :=
  VS0_0.read (Elt F) (VS0_0.writes (Elt F) VS0_0.junk (runB).2.1)

/-- A middle shift: nothing is stored into the output's buffer (a placeholder, as at shift 0). -/
def out0_B_4 : Vec F S1x1x192x2304 .f32 :=
  VO0_4.read (Elt F) (VO0_4.writes (Elt F) VO0_4.junk (runB).1)

end middle

section last
variable (c : Dev nD) (i : grid0.Coords)
  (arg3 : Memref sig .tc .vmem S1x1x192x2304 .bf16) (harg3 : arg3.IsWhole)
  (arg4 : Memref sig .tc .vmem S1x1x1x192x192 .bf16) (harg4 : arg4.IsWhole)
  (arg5 : Memref sig .tc .vmem S1x1x1x2x2304 .bf16) (harg5 : arg5.IsWhole)
  (arg6 : Memref sig .tc .vmem S1x1x192x1 .f32) (harg6 : arg6.IsWhole)
  (arg7 : Memref sig .tc .vmem S1x1x192x2304 .f32) (harg7 : arg7.IsWhole)
  (arg8 : Memref sig .tc .vmem S192x2304 .f32) (harg8 : arg8.IsWhole)
  (hc0 : ¬cond0_0 i) (hc1 : cond0_1 i)
  (x0 : Vec F S1x1x192x2304 .bf16) (x1 : Vec F S1x1x1x192x192 .bf16) (x2 : Vec F S1x1x1x2x2304 .bf16) (x3 : Vec F S1x1x192x1 .f32)
  (xs0 : Vec F S192x2304 .f32)

local notation "runC" => kernelRun0_C c i arg3 harg3 arg4 harg4 arg5 harg5 arg6 harg6 arg7 harg7 arg8 harg8 hc0 hc1 x0 x1 x2 x3 xs0

/-- Shift 24: the accumulator is stored whole once, as at a middle shift. -/
theorem scover0_C_0 (y : S192x2304.Idx) : ∃ pc ∈ (runC).2.1, y ∈ pc.1.set :=
  View.cover_of_tiledL (runC).2.1 S192x2304.size (by sl_kernel_rfl) y

/-- Shift 24: the one store into the output's buffer is of the whole block (accumulator + bias), so it covers it. -/
theorem cover0_C_4 (y : S1x1x192x2304.Idx) : ∃ pc ∈ (runC).1, y ∈ pc.1.set :=
  View.cover_of_tiledL (runC).1 S1x1x192x2304.size (by sl_kernel_rfl) y

/-- Shift 24: what the accumulator holds afterwards, given that it held xs0 before. -/
def sout0_C_0 : Vec F S192x2304 .f32 :=
  VS0_0.read (Elt F) (VS0_0.writes (Elt F) VS0_0.junk (runC).2.1)

/-- Shift 24: what the output's staging buffer holds afterwards. -/
def out0_C_4 : Vec F S1x1x192x2304 .f32 :=
  VO0_4.read (Elt F) (VO0_4.writes (Elt F) VO0_4.junk (runC).1)

end last

/-- A buffer into which a covering list of pieces was written, over whatever it held, is owned at the pieces read
    back over anything: what a covering list of writes leaves depends on neither the view nor the prior contents. -/
theorem owns_of_pieces (c : Dev nD) {sh : Shape} {e : EltTy} (M : Memref sig .tc .vmem sh e) (W : View sig .tc .vmem sh e)
    (g : W.ty.Contents (Elt F)) (L : List (View.Piece (Elt F) sh e)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (W.read (Elt F) (W.writes (Elt F) g L)) := by
  unfold owns
  iintro ⟨%f, H⟩
  iexists (M.view.writes (Elt F) f L)
  isplitr
  · ipureintro; exact View.read_writes_of_cover _ _ _ _ _ hL
  · iexact H

/-! ## What the accumulator and the output's buffer hold after each point -/

/-- The body's two conditions at grid point t, from their closed forms. -/
theorem isFirst {t : Fin cfg0.N} (h : t.val % 25 = 0) : cond0_0 (grid0.coords t) := (hcond0_0 t).mpr h
theorem notFirst {t : Fin cfg0.N} (h : ¬t.val % 25 = 0) : ¬cond0_0 (grid0.coords t) := fun h' => h ((hcond0_0 t).mp h')
theorem isLast {t : Fin cfg0.N} (h : t.val % 25 = 24) : cond0_1 (grid0.coords t) := (hcond0_1 t).mpr h
theorem notLast {t : Fin cfg0.N} (h : ¬t.val % 25 = 24) : ¬cond0_1 (grid0.coords t) := fun h' => h ((hcond0_1 t).mp h')

/-- A case's contents (f) taken at point t of core c: on the staging memrefs the pipeline is on at t and the
    accumulator, under that case's conditions h0 h1, with the four inputs' buffers at their blocks of the arrays the
    region finds.  Pure abbreviation: it expands to the application written out. -/
local macro "atPt[" f:term "; " m:term ", " c:term ", " t:term "; " h0:term ", " h1:term "]" : term =>
  `($f $c (grid0.coords $t) (ms0_0 $t) (hs0_0 $t) (ms0_1 $t) (hs0_1 $t) (ms0_2 $t) (hs0_2 $t) (ms0_3 $t) (hs0_3 $t) (ms0_4 $t) (hs0_4 $t)
      scM0_0 (Memref.isWhole_whole _) $h0 $h1 (iblk $m $c 0 $t) (iblk $m $c 1 $t) (iblk $m $c 2 $t) (iblk $m $c 3 $t))

/-- One point of the accumulation: (output buffer, accumulator) after the body at t, when the accumulator held prev
    before it.  Which case applies is read off t mod 25; a point with shift 0 does not look at prev. -/
def stepAt (c : Dev nD) (t : Fin cfg0.N) (prev : Vec F S192x2304 .f32) : Vec F S1x1x192x2304 .f32 × Vec F S192x2304 .f32 :=
  if h0 : t.val % 25 = 0 then
    (atPt[out0_A_4; m, c, t; isFirst h0, notLast (by omega)], atPt[sout0_A_0; m, c, t; isFirst h0, notLast (by omega)])
  else if h1 : t.val % 25 = 24 then
    (atPt[out0_C_4; m, c, t; notFirst h0, isLast h1] prev, atPt[sout0_C_0; m, c, t; notFirst h0, isLast h1] prev)
  else
    (atPt[out0_B_4; m, c, t; notFirst h0, notLast h1] prev, atPt[sout0_B_0; m, c, t; notFirst h0, notLast h1] prev)

/-- The accumulation, point by point.  (Output's staging buffer, accumulator) after the body at position n: point 0 has shift 0;
    a later point steps from the accumulator the point before left (nothing touches that buffer in between). -/
def outsAt0 (c : Dev nD) : (n : ℕ) → n < cfg0.N → Vec F S1x1x192x2304 .f32 × Vec F S192x2304 .f32
  | 0, hn => (atPt[out0_A_4; m, c, (⟨0, hn⟩ : Fin cfg0.N); isFirst (Nat.zero_mod 25), notLast (show ¬(0 : ℕ) % 25 = 24 by decide)],
      atPt[sout0_A_0; m, c, (⟨0, hn⟩ : Fin cfg0.N); isFirst (Nat.zero_mod 25), notLast (show ¬(0 : ℕ) % 25 = 24 by decide)])
  | n + 1, hn => stepAt m c ⟨n + 1, hn⟩ (outsAt0 c n (Nat.lt_of_succ_lt hn)).2

/-- At a point with shift 0: that case's contents. -/
theorem outsAt0_A (c : Dev nD) (t : Fin cfg0.N) (h0 : t.val % 25 = 0) (h1 : ¬t.val % 25 = 24) :
    outsAt0 m c t.val t.isLt
      = (atPt[out0_A_4; m, c, t; isFirst h0, notLast h1], atPt[sout0_A_0; m, c, t; isFirst h0, notLast h1]) := by
  obtain ⟨n, hn⟩ := t
  cases n with
  | zero => rfl
  | succ n => exact (dif_pos h0).trans rfl

/-- At a point with a middle shift: that case's contents, over the accumulator the point before left. -/
theorem outsAt0_B (c : Dev nD) (t : Fin cfg0.N) (h0 : ¬t.val % 25 = 0) (h1 : ¬t.val % 25 = 24) :
    outsAt0 m c t.val t.isLt
      = (atPt[out0_B_4; m, c, t; notFirst h0, notLast h1] (outsAt0 m c (t.val - 1) (Nat.lt_of_le_of_lt (Nat.sub_le _ _) t.isLt)).2,
         atPt[sout0_B_0; m, c, t; notFirst h0, notLast h1] (outsAt0 m c (t.val - 1) (Nat.lt_of_le_of_lt (Nat.sub_le _ _) t.isLt)).2) := by
  obtain ⟨n, hn⟩ := t
  cases n with
  | zero => exact absurd (Nat.zero_mod 25) h0
  | succ n => exact (dif_neg h0).trans ((dif_neg h1).trans rfl)

/-- At a point with shift 24: that case's contents, over the accumulator the point before left. -/
theorem outsAt0_C (c : Dev nD) (t : Fin cfg0.N) (h0 : ¬t.val % 25 = 0) (h1 : t.val % 25 = 24) :
    outsAt0 m c t.val t.isLt
      = (atPt[out0_C_4; m, c, t; notFirst h0, isLast h1] (outsAt0 m c (t.val - 1) (Nat.lt_of_le_of_lt (Nat.sub_le _ _) t.isLt)).2,
         atPt[sout0_C_0; m, c, t; notFirst h0, isLast h1] (outsAt0 m c (t.val - 1) (Nat.lt_of_le_of_lt (Nat.sub_le _ _) t.isLt)).2) := by
  obtain ⟨n, hn⟩ := t
  cases n with
  | zero => exact absurd (Nat.zero_mod 25) h0
  | succ n => exact (dif_neg h0).trans ((dif_pos h1).trans rfl)

/-! ## The region's invariant -/

/-- Before position n.  Before the first point: what the launch hands the region, the accumulator at anything.  After
    that: the accumulator at what point n - 1 left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- At any position the invariant can forget what the accumulator holds. -/
theorem PhiS_forget (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    · iexact Hg

/-! ## The pipeline's proof data -/

/-- On core c: the arrays as the region finds them; after the body at point t each input's buffer still at its block,
    the output's at outsAt0's first component; the invariant PhiS; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (by projecting the structure; V is never unfolded). -/
theorem A_eq (c : Dev nD) (w : Fin cfg0.W) : (dats m 0 c).A w = V m c (Pipeline.arrRef spec0 w) := by
  dsimp only [dats]

/-- The invariant at the start of point t. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Whatever the pipeline fetched at point t or earlier, each input's current staging buffer holds that window's block
    for t (the bias is fetched only where the shift is 0, and its block stays the same until the next such point). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An input window is live everywhere: the body must hand its buffer back at the block it found there. -/
theorem leaves0_0 (c : Dev nD) (t : Fin cfg0.N) :
    (dats m 0 c).leavesExact 0 t = owns (c : Thread nD τ) (ms0_0 t) fullShare (iblk m c 0 t) := by
  have h : (dats m 0 c).leavesExact 0 t = owns (c : Thread nD τ) (ms0_0 t) fullShare ((dats m 0 c).after 0 t) := by
    unfold Dat.leavesExact; rw [liveAt0_0 t]
  rw [h, after0_0]
theorem leaves0_1 (c : Dev nD) (t : Fin cfg0.N) :
    (dats m 0 c).leavesExact 1 t = owns (c : Thread nD τ) (ms0_1 t) fullShare (iblk m c 1 t) := by
  have h : (dats m 0 c).leavesExact 1 t = owns (c : Thread nD τ) (ms0_1 t) fullShare ((dats m 0 c).after 1 t) := by
    unfold Dat.leavesExact; rw [liveAt0_1 t]
  rw [h, after0_1]
theorem leaves0_2 (c : Dev nD) (t : Fin cfg0.N) :
    (dats m 0 c).leavesExact 2 t = owns (c : Thread nD τ) (ms0_2 t) fullShare (iblk m c 2 t) := by
  have h : (dats m 0 c).leavesExact 2 t = owns (c : Thread nD τ) (ms0_2 t) fullShare ((dats m 0 c).after 2 t) := by
    unfold Dat.leavesExact; rw [liveAt0_2 t]
  rw [h, after0_2]
theorem leaves0_3 (c : Dev nD) (t : Fin cfg0.N) :
    (dats m 0 c).leavesExact 3 t = owns (c : Thread nD τ) (ms0_3 t) fullShare (iblk m c 3 t) := by
  have h : (dats m 0 c).leavesExact 3 t = owns (c : Thread nD τ) (ms0_3 t) fullShare ((dats m 0 c).after 3 t) := by
    unfold Dat.leavesExact; rw [liveAt0_3 t]
  rw [h, after0_3]
/-- The output window is live where the shift is 24: there the body must leave outsAt0's first component. -/
theorem leaves0_4_C (c : Dev nD) (t : Fin cfg0.N) (h0 : ¬t.val % 25 = 0) (h1 : t.val % 25 = 24) :
    (dats m 0 c).leavesExact 4 t = owns (c : Thread nD τ) (ms0_4 t) fullShare (outsAt0 m c t.val t.isLt).1 := by
  have h : (dats m 0 c).leavesExact 4 t = owns (c : Thread nD τ) (ms0_4 t) fullShare ((dats m 0 c).after 4 t) := by
    unfold Dat.leavesExact; rw [liveAt0_4_C t (notFirst h0) (isLast h1)]
  rw [h, after0_4]

/-! ## The body obligation -/

/-- What the body is called with at point t: the invariant, what the core owes (nothing), and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it must return. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-! Every case starts with the same rewriting: the inputs' buffers at their blocks before and after the body, nothing
owed before or after, the invariant after the point as "the accumulator at outsAt0's second component", and the
invariant before it at position t. -/

/-- The body at a point with shift 0.  The accumulator comes in at anything (the invariant forgets what it held: the
    body overwrites it before reading anything it keeps), the output's buffer at whatever it held and goes back
    untouched (the window is idle and not written back); the run's pieces cover the accumulator, so it is owned
    afterwards at this point's contents. -/
theorem body_A (c : Dev nD) (t : Fin cfg0.N) (h0 : t.val % 25 = 0) (h1 : ¬t.val % 25 = 24) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ,
    leaves0_0, leaves0_1, leaves0_2, leaves0_3, PhiS_castSucc m c t]
  rw [Dat.leavesExact_idle (dats m 0 c) 4 t (idleAt0_4_A t (isFirst h0) (notLast h1)) (noFlush0_4_A t (isFirst h0) (notLast h1)),
    outsAt0_A m c t h0 h1]
  unfold sout0_A_0; dsimp only
  iintro ⟨HΦ, Ho, ⟨%d0, H0⟩, ⟨%d1, H1⟩, ⟨%d2, H2⟩, ⟨%d3, H3⟩, ⟨%d4, H4⟩⟩
  icases (PhiS_forget m c _ _) $$ HΦ with ⟨HS, Hg⟩
  iapply ((atPt[kernelRun0_A; m, c, t; isFirst h0, notLast h1]).2.2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iapply (owns_of_pieces c scM0_0 VS0_0 VS0_0.junk _ (atPt[scover0_A_0; m, c, t; isFirst h0, notLast h1]))
      iexact HS
    · iexact Hg
  isplitl [Ho]; · iexact Ho
  isplitl [H0]; · iexact H0
  isplitl [H1]; · iexact H1
  isplitl [H2]; · iexact H2
  isplitl [H3]; · iexact H3
  iexists _; iexact H4

/-- The body at a point with a middle shift: t is not 0, so the invariant hands over the accumulator at what point
    t - 1 left, which is what outsAt0 steps from; the output's buffer goes back untouched. -/
theorem body_B (c : Dev nD) (t : Fin cfg0.N) (h0 : ¬t.val % 25 = 0) (h1 : ¬t.val % 25 = 24) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ,
    leaves0_0, leaves0_1, leaves0_2, leaves0_3, PhiS_castSucc m c t]
  rw [Dat.leavesExact_idle (dats m 0 c) 4 t (idleAt0_4_B t (notFirst h0) (notLast h1)) (noFlush0_4_B t (notFirst h0) (notLast h1)),
    outsAt0_B m c t h0 h1, PhiS_pos m c _ _ hz]
  unfold sout0_B_0; dsimp only
  iintro ⟨⟨HS, Hg⟩, Ho, ⟨%d0, H0⟩, ⟨%d1, H1⟩, ⟨%d2, H2⟩, ⟨%d3, H3⟩, ⟨%d4, H4⟩⟩
  iapply ((atPt[kernelRun0_B; m, c, t; notFirst h0, notLast h1] _).2.2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iapply (owns_of_pieces c scM0_0 VS0_0 VS0_0.junk _ (atPt[scover0_B_0; m, c, t; notFirst h0, notLast h1] _))
      iexact HS
    · iexact Hg
  isplitl [Ho]; · iexact Ho
  isplitl [H0]; · iexact H0
  isplitl [H1]; · iexact H1
  isplitl [H2]; · iexact H2
  isplitl [H3]; · iexact H3
  iexists _; iexact H4

/-- The body at a point with shift 24: the accumulator as at a middle shift; the output's buffer comes in at whatever it
    held, the body stores the whole block into it, and it goes back owned at this point's first component. -/
theorem body_C (c : Dev nD) (t : Fin cfg0.N) (h0 : ¬t.val % 25 = 0) (h1 : t.val % 25 = 24) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ,
    leaves0_0, leaves0_1, leaves0_2, leaves0_3, PhiS_castSucc m c t]
  rw [leaves0_4_C m c t h0 h1, outsAt0_C m c t h0 h1, PhiS_pos m c _ _ hz]
  unfold sout0_C_0 out0_C_4; dsimp only
  iintro ⟨⟨HS, Hg⟩, Ho, ⟨%d0, H0⟩, ⟨%d1, H1⟩, ⟨%d2, H2⟩, ⟨%d3, H3⟩, ⟨%d4, H4⟩⟩
  iapply ((atPt[kernelRun0_C; m, c, t; notFirst h0, isLast h1] _).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iapply (owns_of_pieces c scM0_0 VS0_0 VS0_0.junk _ (atPt[scover0_C_0; m, c, t; notFirst h0, isLast h1] _))
      iexact HS
    · iexact Hg
  isplitl [Ho]; · iexact Ho
  isplitl [H0]; · iexact H0
  isplitl [H1]; · iexact H1
  isplitl [H2]; · iexact H2
  isplitl [H3]; · iexact H3
  iapply (owns_of_pieces c (ms0_4 t) VO0_4 VO0_4.junk _ (atPt[cover0_C_4; m, c, t; notFirst h0, isLast h1] _))
  iexact H4

/-- The body at any point: t mod 25 says which of the three cases it is. -/
theorem sound_body (c : Dev nD) (t : Fin cfg0.N) :
    bodyPre m c t ⊢ wp frame (wpE (defs₀ (F := F)) Variants.none c none) Set.univ (bodyAt0 t) (fun _ => bodyPost m c t) := by
  by_cases h0 : t.val % 25 = 0
  · exact body_A m c t h0 (by omega)
  · by_cases h1 : t.val % 25 = 24
    · exact body_C m c t h0 h1
    · exact body_B m c t h0 h1

/-- The library's body obligation, at every point: its two products over the five windows written out are bodyPre and
    bodyPost. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_forget m c _ _

/-! ## The run and the frame -/

-- the library theorem's implicit arguments are found by unifying its conclusion with this one, through plain definitions in a metavariable's type
set_option backward.isDefEq.respectTransparency.types false in
/-- From any memory with zero counters, every weakly fair execution of @main on the cores terminates, and every final
    state has each array of the pipeline at what the library computes from the proof data, and every other unscoped
    buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any F: @main runs to the end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KI.Pieces.lean ====
/-
  What each of the body's three control cases leaves behind, as the stored values of what it was handed.

  The accumulator, read back after the case's stores over any earlier contents:
  * shift 0: the update built on the zero array (the zeros the case stored first are what the update read back);
  * a middle shift, and the last shift: the update built on the accumulator's contents on entry.
  The output block, read back after the last shift's store: the updated accumulator plus the bias (the output's
  value is computed from the accumulator as the update of the same run left it).

  Each read-back is decided by the stores' rectangles alone: every store of the body covers its whole buffer, so the
  newest store is what is read, and each load of the body reads a whole buffer at the contents it was handed.
-/
import proofs.«113980_j13426067767599_1_alg».proof.Proof.KI.RunC
import proofs.«113980_j13426067767599_1_alg».proof.Proof.KI.Kit
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The all-zero offsets of a rank-2 rectangle, as a constant function. -/
theorem hz2 : (![0, 0] : Fin 2 → Nat) = fun _ => 0 := funext fun a => by fin_cases a <;> rfl
/-- The same at rank 4. -/
theorem hz4 : (![0, 0, 0, 0] : Fin 4 → Nat) = fun _ => 0 := funext fun a => by fin_cases a <;> rfl
/-- The same at rank 5. -/
theorem hz5 : (![0, 0, 0, 0, 0] : Fin 5 → Nat) = fun _ => 0 := funext fun a => by fin_cases a <;> rfl

/-! ## The stores of each case cover their buffer -/

/-- Shift 0: the accumulator's two stores, each of the whole buffer, cover it. -/
theorem scover_A (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : cond0_0 i) (hc1 : ¬cond0_1 i)
    (x0 : Vec F S1x1x192x2304 .bf16) (x1 : Vec F S1x1x1x192x192 .bf16) (x2 : Vec F S1x1x1x2x2304 .bf16) (x3 : Vec F S1x1x192x1 .f32) (y : S192x2304.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S192x2304.size (by sl_kernel_rfl) y

/-- A middle shift: the accumulator's one store covers it. -/
theorem scover_B (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : ¬cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) (y : S192x2304.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S192x2304.size (by sl_kernel_rfl) y

/-- The last shift: the accumulator's one store covers it. -/
theorem scover_C (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) (y : S192x2304.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S192x2304.size (by sl_kernel_rfl) y

/-- The last shift: the output block's one store covers it. -/
theorem cover_C_out (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) (y : S1x1x192x2304.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1x192x2304.size (by sl_kernel_rfl) y

/-! ## What is read back -/

/-- Shift 0 leaves in the accumulator the update of the zero array: of its two stores the later covers the buffer,
    and the accumulator that store's value was computed from is the earlier store's zeros, read back whole. -/
theorem piece_A (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : cond0_0 i) (hc1 : ¬cond0_1 i)
    (x0 : Vec F S1x1x192x2304 .bf16) (x1 : Vec F S1x1x1x192x192 .bf16) (x2 : Vec F S1x1x1x2x2304 .bf16) (x3 : Vec F S1x1x192x1 .f32) :
    VS0_0.read (Elt F) (VS0_0.writes (Elt F) VS0_0.junk (kernelRun0_A c i arg3 harg3 arg4 harg4 arg5 harg5 arg6 harg6 arg7 harg7 arg8 harg8 hc0 hc1 x0 x1 x2 x3).2.1)
      = k0_pay2 x0 x2 x1 (k0_pay1 (F := F)) := by
  rw [View.read_writes_eq_canon _ _ _ (scover_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S192x2304) hz2, View.readCov_unit_zero (S := S192x2304) _ hz2]
  simp only [View.readAt_eq_ld, harg3.read_unread, harg4.read_unread, harg5.read_unread, harg6.read_unread, harg8.read_unread,
    View.ld_unit_zero (S := S1x1x192x2304) hz4, View.ld_unit_zero (S := S1x1x1x2x2304) hz5,
    View.ld_unit_zero (S := S1x1x1x192x192) hz5, View.ld_unit_zero (S := S1x1x192x1) hz4,
    View.ld_unit_zero (S := S192x2304) hz2]

/-- A middle shift leaves in the accumulator the update of its contents on entry. -/
theorem piece_B (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : ¬cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    VS0_0.read (Elt F) (VS0_0.writes (Elt F) VS0_0.junk (kernelRun0_B c i arg3 harg3 arg4 harg4 arg5 harg5 arg6 harg6 arg7 harg7 arg8 harg8 hc0 hc1 x0 x1 x2 x3 xs0).2.1)
      = k0_pay2 x0 x2 x1 xs0 := by
  rw [View.read_writes_eq_canon _ _ _ (scover_B c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x1x192x2304) hz4, View.ld_unit_zero (S := S1x1x1x2x2304) hz5,
    View.ld_unit_zero (S := S1x1x1x192x192) hz5, View.ld_unit_zero (S := S1x1x192x1) hz4,
    View.ld_unit_zero (S := S192x2304) hz2]

/-- The last shift leaves in the accumulator the update of its contents on entry. -/
theorem piece_C (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    VS0_0.read (Elt F) (VS0_0.writes (Elt F) VS0_0.junk (kernelRun0_C c i arg3 harg3 arg4 harg4 arg5 harg5 arg6 harg6 arg7 harg7 arg8 harg8 hc0 hc1 x0 x1 x2 x3 xs0).2.1)
      = k0_pay2 x0 x2 x1 xs0 := by
  rw [View.read_writes_eq_canon _ _ _ (scover_C c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x1x192x2304) hz4, View.ld_unit_zero (S := S1x1x1x2x2304) hz5,
    View.ld_unit_zero (S := S1x1x1x192x192) hz5, View.ld_unit_zero (S := S1x1x192x1) hz4,
    View.ld_unit_zero (S := S192x2304) hz2]

/-- The last shift leaves in the output block the updated accumulator plus the bias: the accumulator its value was
    computed from is the one the update of the same run had just stored, read back whole. -/
theorem piece_C_out (c : Dev nD) (i : grid0.Coords) (arg3 : Memref sig .tc .vmem S1x1x192x2304 .bf16) (harg3 : arg3.IsWhole) (arg4 : Memref sig .tc .vmem S1x1x1x192x192 .bf16) (harg4 : arg4.IsWhole) (arg5 : Memref sig .tc .vmem S1x1x1x2x2304 .bf16) (harg5 : arg5.IsWhole) (arg6 : Memref sig .tc .vmem S1x1x192x1 .f32) (harg6 : arg6.IsWhole) (arg7 : Memref sig .tc .vmem S1x1x192x2304 .f32) (harg7 : arg7.IsWhole) (arg8 : Memref sig .tc .vmem S192x2304 .f32) (harg8 : arg8.IsWhole) (hc0 : ¬cond0_0 i) (hc1 : cond0_1 i)
    (x0 : Vec F S1x1x192x2304 .bf16) (x1 : Vec F S1x1x1x192x192 .bf16) (x2 : Vec F S1x1x1x2x2304 .bf16) (x3 : Vec F S1x1x192x1 .f32) (xs0 : Vec F S192x2304 .f32) :
    VO0_4.read (Elt F) (VO0_4.writes (Elt F) VO0_4.junk (kernelRun0_C c i arg3 harg3 arg4 harg4 arg5 harg5 arg6 harg6 arg7 harg7 arg8 harg8 hc0 hc1 x0 x1 x2 x3 xs0).1)
      = k0_pay3 (k0_pay2 x0 x2 x1 xs0) x3 := by
  rw [View.read_writes_eq_canon _ _ _ (cover_C_out c i arg3 harg3 arg4 harg4 arg5 harg5 arg6 harg6 arg7 harg7 arg8 harg8 hc0 hc1 x0 x1 x2 x3 xs0)]
  unfold kernelRun0_C
  dsimp only
  sl_unfold_words
  rw [View.canon_unit_zero hz4]
  simp only [View.readAt_eq_ld, harg3.read_unread, harg4.read_unread, harg5.read_unread, harg6.read_unread, harg8.read_unread,
    View.ld_unit_zero (S := S1x1x192x2304) hz4, View.ld_unit_zero (S := S1x1x1x2x2304) hz5,
    View.ld_unit_zero (S := S1x1x1x192x192) hz5, View.ld_unit_zero (S := S1x1x192x1) hz4,
    View.ld_unit_zero (S := S192x2304) hz2,
    View.readCov_unit_zero (S := S192x2304) _ hz2]

end Cert.KernelIdeal.Val

end
-- ==== Proof.KI.Tail.lean ====
/-
  What the program's result buffer holds at the end.  After the region the only host operation is a reshape of the
  output array [2, 2, 192, 2304] into the result [2, 384, 48, 48]: both hold the same entries in row-major order.  The
  region leaves the output array at the contents the write-backs have assembled; the reshape reads that array and
  writes the result buffer, so the result is those contents re-laid.
-/
import proofs.«113980_j13426067767599_1_alg».proof.Proof.KI.Kit
import Idealize.ShloMosaic.Lib.StableHlo.Run
import Idealize.ShloMosaic.Lib.Pipeline.FrameSuffix

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg)

variable {F : FTy → Type} [FloatOps F]

variable (m : (ℓ : Loc nD τ sig) → Buf (Elt F) ℓ)

/-- The result buffer after the closing reshape: the output array's final contents, read in row-major order at the
    result's shape.  The reshape writes the result buffer from the output array, and the output array, being the
    fifth window's array, is at what the region's write-backs left in it. -/
theorem tail_result (dats : (p : Fin 1) → (c : Dev nD) → Dat τ (Elt F) Unit ℕ (UR sig nD τ) ℕ (cfgs p) c) (c : Dev nD) :
    Pipeline.afterTail₀ cfgs dats 0 (V0 m) [hostOps1] c main_v129
      = shapeCast S2x384x48x48 ((dats 0 c).arrAt 4 cfg0.N) shapeCasts_S2x2x192x2304_S2x384x48x48 := by
  unfold Pipeline.afterTail₀
  show StableHlo.after hostOps1 _ (Proc.devRef .tc main_v129) = _
  after_results
  rw [Pipeline.withArrays_arr spec0 launch0.win.arr_inj c _ _ 4]
  rfl

end Cert.KernelIdeal.Fr

end
-- ==== Proof.Spec.lean ====
/-
  What both programs compute, before the final reshape: a 5×5 masked convolution with per-image weights.

  The image is zero-padded by 2 on each side of its two spatial axes.  For an output position l = h·48 + w and a
  shift s = i·5 + j, the tap reads the padded image at row i + h and column j + w.  A tap is kept (gate 1) exactly
  where the neighbour's group offset, read from the padded offsets at the same shifted position and in the input
  channel's group (channels 0…95 are group 0, 96…191 group 1), is strictly below the offset of the output group at
  the centre position; otherwise it is dropped (gate 0).  The result at (b, g, o, l) is the sum over all 192 channels
  and 25 shifts of weight × gated tap, plus the bias of (b, g, o).

  The two programs differ only in how they arrange this sum: the kernel adds up, shift by shift, a sum over the
  channels; the reference contracts once over the flat index c·25 + s.  The extended reals are a commutative monoid
  under addition, so the two arrangements agree whatever the entries are (no finiteness is used): this file states
  both arrangements over the same taps and proves them equal by reindexing a finite sum.
-/
import Idealize.ShloMosaic.PureOps.Ideal
import Idealize.ShloMosaic.Lib.ValueIdx
import Mathlib.Algebra.BigOperators.Fin
import Mathlib.Algebra.BigOperators.Group.Finset.Basic

noncomputable section

namespace Cert.Spec

open Idealize.ShloMosaic Idealize.ShloMosaic.ValueIdx

/-- Row of the padded image that shift s reads for output position l. -/
def prow (s : Fin 25) (l : Fin 2304) : Fin 52 := ⟨s.val / 5 + l.val / 48, by omega⟩
/-- Column of the padded image that shift s reads for output position l. -/
def pcol (s : Fin 25) (l : Fin 2304) : Fin 52 := ⟨s.val % 5 + l.val % 48, by omega⟩
/-- Row of the unpadded image at output position l. -/
def lrow (l : Fin 2304) : Fin 48 := ⟨l.val / 48, by omega⟩
/-- Column of the unpadded image at output position l. -/
def lcol (l : Fin 2304) : Fin 48 := ⟨l.val % 48, by omega⟩
/-- The group of an input channel: 96 channels per group. -/
def grp (c : Fin 192) : Fin 2 := ⟨c.val / 96, by omega⟩
/-- The flat contraction index of channel c and shift s: channel-major. -/
def flat (c : Fin 192) (s : Fin 25) : Fin 4800 := ⟨c.val * 25 + s.val, by omega⟩
/-- The channel of a flat contraction index. -/
def chanOf (i : Fin 4800) : Fin 192 := ⟨i.val / 25, by omega⟩
/-- The shift of a flat contraction index. -/
def shiftOf (i : Fin 4800) : Fin 25 := ⟨i.val % 25, by omega⟩

theorem chanOf_flat (c : Fin 192) (s : Fin 25) : chanOf (flat c s) = c := by
  apply Fin.ext; simp only [chanOf, flat]; omega
theorem shiftOf_flat (c : Fin 192) (s : Fin 25) : shiftOf (flat c s) = s := by
  apply Fin.ext; simp only [shiftOf, flat]; omega
theorem flat_chanOf_shiftOf (i : Fin 4800) : flat (chanOf i) (shiftOf i) = i := by
  apply Fin.ext; simp only [chanOf, shiftOf, flat]; omega

/-- The gate: 1 where a is strictly below b in the order of the extended reals, else 0. -/
def gate (a b : Ideal .f32) : Ideal .f32 :=
  FloatOps.uitofp (F := Ideal) .f32 (FloatOps.cmpf (F := Ideal) .olt a b)

variable (xp : FVec Ideal ⟨4, ![2, 192, 52, 52]⟩ .f32) (offp : FVec Ideal ⟨4, ![2, 2, 52, 52]⟩ .f32)
  (off : FVec Ideal ⟨4, ![2, 2, 48, 48]⟩ .f32)
  (dkw : FVec Ideal ⟨5, ![2, 2, 192, 4800, 1]⟩ .f32) (dkb : FVec Ideal ⟨4, ![2, 2, 192, 1]⟩ .f32)

/-- One gated tap: the padded image at the shifted position, times the gate of the channel's group there against
    the output group at the centre. -/
def tap (b g : Fin 2) (c : Fin 192) (s : Fin 25) (l : Fin 2304) : Ideal .f32 :=
  xp (ix4 b c (prow s l) (pcol s l))
    * gate (offp (ix4 b (grp c) (prow s l) (pcol s l))) (off (ix4 b g (lrow l) (lcol l)))

/-- The weight of output channel o for input channel c at shift s. -/
def wt (b g : Fin 2) (o c : Fin 192) (s : Fin 25) : Ideal .f32 := dkw (ix5 b g o (flat c s) 0)

/-- What one shift contributes at (b, g, o, l): the sum over the channels of weight × gated tap. -/
def shiftTerm (b g : Fin 2) (o : Fin 192) (l : Fin 2304) (s : Fin 25) : Ideal .f32 :=
  ∑ c : Fin 192, wt dkw b g o c s * tap xp offp off b g c s l

/-- The kernel's arrangement: the shifts' contributions added up, then the bias. -/
def kerR : FVec Ideal ⟨4, ![2, 2, 192, 2304]⟩ .f32 := fun j =>
  (∑ s : Fin 25, shiftTerm xp offp off dkw (j 0) (j 1) (j 2) (j 3) s) + dkb (ix4 (j 0) (j 1) (j 2) 0)

/-- The reference's arrangement: one contraction over the flat index, then the bias. -/
def refR : FVec Ideal ⟨4, ![2, 2, 192, 2304]⟩ .f32 := fun j =>
  (∑ i : Fin 4800, dkw (ix5 (j 0) (j 1) (j 2) i 0) * tap xp offp off (j 0) (j 1) (chanOf i) (shiftOf i) (j 3))
    + dkb (ix4 (j 0) (j 1) (j 2) 0)

/-- Summing over the flat index is summing over the shifts and, for each, over the channels. -/
theorem sum_flat {M : Type*} [AddCommMonoid M] (f : Fin 4800 → M) :
    ∑ i : Fin 4800, f i = ∑ s : Fin 25, ∑ c : Fin 192, f (flat c s) := by
  rw [Finset.sum_comm]
  rw [← Fintype.sum_prod_type' (fun (c : Fin 192) (s : Fin 25) => f (flat c s))]
  refine (Fintype.sum_equiv (finProdFinEquiv (m := 192) (n := 25)) _ _ (fun p => ?_)).symm
  congr 1
  apply Fin.ext
  simp only [flat, finProdFinEquiv_apply_val]
  omega

/-- The two arrangements are one function. -/
theorem kerR_eq_refR : kerR xp offp off dkw dkb = refR xp offp off dkw dkb := by
  funext j
  simp only [kerR, refR, shiftTerm, wt]
  rw [sum_flat]
  simp only [chanOf_flat, shiftOf_flat]

end Cert.Spec

end
-- ==== Proof.KI.Payload.lean ====
/-
  The three values the kernel's body stores, each read at an index, at the exact instance (every float an extended
  real, every format change the identity).

  * The value stored where the shift is 0 is the zero array.
  * The value stored at every shift is the accumulator plus a matrix product: the [192,192] weight block times the
    [192,2304] image block whose row ch has been multiplied, entry by entry, by row ch/96 of the two gate rows (rows
    0…95 by gate row 0, rows 96…191 by gate row 1).  Into a zero accumulator the product at (o, l) is the plain sum over
    the channel ch of weight(o, ch) · (image(ch, l) · gate(ch/96, l)).
  * The value stored where the shift is the last one is the accumulator plus the bias column, the bias of row o added
    along the whole row.

  Last, the recurrence the accumulator runs through the shifts (start from zero plus the first term, then add one term
  per step) is the finite sum of the terms.
-/
import proofs.«113980_j13426067767599_1_alg».proof.Proof.Gen.KernelIdeal.Skeleton
import proofs.«113980_j13426067767599_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

noncomputable section

namespace Cert.KernelIdeal.Val

open Cert.KernelIdeal Cert.KernelIdeal.Gen
open Idealize.ShloMosaic Idealize.ShloMosaic.ValueIdx

/-! ## Unit axes dropped or added by a shape cast, and a column spread along its rows -/

section Layout
variable {α : Type}

/-- A `[1, 1, a, b]` array cast to `[a, b]` reads, at (i, j), the operand at (0, 0, i, j): both indices have the
    row-major position i·b + j. -/
theorem cast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, 1, a, b]` array cast to `[a, b]` reads, at (i, j), the operand at (0, 0, 0, i, j). -/
theorem cast_111ab_ab_apply {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add])

/-- An `[a, b]` array cast to `[1, 1, a, b]` reads, at (u, u', i, j), the operand at (i, j), whatever the two unit
    coordinates. -/
theorem cast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- An `[a, 1]` column broadcast to `[a, b]` reads, at (p, c), the column's entry of row p. -/
theorem bcast_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two gate rows stacked to 192 rows: rows 0…95 are copies of row 0 of the `[2, 2304]` array and rows 96…191
    copies of its row 1, so row ch is its row ch / 96. -/
theorem stackedRows_apply (v6 : S2x2304.Idx → α)
    (h0 : S2x2304.Slices ![0, 0] S1x2304) (h1 : S2x2304.Slices ![1, 0] S1x2304)
    (hc : S1x2304.ShapeCasts S1x2304) (hb : S1x2304.Broadcasts S96x2304)
    (hcat : Shape.Concatenates [S96x2304, S96x2304] S192x2304 0) (ch : Fin 192) (l : Fin 2304) :
    concatenate S192x2304 0
        [⟨S96x2304, broadcastTo S96x2304 (shapeCast S1x2304 (extractStridedSlice S1x2304 ![0, 0] v6 h0) hc) hb⟩,
         ⟨S96x2304, broadcastTo S96x2304 (shapeCast S1x2304 (extractStridedSlice S1x2304 ![1, 0] v6 h1) hc) hb⟩]
        hcat (ix2 ch l)
      = v6 (ix2 (Cert.Spec.grp ch) l) := by
  by_cases hlt : ch.val < 96
  · -- a row of the first piece: the same row there, which is the one row of the slice at offset 0
    rw [concatenate_pair_apply_left 0 _ _ hcat (ix2 ch l) rfl (ix2 (⟨ch.val, hlt⟩ : Fin 96) l)
      (fun b => match b with | ⟨0, _⟩ => rfl | ⟨1, _⟩ => rfl)]
    rw [broadcastTo_1b_ab_apply, shapeCast_self]
    exact slice2_axis0_apply 0 v6 h0 (0 : Fin 1) l (Cert.Spec.grp ch) (by show ch.val / 96 = 0 + 0; omega)
  · -- a row of the second piece: row ch − 96 there, which is the one row of the slice at offset 1
    rw [concatenate_pair_apply_right 0 _ _ hcat (ix2 ch l) rfl rfl (ix2 (⟨ch.val - 96, by have := ch.isLt; omega⟩ : Fin 96) l)
      (fun b hb' => match b, hb' with | ⟨0, _⟩, hb' => absurd rfl hb' | ⟨1, _⟩, _ => rfl)
      (by show ch.val - 96 + 96 = ch.val; omega)]
    rw [broadcastTo_1b_ab_apply, shapeCast_self]
    exact slice2_axis0_apply 1 v6 h1 (0 : Fin 1) l (Cert.Spec.grp ch)
      (by show ch.val / 96 = 1 + 0; have := ch.isLt; omega)

end Layout

/-! ## The matrix product into a zero accumulator -/

/-- The left operand's row is the output's row. -/
theorem lhs_axis_0 (i : S192x2304.Idx) (q : dot_S192x192_S192x2304_S192x2304_1_0_0_1_n_n.contr.Idx) :
    (dot_S192x192_S192x2304_S192x2304_1_0_0_1_n_n.lhsIdx i q 0).val = (i 0).val := by
  unfold DotDims.lhsIdx
  rw [dif_neg (show ¬(0 : Fin S192x192.rank) ∈ dot_S192x192_S192x2304_S192x2304_1_0_0_1_n_n.lhsBatch by decide), dif_pos (show (0 : Fin S192x192.rank) ∈ dot_S192x192_S192x2304_S192x2304_1_0_0_1_n_n.lhsNonContracting by decide)]
  rfl
/-- The left operand's column is the contraction index. -/
theorem lhs_axis_1 (i : S192x2304.Idx) (q : dot_S192x192_S192x2304_S192x2304_1_0_0_1_n_n.contr.Idx) :
    (dot_S192x192_S192x2304_S192x2304_1_0_0_1_n_n.lhsIdx i q 1).val = (q ⟨0, by decide⟩).val :=
  dot_S192x192_S192x2304_S192x2304_1_0_0_1_n_n.lhsIdx_val_of_single rfl i q
/-- The right operand's row is the contraction index. -/
theorem rhs_axis_0 (i : S192x2304.Idx) (q : dot_S192x192_S192x2304_S192x2304_1_0_0_1_n_n.contr.Idx) :
    (dot_S192x192_S192x2304_S192x2304_1_0_0_1_n_n.rhsIdx i q 0).val = (q ⟨0, by decide⟩).val :=
  dot_S192x192_S192x2304_S192x2304_1_0_0_1_n_n.rhsIdx_val_of_single rfl i q
/-- The right operand's column is the output's column. -/
theorem rhs_axis_1 (i : S192x2304.Idx) (q : dot_S192x192_S192x2304_S192x2304_1_0_0_1_n_n.contr.Idx) :
    (dot_S192x192_S192x2304_S192x2304_1_0_0_1_n_n.rhsIdx i q 1).val = (i 1).val := by
  unfold DotDims.rhsIdx
  rw [dif_neg (show ¬(1 : Fin S192x2304.rank) ∈ dot_S192x192_S192x2304_S192x2304_1_0_0_1_n_n.rhsBatch by decide), dif_pos (show (1 : Fin S192x2304.rank) ∈ dot_S192x192_S192x2304_S192x2304_1_0_0_1_n_n.rhsNonContracting by decide)]
  rfl

/-- The product of a `[192, 192]` block with a `[192, 2304]` block, accumulated into zero, read at (o, l): the sum
    over the shared index ch of the entry (o, ch) of the first times the entry (ch, l) of the second. -/
theorem matmul_zero_apply (W : FVec Ideal S192x192 .bf16) (X : FVec Ideal S192x2304 .bf16) (o : Fin 192) (l : Fin 2304) :
    matmul dot_S192x192_S192x2304_S192x2304_1_0_0_1_n_n none W X (constant (F := Ideal) S192x2304 .f32 0x00000000#32) (ix2 o l)
      = ∑ ch : Fin 192, W (ix2 o ch) * X (ix2 ch l) := by
  simp only [matmul]
  rw [Ideal.matmul_constant_zero_apply, ← Equiv.sum_comp (contrEquiv1 dot_S192x192_S192x2304_S192x2304_1_0_0_1_n_n 192 rfl rfl).symm]
  refine Finset.sum_congr rfl fun ch _ => ?_
  have hk := contrEquiv1_symm_val dot_S192x192_S192x2304_S192x2304_1_0_0_1_n_n 192 rfl rfl ch
  have el : dot_S192x192_S192x2304_S192x2304_1_0_0_1_n_n.lhsIdx (ix2 o l) ((contrEquiv1 dot_S192x192_S192x2304_S192x2304_1_0_0_1_n_n 192 rfl rfl).symm ch) = ix2 o ch := funext fun a => Fin.ext (by
    match a with
    | ⟨0, _⟩ => exact lhs_axis_0 _ _
    | ⟨1, _⟩ => exact (lhs_axis_1 _ _).trans hk)
  have er : dot_S192x192_S192x2304_S192x2304_1_0_0_1_n_n.rhsIdx (ix2 o l) ((contrEquiv1 dot_S192x192_S192x2304_S192x2304_1_0_0_1_n_n 192 rfl rfl).symm ch) = ix2 ch l := funext fun a => Fin.ext (by
    match a with
    | ⟨0, _⟩ => exact (rhs_axis_0 _ _).trans hk
    | ⟨1, _⟩ => exact rhs_axis_1 _ _)
  rw [el, er]

/-! ## The three stored values -/

/-- Where the shift is 0 the body stores the zero array. -/
theorem pay1_apply (j : S192x2304.Idx) : k0_pay1 (F := Ideal) j = 0 := by
  unfold k0_pay1
  rw [shapeCast_self, broadcast_apply]
  exact Ideal.ofBits_zero_f32

/-- At every shift the body stores the accumulator plus, at (o, l), the sum over the channels ch of the weight
    (o, ch) times the image entry (ch, l) gated by the gate row of the channel's group. -/
theorem pay2_apply (v3 : Vec Ideal S1x1x192x2304 .bf16) (v5 : Vec Ideal S1x1x1x2x2304 .bf16)
    (v15 : Vec Ideal S1x1x1x192x192 .bf16) (v17 : Vec Ideal S192x2304 .f32) (o : Fin 192) (l : Fin 2304) :
    k0_pay2 (F := Ideal) v3 v5 v15 v17 (ix2 o l)
      = v17 (ix2 o l) + ∑ ch : Fin 192, v15 (ix5 0 0 0 o ch) * (v3 (ix4 0 0 ch l) * v5 (ix5 0 0 0 (Cert.Spec.grp ch) l)) := by
  unfold k0_pay2
  rw [shapeCast_self, addf_apply, matmul_zero_apply]
  refine congrArg (v17 (ix2 o l) + ·) (Finset.sum_congr rfl fun ch _ => ?_)
  rw [cast_111ab_ab_apply, mulf_apply, cast_11ab_ab_apply, stackedRows_apply, cast_111ab_ab_apply]

/-- Where the shift is the last one the body stores the accumulator plus the bias of the row. -/
theorem pay3_apply (v26 : Vec Ideal S192x2304 .f32) (v27 : Vec Ideal S1x1x192x1 .f32) (o : Fin 192) (l : Fin 2304) :
    k0_pay3 (F := Ideal) v26 v27 (ix4 0 0 o l) = v26 (ix2 o l) + v27 (ix4 0 0 o 0) := by
  unfold k0_pay3
  rw [cast_ab_11ab_apply, addf_apply, bcast_a1_ab_apply, cast_11ab_ab_apply]

/-! ## The accumulator's recurrence is a finite sum -/

/-- The accumulator after step n: zero plus the first term, then one more term per step. -/
def accum {M : Type*} [AddCommMonoid M] (T : ℕ → M) : ℕ → M
  | 0 => 0 + T 0
  | k + 1 => accum T k + T (k + 1)

/-- After step n it holds the sum of the terms 0…n. -/
theorem accum_eq {M : Type*} [AddCommMonoid M] (T : ℕ → M) (n : ℕ) :
    accum T n = ∑ k ∈ Finset.range (n + 1), T k := by
  induction n with
  | zero => rw [accum, zero_add, Finset.sum_range_one]
  | succ k ih => rw [accum, ih, Finset.sum_range_succ _ (k + 1)]

/-- The sum over the first 25 naturals is the sum over the 25 shifts. -/
theorem sum_range_25 {M : Type*} [AddCommMonoid M] (T : ℕ → M) :
    ∑ k ∈ Finset.range 25, T k = ∑ s : Fin 25, T s.val :=
  (Fin.sum_univ_eq_sum_range T 25).symm

end Cert.KernelIdeal.Val

end
-- ==== Proof.KI.Blocks.lean ====
/-
  Which entries of the operand arrays the kernel reads at a grid point, and which entries of the result it writes.

  The grid is (image, output group, shift) = (2, 2, 25), walked row-major: point t is image t / 50, output group
  (t / 25) % 2, shift t % 25.  At point t the image window is block (image, shift) of the stacked shifted image, the
  weight and gate windows are blocks (image, group, shift) of their arrays, and the bias and output windows are
  blocks (image, group) of theirs.  Every block starts at its block index times the block's extent on each axis, so a
  block entry with coordinates y sits in its array at index · extent + y: an entry of the image block at (channel,
  position) is the stacked image at (image, shift, channel, position), and so on.  The output array's blocks, one per
  (image, group), written back at the last shift of each, tile it.
-/
import proofs.«113980_j13426067767599_1_alg».proof.Proof.KI.Kit
import proofs.«113980_j13426067767599_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem N100 : cfg0.N = 100 := N_0

/-- The image of grid point t. -/
def bOf (t : Fin cfg0.N) : Fin 2 := ⟨t.val / 50, by have := t.isLt; have := N100; omega⟩
/-- The output group of grid point t. -/
def gOf (t : Fin cfg0.N) : Fin 2 := ⟨t.val / 25 % 2, by omega⟩
/-- The shift of grid point t. -/
def sOf (t : Fin cfg0.N) : Fin 25 := ⟨t.val % 25, by omega⟩

/-- The image window's block index at point t: (image, shift, 0, 0). -/
theorem idx0 : ∀ t : Fin cfg0.N, win0_0.index t (0 : Fin 4) = t.val / 50 ∧ win0_0.index t (1 : Fin 4) = t.val % 25
    ∧ win0_0.index t (2 : Fin 4) = 0 ∧ win0_0.index t (3 : Fin 4) = 0 :=
  (by decide +kernel : ∀ t : Fin grid0.N, _)
/-- The weight window's block index at point t: (image, group, shift, 0, 0). -/
theorem idx1 : ∀ t : Fin cfg0.N, win0_1.index t (0 : Fin 5) = t.val / 50 ∧ win0_1.index t (1 : Fin 5) = t.val / 25 % 2
    ∧ win0_1.index t (2 : Fin 5) = t.val % 25 ∧ win0_1.index t (3 : Fin 5) = 0 ∧ win0_1.index t (4 : Fin 5) = 0 :=
  (by decide +kernel : ∀ t : Fin grid0.N, _)
/-- The gate window's block index at point t: (image, group, shift, 0, 0). -/
theorem idx2 : ∀ t : Fin cfg0.N, win0_2.index t (0 : Fin 5) = t.val / 50 ∧ win0_2.index t (1 : Fin 5) = t.val / 25 % 2
    ∧ win0_2.index t (2 : Fin 5) = t.val % 25 ∧ win0_2.index t (3 : Fin 5) = 0 ∧ win0_2.index t (4 : Fin 5) = 0 :=
  (by decide +kernel : ∀ t : Fin grid0.N, _)
/-- The bias window's block index at point t: (image, group, 0, 0). -/
theorem idx3 : ∀ t : Fin cfg0.N, win0_3.index t (0 : Fin 4) = t.val / 50 ∧ win0_3.index t (1 : Fin 4) = t.val / 25 % 2
    ∧ win0_3.index t (2 : Fin 4) = 0 ∧ win0_3.index t (3 : Fin 4) = 0 :=
  (by decide +kernel : ∀ t : Fin grid0.N, _)
/-- The output window's block index at point t: (image, group, 0, 0). -/
theorem idx4 : ∀ t : Fin cfg0.N, win0_4.index t (0 : Fin 4) = t.val / 50 ∧ win0_4.index t (1 : Fin 4) = t.val / 25 % 2
    ∧ win0_4.index t (2 : Fin 4) = 0 ∧ win0_4.index t (3 : Fin 4) = 0 :=
  (by decide +kernel : ∀ t : Fin grid0.N, _)

/-- The image block at point t, entry (channel, position), is the stacked shifted image at (image, shift, channel,
    position). -/
theorem blk0_read (c : Dev nD) (t : Fin cfg0.N) (ch : Fin 192) (l : Fin 2304) :
    iblk m c 0 t (ix4 0 0 ch l) = V m c main_v55 (ix4 (bOf t) (sOf t) ch l) := by
  obtain ⟨e0, e1, e2, e3⟩ := idx0 t
  show V m c main_v55 (((cfg0.win 0).blk t).view.emb (ix4 0 0 ch l)) = V m c main_v55 (ix4 (bOf t) (sOf t) ch l)
  refine congrArg _ (funext fun a => Fin.ext ?_)
  match a with
  | ⟨0, _⟩ => show win0_0.index t (0 : Fin 4) * 1 + 1 * 0 = t.val / 50; omega
  | ⟨1, _⟩ => show win0_0.index t (1 : Fin 4) * 1 + 1 * 0 = t.val % 25; omega
  | ⟨2, _⟩ => show win0_0.index t (2 : Fin 4) * 192 + 1 * ch.val = ch.val; omega
  | ⟨3, _⟩ => show win0_0.index t (3 : Fin 4) * 2304 + 1 * l.val = l.val; omega

/-- The weight block at point t, entry (output channel, input channel), is the re-laid weight array at (image,
    group, shift, output channel, input channel). -/
theorem blk1_read (c : Dev nD) (t : Fin cfg0.N) (o ch : Fin 192) :
    iblk m c 1 t (ix5 0 0 0 o ch) = V m c main_v127 (ix5 (bOf t) (gOf t) (sOf t) o ch) := by
  obtain ⟨e0, e1, e2, e3, e4⟩ := idx1 t
  show V m c main_v127 (((cfg0.win 1).blk t).view.emb (ix5 0 0 0 o ch)) = V m c main_v127 (ix5 (bOf t) (gOf t) (sOf t) o ch)
  refine congrArg _ (funext fun a => Fin.ext ?_)
  match a with
  | ⟨0, _⟩ => show win0_1.index t (0 : Fin 5) * 1 + 1 * 0 = t.val / 50; omega
  | ⟨1, _⟩ => show win0_1.index t (1 : Fin 5) * 1 + 1 * 0 = t.val / 25 % 2; omega
  | ⟨2, _⟩ => show win0_1.index t (2 : Fin 5) * 1 + 1 * 0 = t.val % 25; omega
  | ⟨3, _⟩ => show win0_1.index t (3 : Fin 5) * 192 + 1 * o.val = o.val; omega
  | ⟨4, _⟩ => show win0_1.index t (4 : Fin 5) * 192 + 1 * ch.val = ch.val; omega

/-- The gate block at point t, entry (input group, position), is the gate array at (image, group, shift, input
    group, position). -/
theorem blk2_read (c : Dev nD) (t : Fin cfg0.N) (gin : Fin 2) (l : Fin 2304) :
    iblk m c 2 t (ix5 0 0 0 gin l) = V m c main_v124 (ix5 (bOf t) (gOf t) (sOf t) gin l) := by
  obtain ⟨e0, e1, e2, e3, e4⟩ := idx2 t
  show V m c main_v124 (((cfg0.win 2).blk t).view.emb (ix5 0 0 0 gin l)) = V m c main_v124 (ix5 (bOf t) (gOf t) (sOf t) gin l)
  refine congrArg _ (funext fun a => Fin.ext ?_)
  match a with
  | ⟨0, _⟩ => show win0_2.index t (0 : Fin 5) * 1 + 1 * 0 = t.val / 50; omega
  | ⟨1, _⟩ => show win0_2.index t (1 : Fin 5) * 1 + 1 * 0 = t.val / 25 % 2; omega
  | ⟨2, _⟩ => show win0_2.index t (2 : Fin 5) * 1 + 1 * 0 = t.val % 25; omega
  | ⟨3, _⟩ => show win0_2.index t (3 : Fin 5) * 2 + 1 * gin.val = gin.val; omega
  | ⟨4, _⟩ => show win0_2.index t (4 : Fin 5) * 2304 + 1 * l.val = l.val; omega

/-- The bias block at point t, entry (output channel), is the bias at (image, group, output channel). -/
theorem blk3_read (c : Dev nD) (t : Fin cfg0.N) (o : Fin 192) :
    iblk m c 3 t (ix4 0 0 o 0) = V m c main_arg3 (ix4 (bOf t) (gOf t) o 0) := by
  obtain ⟨e0, e1, e2, e3⟩ := idx3 t
  show V m c main_arg3 (((cfg0.win 3).blk t).view.emb (ix4 0 0 o 0)) = V m c main_arg3 (ix4 (bOf t) (gOf t) o 0)
  refine congrArg _ (funext fun a => Fin.ext ?_)
  match a with
  | ⟨0, _⟩ => show win0_3.index t (0 : Fin 4) * 1 + 1 * 0 = t.val / 50; omega
  | ⟨1, _⟩ => show win0_3.index t (1 : Fin 4) * 1 + 1 * 0 = t.val / 25 % 2; omega
  | ⟨2, _⟩ => show win0_3.index t (2 : Fin 4) * 192 + 1 * o.val = o.val; omega
  | ⟨3, _⟩ => show win0_3.index t (3 : Fin 4) * 1 + 1 * 0 = 0; omega

/-- An entry (output channel, position) of the output block at point t sits in the output array at (image, group,
    output channel, position). -/
theorem blk4_emb (t : Fin cfg0.N) (o : Fin 192) (l : Fin 2304) :
    ((cfg0.win 4).blk t).view.emb (ix4 0 0 o l) = ix4 (bOf t) (gOf t) o l := by
  obtain ⟨e0, e1, e2, e3⟩ := idx4 t
  refine funext fun a => Fin.ext ?_
  match a with
  | ⟨0, _⟩ => show win0_4.index t (0 : Fin 4) * 1 + 1 * 0 = t.val / 50; omega
  | ⟨1, _⟩ => show win0_4.index t (1 : Fin 4) * 1 + 1 * 0 = t.val / 25 % 2; omega
  | ⟨2, _⟩ => show win0_4.index t (2 : Fin 4) * 192 + 1 * o.val = o.val; omega
  | ⟨3, _⟩ => show win0_4.index t (3 : Fin 4) * 2304 + 1 * l.val = l.val; omega

/-- An index of the output array is in point t's block iff each coordinate is in the block's range on its axis. -/
theorem mem_blk4 (t : Fin cfg0.N) (i : S2x2x192x2304.Idx) :
    i ∈ ((cfg0.win 4).blk t).view.set ↔ ∀ a : Fin 4, win0_4.index t a * S1x1x192x2304.size a ≤ (i a).val
      ∧ (i a).val < win0_4.index t a * S1x1x192x2304.size a + S1x1x192x2304.size a := by
  show i ∈ ((View.whole main_v128).slice (win0_4.rect t)).set ↔ _
  rw [View.set_slice_whole, Rect.mem_set_unit]
  exact Iff.rfl

/-- Every index of the output array is in the block of a point that writes it back: the last shift's point of its
    (image, group) pair. -/
theorem cover4 (i : S2x2x192x2304.Idx) :
    ∃ t : Fin cfg0.N, (cfg0.win 4).flush t = true ∧ i ∈ ((cfg0.win 4).blk t).view.set := by
  have h0 : (i 0).val < 2 := (i 0).isLt
  have h1 : (i 1).val < 2 := (i 1).isLt
  have h2 : (i 2).val < 192 := (i 2).isLt
  have h3 : (i 3).val < 2304 := (i 3).isLt
  have hN := N100
  let t : Fin cfg0.N := ⟨((i 0).val * 2 + (i 1).val) * 25 + 24, by omega⟩
  have htv : t.val = ((i 0).val * 2 + (i 1).val) * 25 + 24 := rfl
  refine ⟨t, (flush0_4 t).mpr (by omega), ?_⟩
  rw [mem_blk4]
  obtain ⟨e0, e1, e2, e3⟩ := idx4 t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 192 ≤ (i 2).val ∧ (i 2).val < win0_4.index t (2 : Fin 4) * 192 + 192; omega
  | ⟨3, _⟩ => show win0_4.index t (3 : Fin 4) * 2304 ≤ (i 3).val ∧ (i 3).val < win0_4.index t (3 : Fin 4) * 2304 + 2304; omega

end Cert.KernelIdeal.Val

end
-- ==== Proof.KI.HostX.lean ====
/-
  What two of the kernel's operand arrays hold, index by index, when the region is entered.

  The stacked-taps operand, at (b, s, ch, l), holds the zero-padded image at batch b, channel ch, row s / 5 + l / 48
  and column s % 5 + l % 48: the host cuts the 25 shifted 48 × 48 windows out of the padded image, stacks them along a
  new axis after the batch axis, and merges the two spatial axes (l = h · 48 + w).  The re-laid weights, at
  (b, g, s, o, ch), hold the weight argument at (b, g, o, ch · 25 + s, 0): the host splits the contraction axis
  channel-major into (channel, shift) and moves the shift axis in front of the two channel axes.  Both arrays then
  change format, which is the identity on extended reals.  The padded image stays a closed term throughout.
-/
import proofs.«113980_j13426067767599_1_alg».proof.Proof.KI.Entry
import proofs.«113980_j13426067767599_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.ShloMosaic.StableHlo
open Idealize.SL Idealize.SL.Sem

section Nary
variable {Val : EltTy → Type}

/-- An operation of 16 operands given as a literal family: its result with each operand's contents at its own
    reference (the family's k-th entry read off), so that the operands' contents can be rewritten further. -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl

/-- An operation of 9 operands given as a literal family: its result with each operand's contents at its own
    reference (the family's k-th entry read off), so that the operands' contents can be rewritten further. -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

end Nary

/-- The image zero-padded by 2 on each side of its two spatial axes, spelt as the program spells it.  Nothing below
    opens it: the operand arrays are read in terms of this array as a whole. -/
def xp (x0 : (⟨S2x192x48x48, .f32⟩ : BufTy).Contents (Elt Ideal)) : (⟨S2x192x52x52, .f32⟩ : BufTy).Contents (Elt Ideal) :=
  pad S2x192x52x52 ![0, 0, 2, 2] ![0, 0, 2, 2] ![0, 0, 0, 0] x0 (sitofp (F := Ideal) .f32 (constantI S_ 32 0#32))
    pads_S2x192x48x48_S2x192x52x52_000_000_220_220 h_S_

/-! ## The stack of the 25 shifted slices, for any padded array

The program cuts 25 windows of 48 × 48 out of the padded 52 × 52 image, one per shift k = 5·i + j with the window's
corner at row i and column j, gives each a unit axis after the batch axis, and lays them end to end along that axis
(first the shifts 0 … 15, then 16 … 24, then the two runs together).  All of this is said for an arbitrary array
`P` in place of the padded image, so that the padding itself is never opened. -/

section Stack
variable {α : Type}

/-- The window of shift k fits: its corner (k / 5, k % 5) is at most (4, 4) and 4 + 48 = 52. -/
theorem shift_slices (k : Fin 25) : S2x192x52x52.Slices ![0, 0, k.val / 5, k.val % 5] S2x192x48x48 :=
  ⟨rfl, fun a => match a with
    | ⟨0, _⟩ => by show 0 + 2 ≤ 2; omega
    | ⟨1, _⟩ => by show 0 + 192 ≤ 192; omega
    | ⟨2, _⟩ => by show k.val / 5 + 48 ≤ 52; omega
    | ⟨3, _⟩ => by show k.val % 5 + 48 ≤ 52; omega⟩

/-- The window of shift k with its unit axis: one piece of the stack. -/
def shifted (P : S2x192x52x52.Idx → α) (k : Fin 25) : S2x1x192x48x48.Idx → α :=
  broadcastInDim S2x1x192x48x48 ![0, 2, 3, 4] bcast_S2x192x48x48_S2x1x192x48x48_0_2_3_4
    (extractStridedSlice S2x192x48x48 ![0, 0, k.val / 5, k.val % 5] P (shift_slices k))

/-- Piece k at (b, ·, ch, h, w) is the array at (b, ch, k / 5 + h, k % 5 + w). -/
theorem shifted_apply (P : S2x192x52x52.Idx → α) (k : Fin 25) (b : Fin 2) (u : Fin 1) (ch : Fin 192) (h w : Fin 48) :
    shifted P k (ValueIdx.ix5 b u ch h w)
      = P (ValueIdx.ix4 b ch ⟨k.val / 5 + h.val, by omega⟩ ⟨k.val % 5 + w.val, by omega⟩) := by
  unfold shifted
  refine (broadcastInDim_apply _ bcast_S2x192x48x48_S2x1x192x48x48_0_2_3_4 _ (ValueIdx.ix5 b u ch h w) (ValueIdx.ix4 b ch h w)
    (fun a => match a with
      | ⟨0, _⟩ => by show b.val = if (2 : Nat) = 1 then 0 else b.val; rw [if_neg (by decide)]
      | ⟨1, _⟩ => by show ch.val = if (192 : Nat) = 1 then 0 else ch.val; rw [if_neg (by decide)]
      | ⟨2, _⟩ => by show h.val = if (48 : Nat) = 1 then 0 else h.val; rw [if_neg (by decide)]
      | ⟨3, _⟩ => by show w.val = if (48 : Nat) = 1 then 0 else w.val; rw [if_neg (by decide)])).trans ?_
  exact extractStridedSlice_apply _ P (shift_slices k) (ValueIdx.ix4 b ch h w)
    (ValueIdx.ix4 b ch ⟨k.val / 5 + h.val, by omega⟩ ⟨k.val % 5 + w.val, by omega⟩)
    (fun a => match a with
      | ⟨0, _⟩ => by show b.val = 0 + b.val; omega
      | ⟨1, _⟩ => by show ch.val = 0 + ch.val; omega
      | ⟨2, _⟩ => by show k.val / 5 + h.val = k.val / 5 + h.val; rfl
      | ⟨3, _⟩ => by show k.val % 5 + w.val = k.val % 5 + w.val; rfl)

/-- Sixteen unit pieces laid end to end along axis 1: position n on that axis reads piece n. -/
theorem cat16_apply (f : Fin 16 → (S2x1x192x48x48.Idx → α))
    (hc : Shape.Concatenates [S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48] S2x16x192x48x48 1)
    (b : Fin 2) (n : Fin 16) (ch : Fin 192) (h w : Fin 48) :
    concatenate S2x16x192x48x48 1 [⟨S2x1x192x48x48, f 0⟩, ⟨S2x1x192x48x48, f 1⟩, ⟨S2x1x192x48x48, f 2⟩, ⟨S2x1x192x48x48, f 3⟩, ⟨S2x1x192x48x48, f 4⟩, ⟨S2x1x192x48x48, f 5⟩, ⟨S2x1x192x48x48, f 6⟩, ⟨S2x1x192x48x48, f 7⟩, ⟨S2x1x192x48x48, f 8⟩, ⟨S2x1x192x48x48, f 9⟩, ⟨S2x1x192x48x48, f 10⟩, ⟨S2x1x192x48x48, f 11⟩, ⟨S2x1x192x48x48, f 12⟩, ⟨S2x1x192x48x48, f 13⟩, ⟨S2x1x192x48x48, f 14⟩, ⟨S2x1x192x48x48, f 15⟩] hc (ValueIdx.ix5 b n ch h w)
      = f n (ValueIdx.ix5 b 0 ch h w) :=
  concatenate_ofFn_unit_apply (t := S2x16x192x48x48) (s₁ := S2x1x192x48x48) 1 f hc rfl rfl (ValueIdx.ix5 b n ch h w) n rfl
    (ValueIdx.ix5 b 0 ch h w)
    (fun a => match a with
      | ⟨0, _⟩ => fun _ => rfl
      | ⟨1, _⟩ => fun hne => absurd rfl hne
      | ⟨2, _⟩ => fun _ => rfl
      | ⟨3, _⟩ => fun _ => rfl
      | ⟨4, _⟩ => fun _ => rfl)

/-- Nine unit pieces laid end to end along axis 1: position n on that axis reads piece n. -/
theorem cat9_apply (f : Fin 9 → (S2x1x192x48x48.Idx → α))
    (hc : Shape.Concatenates [S2x1x192x48x48, S2x1x192x48x48, S2x1x192x48x48, S2x1x192x48x48, S2x1x192x48x48, S2x1x192x48x48, S2x1x192x48x48, S2x1x192x48x48, S2x1x192x48x48] S2x9x192x48x48 1)
    (b : Fin 2) (n : Fin 9) (ch : Fin 192) (h w : Fin 48) :
    concatenate S2x9x192x48x48 1 [⟨S2x1x192x48x48, f 0⟩, ⟨S2x1x192x48x48, f 1⟩, ⟨S2x1x192x48x48, f 2⟩, ⟨S2x1x192x48x48, f 3⟩, ⟨S2x1x192x48x48, f 4⟩, ⟨S2x1x192x48x48, f 5⟩, ⟨S2x1x192x48x48, f 6⟩, ⟨S2x1x192x48x48, f 7⟩, ⟨S2x1x192x48x48, f 8⟩] hc (ValueIdx.ix5 b n ch h w)
      = f n (ValueIdx.ix5 b 0 ch h w) :=
  concatenate_ofFn_unit_apply (t := S2x9x192x48x48) (s₁ := S2x1x192x48x48) 1 f hc rfl rfl (ValueIdx.ix5 b n ch h w) n rfl
    (ValueIdx.ix5 b 0 ch h w)
    (fun a => match a with
      | ⟨0, _⟩ => fun _ => rfl
      | ⟨1, _⟩ => fun hne => absurd rfl hne
      | ⟨2, _⟩ => fun _ => rfl
      | ⟨3, _⟩ => fun _ => rfl
      | ⟨4, _⟩ => fun _ => rfl)

/-- The stack of the 25 shifted windows of `P`, spelt as the program spells it. -/
def stack25 (P : S2x192x52x52.Idx → α) : S2x25x192x48x48.Idx → α :=
  concatenate S2x25x192x48x48 1
    [⟨S2x16x192x48x48, concatenate S2x16x192x48x48 1
        [⟨S2x1x192x48x48, broadcastInDim S2x1x192x48x48 ![0, 2, 3, 4] bcast_S2x192x48x48_S2x1x192x48x48_0_2_3_4 (extractStridedSlice S2x192x48x48 ![0, 0, 0, 0] P slices_S2x192x52x52_S2x192x48x48_0_0_0_0)⟩,
         ⟨S2x1x192x48x48, broadcastInDim S2x1x192x48x48 ![0, 2, 3, 4] bcast_S2x192x48x48_S2x1x192x48x48_0_2_3_4 (extractStridedSlice S2x192x48x48 ![0, 0, 0, 1] P slices_S2x192x52x52_S2x192x48x48_0_0_0_1)⟩,
         ⟨S2x1x192x48x48, broadcastInDim S2x1x192x48x48 ![0, 2, 3, 4] bcast_S2x192x48x48_S2x1x192x48x48_0_2_3_4 (extractStridedSlice S2x192x48x48 ![0, 0, 0, 2] P slices_S2x192x52x52_S2x192x48x48_0_0_0_2)⟩,
         ⟨S2x1x192x48x48, broadcastInDim S2x1x192x48x48 ![0, 2, 3, 4] bcast_S2x192x48x48_S2x1x192x48x48_0_2_3_4 (extractStridedSlice S2x192x48x48 ![0, 0, 0, 3] P slices_S2x192x52x52_S2x192x48x48_0_0_0_3)⟩,
         ⟨S2x1x192x48x48, broadcastInDim S2x1x192x48x48 ![0, 2, 3, 4] bcast_S2x192x48x48_S2x1x192x48x48_0_2_3_4 (extractStridedSlice S2x192x48x48 ![0, 0, 0, 4] P slices_S2x192x52x52_S2x192x48x48_0_0_0_4)⟩,
         ⟨S2x1x192x48x48, broadcastInDim S2x1x192x48x48 ![0, 2, 3, 4] bcast_S2x192x48x48_S2x1x192x48x48_0_2_3_4 (extractStridedSlice S2x192x48x48 ![0, 0, 1, 0] P slices_S2x192x52x52_S2x192x48x48_0_0_1_0)⟩,
         ⟨S2x1x192x48x48, broadcastInDim S2x1x192x48x48 ![0, 2, 3, 4] bcast_S2x192x48x48_S2x1x192x48x48_0_2_3_4 (extractStridedSlice S2x192x48x48 ![0, 0, 1, 1] P slices_S2x192x52x52_S2x192x48x48_0_0_1_1)⟩,
         ⟨S2x1x192x48x48, broadcastInDim S2x1x192x48x48 ![0, 2, 3, 4] bcast_S2x192x48x48_S2x1x192x48x48_0_2_3_4 (extractStridedSlice S2x192x48x48 ![0, 0, 1, 2] P slices_S2x192x52x52_S2x192x48x48_0_0_1_2)⟩,
         ⟨S2x1x192x48x48, broadcastInDim S2x1x192x48x48 ![0, 2, 3, 4] bcast_S2x192x48x48_S2x1x192x48x48_0_2_3_4 (extractStridedSlice S2x192x48x48 ![0, 0, 1, 3] P slices_S2x192x52x52_S2x192x48x48_0_0_1_3)⟩,
         ⟨S2x1x192x48x48, broadcastInDim S2x1x192x48x48 ![0, 2, 3, 4] bcast_S2x192x48x48_S2x1x192x48x48_0_2_3_4 (extractStridedSlice S2x192x48x48 ![0, 0, 1, 4] P slices_S2x192x52x52_S2x192x48x48_0_0_1_4)⟩,
         ⟨S2x1x192x48x48, broadcastInDim S2x1x192x48x48 ![0, 2, 3, 4] bcast_S2x192x48x48_S2x1x192x48x48_0_2_3_4 (extractStridedSlice S2x192x48x48 ![0, 0, 2, 0] P slices_S2x192x52x52_S2x192x48x48_0_0_2_0)⟩,
         ⟨S2x1x192x48x48, broadcastInDim S2x1x192x48x48 ![0, 2, 3, 4] bcast_S2x192x48x48_S2x1x192x48x48_0_2_3_4 (extractStridedSlice S2x192x48x48 ![0, 0, 2, 1] P slices_S2x192x52x52_S2x192x48x48_0_0_2_1)⟩,
         ⟨S2x1x192x48x48, broadcastInDim S2x1x192x48x48 ![0, 2, 3, 4] bcast_S2x192x48x48_S2x1x192x48x48_0_2_3_4 (extractStridedSlice S2x192x48x48 ![0, 0, 2, 2] P slices_S2x192x52x52_S2x192x48x48_0_0_2_2)⟩,
         ⟨S2x1x192x48x48, broadcastInDim S2x1x192x48x48 ![0, 2, 3, 4] bcast_S2x192x48x48_S2x1x192x48x48_0_2_3_4 (extractStridedSlice S2x192x48x48 ![0, 0, 2, 3] P slices_S2x192x52x52_S2x192x48x48_0_0_2_3)⟩,
         ⟨S2x1x192x48x48, broadcastInDim S2x1x192x48x48 ![0, 2, 3, 4] bcast_S2x192x48x48_S2x1x192x48x48_0_2_3_4 (extractStridedSlice S2x192x48x48 ![0, 0, 2, 4] P slices_S2x192x52x52_S2x192x48x48_0_0_2_4)⟩,
         ⟨S2x1x192x48x48, broadcastInDim S2x1x192x48x48 ![0, 2, 3, 4] bcast_S2x192x48x48_S2x1x192x48x48_0_2_3_4 (extractStridedSlice S2x192x48x48 ![0, 0, 3, 0] P slices_S2x192x52x52_S2x192x48x48_0_0_3_0)⟩]
        concatenates_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x16x192x48x48_d1⟩,
     ⟨S2x9x192x48x48, concatenate S2x9x192x48x48 1
        [⟨S2x1x192x48x48, broadcastInDim S2x1x192x48x48 ![0, 2, 3, 4] bcast_S2x192x48x48_S2x1x192x48x48_0_2_3_4 (extractStridedSlice S2x192x48x48 ![0, 0, 3, 1] P slices_S2x192x52x52_S2x192x48x48_0_0_3_1)⟩,
         ⟨S2x1x192x48x48, broadcastInDim S2x1x192x48x48 ![0, 2, 3, 4] bcast_S2x192x48x48_S2x1x192x48x48_0_2_3_4 (extractStridedSlice S2x192x48x48 ![0, 0, 3, 2] P slices_S2x192x52x52_S2x192x48x48_0_0_3_2)⟩,
         ⟨S2x1x192x48x48, broadcastInDim S2x1x192x48x48 ![0, 2, 3, 4] bcast_S2x192x48x48_S2x1x192x48x48_0_2_3_4 (extractStridedSlice S2x192x48x48 ![0, 0, 3, 3] P slices_S2x192x52x52_S2x192x48x48_0_0_3_3)⟩,
         ⟨S2x1x192x48x48, broadcastInDim S2x1x192x48x48 ![0, 2, 3, 4] bcast_S2x192x48x48_S2x1x192x48x48_0_2_3_4 (extractStridedSlice S2x192x48x48 ![0, 0, 3, 4] P slices_S2x192x52x52_S2x192x48x48_0_0_3_4)⟩,
         ⟨S2x1x192x48x48, broadcastInDim S2x1x192x48x48 ![0, 2, 3, 4] bcast_S2x192x48x48_S2x1x192x48x48_0_2_3_4 (extractStridedSlice S2x192x48x48 ![0, 0, 4, 0] P slices_S2x192x52x52_S2x192x48x48_0_0_4_0)⟩,
         ⟨S2x1x192x48x48, broadcastInDim S2x1x192x48x48 ![0, 2, 3, 4] bcast_S2x192x48x48_S2x1x192x48x48_0_2_3_4 (extractStridedSlice S2x192x48x48 ![0, 0, 4, 1] P slices_S2x192x52x52_S2x192x48x48_0_0_4_1)⟩,
         ⟨S2x1x192x48x48, broadcastInDim S2x1x192x48x48 ![0, 2, 3, 4] bcast_S2x192x48x48_S2x1x192x48x48_0_2_3_4 (extractStridedSlice S2x192x48x48 ![0, 0, 4, 2] P slices_S2x192x52x52_S2x192x48x48_0_0_4_2)⟩,
         ⟨S2x1x192x48x48, broadcastInDim S2x1x192x48x48 ![0, 2, 3, 4] bcast_S2x192x48x48_S2x1x192x48x48_0_2_3_4 (extractStridedSlice S2x192x48x48 ![0, 0, 4, 3] P slices_S2x192x52x52_S2x192x48x48_0_0_4_3)⟩,
         ⟨S2x1x192x48x48, broadcastInDim S2x1x192x48x48 ![0, 2, 3, 4] bcast_S2x192x48x48_S2x1x192x48x48_0_2_3_4 (extractStridedSlice S2x192x48x48 ![0, 0, 4, 4] P slices_S2x192x52x52_S2x192x48x48_0_0_4_4)⟩]
        concatenates_S2x1x192x48x48_S2x1x192x48x48_S2x1x192x48x48_S2x1x192x48x48_S2x1x192x48x48_S2x1x192x48x48_S2x1x192x48x48_S2x1x192x48x48_S2x1x192x48x48_S2x9x192x48x48_d1⟩]
    concatenates_S2x16x192x48x48_S2x9x192x48x48_S2x25x192x48x48_d1

/-- The stack at (b, s, ch, h, w) is the array at (b, ch, s / 5 + h, s % 5 + w): shift s sits at position s of the
    first run when s < 16 and at position s − 16 of the second otherwise, and either way it is piece s. -/
theorem stack25_apply (P : S2x192x52x52.Idx → α) (b : Fin 2) (s : Fin 25) (ch : Fin 192) (h w : Fin 48) :
    stack25 P (ValueIdx.ix5 b s ch h w)
      = P (ValueIdx.ix4 b ch ⟨s.val / 5 + h.val, by omega⟩ ⟨s.val % 5 + w.val, by omega⟩) := by
  unfold stack25
  by_cases hs : s.val < 16
  · refine (concatenate_pair_apply_left 1 _ _ concatenates_S2x16x192x48x48_S2x9x192x48x48_S2x25x192x48x48_d1 (ValueIdx.ix5 b s ch h w) rfl
      (ValueIdx.ix5 b (⟨s.val, hs⟩ : Fin 16) ch h w)
      (fun a => match a with
        | ⟨0, _⟩ => rfl | ⟨1, _⟩ => rfl | ⟨2, _⟩ => rfl | ⟨3, _⟩ => rfl | ⟨4, _⟩ => rfl)).trans ?_
    refine (cat16_apply (fun n : Fin 16 => shifted P (n.castLE (by decide))) concatenates_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x16x192x48x48_d1
      b ⟨s.val, hs⟩ ch h w).trans ?_
    exact shifted_apply P _ b 0 ch h w
  · have hs' : s.val - 16 < 9 := by omega
    refine (concatenate_pair_apply_right 1 _ _ concatenates_S2x16x192x48x48_S2x9x192x48x48_S2x25x192x48x48_d1 (ValueIdx.ix5 b s ch h w) rfl rfl
      (ValueIdx.ix5 b (⟨s.val - 16, hs'⟩ : Fin 9) ch h w)
      (fun a => match a with
        | ⟨0, _⟩ => fun _ => rfl
        | ⟨1, _⟩ => fun hne => absurd rfl hne
        | ⟨2, _⟩ => fun _ => rfl
        | ⟨3, _⟩ => fun _ => rfl
        | ⟨4, _⟩ => fun _ => rfl)
      (by show (s.val - 16) + 16 = s.val; omega)).trans ?_
    refine (cat9_apply (fun n : Fin 9 => shifted P (Fin.natAdd 16 n)) concatenates_S2x1x192x48x48_S2x1x192x48x48_S2x1x192x48x48_S2x1x192x48x48_S2x1x192x48x48_S2x1x192x48x48_S2x1x192x48x48_S2x1x192x48x48_S2x1x192x48x48_S2x9x192x48x48_d1
      b ⟨s.val - 16, hs'⟩ ch h w).trans ?_
    refine (shifted_apply P _ b 0 ch h w).trans ?_
    exact congrArg P (funext fun a => match a with
      | ⟨0, _⟩ => rfl
      | ⟨1, _⟩ => rfl
      | ⟨2, _⟩ => Fin.ext (by show (16 + (s.val - 16)) / 5 + h.val = s.val / 5 + h.val; omega)
      | ⟨3, _⟩ => Fin.ext (by show (16 + (s.val - 16)) % 5 + w.val = s.val % 5 + w.val; omega))

/-- Merging the two spatial axes: position l of the merged axis is row l / 48, column l % 48. -/
theorem flat_apply (Q : S2x25x192x48x48.Idx → α) (b : Fin 2) (s : Fin 25) (ch : Fin 192) (l : Fin 2304) :
    shapeCast S2x25x192x2304 Q shapeCasts_S2x25x192x48x48_S2x25x192x2304 (ValueIdx.ix4 b s ch l)
      = Q (ValueIdx.ix5 b s ch ⟨l.val / 48, by omega⟩ ⟨l.val % 48, by omega⟩) := by
  refine shapeCast_apply Q shapeCasts_S2x25x192x48x48_S2x25x192x2304 (ValueIdx.ix4 b s ch l)
    (ValueIdx.ix5 b s ch ⟨l.val / 48, by omega⟩ ⟨l.val % 48, by omega⟩) ?_
  rw [Shape.rowMajor_val_five, Shape.rowMajor_val_four]
  show (((b.val * 25 + s.val) * 192 + ch.val) * 48 + l.val / 48) * 48 + l.val % 48
    = ((b.val * 25 + s.val) * 192 + ch.val) * 2304 + l.val
  omega

end Stack

/-! ## The stacked-taps operand -/

set_option maxRecDepth 16384 in
set_option maxHeartbeats 8000000 in
/-- The stacked-taps operand as one term of the image: pad, the 25 windows stacked, the two spatial axes merged,
    the change of format (the identity on extended reals). -/
theorem v55_term (m : (ℓ : Loc nD τ sig) → Buf (Elt Ideal) ℓ) (c : Dev nD) :
    @Eq (S2x25x192x2304.Idx → Elt Ideal .bf16) (V m c main_v55)
      (truncf (F := Ideal) .bf16
        (shapeCast S2x25x192x2304 (stack25 (xp (m ((c : Thread nD τ).loc main_arg0))))
          shapeCasts_S2x25x192x48x48_S2x25x192x2304) bitsLt_bf16_f32) := by
  dsimp only [V, V0]
  simp only [hostOps0, hostOps0_1, hostOps0_2, hostOps0_3, hostOps0_4, List.flatten_cons, List.flatten_nil,
    List.append_nil, List.cons_append, List.nil_append]
  simp (disch := decide) only [after_cons, after_nil,
    nullary_result', unary_result', binary_result', reshape_result', nary16_result', nary9_result',
    nullary_result_ne', unary_result_ne', binary_result_ne', reshape_result_ne', nary_result_ne']
  rfl

/-- The stacked-taps operand at (b, s, ch, l): the padded image at batch b, channel ch, row s / 5 + l / 48, column
    s % 5 + l % 48. -/
theorem v55_apply (m : (ℓ : Loc nD τ sig) → Buf (Elt Ideal) ℓ) (c : Dev nD) (b : Fin 2) (s : Fin 25) (ch : Fin 192)
    (l : Fin 2304) :
    Cert.KernelIdeal.Fr.V m c main_v55 (ValueIdx.ix4 b s ch l)
      = xp (m ((c : Thread nD τ).loc main_arg0)) (ValueIdx.ix4 b ch (Cert.Spec.prow s l) (Cert.Spec.pcol s l)) := by
  refine (congrFun (v55_term m c) (ValueIdx.ix4 b s ch l)).trans ?_
  refine (ValueIdx.truncf_apply (s := S2x25x192x2304) (φ := .f32) (ψ := .bf16) _ bitsLt_bf16_f32 _).trans ?_
  refine (flat_apply _ b s ch l).trans ?_
  exact stack25_apply _ b s ch _ _

/-! ## The re-laid weights -/

set_option maxRecDepth 8192 in
/-- The re-laid weights as one term of the weight argument: the contraction axis split into (channel, shift), the
    shift axis moved in front of the two channel axes, the change of format. -/
theorem v127_term (m : (ℓ : Loc nD τ sig) → Buf (Elt Ideal) ℓ) (c : Dev nD) :
    @Eq (S2x2x25x192x192.Idx → Elt Ideal .bf16) (V m c main_v127)
      (truncf (F := Ideal) .bf16 (transpose S2x2x25x192x192 [0, 1, 4, 2, 3]
          (shapeCast S2x2x192x192x25 (m ((c : Thread nD τ).loc main_arg2)) shapeCasts_S2x2x192x4800x1_S2x2x192x192x25)
          transposes_S2x2x192x192x25_S2x2x25x192x192_0_1_4_2_3) bitsLt_bf16_f32) := by
  dsimp only [V, V0]
  simp only [hostOps0, hostOps0_1, hostOps0_2, hostOps0_3, hostOps0_4, List.flatten_cons, List.flatten_nil,
    List.append_nil, List.cons_append, List.nil_append]
  after_results
  rfl

/-- The re-laid weights at (b, g, s, o, ch): the weight argument at (b, g, o, ch · 25 + s, 0).  The transpose puts
    result axes (0, 1, 2, 3, 4) on source axes (0, 1, 4, 2, 3), so the source index is (b, g, o, ch, s); the split
    axis is channel-major, so (ch, s) sits at ch · 25 + s. -/
theorem v127_apply (m : (ℓ : Loc nD τ sig) → Buf (Elt Ideal) ℓ) (c : Dev nD) (b g : Fin 2) (s : Fin 25)
    (o ch : Fin 192) :
    Cert.KernelIdeal.Fr.V m c main_v127 (ValueIdx.ix5 b g s o ch)
      = m ((c : Thread nD τ).loc main_arg2) (ValueIdx.ix5 b g o (Cert.Spec.flat ch s) 0) := by
  refine (congrFun (v127_term m c) (ValueIdx.ix5 b g s o ch)).trans ?_
  refine (ValueIdx.truncf_apply (s := S2x2x25x192x192) (φ := .f32) (ψ := .bf16) _ bitsLt_bf16_f32 _).trans ?_
  refine (transpose_apply [0, 1, 4, 2, 3] _ transposes_S2x2x192x192x25_S2x2x25x192x192_0_1_4_2_3
    (ValueIdx.ix5 b g s o ch) (ValueIdx.ix5 b g o ch s)
    (fun a => match a with
      | ⟨0, _⟩ => rfl | ⟨1, _⟩ => rfl | ⟨2, _⟩ => rfl | ⟨3, _⟩ => rfl | ⟨4, _⟩ => rfl)).trans ?_
  refine shapeCast_apply _ shapeCasts_S2x2x192x4800x1_S2x2x192x192x25 (ValueIdx.ix5 b g o ch s)
    (ValueIdx.ix5 b g o (Cert.Spec.flat ch s) 0) ?_
  rw [Shape.rowMajor_val_five, Shape.rowMajor_val_five]
  show (((b.val * 2 + g.val) * 192 + o.val) * 4800 + (ch.val * 25 + s.val)) * 1 + 0
    = (((b.val * 2 + g.val) * 192 + o.val) * 192 + ch.val) * 25 + s.val
  omega

end Cert.KernelIdeal.Val
end
-- ==== Proof.KI.HostMask.lean ====
/-
  The gate operand of the kernel when its region is entered, index by index.

  Before the region the host computes, from the integer group labels, the offsets off = labels − ⌈max labels⌉ − 1
  (as reals) and their zero-padding offp by two on each side of both spatial axes.  It then cuts from offp the 25
  windows of 48×48 positions that start at row i and column j (i, j = 0 … 4), stacks them in the order s = 5·i + j,
  flattens the 48×48 positions to l = 48·r + w, repeats the stack over the two output groups and the offsets over the
  25 shifts and the two input groups, and compares: the gate array holds 1 where the stacked value is strictly below
  the offset, else 0.  This file reads that array at an index (b, g, s, gin, l): it compares offp at image b, group
  gin, row s / 5 + l / 48, column s % 5 + l % 48 with off at image b, group g, row l / 48, column l % 48.  The offsets
  themselves (the maximum, the ceiling, the padding) are never opened.
-/
import proofs.«113980_j13426067767599_1_alg».proof.Proof.KI.Entry
import proofs.«113980_j13426067767599_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx
open Idealize.SL Idealize.SL.Sem

/-- The group offsets: the integer group labels as reals, less the ceiling of their overall maximum, less one. -/
def off (x1 : (⟨S2x2x48x48, .i32⟩ : BufTy).Contents (Elt Ideal)) : (⟨S2x2x48x48, .f32⟩ : BufTy).Contents (Elt Ideal) :=
  subf (subf (sitofp (F := Ideal) .f32 x1)
      (broadcastInDim S2x2x48x48 ![] bcast_S_S2x2x48x48
        (Host.ceil (Host.reduce FloatOps.maximumf (sitofp (F := Ideal) .f32 x1) (constant (F := Ideal) S_ .f32 0xFF800000#32)
          reducesTo_S2x2x48x48_S_d0_1_2_3 h_S_))))
    (broadcastInDim S2x2x48x48 ![] bcast_S_S2x2x48x48 (constant (F := Ideal) S_ .f32 0x3F800000#32))

/-- The group offsets padded by two zeros on each side of both spatial axes. -/
def offp (x1 : (⟨S2x2x48x48, .i32⟩ : BufTy).Contents (Elt Ideal)) : (⟨S2x2x52x52, .f32⟩ : BufTy).Contents (Elt Ideal) :=
  pad S2x2x52x52 ![0, 0, 2, 2] ![0, 0, 2, 2] ![0, 0, 0, 0] (off x1) (sitofp (F := Ideal) .f32 (constantI S_ 32 0#32))
    pads_S2x2x48x48_S2x2x52x52_000_000_220_220 h_S_

namespace Gate

/-- The 48×48 window of a padded array that starts at row i and column j, given a new unit axis after the image axis. -/
def win (i j : Nat) (h : S2x2x52x52.Slices ![0, 0, i, j] S2x2x48x48) (P : FVec Ideal S2x2x52x52 .f32) :
    FVec Ideal S2x1x2x48x48 .f32 :=
  broadcastInDim S2x1x2x48x48 ![0, 2, 3, 4] bcast_S2x2x48x48_S2x1x2x48x48_0_2_3_4 (extractStridedSlice S2x2x48x48 ![0, 0, i, j] P h)

/-- The windows of shifts 0 … 15, in shift order s = 5·i + j. -/
def wins16 (P : FVec Ideal S2x2x52x52 .f32) : List ((s : Shape) × (s.Idx → Ideal .f32)) :=
  [⟨S2x1x2x48x48, win 0 0 slices_S2x2x52x52_S2x2x48x48_0_0_0_0 P⟩,
   ⟨S2x1x2x48x48, win 0 1 slices_S2x2x52x52_S2x2x48x48_0_0_0_1 P⟩,
   ⟨S2x1x2x48x48, win 0 2 slices_S2x2x52x52_S2x2x48x48_0_0_0_2 P⟩,
   ⟨S2x1x2x48x48, win 0 3 slices_S2x2x52x52_S2x2x48x48_0_0_0_3 P⟩,
   ⟨S2x1x2x48x48, win 0 4 slices_S2x2x52x52_S2x2x48x48_0_0_0_4 P⟩,
   ⟨S2x1x2x48x48, win 1 0 slices_S2x2x52x52_S2x2x48x48_0_0_1_0 P⟩,
   ⟨S2x1x2x48x48, win 1 1 slices_S2x2x52x52_S2x2x48x48_0_0_1_1 P⟩,
   ⟨S2x1x2x48x48, win 1 2 slices_S2x2x52x52_S2x2x48x48_0_0_1_2 P⟩,
   ⟨S2x1x2x48x48, win 1 3 slices_S2x2x52x52_S2x2x48x48_0_0_1_3 P⟩,
   ⟨S2x1x2x48x48, win 1 4 slices_S2x2x52x52_S2x2x48x48_0_0_1_4 P⟩,
   ⟨S2x1x2x48x48, win 2 0 slices_S2x2x52x52_S2x2x48x48_0_0_2_0 P⟩,
   ⟨S2x1x2x48x48, win 2 1 slices_S2x2x52x52_S2x2x48x48_0_0_2_1 P⟩,
   ⟨S2x1x2x48x48, win 2 2 slices_S2x2x52x52_S2x2x48x48_0_0_2_2 P⟩,
   ⟨S2x1x2x48x48, win 2 3 slices_S2x2x52x52_S2x2x48x48_0_0_2_3 P⟩,
   ⟨S2x1x2x48x48, win 2 4 slices_S2x2x52x52_S2x2x48x48_0_0_2_4 P⟩,
   ⟨S2x1x2x48x48, win 3 0 slices_S2x2x52x52_S2x2x48x48_0_0_3_0 P⟩]

/-- The windows of shifts 16 … 24. -/
def wins9 (P : FVec Ideal S2x2x52x52 .f32) : List ((s : Shape) × (s.Idx → Ideal .f32)) :=
  [⟨S2x1x2x48x48, win 3 1 slices_S2x2x52x52_S2x2x48x48_0_0_3_1 P⟩,
   ⟨S2x1x2x48x48, win 3 2 slices_S2x2x52x52_S2x2x48x48_0_0_3_2 P⟩,
   ⟨S2x1x2x48x48, win 3 3 slices_S2x2x52x52_S2x2x48x48_0_0_3_3 P⟩,
   ⟨S2x1x2x48x48, win 3 4 slices_S2x2x52x52_S2x2x48x48_0_0_3_4 P⟩,
   ⟨S2x1x2x48x48, win 4 0 slices_S2x2x52x52_S2x2x48x48_0_0_4_0 P⟩,
   ⟨S2x1x2x48x48, win 4 1 slices_S2x2x52x52_S2x2x48x48_0_0_4_1 P⟩,
   ⟨S2x1x2x48x48, win 4 2 slices_S2x2x52x52_S2x2x48x48_0_0_4_2 P⟩,
   ⟨S2x1x2x48x48, win 4 3 slices_S2x2x52x52_S2x2x48x48_0_0_4_3 P⟩,
   ⟨S2x1x2x48x48, win 4 4 slices_S2x2x52x52_S2x2x48x48_0_0_4_4 P⟩]

/-- The 25 windows stacked along the new axis: the first sixteen joined, the last nine joined, and the two joined. -/
def stack25 (P : FVec Ideal S2x2x52x52 .f32) : FVec Ideal S2x25x2x48x48 .f32 :=
  concatenate S2x25x2x48x48 1
    [⟨S2x16x2x48x48, concatenate S2x16x2x48x48 1 (wins16 P)
        concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1⟩,
     ⟨S2x9x2x48x48, concatenate S2x9x2x48x48 1 (wins9 P)
        concatenates_S2x1x2x48x48_S2x1x2x48x48_S2x1x2x48x48_S2x1x2x48x48_S2x1x2x48x48_S2x1x2x48x48_S2x1x2x48x48_S2x1x2x48x48_S2x1x2x48x48_S2x9x2x48x48_d1⟩]
    concatenates_S2x16x2x48x48_S2x9x2x48x48_S2x25x2x48x48_d1

/-- The first operand of the comparison, from a stack S: flattened over the 48×48 positions (l = 48·r + w) and
    repeated over the two output groups. -/
def lhsOf (S : FVec Ideal S2x25x2x48x48 .f32) : FVec Ideal S2x2x25x2x2304 .f32 :=
  broadcastInDim S2x2x25x2x2304 ![0, 1, 2, 3, 4] bcast_S2x1x25x2x2304_S2x2x25x2x2304_0_1_2_3_4
    (broadcastInDim S2x1x25x2x2304 ![0, 2, 3, 4] bcast_S2x25x2x2304_S2x1x25x2x2304_0_2_3_4
      (shapeCast S2x25x2x2304 S shapeCasts_S2x25x2x48x48_S2x25x2x2304))

/-- The second operand: the offsets flattened over the positions and repeated over the 25 shifts and the two input
    groups. -/
def rhsArr (O : FVec Ideal S2x2x48x48 .f32) : FVec Ideal S2x2x25x2x2304 .f32 :=
  broadcastInDim S2x2x25x2x2304 ![0, 1, 2, 3, 4] bcast_S2x2x1x1x2304_S2x2x25x2x2304_0_1_2_3_4
    (broadcastInDim S2x2x1x1x2304 ![0, 1, 4] bcast_S2x2x2304_S2x2x1x1x2304_0_1_4
      (shapeCast S2x2x2304 O shapeCasts_S2x2x48x48_S2x2x2304))

/-- The two operands compared by "less than", the truth value turned into 1 or 0. -/
def gateOf (S : FVec Ideal S2x25x2x48x48 .f32) (O : FVec Ideal S2x2x48x48 .f32) : FVec Ideal S2x2x25x2x2304 .bf16 :=
  uitofp (F := Ideal) .bf16 (cmpf .olt (lhsOf S) (rhsArr O))

/-- The gate array built from a padded-offset array P and an offset array O. -/
def gateArr (P : FVec Ideal S2x2x52x52 .f32) (O : FVec Ideal S2x2x48x48 .f32) : FVec Ideal S2x2x25x2x2304 .bf16 :=
  gateOf (stack25 P) O

/-! ## One window at an index -/

/-- Window (i, j) at position (r, w) of image b and group gin is the padded array at row i + r, column j + w. -/
theorem win_apply (i j : Nat) (hi : i ≤ 4) (hj : j ≤ 4) (h : S2x2x52x52.Slices ![0, 0, i, j] S2x2x48x48)
    (P : FVec Ideal S2x2x52x52 .f32) (b : Fin 2) (z : Fin 1) (gin : Fin 2) (r w : Fin 48) :
    win i j h P (ix5 b z gin r w) = P (ix4 b gin ⟨i + r.val, by omega⟩ ⟨j + w.val, by omega⟩) := by
  unfold win
  -- the new unit axis is dropped: the broadcast reads the slice at (b, gin, r, w)
  refine (broadcastInDim_apply _ bcast_S2x2x48x48_S2x1x2x48x48_0_2_3_4 _ (ix5 b z gin r w) (ix4 b gin r w) (fun a => match a with
    | ⟨0, _⟩ => by show b.val = if (2 : Nat) = 1 then 0 else b.val; rw [if_neg (by decide)]
    | ⟨1, _⟩ => by show gin.val = if (2 : Nat) = 1 then 0 else gin.val; rw [if_neg (by decide)]
    | ⟨2, _⟩ => by show r.val = if (48 : Nat) = 1 then 0 else r.val; rw [if_neg (by decide)]
    | ⟨3, _⟩ => by show w.val = if (48 : Nat) = 1 then 0 else w.val; rw [if_neg (by decide)])).trans ?_
  -- the slice starts at offsets (0, 0, i, j)
  exact extractStridedSlice_apply _ P h (ix4 b gin r w) _ (fun a => match a with
    | ⟨0, _⟩ => by show b.val = 0 + b.val; omega
    | ⟨1, _⟩ => by show gin.val = 0 + gin.val; omega
    | ⟨2, _⟩ => by show i + r.val = i + r.val; rfl
    | ⟨3, _⟩ => by show j + w.val = j + w.val; rfl)

/-! ## Joins along the shift axis at an index -/

/-- A join of n pieces of extent one along axis 1, read at coordinate k on that axis, is piece k read at coordinate 0:
    the k pieces before it have total extent k. -/
theorem unitJoin_apply {n : Nat} (xs : List ((s : Shape) × (s.Idx → Ideal .f32)))
    (h : Shape.Concatenates (xs.map (·.1)) ⟨5, ![2, n, 2, 48, 48]⟩ 1) (hshape : xs.map (·.1) = List.replicate n S2x1x2x48x48)
    (k : Nat) (hkn : k < n)
    (x₁ : S2x1x2x48x48.Idx → Ideal .f32) (hxk : xs[k]? = some ⟨S2x1x2x48x48, x₁⟩)
    (b : Fin 2) (gin : Fin 2) (r w : Fin 48) :
    concatenate ⟨5, ![2, n, 2, 48, 48]⟩ 1 xs h (ix5 b ⟨k, hkn⟩ gin r w) = x₁ (ix5 b 0 gin r w) := by
  obtain ⟨hk, hxk'⟩ := List.getElem?_eq_some_iff.1 hxk
  -- the pieces before piece k are k shapes of extent one along axis 1
  have hpre : (((xs.take k).map (·.1)).map fun s : Shape => if h : s.rank = 5 then s.size ((1 : Fin 5).cast h.symm) else 0).sum = k := by
    rw [List.map_take, hshape, List.take_replicate, List.map_replicate, Nat.min_eq_left (Nat.le_of_lt hkn)]
    show (List.replicate k 1).sum = k
    simp
  exact concatenate_apply_piece (1 : Fin 5) xs h (ix5 b ⟨k, hkn⟩ gin r w) k hk S2x1x2x48x48 x₁ hxk' rfl k hpre (ix5 b 0 gin r w)
    (fun a ha => match a, ha with
      | ⟨0, _⟩, _ => rfl
      | ⟨1, _⟩, ha => absurd rfl ha
      | ⟨2, _⟩, _ => rfl
      | ⟨3, _⟩, _ => rfl
      | ⟨4, _⟩, _ => rfl)
    (by show k + 0 = k; omega)

/-- The sixteen windows all have the one-shift shape. -/
theorem wins16_shapes (P : FVec Ideal S2x2x52x52 .f32) : (wins16 P).map (·.1) = List.replicate 16 S2x1x2x48x48 := rfl
/-- So have the nine. -/
theorem wins9_shapes (P : FVec Ideal S2x2x52x52 .f32) : (wins9 P).map (·.1) = List.replicate 9 S2x1x2x48x48 := rfl

/-- The join of a 16-shift stack and a 9-shift stack, read at a shift below 16, is the first stack there. -/
theorem join25_left (x₁ : S2x16x2x48x48.Idx → Ideal .f32) (x₂ : S2x9x2x48x48.Idx → Ideal .f32) (b : Fin 2) (k : Nat) (hk : k < 16)
    (gin : Fin 2) (r w : Fin 48) :
    concatenate S2x25x2x48x48 1 [⟨S2x16x2x48x48, x₁⟩, ⟨S2x9x2x48x48, x₂⟩] concatenates_S2x16x2x48x48_S2x9x2x48x48_S2x25x2x48x48_d1
        (ix5 b ⟨k, by omega⟩ gin r w)
      = x₁ (ix5 b ⟨k, hk⟩ gin r w) :=
  concatenate_pair_apply_left (t := S2x25x2x48x48) (1 : Fin 5) x₁ x₂ concatenates_S2x16x2x48x48_S2x9x2x48x48_S2x25x2x48x48_d1
    (ix5 b ⟨k, by omega⟩ gin r w) rfl (ix5 b ⟨k, hk⟩ gin r w)
    (fun a => match a with
      | ⟨0, _⟩ => rfl
      | ⟨1, _⟩ => rfl
      | ⟨2, _⟩ => rfl
      | ⟨3, _⟩ => rfl
      | ⟨4, _⟩ => rfl)

/-- Read at a shift from 16 on, it is the second stack at that shift less 16. -/
theorem join25_right (x₁ : S2x16x2x48x48.Idx → Ideal .f32) (x₂ : S2x9x2x48x48.Idx → Ideal .f32) (b : Fin 2) (k : Nat) (hk : k < 25)
    (hk' : 16 ≤ k) (gin : Fin 2) (r w : Fin 48) :
    concatenate S2x25x2x48x48 1 [⟨S2x16x2x48x48, x₁⟩, ⟨S2x9x2x48x48, x₂⟩] concatenates_S2x16x2x48x48_S2x9x2x48x48_S2x25x2x48x48_d1
        (ix5 b ⟨k, hk⟩ gin r w)
      = x₂ (ix5 b ⟨k - 16, by omega⟩ gin r w) :=
  concatenate_pair_apply_right (t := S2x25x2x48x48) (1 : Fin 5) x₁ x₂ concatenates_S2x16x2x48x48_S2x9x2x48x48_S2x25x2x48x48_d1
    (ix5 b ⟨k, hk⟩ gin r w) rfl rfl (ix5 b ⟨k - 16, by omega⟩ gin r w)
    (fun a ha => match a, ha with
      | ⟨0, _⟩, _ => rfl
      | ⟨1, _⟩, ha => absurd rfl ha
      | ⟨2, _⟩, _ => rfl
      | ⟨3, _⟩, _ => rfl
      | ⟨4, _⟩, _ => rfl)
    (by show k - 16 + 16 = k; omega)

/-! ## The stack at an index -/

/-- Shift s = 5·i + j of the stack is window (i, j): at (b, s, gin, r, w) the stack holds the padded array at row
    s / 5 + r and column s % 5 + w. One case per shift, since the stack is a literal list of 25 windows. -/
theorem stack25_apply (P : FVec Ideal S2x2x52x52 .f32) (b : Fin 2) (s : Fin 25) (gin : Fin 2) (r w : Fin 48) :
    stack25 P (ix5 b s gin r w) = P (ix4 b gin ⟨s.val / 5 + r.val, by omega⟩ ⟨s.val % 5 + w.val, by omega⟩) := by
  obtain ⟨k, hk⟩ := s
  show stack25 P (ix5 b ⟨k, hk⟩ gin r w) = P (ix4 b gin ⟨k / 5 + r.val, by omega⟩ ⟨k % 5 + w.val, by omega⟩)
  unfold stack25
  match k, hk with
  | 0, _ =>
    exact (join25_left _ _ b 0 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 0 (by omega) _ rfl b gin r w).trans
      (win_apply 0 0 (by omega) (by omega) _ P b 0 gin r w))
  | 1, _ =>
    exact (join25_left _ _ b 1 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 1 (by omega) _ rfl b gin r w).trans
      (win_apply 0 1 (by omega) (by omega) _ P b 0 gin r w))
  | 2, _ =>
    exact (join25_left _ _ b 2 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 2 (by omega) _ rfl b gin r w).trans
      (win_apply 0 2 (by omega) (by omega) _ P b 0 gin r w))
  | 3, _ =>
    exact (join25_left _ _ b 3 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 3 (by omega) _ rfl b gin r w).trans
      (win_apply 0 3 (by omega) (by omega) _ P b 0 gin r w))
  | 4, _ =>
    exact (join25_left _ _ b 4 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 4 (by omega) _ rfl b gin r w).trans
      (win_apply 0 4 (by omega) (by omega) _ P b 0 gin r w))
  | 5, _ =>
    exact (join25_left _ _ b 5 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 5 (by omega) _ rfl b gin r w).trans
      (win_apply 1 0 (by omega) (by omega) _ P b 0 gin r w))
  | 6, _ =>
    exact (join25_left _ _ b 6 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 6 (by omega) _ rfl b gin r w).trans
      (win_apply 1 1 (by omega) (by omega) _ P b 0 gin r w))
  | 7, _ =>
    exact (join25_left _ _ b 7 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 7 (by omega) _ rfl b gin r w).trans
      (win_apply 1 2 (by omega) (by omega) _ P b 0 gin r w))
  | 8, _ =>
    exact (join25_left _ _ b 8 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 8 (by omega) _ rfl b gin r w).trans
      (win_apply 1 3 (by omega) (by omega) _ P b 0 gin r w))
  | 9, _ =>
    exact (join25_left _ _ b 9 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 9 (by omega) _ rfl b gin r w).trans
      (win_apply 1 4 (by omega) (by omega) _ P b 0 gin r w))
  | 10, _ =>
    exact (join25_left _ _ b 10 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 10 (by omega) _ rfl b gin r w).trans
      (win_apply 2 0 (by omega) (by omega) _ P b 0 gin r w))
  | 11, _ =>
    exact (join25_left _ _ b 11 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 11 (by omega) _ rfl b gin r w).trans
      (win_apply 2 1 (by omega) (by omega) _ P b 0 gin r w))
  | 12, _ =>
    exact (join25_left _ _ b 12 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 12 (by omega) _ rfl b gin r w).trans
      (win_apply 2 2 (by omega) (by omega) _ P b 0 gin r w))
  | 13, _ =>
    exact (join25_left _ _ b 13 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 13 (by omega) _ rfl b gin r w).trans
      (win_apply 2 3 (by omega) (by omega) _ P b 0 gin r w))
  | 14, _ =>
    exact (join25_left _ _ b 14 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 14 (by omega) _ rfl b gin r w).trans
      (win_apply 2 4 (by omega) (by omega) _ P b 0 gin r w))
  | 15, _ =>
    exact (join25_left _ _ b 15 (by omega) gin r w).trans ((unitJoin_apply (wins16 P) concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 (wins16_shapes P) 15 (by omega) _ rfl b gin r w).trans
      (win_apply 3 0 (by omega) (by omega) _ P b 0 gin r w))
  | 16, _ =>
    exact (join25_right _ _ b 16 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 0 (by omega) _ rfl b gin r w).trans
      (win_apply 3 1 (by omega) (by omega) _ P b 0 gin r w))
  | 17, _ =>
    exact (join25_right _ _ b 17 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 1 (by omega) _ rfl b gin r w).trans
      (win_apply 3 2 (by omega) (by omega) _ P b 0 gin r w))
  | 18, _ =>
    exact (join25_right _ _ b 18 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 2 (by omega) _ rfl b gin r w).trans
      (win_apply 3 3 (by omega) (by omega) _ P b 0 gin r w))
  | 19, _ =>
    exact (join25_right _ _ b 19 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 3 (by omega) _ rfl b gin r w).trans
      (win_apply 3 4 (by omega) (by omega) _ P b 0 gin r w))
  | 20, _ =>
    exact (join25_right _ _ b 20 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 4 (by omega) _ rfl b gin r w).trans
      (win_apply 4 0 (by omega) (by omega) _ P b 0 gin r w))
  | 21, _ =>
    exact (join25_right _ _ b 21 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 5 (by omega) _ rfl b gin r w).trans
      (win_apply 4 1 (by omega) (by omega) _ P b 0 gin r w))
  | 22, _ =>
    exact (join25_right _ _ b 22 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 6 (by omega) _ rfl b gin r w).trans
      (win_apply 4 2 (by omega) (by omega) _ P b 0 gin r w))
  | 23, _ =>
    exact (join25_right _ _ b 23 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 7 (by omega) _ rfl b gin r w).trans
      (win_apply 4 3 (by omega) (by omega) _ P b 0 gin r w))
  | 24, _ =>
    exact (join25_right _ _ b 24 (by omega) (by omega) gin r w).trans ((unitJoin_apply (wins9 P) concatenates_S2x1x2x48x48_S2x1x2x48x48_S2x1x2x48x48_S2x1x2x48x48_S2x1x2x48x48_S2x1x2x48x48_S2x1x2x48x48_S2x1x2x48x48_S2x1x2x48x48_S2x9x2x48x48_d1 (wins9_shapes P) 8 (by omega) _ rfl b gin r w).trans
      (win_apply 4 4 (by omega) (by omega) _ P b 0 gin r w))
  | n + 25, h => exact absurd h (by omega)

/-! ## The two operands of the comparison at an index -/

/-- The first operand at (b, g, s, gin, l) is the stack at image b, shift s, group gin, row l / 48 and column l % 48,
    whatever the output group g. -/
theorem lhsOf_apply (S : FVec Ideal S2x25x2x48x48 .f32) (b g : Fin 2) (s : Fin 25) (gin : Fin 2) (l : Fin 2304) :
    lhsOf S (ix5 b g s gin l) = S (ix5 b s gin (Cert.Spec.lrow l) (Cert.Spec.lcol l)) := by
  unfold lhsOf
  -- the output-group axis has extent one in the operand
  refine (broadcastInDim_apply _ bcast_S2x1x25x2x2304_S2x2x25x2x2304_0_1_2_3_4 _ (ix5 b g s gin l) (ix5 b (0 : Fin 1) s gin l) (fun a => match a with
    | ⟨0, _⟩ => by show b.val = if (2 : Nat) = 1 then 0 else b.val; rw [if_neg (by decide)]
    | ⟨1, _⟩ => by show (0 : Nat) = if (1 : Nat) = 1 then 0 else g.val; rw [if_pos rfl]
    | ⟨2, _⟩ => by show s.val = if (25 : Nat) = 1 then 0 else s.val; rw [if_neg (by decide)]
    | ⟨3, _⟩ => by show gin.val = if (2 : Nat) = 1 then 0 else gin.val; rw [if_neg (by decide)]
    | ⟨4, _⟩ => by show l.val = if (2304 : Nat) = 1 then 0 else l.val; rw [if_neg (by decide)])).trans ?_
  -- and is a new axis of the rank-4 array
  refine (broadcastInDim_apply _ bcast_S2x25x2x2304_S2x1x25x2x2304_0_2_3_4 _ (ix5 b (0 : Fin 1) s gin l) (ix4 b s gin l) (fun a => match a with
    | ⟨0, _⟩ => by show b.val = if (2 : Nat) = 1 then 0 else b.val; rw [if_neg (by decide)]
    | ⟨1, _⟩ => by show s.val = if (25 : Nat) = 1 then 0 else s.val; rw [if_neg (by decide)]
    | ⟨2, _⟩ => by show gin.val = if (2 : Nat) = 1 then 0 else gin.val; rw [if_neg (by decide)]
    | ⟨3, _⟩ => by show l.val = if (2304 : Nat) = 1 then 0 else l.val; rw [if_neg (by decide)])).trans ?_
  -- position l of the flattened array is row l / 48, column l % 48: the same row-major position
  exact (shapeCast_apply _ shapeCasts_S2x25x2x48x48_S2x25x2x2304 (ix4 b s gin l) (ix5 b s gin (Cert.Spec.lrow l) (Cert.Spec.lcol l)) (by
    rw [Shape.rowMajor_val_five, Shape.rowMajor_val_four]
    show (((b.val * 25 + s.val) * 2 + gin.val) * 48 + l.val / 48) * 48 + l.val % 48 = ((b.val * 25 + s.val) * 2 + gin.val) * 2304 + l.val
    omega))

/-- The second operand at (b, g, s, gin, l) is the offset array at image b, output group g, row l / 48 and column
    l % 48, whatever the shift and the input group. -/
theorem rhsArr_apply (O : FVec Ideal S2x2x48x48 .f32) (b g : Fin 2) (s : Fin 25) (gin : Fin 2) (l : Fin 2304) :
    rhsArr O (ix5 b g s gin l) = O (ix4 b g (Cert.Spec.lrow l) (Cert.Spec.lcol l)) := by
  unfold rhsArr
  -- the shift axis and the input-group axis have extent one in the operand
  refine (broadcastInDim_apply _ bcast_S2x2x1x1x2304_S2x2x25x2x2304_0_1_2_3_4 _ (ix5 b g s gin l) (ix5 b g (0 : Fin 1) (0 : Fin 1) l) (fun a => match a with
    | ⟨0, _⟩ => by show b.val = if (2 : Nat) = 1 then 0 else b.val; rw [if_neg (by decide)]
    | ⟨1, _⟩ => by show g.val = if (2 : Nat) = 1 then 0 else g.val; rw [if_neg (by decide)]
    | ⟨2, _⟩ => by show (0 : Nat) = if (1 : Nat) = 1 then 0 else s.val; rw [if_pos rfl]
    | ⟨3, _⟩ => by show (0 : Nat) = if (1 : Nat) = 1 then 0 else gin.val; rw [if_pos rfl]
    | ⟨4, _⟩ => by show l.val = if (2304 : Nat) = 1 then 0 else l.val; rw [if_neg (by decide)])).trans ?_
  -- and are new axes of the rank-3 array
  refine (broadcastInDim_apply _ bcast_S2x2x2304_S2x2x1x1x2304_0_1_4 _ (ix5 b g (0 : Fin 1) (0 : Fin 1) l) (ix3 b g l) (fun a => match a with
    | ⟨0, _⟩ => by show b.val = if (2 : Nat) = 1 then 0 else b.val; rw [if_neg (by decide)]
    | ⟨1, _⟩ => by show g.val = if (2 : Nat) = 1 then 0 else g.val; rw [if_neg (by decide)]
    | ⟨2, _⟩ => by show l.val = if (2304 : Nat) = 1 then 0 else l.val; rw [if_neg (by decide)])).trans ?_
  -- position l of the flattened array is row l / 48, column l % 48
  exact shapeCast_apply _ shapeCasts_S2x2x48x48_S2x2x2304 (ix3 b g l) (ix4 b g (Cert.Spec.lrow l) (Cert.Spec.lcol l)) (by
    rw [Shape.rowMajor_val_four, Shape.rowMajor_val_three]
    show ((b.val * 2 + g.val) * 48 + l.val / 48) * 48 + l.val % 48 = (b.val * 2 + g.val) * 2304 + l.val
    omega)

/-- The gate array at (b, g, s, gin, l): 1 where the padded array at the shifted position, in the input group, is
    strictly below the offset array at the centre position, in the output group; else 0. The conversion of the truth
    value does not depend on the format it is asked for, all formats being the extended reals. -/
theorem gateArr_apply (P : FVec Ideal S2x2x52x52 .f32) (O : FVec Ideal S2x2x48x48 .f32) (b g : Fin 2) (s : Fin 25) (gin : Fin 2)
    (l : Fin 2304) :
    gateArr P O (ix5 b g s gin l)
      = Cert.Spec.gate (P (ix4 b gin (Cert.Spec.prow s l) (Cert.Spec.pcol s l))) (O (ix4 b g (Cert.Spec.lrow l) (Cert.Spec.lcol l))) := by
  show FloatOps.uitofp (F := Ideal) .bf16 (FloatOps.cmpf (F := Ideal) .olt (lhsOf (stack25 P) (ix5 b g s gin l)) (rhsArr O (ix5 b g s gin l))) = _
  rw [lhsOf_apply, rhsArr_apply, stack25_apply]
  rfl

/-! ## The host operations before the region, stretch by stretch

The operations before the region are cut into six consecutive stretches. What a stretch leaves in a buffer is stated
for an arbitrary valuation W of the buffers before the stretch, as a function of W at the buffers the stretch reads. -/

/-- Everything before the offsets are computed. -/
def stA : List (HloOp τ sig (Elt Ideal)) := hostOps0 (F := Ideal) ++ hostOps0_1 (F := Ideal) ++ (hostOps0_2 (F := Ideal)).take 55
/-- The offsets and their padding. -/
def stB : List (HloOp τ sig (Elt Ideal)) := (hostOps0_2 (F := Ideal)).drop 55 ++ hostOps0_3 (F := Ideal)
/-- The 25 windows of the padded offsets, each given its unit axis. -/
def stC : List (HloOp τ sig (Elt Ideal)) := (hostOps0_4 (F := Ideal)).take 50
/-- The three joins that stack the windows. -/
def stD : List (HloOp τ sig (Elt Ideal)) := ((hostOps0_4 (F := Ideal)).drop 50).take 3
/-- The flattenings, the repetitions, the comparison and its conversion. -/
def stE : List (HloOp τ sig (Elt Ideal)) := ((hostOps0_4 (F := Ideal)).drop 53).take 8
/-- The re-laying of the weights, which comes after the gate array. -/
def stF : List (HloOp τ sig (Elt Ideal)) := (hostOps0_4 (F := Ideal)).drop 61

/-- The six stretches, in order, are the operations before the region. -/
theorem hostAll_split :
    (List.flatten [hostOps0, hostOps0_1, hostOps0_2, hostOps0_3, hostOps0_4] : List (HloOp τ sig (Elt Ideal)))
      = stA ++ (stB ++ (stC ++ (stD ++ (stE ++ stF)))) := by
  rfl

section Stretches
variable (W : Valuation τ sig (Elt Ideal))

/-- No operation of the first stretch writes the group labels. -/
theorem stA_arg1 : StableHlo.after stA W (Proc.devRef .tc main_arg1) = W (Proc.devRef .tc main_arg1) := by
  unfold stA
  simp only [hostOps0, hostOps0_1, hostOps0_2, hostOps0_3, hostOps0_4, List.take_succ_cons, List.take_zero, List.drop_succ_cons, List.drop_zero,
    List.cons_append, List.nil_append, List.append_nil]
  after_results_simp <;> rfl

/-- The second stretch leaves the offsets of the group labels in main_v62. -/
theorem stB_v62 : StableHlo.after stB W (Proc.devRef .tc main_v62) = off (W (Proc.devRef .tc main_arg1)) := by
  unfold stB
  simp only [hostOps0, hostOps0_1, hostOps0_2, hostOps0_3, hostOps0_4, List.take_succ_cons, List.take_zero, List.drop_succ_cons, List.drop_zero,
    List.cons_append, List.nil_append, List.append_nil]
  after_results
  rfl

/-- And their padding in main_v63. -/
theorem stB_v63 : StableHlo.after stB W (Proc.devRef .tc main_v63) = offp (W (Proc.devRef .tc main_arg1)) := by
  unfold stB
  simp only [hostOps0, hostOps0_1, hostOps0_2, hostOps0_3, hostOps0_4, List.take_succ_cons, List.take_zero, List.drop_succ_cons, List.drop_zero,
    List.cons_append, List.nil_append, List.append_nil]
  after_results
  rfl

set_option maxHeartbeats 8000000 in
/-- The third stretch leaves window (i, j) of main_v63 in main_v(89 + 5·i + j), and does not write main_v62. -/
theorem stC_results :
    (StableHlo.after stC W (Proc.devRef .tc main_v89) = win 0 0 slices_S2x2x52x52_S2x2x48x48_0_0_0_0 (W (Proc.devRef .tc main_v63))) ∧
    (StableHlo.after stC W (Proc.devRef .tc main_v90) = win 0 1 slices_S2x2x52x52_S2x2x48x48_0_0_0_1 (W (Proc.devRef .tc main_v63))) ∧
    (StableHlo.after stC W (Proc.devRef .tc main_v91) = win 0 2 slices_S2x2x52x52_S2x2x48x48_0_0_0_2 (W (Proc.devRef .tc main_v63))) ∧
    (StableHlo.after stC W (Proc.devRef .tc main_v92) = win 0 3 slices_S2x2x52x52_S2x2x48x48_0_0_0_3 (W (Proc.devRef .tc main_v63))) ∧
    (StableHlo.after stC W (Proc.devRef .tc main_v93) = win 0 4 slices_S2x2x52x52_S2x2x48x48_0_0_0_4 (W (Proc.devRef .tc main_v63))) ∧
    (StableHlo.after stC W (Proc.devRef .tc main_v94) = win 1 0 slices_S2x2x52x52_S2x2x48x48_0_0_1_0 (W (Proc.devRef .tc main_v63))) ∧
    (StableHlo.after stC W (Proc.devRef .tc main_v95) = win 1 1 slices_S2x2x52x52_S2x2x48x48_0_0_1_1 (W (Proc.devRef .tc main_v63))) ∧
    (StableHlo.after stC W (Proc.devRef .tc main_v96) = win 1 2 slices_S2x2x52x52_S2x2x48x48_0_0_1_2 (W (Proc.devRef .tc main_v63))) ∧
    (StableHlo.after stC W (Proc.devRef .tc main_v97) = win 1 3 slices_S2x2x52x52_S2x2x48x48_0_0_1_3 (W (Proc.devRef .tc main_v63))) ∧
    (StableHlo.after stC W (Proc.devRef .tc main_v98) = win 1 4 slices_S2x2x52x52_S2x2x48x48_0_0_1_4 (W (Proc.devRef .tc main_v63))) ∧
    (StableHlo.after stC W (Proc.devRef .tc main_v99) = win 2 0 slices_S2x2x52x52_S2x2x48x48_0_0_2_0 (W (Proc.devRef .tc main_v63))) ∧
    (StableHlo.after stC W (Proc.devRef .tc main_v100) = win 2 1 slices_S2x2x52x52_S2x2x48x48_0_0_2_1 (W (Proc.devRef .tc main_v63))) ∧
    (StableHlo.after stC W (Proc.devRef .tc main_v101) = win 2 2 slices_S2x2x52x52_S2x2x48x48_0_0_2_2 (W (Proc.devRef .tc main_v63))) ∧
    (StableHlo.after stC W (Proc.devRef .tc main_v102) = win 2 3 slices_S2x2x52x52_S2x2x48x48_0_0_2_3 (W (Proc.devRef .tc main_v63))) ∧
    (StableHlo.after stC W (Proc.devRef .tc main_v103) = win 2 4 slices_S2x2x52x52_S2x2x48x48_0_0_2_4 (W (Proc.devRef .tc main_v63))) ∧
    (StableHlo.after stC W (Proc.devRef .tc main_v104) = win 3 0 slices_S2x2x52x52_S2x2x48x48_0_0_3_0 (W (Proc.devRef .tc main_v63))) ∧
    (StableHlo.after stC W (Proc.devRef .tc main_v105) = win 3 1 slices_S2x2x52x52_S2x2x48x48_0_0_3_1 (W (Proc.devRef .tc main_v63))) ∧
    (StableHlo.after stC W (Proc.devRef .tc main_v106) = win 3 2 slices_S2x2x52x52_S2x2x48x48_0_0_3_2 (W (Proc.devRef .tc main_v63))) ∧
    (StableHlo.after stC W (Proc.devRef .tc main_v107) = win 3 3 slices_S2x2x52x52_S2x2x48x48_0_0_3_3 (W (Proc.devRef .tc main_v63))) ∧
    (StableHlo.after stC W (Proc.devRef .tc main_v108) = win 3 4 slices_S2x2x52x52_S2x2x48x48_0_0_3_4 (W (Proc.devRef .tc main_v63))) ∧
    (StableHlo.after stC W (Proc.devRef .tc main_v109) = win 4 0 slices_S2x2x52x52_S2x2x48x48_0_0_4_0 (W (Proc.devRef .tc main_v63))) ∧
    (StableHlo.after stC W (Proc.devRef .tc main_v110) = win 4 1 slices_S2x2x52x52_S2x2x48x48_0_0_4_1 (W (Proc.devRef .tc main_v63))) ∧
    (StableHlo.after stC W (Proc.devRef .tc main_v111) = win 4 2 slices_S2x2x52x52_S2x2x48x48_0_0_4_2 (W (Proc.devRef .tc main_v63))) ∧
    (StableHlo.after stC W (Proc.devRef .tc main_v112) = win 4 3 slices_S2x2x52x52_S2x2x48x48_0_0_4_3 (W (Proc.devRef .tc main_v63))) ∧
    (StableHlo.after stC W (Proc.devRef .tc main_v113) = win 4 4 slices_S2x2x52x52_S2x2x48x48_0_0_4_4 (W (Proc.devRef .tc main_v63))) ∧
    (StableHlo.after stC W (Proc.devRef .tc main_v62) = W (Proc.devRef .tc main_v62)) := by
  unfold stC
  simp only [hostOps0, hostOps0_1, hostOps0_2, hostOps0_3, hostOps0_4, List.take_succ_cons, List.take_zero, List.drop_succ_cons, List.drop_zero,
    List.cons_append, List.nil_append, List.append_nil]
  refine ⟨?_, ?_, ?_, ?_, ?_, ?_, ?_, ?_, ?_, ?_, ?_, ?_, ?_, ?_, ?_, ?_, ?_, ?_, ?_, ?_, ?_, ?_, ?_, ?_, ?_, ?_⟩
  all_goals (after_results_simp <;> rfl)

/-- The fourth stretch leaves in main_v116 the join of the joins of the first sixteen and the last nine of
    main_v89 … main_v113. -/
theorem stD_v116 : StableHlo.after stD W (Proc.devRef .tc main_v116) =
    concatenate S2x25x2x48x48 1
      [⟨S2x16x2x48x48, concatenate S2x16x2x48x48 1 [⟨S2x1x2x48x48, W (Proc.devRef .tc main_v89)⟩,
          ⟨S2x1x2x48x48, W (Proc.devRef .tc main_v90)⟩,
          ⟨S2x1x2x48x48, W (Proc.devRef .tc main_v91)⟩,
          ⟨S2x1x2x48x48, W (Proc.devRef .tc main_v92)⟩,
          ⟨S2x1x2x48x48, W (Proc.devRef .tc main_v93)⟩,
          ⟨S2x1x2x48x48, W (Proc.devRef .tc main_v94)⟩,
          ⟨S2x1x2x48x48, W (Proc.devRef .tc main_v95)⟩,
          ⟨S2x1x2x48x48, W (Proc.devRef .tc main_v96)⟩,
          ⟨S2x1x2x48x48, W (Proc.devRef .tc main_v97)⟩,
          ⟨S2x1x2x48x48, W (Proc.devRef .tc main_v98)⟩,
          ⟨S2x1x2x48x48, W (Proc.devRef .tc main_v99)⟩,
          ⟨S2x1x2x48x48, W (Proc.devRef .tc main_v100)⟩,
          ⟨S2x1x2x48x48, W (Proc.devRef .tc main_v101)⟩,
          ⟨S2x1x2x48x48, W (Proc.devRef .tc main_v102)⟩,
          ⟨S2x1x2x48x48, W (Proc.devRef .tc main_v103)⟩,
          ⟨S2x1x2x48x48, W (Proc.devRef .tc main_v104)⟩]
          concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1⟩,
       ⟨S2x9x2x48x48, concatenate S2x9x2x48x48 1 [⟨S2x1x2x48x48, W (Proc.devRef .tc main_v105)⟩,
          ⟨S2x1x2x48x48, W (Proc.devRef .tc main_v106)⟩,
          ⟨S2x1x2x48x48, W (Proc.devRef .tc main_v107)⟩,
          ⟨S2x1x2x48x48, W (Proc.devRef .tc main_v108)⟩,
          ⟨S2x1x2x48x48, W (Proc.devRef .tc main_v109)⟩,
          ⟨S2x1x2x48x48, W (Proc.devRef .tc main_v110)⟩,
          ⟨S2x1x2x48x48, W (Proc.devRef .tc main_v111)⟩,
          ⟨S2x1x2x48x48, W (Proc.devRef .tc main_v112)⟩,
          ⟨S2x1x2x48x48, W (Proc.devRef .tc main_v113)⟩]
          concatenates_S2x1x2x48x48_S2x1x2x48x48_S2x1x2x48x48_S2x1x2x48x48_S2x1x2x48x48_S2x1x2x48x48_S2x1x2x48x48_S2x1x2x48x48_S2x1x2x48x48_S2x9x2x48x48_d1⟩]
      concatenates_S2x16x2x48x48_S2x9x2x48x48_S2x25x2x48x48_d1 := by
  unfold stD
  simp only [hostOps0, hostOps0_1, hostOps0_2, hostOps0_3, hostOps0_4, List.take_succ_cons, List.take_zero, List.drop_succ_cons, List.drop_zero,
    List.cons_append, List.nil_append, List.append_nil]
  after_results
  rfl

/-- And does not write main_v62. -/
theorem stD_v62 : StableHlo.after stD W (Proc.devRef .tc main_v62) = W (Proc.devRef .tc main_v62) := by
  unfold stD
  simp only [hostOps0, hostOps0_1, hostOps0_2, hostOps0_3, hostOps0_4, List.take_succ_cons, List.take_zero, List.drop_succ_cons, List.drop_zero,
    List.cons_append, List.nil_append, List.append_nil]
  after_results_simp <;> rfl

/-- The fifth stretch leaves in main_v124 the gate array of the stack in main_v116 and the offsets in main_v62. -/
theorem stE_v124 : StableHlo.after stE W (Proc.devRef .tc main_v124) = gateOf (W (Proc.devRef .tc main_v116)) (W (Proc.devRef .tc main_v62)) := by
  unfold stE
  simp only [hostOps0, hostOps0_1, hostOps0_2, hostOps0_3, hostOps0_4, List.take_succ_cons, List.take_zero, List.drop_succ_cons, List.drop_zero,
    List.cons_append, List.nil_append, List.append_nil]
  after_results
  rfl

/-- The last stretch does not write main_v124. -/
theorem stF_v124 : StableHlo.after stF W (Proc.devRef .tc main_v124) = W (Proc.devRef .tc main_v124) := by
  unfold stF
  simp only [hostOps0, hostOps0_1, hostOps0_2, hostOps0_3, hostOps0_4, List.take_succ_cons, List.take_zero, List.drop_succ_cons, List.drop_zero,
    List.cons_append, List.nil_append, List.append_nil]
  after_results_simp <;> rfl

end Stretches

end Gate

open Gate

/-! ## The gate array when the region is entered -/

/-- The gate operand, as one array: the gate array of the padded offsets and the offsets of the group labels. -/
theorem v124_eq (m : (ℓ : Loc nD τ sig) → Buf (Elt Ideal) ℓ) (c : Dev nD) :
    (Cert.KernelIdeal.Fr.V m c main_v124 : S2x2x25x2x2304.Idx → Elt Ideal .bf16)
      = gateArr (offp (m ((c : Thread nD τ).loc main_arg1))) (off (m ((c : Thread nD τ).loc main_arg1))) := by
  dsimp only [Cert.KernelIdeal.Fr.V, Cert.KernelIdeal.Fr.V0]
  rw [hostAll_split]
  simp only [StableHlo.after_append]
  rw [stF_v124, stE_v124, stD_v116, stD_v62]
  obtain ⟨h0, h1, h2, h3, h4, h5, h6, h7, h8, h9, h10, h11, h12, h13, h14, h15, h16, h17, h18, h19, h20, h21, h22, h23, h24, h62⟩ := stC_results (StableHlo.after stB (StableHlo.after stA fun b => m (c, b)))
  rw [h0, h1, h2, h3, h4, h5, h6, h7, h8, h9, h10, h11, h12, h13, h14, h15, h16, h17, h18, h19, h20, h21, h22, h23, h24, h62, stB_v63, stB_v62, stA_arg1]
  rfl

/-- The gate operand at (b, g, s, gin, l): 1 where the padded offset at the shifted position, in input group gin, is
    strictly below the offset at the centre position, in output group g; else 0. -/
theorem v124_apply (m : (ℓ : Loc nD τ sig) → Buf (Elt Ideal) ℓ) (c : Dev nD) (b g : Fin 2) (s : Fin 25) (gin : Fin 2)
    (l : Fin 2304) :
    Cert.KernelIdeal.Fr.V m c main_v124 (ix5 b g s gin l)
      = Cert.Spec.gate (offp (m ((c : Thread nD τ).loc main_arg1)) (ix4 b gin (Cert.Spec.prow s l) (Cert.Spec.pcol s l)))
          (off (m ((c : Thread nD τ).loc main_arg1)) (ix4 b g (Cert.Spec.lrow l) (Cert.Spec.lcol l))) :=
  (congrFun (v124_eq m c) (ix5 b g s gin l)).trans (gateArr_apply _ _ b g s gin l)

end Cert.KernelIdeal.Val

end
-- ==== Proof.KI.Value.lean ====
/-
  The idealized kernel's result as a function of its arguments.

  At every grid point the accumulator ends at what it held plus the point's shift contribution (at a first shift:
  at zero plus it), so after the point of shift s of an (image, output group) pair it holds the contributions of the
  shifts 0 … s of that pair, added up in order.  At the last shift the output block is written: the 25 contributions
  plus the bias.  The output array's blocks, one per pair, tile it, so the array ends at the specification's
  function, and the program's closing reshape re-lays it as [2, 384, 48, 48].
-/
import proofs.«113980_j13426067767599_1_alg».proof.Proof.KI.Frame
import proofs.«113980_j13426067767599_1_alg».proof.Proof.KI.Pieces
import proofs.«113980_j13426067767599_1_alg».proof.Proof.KI.Tail
import proofs.«113980_j13426067767599_1_alg».proof.Proof.KI.Payload
import proofs.«113980_j13426067767599_1_alg».proof.Proof.KI.Blocks
import proofs.«113980_j13426067767599_1_alg».proof.Proof.KI.HostX
import proofs.«113980_j13426067767599_1_alg».proof.Proof.KI.HostMask
import proofs.«113980_j13426067767599_1_alg».proof.Proof.Spec
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The padded image, the padded offsets, the offsets, the weights and the bias of core c, as the kernel's program
    computes them from the launch memory. -/
abbrev XP (c : Dev nD) := xp (m ((c : Thread nD τ).loc main_arg0))
abbrev OFFP (c : Dev nD) := offp (m ((c : Thread nD τ).loc main_arg1))
abbrev OFF (c : Dev nD) := off (m ((c : Thread nD τ).loc main_arg1))
abbrev DKW (c : Dev nD) : (⟨S2x2x192x4800x1, .f32⟩ : BufTy).Contents (Elt Ideal) := m ((c : Thread nD τ).loc main_arg2)
abbrev DKB (c : Dev nD) : (⟨S2x2x192x1, .f32⟩ : BufTy).Contents (Elt Ideal) := m ((c : Thread nD τ).loc main_arg3)

/-- ONE SHIFT.  At grid point t the body's accumulation, read at (output channel, position), adds to what the
    accumulator held the shift's contribution: the sum over the channels of weight × gated tap, for the point's image,
    output group and shift. -/
theorem step (c : Dev nD) (t : Fin cfg0.N) (prev : Vec Ideal S192x2304 .f32) (o : Fin 192) (l : Fin 2304) :
    k0_pay2 (F := Ideal) (iblk m c 0 t) (iblk m c 2 t) (iblk m c 1 t) prev (ix2 o l)
      = prev (ix2 o l) + Cert.Spec.shiftTerm (XP m c) (OFFP m c) (OFF m c) (DKW m c) (bOf t) (gOf t) o l (sOf t) := by
  refine (pay2_apply (iblk m c 0 t) (iblk m c 2 t) (iblk m c 1 t) prev o l).trans ?_
  refine congrArg (prev (ix2 o l) + ·) ?_
  unfold Cert.Spec.shiftTerm
  refine Finset.sum_congr rfl fun ch _ => ?_
  rw [blk1_read, blk0_read, blk2_read, v127_apply, v55_apply, v124_apply]
  rfl

/-! ## What each point leaves, as payloads of the point's blocks -/

/-- At a first shift the accumulator ends at the accumulation over zeros. -/
theorem acc_A (c : Dev nD) (t : Fin cfg0.N) (h0 : t.val % 25 = 0) (h1 : ¬t.val % 25 = 24) :
    (outsAt0 m c t.val t.isLt).2 = k0_pay2 (iblk m c 0 t) (iblk m c 2 t) (iblk m c 1 t) (k0_pay1 (F := Ideal)) := by
  rw [outsAt0_A m c t h0 h1]
  dsimp only
  unfold sout0_A_0
  exact piece_A (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (isFirst h0) (notLast h1) (iblk m c 0 t) (iblk m c 1 t) (iblk m c 2 t) (iblk m c 3 t)

/-- At a middle shift it ends at the accumulation over what the point before left. -/
theorem acc_B (c : Dev nD) (t : Fin cfg0.N) (h0 : ¬t.val % 25 = 0) (h1 : ¬t.val % 25 = 24) :
    (outsAt0 m c t.val t.isLt).2 = k0_pay2 (iblk m c 0 t) (iblk m c 2 t) (iblk m c 1 t)
      (outsAt0 m c (t.val - 1) (Nat.lt_of_le_of_lt (Nat.sub_le _ _) t.isLt)).2 := by
  rw [outsAt0_B m c t h0 h1]
  dsimp only
  unfold sout0_B_0
  exact piece_B (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (notFirst h0) (notLast h1) (iblk m c 0 t) (iblk m c 1 t) (iblk m c 2 t) (iblk m c 3 t)
    (outsAt0 m c (t.val - 1) (Nat.lt_of_le_of_lt (Nat.sub_le _ _) t.isLt)).2

/-- At a last shift likewise, -/
theorem acc_C (c : Dev nD) (t : Fin cfg0.N) (h0 : ¬t.val % 25 = 0) (h1 : t.val % 25 = 24) :
    (outsAt0 m c t.val t.isLt).2 = k0_pay2 (iblk m c 0 t) (iblk m c 2 t) (iblk m c 1 t)
      (outsAt0 m c (t.val - 1) (Nat.lt_of_le_of_lt (Nat.sub_le _ _) t.isLt)).2 := by
  rw [outsAt0_C m c t h0 h1]
  dsimp only
  unfold sout0_C_0
  exact piece_C (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (notFirst h0) (isLast h1) (iblk m c 0 t) (iblk m c 1 t) (iblk m c 2 t) (iblk m c 3 t)
    (outsAt0 m c (t.val - 1) (Nat.lt_of_le_of_lt (Nat.sub_le _ _) t.isLt)).2

/-- and the output block is that accumulator plus the bias block, broadcast along the positions. -/
theorem out_C (c : Dev nD) (t : Fin cfg0.N) (h0 : ¬t.val % 25 = 0) (h1 : t.val % 25 = 24) :
    (outsAt0 m c t.val t.isLt).1 = k0_pay3 (outsAt0 m c t.val t.isLt).2 (iblk m c 3 t) := by
  rw [acc_C m c t h0 h1, outsAt0_C m c t h0 h1]
  dsimp only
  unfold out0_C_4
  exact piece_C_out (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (notFirst h0) (isLast h1) (iblk m c 0 t) (iblk m c 1 t) (iblk m c 2 t) (iblk m c 3 t)
    (outsAt0 m c (t.val - 1) (Nat.lt_of_le_of_lt (Nat.sub_le _ _) t.isLt)).2

/-! ## The accumulator after each point -/

/-- The contribution of shift number k (none past the 25 shifts). -/
def ST (c : Dev nD) (b g : Fin 2) (o : Fin 192) (l : Fin 2304) (k : ℕ) : Ideal .f32 :=
  if h : k < 25 then Cert.Spec.shiftTerm (XP m c) (OFFP m c) (OFF m c) (DKW m c) b g o l ⟨k, h⟩ else 0

theorem ST_sOf (c : Dev nD) (t : Fin cfg0.N) (o : Fin 192) (l : Fin 2304) :
    Cert.Spec.shiftTerm (XP m c) (OFFP m c) (OFF m c) (DKW m c) (bOf t) (gOf t) o l (sOf t)
      = ST m c (bOf t) (gOf t) o l (t.val % 25) := by
  unfold ST
  rw [dif_pos (Nat.mod_lt _ (by decide))]
  rfl

/-- At a first shift the accumulator holds that shift's contribution. -/
theorem acc_first (c : Dev nD) (t : Fin cfg0.N) (h0 : t.val % 25 = 0) (o : Fin 192) (l : Fin 2304) :
    (outsAt0 m c t.val t.isLt).2 (ix2 o l) = ST m c (bOf t) (gOf t) o l (t.val % 25) := by
  rw [acc_A m c t h0 (by omega), step, pay1_apply, zero_add, ST_sOf]

/-- At a later shift it holds what the point before left plus that shift's contribution. -/
theorem acc_next (c : Dev nD) (t : Fin cfg0.N) (h0 : ¬t.val % 25 = 0) (o : Fin 192) (l : Fin 2304) :
    (outsAt0 m c t.val t.isLt).2 (ix2 o l)
      = (outsAt0 m c (t.val - 1) (Nat.lt_of_le_of_lt (Nat.sub_le _ _) t.isLt)).2 (ix2 o l) + ST m c (bOf t) (gOf t) o l (t.val % 25) := by
  by_cases h1 : t.val % 25 = 24
  · rw [acc_C m c t h0 h1, step, ST_sOf]
  · rw [acc_B m c t h0 h1, step, ST_sOf]

/-- THE ACCUMULATOR after point n: the contributions of the shifts 0 … n % 25 of the point's (image, output group)
    pair, added up in order — by induction on the point. -/
theorem acc_inv (c : Dev nD) : ∀ (n : ℕ) (hn : n < cfg0.N) (o : Fin 192) (l : Fin 2304),
    (outsAt0 m c n hn).2 (ix2 o l)
      = ∑ k ∈ Finset.range (n % 25 + 1), ST m c (bOf ⟨n, hn⟩) (gOf ⟨n, hn⟩) o l k := by
  intro n
  induction n with
  | zero =>
    intro hn o l
    rw [show (0 % 25 + 1) = 1 from rfl, Finset.sum_range_one]
    exact acc_first m c ⟨0, hn⟩ rfl o l
  | succ n ih =>
    intro hn o l
    by_cases h0 : (n + 1) % 25 = 0
    · rw [h0, show (0 + 1) = 1 from rfl, Finset.sum_range_one]
      have := acc_first m c ⟨n + 1, hn⟩ h0 o l
      rw [show ((⟨n + 1, hn⟩ : Fin cfg0.N).val % 25) = 0 from h0] at this
      exact this
    · have hstep : (outsAt0 m c (n + 1) hn).2 (ix2 o l)
          = (outsAt0 m c n (Nat.lt_of_succ_lt hn)).2 (ix2 o l)
            + ST m c (bOf ⟨n + 1, hn⟩) (gOf ⟨n + 1, hn⟩) o l ((n + 1) % 25) := acc_next m c ⟨n + 1, hn⟩ h0 o l
      have hb : bOf (⟨n + 1, hn⟩ : Fin cfg0.N) = bOf ⟨n, Nat.lt_of_succ_lt hn⟩ := Fin.ext (by show (n + 1) / 50 = n / 50; omega)
      have hg : gOf (⟨n + 1, hn⟩ : Fin cfg0.N) = gOf ⟨n, Nat.lt_of_succ_lt hn⟩ := Fin.ext (by show (n + 1) / 25 % 2 = n / 25 % 2; omega)
      have hk : (n + 1) % 25 = n % 25 + 1 := by omega
      rw [hstep, ih (Nat.lt_of_succ_lt hn) o l, hb, hg, hk]
      simp only [Finset.sum_range_succ]

/-- THE OUTPUT BLOCK at a last shift: the 25 contributions of the pair plus its bias. -/
theorem out_last (c : Dev nD) (t : Fin cfg0.N) (h1 : t.val % 25 = 24) (o : Fin 192) (l : Fin 2304) :
    (outsAt0 m c t.val t.isLt).1 (ix4 0 0 o l)
      = (∑ s : Fin 25, Cert.Spec.shiftTerm (XP m c) (OFFP m c) (OFF m c) (DKW m c) (bOf t) (gOf t) o l s)
        + DKB m c (ix4 (bOf t) (gOf t) o 0) := by
  have h0 : ¬t.val % 25 = 0 := by omega
  rw [out_C m c t h0 h1, pay3_apply, acc_inv m c t.val t.isLt o l, h1, show (24 + 1) = 25 from rfl, sum_range_25, blk3_read,
    V_main_arg3]
  congr 1

/-! ## The array -/

/-- WHAT A WRITING POINT WRITES BACK is its block of the specification's function. -/
theorem flushed_eq (c : Dev nD) (t : Fin cfg0.N) (hf : (cfg0.win 4).flush t = true) :
    (dats m 0 c).flushed 4 t
      = ((cfg0.win 4).blk t).view.read (Elt Ideal) (Cert.Spec.kerR (XP m c) (OFFP m c) (OFF m c) (DKW m c) (DKB m c)) := by
  have h1 : t.val % 25 = 24 := (flush0_4 t).mp hf
  show (cfg0.win 4).cut (grid0.coords t) ((dats m 0 c).after 4 t) = _
  rw [after0_4]
  funext (y : S1x1x192x2304.Idx)
  obtain ⟨y0, y1, o, l, rfl⟩ : ∃ (y0 y1 : Fin 1) (o : Fin 192) (l : Fin 2304), y = ix4 y0 y1 o l := ⟨y 0, y 1, y 2, y 3, eq_ix4 y⟩
  obtain rfl : y0 = 0 := Subsingleton.elim _ _
  obtain rfl : y1 = 0 := Subsingleton.elim _ _
  show (outsAt0 m c t.val t.isLt).1 (ix4 0 0 o l)
    = Cert.Spec.kerR (XP m c) (OFFP m c) (OFF m c) (DKW m c) (DKB m c) (((cfg0.win 4).blk t).view.emb (ix4 0 0 o l))
  rw [blk4_emb, out_last m c t h1 o l]
  rfl

/-- THE OUTPUT ARRAY after the run: the specification's function in the kernel's arrangement. -/
theorem final (c : Dev nD) :
    (dats m 0 c).arrAt 4 cfg0.N = Cert.Spec.kerR (XP m c) (OFFP m c) (OFF m c) (DKW m c) (DKB m c) :=
  (dats m 0 c).arrAt_eq_of_cover 4 _ (fun t hf => flushed_eq m c t hf) cover4

/-- THE RESULT BUFFER after the program's closing reshape: that array re-laid as [2, 384, 48, 48]. -/
theorem result (c : Dev nD) :
    Pipeline.afterTail₀ cfgs (dats m) 0 (V0 m) [hostOps1] c main_v129
      = shapeCast S2x384x48x48 (Cert.Spec.kerR (XP m c) (OFFP m c) (OFF m c) (DKW m c) (DKB m c))
          shapeCasts_S2x2x192x2304_S2x384x48x48 := by
  rw [tail_result m (dats m) c, final m c]

/-- THE RUN, READ: every weakly fair execution of the idealized kernel's program terminates with the result buffer at
    the specification's function (in the kernel's arrangement, re-laid) of the padded image, the padded offsets, the
    offsets, the weights and the bias, and the four arguments unchanged. -/
theorem run : θ_run defs (onTc (τ := τ) (main (F := Ideal))) ⟨m, fun _ => 0, ρ⟩ fun r => ∀ c : Dev nD,
      r.2.mem ((c.tc : Thread nD τ).loc main_v129)
          = shapeCast S2x384x48x48 (Cert.Spec.kerR (XP m c) (OFFP m c) (OFF m c) (DKW m c) (DKB m c))
              shapeCasts_S2x2x192x2304_S2x384x48x48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v129 main_v129_rest).trans (result m c),
      args_kept m (dats m) (A_eq m) r h c⟩) (run_main m ρ)

end Cert.KernelIdeal.Val

end
-- ==== Proof.RefUnf.lean ====
/-
  The reference's unfolded image, read at an index.

  The reference pads the image to 52 × 52, cuts the 25 windows of 48 × 48 that start at row i and column j
  (i, j in 0 … 4), gives each a unit axis in third place, joins them along that axis in the order s = 5·i + j (the first
  sixteen, then the last nine, then the two joins), and flattens (channel, shift) to one axis of 4800 and (row, column) to
  one axis of 2304.  Read at (b, i, l) the flattened array is therefore the padded image at batch b, channel i / 25,
  row (i % 25) / 5 + l / 48, column (i % 25) % 5 + l % 48.  The padded image itself is never opened here.
-/
import proofs.«113980_j13426067767599_1_alg».proof.Proof.RefRead
import proofs.«113980_j13426067767599_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

section Generic
variable {α : Type}

/-- One slab of the stack: the window of a padded array P that starts at row i and column j, given a unit axis in
    third place, read at (b, c, 0, h, w), is P at (b, c, i + h, j + w). -/
theorem slab_read (P : S2x192x52x52.Idx → α) (i j : Nat) (hi : i ≤ 4) (hj : j ≤ 4)
    (H : S2x192x52x52.Slices ![0, 0, i, j] S2x192x48x48) (b : Fin 2) (c : Fin 192) (h w : Fin 48) :
    broadcastInDim S2x192x1x48x48 ![0, 1, 3, 4] bcast_S2x192x48x48_S2x192x1x48x48_0_1_3_4
        (extractStridedSlice S2x192x48x48 ![0, 0, i, j] P H) (ix5 b c 0 h w)
      = P (ix4 b c ⟨i + h.val, by omega⟩ ⟨j + w.val, by omega⟩) := by
  -- the unit axis is dropped: result axes 0, 1, 3, 4 are the window's axes 0, 1, 2, 3
  refine (broadcastInDim_apply _ bcast_S2x192x48x48_S2x192x1x48x48_0_1_3_4 _ (ix5 b c 0 h w) (ix4 b c h w)
    (fun a => match a with
      | ⟨0, _⟩ => by show b.val = if (2 : Nat) = 1 then 0 else b.val; rw [if_neg (by decide)]
      | ⟨1, _⟩ => by show c.val = if (192 : Nat) = 1 then 0 else c.val; rw [if_neg (by decide)]
      | ⟨2, _⟩ => by show h.val = if (48 : Nat) = 1 then 0 else h.val; rw [if_neg (by decide)]
      | ⟨3, _⟩ => by show w.val = if (48 : Nat) = 1 then 0 else w.val; rw [if_neg (by decide)])).trans ?_
  -- the window at (b, c, h, w) is the padded array at the coordinates shifted by the offsets (0, 0, i, j)
  exact extractStridedSlice_apply ![0, 0, i, j] P H (ix4 b c h w) (ix4 b c ⟨i + h.val, by omega⟩ ⟨j + w.val, by omega⟩)
    (fun a => match a with
      | ⟨0, _⟩ => by show b.val = 0 + b.val; omega
      | ⟨1, _⟩ => by show c.val = 0 + c.val; omega
      | ⟨2, _⟩ => rfl
      | ⟨3, _⟩ => rfl)

/-- The outer join, low part: a position below 16 on the joined axis reads the first operand at the same coordinates. -/
theorem pair_lo (y₁ : S2x192x16x48x48.Idx → α) (y₂ : S2x192x9x48x48.Idx → α)
    (b : Fin 2) (c : Fin 192) (s : Fin 16) (h w : Fin 48) :
    concatenate S2x192x25x48x48 2 [⟨S2x192x16x48x48, y₁⟩, ⟨S2x192x9x48x48, y₂⟩]
        concatenates_S2x192x16x48x48_S2x192x9x48x48_S2x192x25x48x48_d2 (ix5 b c ⟨s.val, by omega⟩ h w)
      = y₁ (ix5 b c s h w) :=
  concatenate_pair_apply_left (t := S2x192x25x48x48) 2 y₁ y₂ concatenates_S2x192x16x48x48_S2x192x9x48x48_S2x192x25x48x48_d2
    (ix5 b c ⟨s.val, by omega⟩ h w) rfl (ix5 b c s h w) (fun a => match a with
    | ⟨0, _⟩ => rfl | ⟨1, _⟩ => rfl | ⟨2, _⟩ => rfl | ⟨3, _⟩ => rfl | ⟨4, _⟩ => rfl)

/-- The outer join, high part: position 16 + s on the joined axis reads the second operand at position s. -/
theorem pair_hi (y₁ : S2x192x16x48x48.Idx → α) (y₂ : S2x192x9x48x48.Idx → α)
    (b : Fin 2) (c : Fin 192) (s : Fin 9) (h w : Fin 48) :
    concatenate S2x192x25x48x48 2 [⟨S2x192x16x48x48, y₁⟩, ⟨S2x192x9x48x48, y₂⟩]
        concatenates_S2x192x16x48x48_S2x192x9x48x48_S2x192x25x48x48_d2 (ix5 b c ⟨16 + s.val, by omega⟩ h w)
      = y₂ (ix5 b c s h w) :=
  concatenate_pair_apply_right (t := S2x192x25x48x48) 2 y₁ y₂ concatenates_S2x192x16x48x48_S2x192x9x48x48_S2x192x25x48x48_d2
    (ix5 b c ⟨16 + s.val, by omega⟩ h w) rfl rfl (ix5 b c s h w) (fun a hne => match a, hne with
    | ⟨0, _⟩, _ => rfl | ⟨1, _⟩, _ => rfl | ⟨2, _⟩, hne => (hne rfl).elim | ⟨3, _⟩, _ => rfl | ⟨4, _⟩, _ => rfl)
    (by show s.val + 16 = 16 + s.val; omega)

/-- A join of n unit-thick slabs along the third axis: position k reads slab k at position 0 of its unit axis, the
    other coordinates unchanged.  The list of slabs is a variable; the caller says that every slab has the unit-thick
    shape (so the k slabs before place k have total thickness k) and which slab sits at place k. -/
theorem unit_piece (n : Nat) (xs : List ((s : Shape) × (s.Idx → α)))
    (H : Shape.Concatenates (xs.map (·.1)) (⟨5, ![2, 192, n, 48, 48]⟩ : Shape) 2)
    (hm : xs.map (·.1) = List.replicate n S2x192x1x48x48)
    (k : Nat) (hk : k < n) (y : S2x192x1x48x48.Idx → α) (hxk : xs[k]? = some ⟨S2x192x1x48x48, y⟩)
    (b : Fin 2) (c : Fin 192) (h w : Fin 48) :
    concatenate (⟨5, ![2, 192, n, 48, 48]⟩ : Shape) 2 xs H (ix5 b c ⟨k, hk⟩ h w) = y (ix5 b c 0 h w) := by
  obtain ⟨hk', hxk'⟩ := List.getElem?_eq_some_iff.1 hxk
  -- the thickness of the unit-thick shape along the joined axis is 1
  have h1 : (if e : S2x192x1x48x48.rank = (⟨5, ![2, 192, n, 48, 48]⟩ : Shape).rank
      then S2x192x1x48x48.size ((2 : Fin (⟨5, ![2, 192, n, 48, 48]⟩ : Shape).rank).cast e.symm) else 0) = 1 := rfl
  -- so the first k slabs have total thickness k
  have hpre : (((xs.take k).map (·.1)).map fun s : Shape =>
      if e : s.rank = (⟨5, ![2, 192, n, 48, 48]⟩ : Shape).rank
        then s.size ((2 : Fin (⟨5, ![2, 192, n, 48, 48]⟩ : Shape).rank).cast e.symm) else 0).sum = k := by
    rw [List.map_take, hm, List.take_replicate, List.map_replicate, h1, List.sum_replicate_nat, Nat.mul_one]
    exact Nat.min_eq_left (Nat.le_of_lt hk)
  exact concatenate_apply_piece 2 xs H (ix5 b c ⟨k, hk⟩ h w) k hk' S2x192x1x48x48 y hxk' rfl k hpre (ix5 b c 0 h w)
    (fun a hne => match a, hne with
      | ⟨0, _⟩, _ => rfl | ⟨1, _⟩, _ => rfl | ⟨2, _⟩, hne => (hne rfl).elim | ⟨3, _⟩, _ => rfl | ⟨4, _⟩, _ => rfl)
    (by show k + 0 = k; omega)

end Generic

/-- The join of the first sixteen slabs (shifts 0 … 15) at (b, c, s, h, w): the padded image at row s / 5 + h, column
    s % 5 + w.  Slab s is the window with offsets (s / 5, s % 5). -/
theorem lo_apply (x0 : (⟨S2x192x48x48, .f32⟩ : BufTy).Contents (Elt Ideal)) (b : Fin 2) (c : Fin 192) (s : Nat) (hs : s < 16)
    (h w : Fin 48) :
    Read.val_main_v51 (F := Ideal) x0 (ix5 b c ⟨s, hs⟩ h w)
      = Read.val_main_v0 (F := Ideal) x0 (ix4 b c ⟨s / 5 + h.val, by omega⟩ ⟨s % 5 + w.val, by omega⟩) := by
  unfold Read.val_main_v51
  match s, hs with
  | 0, _ =>
    refine (unit_piece 16 _ _ rfl 0 (by decide) (Read.val_main_v26 (F := Ideal) x0) rfl b c h w).trans ?_
    unfold Read.val_main_v26 Read.val_main_v1
    exact slab_read _ 0 0 (by decide) (by decide) _ b c h w
  | 1, _ =>
    refine (unit_piece 16 _ _ rfl 1 (by decide) (Read.val_main_v27 (F := Ideal) x0) rfl b c h w).trans ?_
    unfold Read.val_main_v27 Read.val_main_v2
    exact slab_read _ 0 1 (by decide) (by decide) _ b c h w
  | 2, _ =>
    refine (unit_piece 16 _ _ rfl 2 (by decide) (Read.val_main_v28 (F := Ideal) x0) rfl b c h w).trans ?_
    unfold Read.val_main_v28 Read.val_main_v3
    exact slab_read _ 0 2 (by decide) (by decide) _ b c h w
  | 3, _ =>
    refine (unit_piece 16 _ _ rfl 3 (by decide) (Read.val_main_v29 (F := Ideal) x0) rfl b c h w).trans ?_
    unfold Read.val_main_v29 Read.val_main_v4
    exact slab_read _ 0 3 (by decide) (by decide) _ b c h w
  | 4, _ =>
    refine (unit_piece 16 _ _ rfl 4 (by decide) (Read.val_main_v30 (F := Ideal) x0) rfl b c h w).trans ?_
    unfold Read.val_main_v30 Read.val_main_v5
    exact slab_read _ 0 4 (by decide) (by decide) _ b c h w
  | 5, _ =>
    refine (unit_piece 16 _ _ rfl 5 (by decide) (Read.val_main_v31 (F := Ideal) x0) rfl b c h w).trans ?_
    unfold Read.val_main_v31 Read.val_main_v6
    exact slab_read _ 1 0 (by decide) (by decide) _ b c h w
  | 6, _ =>
    refine (unit_piece 16 _ _ rfl 6 (by decide) (Read.val_main_v32 (F := Ideal) x0) rfl b c h w).trans ?_
    unfold Read.val_main_v32 Read.val_main_v7
    exact slab_read _ 1 1 (by decide) (by decide) _ b c h w
  | 7, _ =>
    refine (unit_piece 16 _ _ rfl 7 (by decide) (Read.val_main_v33 (F := Ideal) x0) rfl b c h w).trans ?_
    unfold Read.val_main_v33 Read.val_main_v8
    exact slab_read _ 1 2 (by decide) (by decide) _ b c h w
  | 8, _ =>
    refine (unit_piece 16 _ _ rfl 8 (by decide) (Read.val_main_v34 (F := Ideal) x0) rfl b c h w).trans ?_
    unfold Read.val_main_v34 Read.val_main_v9
    exact slab_read _ 1 3 (by decide) (by decide) _ b c h w
  | 9, _ =>
    refine (unit_piece 16 _ _ rfl 9 (by decide) (Read.val_main_v35 (F := Ideal) x0) rfl b c h w).trans ?_
    unfold Read.val_main_v35 Read.val_main_v10
    exact slab_read _ 1 4 (by decide) (by decide) _ b c h w
  | 10, _ =>
    refine (unit_piece 16 _ _ rfl 10 (by decide) (Read.val_main_v36 (F := Ideal) x0) rfl b c h w).trans ?_
    unfold Read.val_main_v36 Read.val_main_v11
    exact slab_read _ 2 0 (by decide) (by decide) _ b c h w
  | 11, _ =>
    refine (unit_piece 16 _ _ rfl 11 (by decide) (Read.val_main_v37 (F := Ideal) x0) rfl b c h w).trans ?_
    unfold Read.val_main_v37 Read.val_main_v12
    exact slab_read _ 2 1 (by decide) (by decide) _ b c h w
  | 12, _ =>
    refine (unit_piece 16 _ _ rfl 12 (by decide) (Read.val_main_v38 (F := Ideal) x0) rfl b c h w).trans ?_
    unfold Read.val_main_v38 Read.val_main_v13
    exact slab_read _ 2 2 (by decide) (by decide) _ b c h w
  | 13, _ =>
    refine (unit_piece 16 _ _ rfl 13 (by decide) (Read.val_main_v39 (F := Ideal) x0) rfl b c h w).trans ?_
    unfold Read.val_main_v39 Read.val_main_v14
    exact slab_read _ 2 3 (by decide) (by decide) _ b c h w
  | 14, _ =>
    refine (unit_piece 16 _ _ rfl 14 (by decide) (Read.val_main_v40 (F := Ideal) x0) rfl b c h w).trans ?_
    unfold Read.val_main_v40 Read.val_main_v15
    exact slab_read _ 2 4 (by decide) (by decide) _ b c h w
  | 15, _ =>
    refine (unit_piece 16 _ _ rfl 15 (by decide) (Read.val_main_v41 (F := Ideal) x0) rfl b c h w).trans ?_
    unfold Read.val_main_v41 Read.val_main_v16
    exact slab_read _ 3 0 (by decide) (by decide) _ b c h w
  | n + 16, hn => exact absurd hn (by omega)

/-- The join of the last nine slabs (shifts 16 … 24) at (b, c, s, h, w): slab s of this join is shift 16 + s, the window
    with offsets ((16 + s) / 5, (16 + s) % 5). -/
theorem hi_apply (x0 : (⟨S2x192x48x48, .f32⟩ : BufTy).Contents (Elt Ideal)) (b : Fin 2) (c : Fin 192) (s : Nat) (hs : s < 9)
    (h w : Fin 48) :
    Read.val_main_v52 (F := Ideal) x0 (ix5 b c ⟨s, hs⟩ h w)
      = Read.val_main_v0 (F := Ideal) x0 (ix4 b c ⟨(16 + s) / 5 + h.val, by omega⟩ ⟨(16 + s) % 5 + w.val, by omega⟩) := by
  unfold Read.val_main_v52
  match s, hs with
  | 0, _ =>
    refine (unit_piece 9 _ _ rfl 0 (by decide) (Read.val_main_v42 (F := Ideal) x0) rfl b c h w).trans ?_
    unfold Read.val_main_v42 Read.val_main_v17
    exact slab_read _ 3 1 (by decide) (by decide) _ b c h w
  | 1, _ =>
    refine (unit_piece 9 _ _ rfl 1 (by decide) (Read.val_main_v43 (F := Ideal) x0) rfl b c h w).trans ?_
    unfold Read.val_main_v43 Read.val_main_v18
    exact slab_read _ 3 2 (by decide) (by decide) _ b c h w
  | 2, _ =>
    refine (unit_piece 9 _ _ rfl 2 (by decide) (Read.val_main_v44 (F := Ideal) x0) rfl b c h w).trans ?_
    unfold Read.val_main_v44 Read.val_main_v19
    exact slab_read _ 3 3 (by decide) (by decide) _ b c h w
  | 3, _ =>
    refine (unit_piece 9 _ _ rfl 3 (by decide) (Read.val_main_v45 (F := Ideal) x0) rfl b c h w).trans ?_
    unfold Read.val_main_v45 Read.val_main_v20
    exact slab_read _ 3 4 (by decide) (by decide) _ b c h w
  | 4, _ =>
    refine (unit_piece 9 _ _ rfl 4 (by decide) (Read.val_main_v46 (F := Ideal) x0) rfl b c h w).trans ?_
    unfold Read.val_main_v46 Read.val_main_v21
    exact slab_read _ 4 0 (by decide) (by decide) _ b c h w
  | 5, _ =>
    refine (unit_piece 9 _ _ rfl 5 (by decide) (Read.val_main_v47 (F := Ideal) x0) rfl b c h w).trans ?_
    unfold Read.val_main_v47 Read.val_main_v22
    exact slab_read _ 4 1 (by decide) (by decide) _ b c h w
  | 6, _ =>
    refine (unit_piece 9 _ _ rfl 6 (by decide) (Read.val_main_v48 (F := Ideal) x0) rfl b c h w).trans ?_
    unfold Read.val_main_v48 Read.val_main_v23
    exact slab_read _ 4 2 (by decide) (by decide) _ b c h w
  | 7, _ =>
    refine (unit_piece 9 _ _ rfl 7 (by decide) (Read.val_main_v49 (F := Ideal) x0) rfl b c h w).trans ?_
    unfold Read.val_main_v49 Read.val_main_v24
    exact slab_read _ 4 3 (by decide) (by decide) _ b c h w
  | 8, _ =>
    refine (unit_piece 9 _ _ rfl 8 (by decide) (Read.val_main_v50 (F := Ideal) x0) rfl b c h w).trans ?_
    unfold Read.val_main_v50 Read.val_main_v25
    exact slab_read _ 4 4 (by decide) (by decide) _ b c h w
  | n + 9, hn => exact absurd hn (by omega)

/-- The whole stack of 25 slabs at (b, c, s, h, w): the padded image at row s / 5 + h, column s % 5 + w. -/
theorem stack_apply (x0 : (⟨S2x192x48x48, .f32⟩ : BufTy).Contents (Elt Ideal)) (b : Fin 2) (c : Fin 192) (s : Fin 25) (h w : Fin 48) :
    Read.val_main_v53 (F := Ideal) x0 (ix5 b c s h w)
      = Read.val_main_v0 (F := Ideal) x0 (ix4 b c ⟨s.val / 5 + h.val, by omega⟩ ⟨s.val % 5 + w.val, by omega⟩) := by
  unfold Read.val_main_v53
  obtain ⟨s, hs⟩ := s
  by_cases h16 : s < 16
  · -- shifts 0 … 15 lie in the first join
    exact (pair_lo _ _ b c ⟨s, h16⟩ h w).trans (lo_apply x0 b c s h16 h w)
  · -- shifts 16 … 24 lie in the second join, at position s - 16
    obtain ⟨t, rfl⟩ : ∃ t, s = 16 + t := ⟨s - 16, by omega⟩
    exact (pair_hi _ _ b c ⟨t, by omega⟩ h w).trans (hi_apply x0 b c t (by omega) h w)

/-- The unfolded image at (b, i, l): the flattening sends (b, i, l) to (b, c, s, h, w) with c = i / 25, s = i % 25,
    h = l / 48, w = l % 48 (row-major positions agree), and the stack there is the padded image at
    (b, c, s / 5 + h, s % 5 + w). -/
theorem unf_apply (x0 : (⟨S2x192x48x48, .f32⟩ : BufTy).Contents (Elt Ideal)) (b : Fin 2) (i : Fin 4800) (l : Fin 2304) :
    Read.val_main_v54 (F := Ideal) x0 (ValueIdx.ix3 b i l)
      = Read.val_main_v0 (F := Ideal) x0
          (ValueIdx.ix4 b (Cert.Spec.chanOf i) (Cert.Spec.prow (Cert.Spec.shiftOf i) l) (Cert.Spec.pcol (Cert.Spec.shiftOf i) l)) := by
  rw [Read.val_main_v54_apply]
  have e : Read.idx_main_v54 (ix3 b i l)
      = ix5 b (Cert.Spec.chanOf i) (Cert.Spec.shiftOf i) (Cert.Spec.lrow l) (Cert.Spec.lcol l) := by
    funext a
    apply Fin.ext
    have hb : b.val < 2 := b.isLt
    have hi : i.val < 4800 := i.isLt
    have hl : l.val < 2304 := l.isLt
    match a with
    | ⟨0, _⟩ => show ((b.val * 4800 + i.val) * 2304 + l.val) / 11059200 = b.val; omega
    | ⟨1, _⟩ => show ((b.val * 4800 + i.val) * 2304 + l.val) / 57600 % 192 = i.val / 25; omega
    | ⟨2, _⟩ => show ((b.val * 4800 + i.val) * 2304 + l.val) / 2304 % 25 = i.val % 25; omega
    | ⟨3, _⟩ => show ((b.val * 4800 + i.val) * 2304 + l.val) / 48 % 48 = l.val / 48; omega
    | ⟨4, _⟩ => show ((b.val * 4800 + i.val) * 2304 + l.val) % 48 = l.val % 48; omega
  rw [e]
  exact stack_apply x0 b (Cert.Spec.chanOf i) (Cert.Spec.shiftOf i) (Cert.Spec.lrow l) (Cert.Spec.lcol l)

end Cert.ReferenceIdeal.RefValue

end
-- ==== Proof.RefMask.lean ====
/-
  The reference's mask read at an index.

  The reference builds its mask in four moves.  (1) From the padded offsets P (52 × 52 per image and group) it cuts the
  25 windows of size 48 × 48 at row offset s / 5 and column offset s % 5, gives each a unit axis and lays them end to
  end (sixteen, then nine, then the two runs joined): the stack, whose element at (b, q, s, r, c) is
  P (b, q, s / 5 + r, s % 5 + c).  (2) It flattens the stack to (b, q · 25 + s, r · 48 + c), repeats it over the output
  group g, and compares it with the offsets at the centre position, repeated over the 50 rows: one bit at
  (b, g, q · 25 + s, l).  (3) It splits the row index back into (q, 0, s), repeats the bit over the 96 channels of a
  group, and merges (q, within-group channel, s) into the flat contraction index i = (q · 96 + channel) · 25 + s.
  (4) It converts the bit to a float.

  Read backwards from the flat index i: the channel is i / 25, its group q = (i / 25) / 96, the shift s = i % 25, and
  the mask at (b, g, i, l) is the gate of P (b, q, s / 5 + l / 48, s % 5 + l % 48) against the offset of (b, g) at
  (l / 48, l % 48).  Every step is a layout operation read at one index of its operand; the only arithmetic is that
  of row-major positions.
-/
import proofs.«113980_j13426067767599_1_alg».proof.Proof.RefRead
import proofs.«113980_j13426067767599_1_alg».proof.Proof.Spec
import Idealize.ShloMosaic.Lib.Pipeline.Value
import Idealize.ShloMosaic.Lib.ValueIdx
import Idealize.ShloMosaic.Lib.ValueIdxRank6

noncomputable section

namespace Cert.ReferenceIdeal.RefValue

open Cert.ReferenceIdeal Cert.ReferenceIdeal.Gen Idealize.ShloMosaic Idealize.ShloMosaic.ValueIdx

/-! ## The layout steps over arbitrary arrays -/

section Layout
variable {α : Type}

/-- Splitting the axis of extent 50 = 2 · 25 and inserting a unit axis keeps the row-major position: the element at
    (b, g, q, 0, s, l) of the rank-6 array is the element at (b, g, q · 25 + s, l) of the rank-4 one. -/
theorem reshape_split_apply (y : S2x2x50x2304.Idx → α) (b g q : Fin 2) (z : Fin 1) (s : Fin 25) (l : Fin 2304) :
    shapeCast S2x2x2x1x25x2304 y shapeCasts_S2x2x50x2304_S2x2x2x1x25x2304 (ix6 b g q z s l)
      = y (ix4 b g ⟨q.val * 25 + s.val, by omega⟩ l) := by
  refine shapeCast_apply y shapeCasts_S2x2x50x2304_S2x2x2x1x25x2304 _ _ ?_
  rw [Shape.rowMajor_val_four, Shape.rowMajor_val_six]
  have hz : z.val = 0 := by omega
  show ((b.val * 2 + g.val) * 50 + (q.val * 25 + s.val)) * 2304 + l.val
    = ((((b.val * 2 + g.val) * 2 + q.val) * 1 + z.val) * 25 + s.val) * 2304 + l.val
  omega

/-- Merging the axes of extents 2, 96, 25 into the flat index of extent 4800: the element at (b, g, i, l) of the rank-4
    array is the element of the rank-6 one at the group (i / 25) / 96 of i's channel, the channel's place
    (i / 25) % 96 inside its group, and i's shift i % 25. -/
theorem reshape_merge_apply (y : S2x2x2x96x25x2304.Idx → α) (b g : Fin 2) (i : Fin 4800) (l : Fin 2304) :
    shapeCast S2x2x4800x2304 y shapeCasts_S2x2x2x96x25x2304_S2x2x4800x2304 (ix4 b g i l)
      = y (ix6 b g (Cert.Spec.grp (Cert.Spec.chanOf i)) (⟨i.val / 25 % 96, by omega⟩ : Fin 96)
            (Cert.Spec.shiftOf i) l) := by
  refine shapeCast_apply y shapeCasts_S2x2x2x96x25x2304_S2x2x4800x2304 _ _ ?_
  rw [Shape.rowMajor_val_four, Shape.rowMajor_val_six]
  show ((((b.val * 2 + g.val) * 2 + i.val / 25 / 96) * 96 + i.val / 25 % 96) * 25 + i.val % 25) * 2304 + l.val
    = ((b.val * 2 + g.val) * 4800 + i.val) * 2304 + l.val
  omega

/-- N unit slabs laid end to end along axis 2: the element at (b, g, s, r, c) is slab s at (b, g, 0, r, c). -/
theorem cat_units_apply {N : Nat} (f : Fin N → ((⟨5, ![2, 2, 1, 48, 48]⟩ : Shape).Idx → α))
    (h : Shape.Concatenates ((List.ofFn fun n : Fin N => (⟨⟨5, ![2, 2, 1, 48, 48]⟩, f n⟩ : (s : Shape) × (s.Idx → α))).map (·.1))
      ⟨5, ![2, 2, N, 48, 48]⟩ (2 : Fin 5))
    (b g : Fin 2) (s : Fin N) (z : Fin 1) (r c : Fin 48) :
    concatenate ⟨5, ![2, 2, N, 48, 48]⟩ (2 : Fin 5)
        (List.ofFn fun n : Fin N => (⟨⟨5, ![2, 2, 1, 48, 48]⟩, f n⟩ : (s : Shape) × (s.Idx → α))) h (ix5 b g s r c)
      = f s (ix5 b g z r c) :=
  concatenate_ofFn_unit_apply (t := ⟨5, ![2, 2, N, 48, 48]⟩) (s₁ := ⟨5, ![2, 2, 1, 48, 48]⟩) (2 : Fin 5) f h rfl rfl
    (ix5 b g s r c) s rfl (ix5 b g z r c) (fun a ha => by
      match a with
      | ⟨0, _⟩ => rfl
      | ⟨1, _⟩ => rfl
      | ⟨2, _⟩ => exact absurd rfl ha
      | ⟨3, _⟩ => rfl
      | ⟨4, _⟩ => rfl)

/-- Sixteen slabs followed by nine: below 16 the element comes from the first array at the same coordinates, from 16
    on from the second with 16 taken off the joined axis. -/
theorem cat_pair_apply (x₁ : S2x2x16x48x48.Idx → α) (x₂ : S2x2x9x48x48.Idx → α) (b g : Fin 2) (s : Fin 25) (r c : Fin 48) :
    concatenate S2x2x25x48x48 2 [⟨S2x2x16x48x48, x₁⟩, ⟨S2x2x9x48x48, x₂⟩]
        concatenates_S2x2x16x48x48_S2x2x9x48x48_S2x2x25x48x48_d2 (ix5 b g s r c)
      = if hs : s.val < 16 then x₁ (ix5 b g ⟨s.val, hs⟩ r c) else x₂ (ix5 b g ⟨s.val - 16, by omega⟩ r c) := by
  by_cases hs : s.val < 16
  · rw [dif_pos hs]
    exact concatenate_pair_apply_left (2 : Fin 5) x₁ x₂ _ (ix5 b g s r c) rfl (ix5 b g ⟨s.val, hs⟩ r c) (fun a => by
      match a with
      | ⟨0, _⟩ => rfl
      | ⟨1, _⟩ => rfl
      | ⟨2, _⟩ => rfl
      | ⟨3, _⟩ => rfl
      | ⟨4, _⟩ => rfl)
  · rw [dif_neg hs]
    exact concatenate_pair_apply_right (2 : Fin 5) x₁ x₂ _ (ix5 b g s r c) rfl rfl (ix5 b g ⟨s.val - 16, by omega⟩ r c)
      (fun a ha => by
        match a with
        | ⟨0, _⟩ => rfl
        | ⟨1, _⟩ => rfl
        | ⟨2, _⟩ => exact absurd rfl ha
        | ⟨3, _⟩ => rfl
        | ⟨4, _⟩ => rfl)
      (by show s.val - 16 + 16 = s.val; omega)

/-- One slab of the stack over a padded array P: the window of P at row offset i and column offset j, given a unit
    axis.  Its element at (b, g, 0, r, c) is P at (b, g, i + r, j + c). -/
theorem window_slab_apply (P : S2x2x52x52.Idx → α) (i j : Nat) (hs : S2x2x52x52.Slices ![0, 0, i, j] S2x2x48x48)
    (b g : Fin 2) (z : Fin 1) (r c : Fin 48) (hi : i + r.val < 52) (hj : j + c.val < 52) :
    broadcastInDim S2x2x1x48x48 ![0, 1, 3, 4] bcast_S2x2x48x48_S2x2x1x48x48_0_1_3_4
        (extractStridedSlice S2x2x48x48 ![0, 0, i, j] P hs) (ix5 b g z r c)
      = P (ix4 b g ⟨i + r.val, hi⟩ ⟨j + c.val, hj⟩) := by
  refine (broadcastInDim_apply _ bcast_S2x2x48x48_S2x2x1x48x48_0_1_3_4 _ (ix5 b g z r c) (ix4 b g r c) (fun a => ?_)).trans ?_
  · match a with
    | ⟨0, _⟩ => show b.val = if (2 : Nat) = 1 then 0 else b.val; rw [if_neg (by decide)]
    | ⟨1, _⟩ => show g.val = if (2 : Nat) = 1 then 0 else g.val; rw [if_neg (by decide)]
    | ⟨2, _⟩ => show r.val = if (48 : Nat) = 1 then 0 else r.val; rw [if_neg (by decide)]
    | ⟨3, _⟩ => show c.val = if (48 : Nat) = 1 then 0 else c.val; rw [if_neg (by decide)]
  · exact extractStridedSlice_apply ![0, 0, i, j] P hs (ix4 b g r c) (ix4 b g ⟨i + r.val, hi⟩ ⟨j + c.val, hj⟩) (fun a => by
      match a with
      | ⟨0, _⟩ => show b.val = 0 + b.val; omega
      | ⟨1, _⟩ => show g.val = 0 + g.val; omega
      | ⟨2, _⟩ => rfl
      | ⟨3, _⟩ => rfl)

/-- Every window of 48 × 48 at offsets up to 4 lies inside the padded 52 × 52 array. -/
theorem slices_window (i j : Nat) (hi : i ≤ 4) (hj : j ≤ 4) : S2x2x52x52.Slices ![0, 0, i, j] S2x2x48x48 :=
  ⟨rfl, fun a => by
    match a with
    | ⟨0, _⟩ => show 0 + 2 ≤ 2; omega
    | ⟨1, _⟩ => show 0 + 2 ≤ 2; omega
    | ⟨2, _⟩ => show i + 48 ≤ 52; omega
    | ⟨3, _⟩ => show j + 48 ≤ 52; omega⟩

/-- Slab s of the stack over a padded array P: the window of P at row offset s / 5 and column offset s % 5, with a
    unit axis. -/
def slab (P : S2x2x52x52.Idx → α) (s : Fin 25) : S2x2x1x48x48.Idx → α :=
  broadcastInDim S2x2x1x48x48 ![0, 1, 3, 4] bcast_S2x2x48x48_S2x2x1x48x48_0_1_3_4
    (extractStridedSlice S2x2x48x48 ![0, 0, s.val / 5, s.val % 5] P
      (slices_window (s.val / 5) (s.val % 5) (by omega) (by omega)))

/-- Slab s at (b, g, 0, r, c) is P at (b, g, s / 5 + r, s % 5 + c). -/
theorem slab_apply (P : S2x2x52x52.Idx → α) (s : Fin 25) (b g : Fin 2) (z : Fin 1) (r c : Fin 48) :
    slab P s (ix5 b g z r c) = P (ix4 b g ⟨s.val / 5 + r.val, by omega⟩ ⟨s.val % 5 + c.val, by omega⟩) :=
  window_slab_apply P (s.val / 5) (s.val % 5) _ b g z r c _ _

end Layout

/-! ## The reference's own arrays -/

section Mask

variable (x1 : (⟨S2x2x48x48, .i32⟩ : BufTy).Contents (Elt Ideal))

/-- The run of the first sixteen slabs, read at an index. -/
theorem stack_lo_apply (b g : Fin 2) (s : Fin 16) (r c : Fin 48) :
    Read.val_main_v115 (F := Ideal) x1 (ix5 b g s r c) = slab (Read.val_main_v64 (F := Ideal) x1) ⟨s.val, by omega⟩ (ix5 b g 0 r c) := by
  unfold Read.val_main_v115
  show concatenate ⟨5, ![2, 2, 16, 48, 48]⟩ (2 : Fin 5) (List.ofFn fun n : Fin 16 =>
    (⟨⟨5, ![2, 2, 1, 48, 48]⟩, slab (Read.val_main_v64 (F := Ideal) x1) ⟨n.val, by omega⟩⟩ : (s : Shape) × (s.Idx → Elt Ideal .f32))) _ (ix5 b g s r c) = _
  exact cat_units_apply _ _ b g s 0 r c

/-- The run of the last nine slabs, read at an index: its slab s is slab s + 16 of the stack. -/
theorem stack_hi_apply (b g : Fin 2) (s : Fin 9) (r c : Fin 48) :
    Read.val_main_v116 (F := Ideal) x1 (ix5 b g s r c) = slab (Read.val_main_v64 (F := Ideal) x1) ⟨s.val + 16, by omega⟩ (ix5 b g 0 r c) := by
  unfold Read.val_main_v116
  show concatenate ⟨5, ![2, 2, 9, 48, 48]⟩ (2 : Fin 5) (List.ofFn fun n : Fin 9 =>
    (⟨⟨5, ![2, 2, 1, 48, 48]⟩, slab (Read.val_main_v64 (F := Ideal) x1) ⟨n.val + 16, by omega⟩⟩ : (s : Shape) × (s.Idx → Elt Ideal .f32))) _ (ix5 b g s r c) = _
  exact cat_units_apply _ _ b g s 0 r c

/-- The stack at (b, g, s, r, c) is the padded offsets at (b, g, s / 5 + r, s % 5 + c). -/
theorem offstack_apply (b g : Fin 2) (s : Fin 25) (r c : Fin 48) :
    Read.val_main_v117 (F := Ideal) x1 (ix5 b g s r c)
      = Read.val_main_v64 (F := Ideal) x1 (ix4 b g ⟨s.val / 5 + r.val, by omega⟩ ⟨s.val % 5 + c.val, by omega⟩) := by
  unfold Read.val_main_v117
  rw [cat_pair_apply]
  by_cases hs : s.val < 16
  · rw [dif_pos hs]
    exact (stack_lo_apply x1 b g ⟨s.val, hs⟩ r c).trans (slab_apply _ s b g 0 r c)
  · rw [dif_neg hs]
    have e : (⟨s.val - 16 + 16, by omega⟩ : Fin 25) = s := Fin.ext (by show s.val - 16 + 16 = s.val; omega)
    refine (stack_hi_apply x1 b g ⟨s.val - 16, by omega⟩ r c).trans ?_
    show slab (Read.val_main_v64 (F := Ideal) x1) ⟨s.val - 16 + 16, _⟩ (ix5 b g 0 r c) = _
    rw [e]
    exact slab_apply _ s b g 0 r c

/-- The flattened stack, repeated over the output group: at row q · 25 + s and position l it is the padded offsets of
    group q at the position shift s reads for l. -/
theorem stack_flat_apply (b g q : Fin 2) (s : Fin 25) (l : Fin 2304) :
    Read.val_main_v120 (F := Ideal) x1 (ix4 b g (⟨q.val * 25 + s.val, by omega⟩ : Fin 50) l)
      = Read.val_main_v64 (F := Ideal) x1 (ix4 b q (Cert.Spec.prow s l) (Cert.Spec.pcol s l)) := by
  rw [Read.val_main_v120_apply, Read.val_main_v119_apply, Read.val_main_v118_apply]
  have e : Read.idx_main_v118 (Read.idx_main_v119 (Read.idx_main_v120
        (ix4 b g (⟨q.val * 25 + s.val, by omega⟩ : Fin 50) l)))
      = ix5 b q s (⟨l.val / 48, by omega⟩ : Fin 48) (⟨l.val % 48, by omega⟩ : Fin 48) := by
    funext a
    match a with
    | ⟨0, _⟩ => exact Fin.ext (by show ((b.val * 50 + (q.val * 25 + s.val)) * 2304 + l.val) / 115200 = b.val; omega)
    | ⟨1, _⟩ => exact Fin.ext (by show ((b.val * 50 + (q.val * 25 + s.val)) * 2304 + l.val) / 57600 % 2 = q.val; omega)
    | ⟨2, _⟩ => exact Fin.ext (by show ((b.val * 50 + (q.val * 25 + s.val)) * 2304 + l.val) / 2304 % 25 = s.val; omega)
    | ⟨3, _⟩ => exact Fin.ext (by show ((b.val * 50 + (q.val * 25 + s.val)) * 2304 + l.val) / 48 % 48 = l.val / 48; omega)
    | ⟨4, _⟩ => exact Fin.ext (by show ((b.val * 50 + (q.val * 25 + s.val)) * 2304 + l.val) % 48 = l.val % 48; omega)
  rw [e]
  exact offstack_apply x1 b q s ⟨l.val / 48, by omega⟩ ⟨l.val % 48, by omega⟩

/-- The offsets at the centre, repeated over the 50 rows: at any row and position l they are the offset of (b, g) at
    row l / 48, column l % 48. -/
theorem centre_apply (b g : Fin 2) (p : Fin 50) (l : Fin 2304) :
    Read.val_main_v121 (F := Ideal) x1 (ix4 b g p l)
      = Read.val_main_v62 (F := Ideal) x1 (ix4 b g (Cert.Spec.lrow l) (Cert.Spec.lcol l)) := by
  rw [Read.val_main_v121_apply, Read.val_main_v63_apply]
  refine congrArg _ (funext fun a => ?_)
  match a with
  | ⟨0, _⟩ => exact Fin.ext (by show (((b.val * 2 + g.val) * 1 + 0) * 2304 + l.val) / 4608 = b.val; omega)
  | ⟨1, _⟩ => exact Fin.ext (by show (((b.val * 2 + g.val) * 1 + 0) * 2304 + l.val) / 2304 % 2 = g.val; omega)
  | ⟨2, _⟩ => exact Fin.ext (by show (((b.val * 2 + g.val) * 1 + 0) * 2304 + l.val) / 48 % 48 = l.val / 48; omega)
  | ⟨3, _⟩ => exact Fin.ext (by show (((b.val * 2 + g.val) * 1 + 0) * 2304 + l.val) % 48 = l.val % 48; omega)

/-- The mask's bit at (b, g, i, l): is the padded offset that i's shift reads for l, in the group of i's channel,
    strictly below the offset of (b, g) at l? -/
theorem mask_bit_apply (b g : Fin 2) (i : Fin 4800) (l : Fin 2304) :
    Read.val_main_v125 (F := Ideal) x1 (ix4 b g i l)
      = FloatOps.cmpf (F := Ideal) (φ := .f32) .olt
          (Read.val_main_v64 (F := Ideal) x1 (ix4 b (Cert.Spec.grp (Cert.Spec.chanOf i))
            (Cert.Spec.prow (Cert.Spec.shiftOf i) l) (Cert.Spec.pcol (Cert.Spec.shiftOf i) l)))
          (Read.val_main_v62 (F := Ideal) x1 (ix4 b g (Cert.Spec.lrow l) (Cert.Spec.lcol l))) := by
  unfold Read.val_main_v125
  rw [reshape_merge_apply, Read.val_main_v124_apply]
  have e : Read.idx_main_v124 (ix6 b g (Cert.Spec.grp (Cert.Spec.chanOf i)) (⟨i.val / 25 % 96, by omega⟩ : Fin 96)
        (Cert.Spec.shiftOf i) l)
      = ix6 b g (Cert.Spec.grp (Cert.Spec.chanOf i)) (0 : Fin 1) (Cert.Spec.shiftOf i) l := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold Read.val_main_v123
  rw [reshape_split_apply, Read.val_main_v122_apply, stack_flat_apply, centre_apply]

/-- **The mask at an index.**  At (b, g, i, l) it is the gate of the padded offsets, in the group of i's channel and
    at the position i's shift reads for l, against the offset of (b, g) at l. -/
theorem mask_apply (b g : Fin 2) (i : Fin 4800) (l : Fin 2304) :
    Read.val_main_v126 (F := Ideal) x1 (ix4 b g i l)
      = Cert.Spec.gate
          (Read.val_main_v64 (F := Ideal) x1 (ix4 b (Cert.Spec.grp (Cert.Spec.chanOf i))
            (Cert.Spec.prow (Cert.Spec.shiftOf i) l) (Cert.Spec.pcol (Cert.Spec.shiftOf i) l)))
          (Read.val_main_v62 (F := Ideal) x1 (ix4 b g (Cert.Spec.lrow l) (Cert.Spec.lcol l))) := by
  unfold Cert.Spec.gate
  rw [Read.val_main_v126_apply, mask_bit_apply]

end Mask

end Cert.ReferenceIdeal.RefValue

end
-- ==== Proof.RefSide.lean ====
/-
  The reference's result as the specification's function.

  The reference pads the image and the group offsets, stacks their 25 shifted slices channel-major, and contracts the
  weights against (unfolded image × mask) over the flat index channel·25 + shift, then adds the bias and reshapes.
  Read at an index, the unfolded image at flat index k is the padded image at the shifted position of k's channel and
  shift, and the mask there is the gate of that channel's group against the output group's centre: the two factors of
  the specification's tap.  So the result before the last reshape is the specification's flat contraction.
-/
import proofs.«113980_j13426067767599_1_alg».proof.Proof.RefRead
import proofs.«113980_j13426067767599_1_alg».proof.Proof.RefUnf
import proofs.«113980_j13426067767599_1_alg».proof.Proof.RefMask
import proofs.«113980_j13426067767599_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The contraction's left operand at (b, g, o, k) is the weight array at (b, g, o, k, 0): the reshape only drops the
    trailing axis of extent 1. -/
theorem wgt_idx (b g : Fin 2) (o : Fin 192) (l : Fin 2304) (k : Fin 4800) :
    idx_main_v129 (lidx_main_v130 (ix4 b g o l) k) = ix5 b g o k 0 := by
  have hb := b.isLt; have hg := g.isLt; have ho := o.isLt; have hk := k.isLt
  funext a
  apply Fin.ext
  match a with
  | ⟨0, _⟩ => show ((((b.val * 2 + g.val) * 192 + o.val) * 4800 + k.val) / 1843200) = b.val; omega
  | ⟨1, _⟩ => show ((((b.val * 2 + g.val) * 192 + o.val) * 4800 + k.val) / 921600 % 2) = g.val; omega
  | ⟨2, _⟩ => show ((((b.val * 2 + g.val) * 192 + o.val) * 4800 + k.val) / 4800 % 192) = o.val; omega
  | ⟨3, _⟩ => show ((((b.val * 2 + g.val) * 192 + o.val) * 4800 + k.val) / 1 % 4800) = k.val; omega
  | ⟨4, _⟩ => rfl

/-- The contraction's right operand at (b, g, k, l). -/
theorem rhs_idx (b g : Fin 2) (o : Fin 192) (l : Fin 2304) (k : Fin 4800) :
    ridx_main_v130 (ix4 b g o l) k = ix4 b g k l := by
  funext a
  apply Fin.ext
  match a with
  | ⟨0, _⟩ => rfl
  | ⟨1, _⟩ => rfl
  | ⟨2, _⟩ => rfl
  | ⟨3, _⟩ => rfl

/-- The unfolded image is shared by the two output groups: the two broadcasts drop the group axis. -/
theorem unf_idx (b g : Fin 2) (k : Fin 4800) (l : Fin 2304) :
    idx_main_v55 (idx_main_v127 (ix4 b g k l)) = ix3 b k l := by
  funext a
  apply Fin.ext
  match a with
  | ⟨0, _⟩ => rfl
  | ⟨1, _⟩ => rfl
  | ⟨2, _⟩ => rfl

/-- The bias is broadcast along the positions. -/
theorem bias_idx (b g : Fin 2) (o : Fin 192) (l : Fin 2304) :
    idx_main_v131 (ix4 b g o l) = ix4 b g o 0 := by
  funext a
  apply Fin.ext
  match a with
  | ⟨0, _⟩ => rfl
  | ⟨1, _⟩ => rfl
  | ⟨2, _⟩ => rfl
  | ⟨3, _⟩ => rfl

/-- The reference's result before its last reshape is the flat contraction of the specification, over the padded
    image, the padded offsets and the offsets as the reference computes them: entry (b, g, o, l) is the sum over the
    flat index k of weight (b, g, o, k) times the unfolded image at (b, k, l) times the mask at (b, g, k, l), plus the
    bias of (b, g, o); the unfolded image and the mask at a flat index are the tap's two factors. -/
theorem pre_reshape (x0 : (⟨S2x192x48x48, .f32⟩ : BufTy).Contents (Elt Ideal)) (x1 : (⟨S2x2x48x48, .i32⟩ : BufTy).Contents (Elt Ideal))
    (x2 : (⟨S2x2x192x4800x1, .f32⟩ : BufTy).Contents (Elt Ideal)) (x3 : (⟨S2x2x192x1, .f32⟩ : BufTy).Contents (Elt Ideal)) :
    Read.val_main_v132 (F := Ideal) x0 x1 x2 x3
      = Cert.Spec.refR (Read.val_main_v0 (F := Ideal) x0) (Read.val_main_v64 (F := Ideal) x1) (Read.val_main_v62 (F := Ideal) x1) x2 x3 := by
  funext j
  obtain ⟨b, g, o, l, rfl⟩ : ∃ (b g : Fin 2) (o : Fin 192) (l : Fin 2304), j = ix4 b g o l := ⟨j 0, j 1, j 2, j 3, eq_ix4 j⟩
  rw [val_main_v132_apply, val_main_v130_apply, val_main_v131_apply, bias_idx]
  show (∑ k : Fin 4800, _) + _ = (∑ i : Fin 4800, _) + _
  congr 1
  refine Finset.sum_congr rfl fun k _ => ?_
  rw [val_main_v129_apply, val_main_v128_apply, val_main_v127_apply, val_main_v55_apply, wgt_idx, rhs_idx, unf_idx,
    unf_apply, mask_apply]
  rfl

/-- The reference's result: the same array, re-laid as [2, 384, 48, 48] by the program's last reshape. -/
theorem result_eq (x0 : (⟨S2x192x48x48, .f32⟩ : BufTy).Contents (Elt Ideal)) (x1 : (⟨S2x2x48x48, .i32⟩ : BufTy).Contents (Elt Ideal))
    (x2 : (⟨S2x2x192x4800x1, .f32⟩ : BufTy).Contents (Elt Ideal)) (x3 : (⟨S2x2x192x1, .f32⟩ : BufTy).Contents (Elt Ideal)) :
    Read.val_main_v133 (F := Ideal) x0 x1 x2 x3
      = shapeCast S2x384x48x48 (Cert.Spec.refR (Read.val_main_v0 (F := Ideal) x0) (Read.val_main_v64 (F := Ideal) x1)
          (Read.val_main_v62 (F := Ideal) x1) x2 x3) shapeCasts_S2x2x192x2304_S2x384x48x48 := by
  unfold Read.val_main_v133
  rw [pre_reshape]

end Cert.ReferenceIdeal.RefValue

end
-- ==== Proof.RefRunHand.Ops.lean ====
/-
  The reference program as a list of host operations.  Its @main is 140 operations in a straight line (the two padding
  calls inlined): pad the image and cut its 25 shifted slices, stack them; turn the group indices into offsets, pad
  them, cut and stack their 25 shifted slices; compare neighbour and centre offsets into a gate, multiply the gate into
  the image stack, contract with the weights, add the bias, reshape.  Here the operations are listed in 15 consecutive
  stretches, @main is shown to be the run of their concatenation, and the run theorem for straight-line programs gives:
  every run terminates with each buffer at the fold of the operations' results over the launch contents.
  What is repeated per stretch: the list of its operations in program order, and for that list the two facts the run
  theorem asks of every operation — it touches device buffers only (one library fact per operation, by its kind) and it
  allocates nothing (true of each kind of operation by definition).  @main's three printed parts are each the chain of
  their stretches (the inlined padding calls are stretches of their own), and a chain of runs is the run of the
  concatenation.
-/
import proofs.«113980_j13426067767599_1_alg».proof.Proof.RefRead
import Idealize.ShloMosaic.Lib.StableHlo.Run
import Idealize.ShloMosaic.Lib.Pipeline.Frame
import Idealize.ShloMosaic.Lib.Pipeline.Regions

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The operations, stretch by stretch -/

/-- The integer zero that the first padding call converts. -/
def A0 : List (HloOp τ sig (Elt F)) :=
  [ nullary main_c (constantI S_ 32 0#32) ]

/-- The first padding call's two operations: the zero as a float, then the image padded by two on each side of its last two axes. -/
def A1 : List (HloOp τ sig (Elt F)) :=
  [ TRef.unary (TRef.of (T := ⟨S_, .i32⟩) main_c) (TRef.of (T := ⟨S_, .f32⟩) main_call0_v0) (sitofp (F := F) .f32),
    TRef.binary (TRef.of (T := ⟨S2x192x48x48, .f32⟩) main_arg0) (TRef.of (T := ⟨S_, .f32⟩) main_call0_v0) (TRef.of (T := ⟨S2x192x52x52, .f32⟩) main_v0) (fun x v => pad S2x192x52x52 ![0, 0, 2, 2] ![0, 0, 2, 2] ![0, 0, 0, 0] x v pads_S2x192x48x48_S2x192x52x52_000_000_220_220 h_S_) ]

/-- The 25 shifted 48 × 48 slices of the padded image, one per shift (dy, dx) in 0..4 × 0..4. -/
def A2 : List (HloOp τ sig (Elt F)) :=
  [ unary main_v0 main_v1 ((extractStridedSlice S2x192x48x48 ![0, 0, 0, 0] · slices_S2x192x52x52_S2x192x48x48_0_0_0_0) : (⟨S2x192x52x52, .f32⟩ : BufTy).Contents (Elt F) → (⟨S2x192x48x48, .f32⟩ : BufTy).Contents (Elt F)),
    unary main_v0 main_v2 ((extractStridedSlice S2x192x48x48 ![0, 0, 0, 1] · slices_S2x192x52x52_S2x192x48x48_0_0_0_1) : (⟨S2x192x52x52, .f32⟩ : BufTy).Contents (Elt F) → (⟨S2x192x48x48, .f32⟩ : BufTy).Contents (Elt F)),
    unary main_v0 main_v3 ((extractStridedSlice S2x192x48x48 ![0, 0, 0, 2] · slices_S2x192x52x52_S2x192x48x48_0_0_0_2) : (⟨S2x192x52x52, .f32⟩ : BufTy).Contents (Elt F) → (⟨S2x192x48x48, .f32⟩ : BufTy).Contents (Elt F)),
    unary main_v0 main_v4 ((extractStridedSlice S2x192x48x48 ![0, 0, 0, 3] · slices_S2x192x52x52_S2x192x48x48_0_0_0_3) : (⟨S2x192x52x52, .f32⟩ : BufTy).Contents (Elt F) → (⟨S2x192x48x48, .f32⟩ : BufTy).Contents (Elt F)),
    unary main_v0 main_v5 ((extractStridedSlice S2x192x48x48 ![0, 0, 0, 4] · slices_S2x192x52x52_S2x192x48x48_0_0_0_4) : (⟨S2x192x52x52, .f32⟩ : BufTy).Contents (Elt F) → (⟨S2x192x48x48, .f32⟩ : BufTy).Contents (Elt F)),
    unary main_v0 main_v6 ((extractStridedSlice S2x192x48x48 ![0, 0, 1, 0] · slices_S2x192x52x52_S2x192x48x48_0_0_1_0) : (⟨S2x192x52x52, .f32⟩ : BufTy).Contents (Elt F) → (⟨S2x192x48x48, .f32⟩ : BufTy).Contents (Elt F)),
    unary main_v0 main_v7 ((extractStridedSlice S2x192x48x48 ![0, 0, 1, 1] · slices_S2x192x52x52_S2x192x48x48_0_0_1_1) : (⟨S2x192x52x52, .f32⟩ : BufTy).Contents (Elt F) → (⟨S2x192x48x48, .f32⟩ : BufTy).Contents (Elt F)),
    unary main_v0 main_v8 ((extractStridedSlice S2x192x48x48 ![0, 0, 1, 2] · slices_S2x192x52x52_S2x192x48x48_0_0_1_2) : (⟨S2x192x52x52, .f32⟩ : BufTy).Contents (Elt F) → (⟨S2x192x48x48, .f32⟩ : BufTy).Contents (Elt F)),
    unary main_v0 main_v9 ((extractStridedSlice S2x192x48x48 ![0, 0, 1, 3] · slices_S2x192x52x52_S2x192x48x48_0_0_1_3) : (⟨S2x192x52x52, .f32⟩ : BufTy).Contents (Elt F) → (⟨S2x192x48x48, .f32⟩ : BufTy).Contents (Elt F)),
    unary main_v0 main_v10 ((extractStridedSlice S2x192x48x48 ![0, 0, 1, 4] · slices_S2x192x52x52_S2x192x48x48_0_0_1_4) : (⟨S2x192x52x52, .f32⟩ : BufTy).Contents (Elt F) → (⟨S2x192x48x48, .f32⟩ : BufTy).Contents (Elt F)),
    unary main_v0 main_v11 ((extractStridedSlice S2x192x48x48 ![0, 0, 2, 0] · slices_S2x192x52x52_S2x192x48x48_0_0_2_0) : (⟨S2x192x52x52, .f32⟩ : BufTy).Contents (Elt F) → (⟨S2x192x48x48, .f32⟩ : BufTy).Contents (Elt F)),
    unary main_v0 main_v12 ((extractStridedSlice S2x192x48x48 ![0, 0, 2, 1] · slices_S2x192x52x52_S2x192x48x48_0_0_2_1) : (⟨S2x192x52x52, .f32⟩ : BufTy).Contents (Elt F) → (⟨S2x192x48x48, .f32⟩ : BufTy).Contents (Elt F)),
    unary main_v0 main_v13 ((extractStridedSlice S2x192x48x48 ![0, 0, 2, 2] · slices_S2x192x52x52_S2x192x48x48_0_0_2_2) : (⟨S2x192x52x52, .f32⟩ : BufTy).Contents (Elt F) → (⟨S2x192x48x48, .f32⟩ : BufTy).Contents (Elt F)),
    unary main_v0 main_v14 ((extractStridedSlice S2x192x48x48 ![0, 0, 2, 3] · slices_S2x192x52x52_S2x192x48x48_0_0_2_3) : (⟨S2x192x52x52, .f32⟩ : BufTy).Contents (Elt F) → (⟨S2x192x48x48, .f32⟩ : BufTy).Contents (Elt F)),
    unary main_v0 main_v15 ((extractStridedSlice S2x192x48x48 ![0, 0, 2, 4] · slices_S2x192x52x52_S2x192x48x48_0_0_2_4) : (⟨S2x192x52x52, .f32⟩ : BufTy).Contents (Elt F) → (⟨S2x192x48x48, .f32⟩ : BufTy).Contents (Elt F)),
    unary main_v0 main_v16 ((extractStridedSlice S2x192x48x48 ![0, 0, 3, 0] · slices_S2x192x52x52_S2x192x48x48_0_0_3_0) : (⟨S2x192x52x52, .f32⟩ : BufTy).Contents (Elt F) → (⟨S2x192x48x48, .f32⟩ : BufTy).Contents (Elt F)),
    unary main_v0 main_v17 ((extractStridedSlice S2x192x48x48 ![0, 0, 3, 1] · slices_S2x192x52x52_S2x192x48x48_0_0_3_1) : (⟨S2x192x52x52, .f32⟩ : BufTy).Contents (Elt F) → (⟨S2x192x48x48, .f32⟩ : BufTy).Contents (Elt F)),
    unary main_v0 main_v18 ((extractStridedSlice S2x192x48x48 ![0, 0, 3, 2] · slices_S2x192x52x52_S2x192x48x48_0_0_3_2) : (⟨S2x192x52x52, .f32⟩ : BufTy).Contents (Elt F) → (⟨S2x192x48x48, .f32⟩ : BufTy).Contents (Elt F)),
    unary main_v0 main_v19 ((extractStridedSlice S2x192x48x48 ![0, 0, 3, 3] · slices_S2x192x52x52_S2x192x48x48_0_0_3_3) : (⟨S2x192x52x52, .f32⟩ : BufTy).Contents (Elt F) → (⟨S2x192x48x48, .f32⟩ : BufTy).Contents (Elt F)),
    unary main_v0 main_v20 ((extractStridedSlice S2x192x48x48 ![0, 0, 3, 4] · slices_S2x192x52x52_S2x192x48x48_0_0_3_4) : (⟨S2x192x52x52, .f32⟩ : BufTy).Contents (Elt F) → (⟨S2x192x48x48, .f32⟩ : BufTy).Contents (Elt F)),
    unary main_v0 main_v21 ((extractStridedSlice S2x192x48x48 ![0, 0, 4, 0] · slices_S2x192x52x52_S2x192x48x48_0_0_4_0) : (⟨S2x192x52x52, .f32⟩ : BufTy).Contents (Elt F) → (⟨S2x192x48x48, .f32⟩ : BufTy).Contents (Elt F)),
    unary main_v0 main_v22 ((extractStridedSlice S2x192x48x48 ![0, 0, 4, 1] · slices_S2x192x52x52_S2x192x48x48_0_0_4_1) : (⟨S2x192x52x52, .f32⟩ : BufTy).Contents (Elt F) → (⟨S2x192x48x48, .f32⟩ : BufTy).Contents (Elt F)),
    unary main_v0 main_v23 ((extractStridedSlice S2x192x48x48 ![0, 0, 4, 2] · slices_S2x192x52x52_S2x192x48x48_0_0_4_2) : (⟨S2x192x52x52, .f32⟩ : BufTy).Contents (Elt F) → (⟨S2x192x48x48, .f32⟩ : BufTy).Contents (Elt F)),
    unary main_v0 main_v24 ((extractStridedSlice S2x192x48x48 ![0, 0, 4, 3] · slices_S2x192x52x52_S2x192x48x48_0_0_4_3) : (⟨S2x192x52x52, .f32⟩ : BufTy).Contents (Elt F) → (⟨S2x192x48x48, .f32⟩ : BufTy).Contents (Elt F)),
    unary main_v0 main_v25 ((extractStridedSlice S2x192x48x48 ![0, 0, 4, 4] · slices_S2x192x52x52_S2x192x48x48_0_0_4_4) : (⟨S2x192x52x52, .f32⟩ : BufTy).Contents (Elt F) → (⟨S2x192x48x48, .f32⟩ : BufTy).Contents (Elt F)) ]

/-- Each slice given a unit axis in third place, ready to be stacked. -/
def A3 : List (HloOp τ sig (Elt F)) :=
  [ unary main_v1 main_v26 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v2 main_v27 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v3 main_v28 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v4 main_v29 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v5 main_v30 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v6 main_v31 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v7 main_v32 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v8 main_v33 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v9 main_v34 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v10 main_v35 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v11 main_v36 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v12 main_v37 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v13 main_v38 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v14 main_v39 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v15 main_v40 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v16 main_v41 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v17 main_v42 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v18 main_v43 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v19 main_v44 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v20 main_v45 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v21 main_v46 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v22 main_v47 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v23 main_v48 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v24 main_v49 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v25 main_v50 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)) ]

/-- The first 16 slices stacked along the new axis. -/
def B1a : List (HloOp τ sig (Elt F)) :=
  [ nary ![main_v26, main_v27, main_v28, main_v29, main_v30, main_v31, main_v32, main_v33, main_v34, main_v35, main_v36, main_v37, main_v38, main_v39, main_v40, main_v41] main_v51 (fun u => concatenate S2x192x16x48x48 2 [⟨S2x192x1x48x48, u 0⟩, ⟨S2x192x1x48x48, u 1⟩, ⟨S2x192x1x48x48, u 2⟩, ⟨S2x192x1x48x48, u 3⟩, ⟨S2x192x1x48x48, u 4⟩, ⟨S2x192x1x48x48, u 5⟩, ⟨S2x192x1x48x48, u 6⟩, ⟨S2x192x1x48x48, u 7⟩, ⟨S2x192x1x48x48, u 8⟩, ⟨S2x192x1x48x48, u 9⟩, ⟨S2x192x1x48x48, u 10⟩, ⟨S2x192x1x48x48, u 11⟩, ⟨S2x192x1x48x48, u 12⟩, ⟨S2x192x1x48x48, u 13⟩, ⟨S2x192x1x48x48, u 14⟩, ⟨S2x192x1x48x48, u 15⟩] concatenates_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x16x48x48_d2) ]

/-- The last 9 slices stacked along the new axis. -/
def B1b : List (HloOp τ sig (Elt F)) :=
  [ nary ![main_v42, main_v43, main_v44, main_v45, main_v46, main_v47, main_v48, main_v49, main_v50] main_v52 (fun u => concatenate S2x192x9x48x48 2 [⟨S2x192x1x48x48, u 0⟩, ⟨S2x192x1x48x48, u 1⟩, ⟨S2x192x1x48x48, u 2⟩, ⟨S2x192x1x48x48, u 3⟩, ⟨S2x192x1x48x48, u 4⟩, ⟨S2x192x1x48x48, u 5⟩, ⟨S2x192x1x48x48, u 6⟩, ⟨S2x192x1x48x48, u 7⟩, ⟨S2x192x1x48x48, u 8⟩] concatenates_S2x192x1x48x48_S2x192x1x48x48_S2x192x1x48x48_S2x192x1x48x48_S2x192x1x48x48_S2x192x1x48x48_S2x192x1x48x48_S2x192x1x48x48_S2x192x1x48x48_S2x192x9x48x48_d2) ]

/-- The two stacks joined into all 25, flattened to [2, 4800, 2304] (channel-major, shift-minor rows), and given a unit group axis. -/
def B1c : List (HloOp τ sig (Elt F)) :=
  [ binary main_v51 main_v52 main_v53 ((fun a b => concatenate S2x192x25x48x48 2 [⟨S2x192x16x48x48, a⟩, ⟨S2x192x9x48x48, b⟩] concatenates_S2x192x16x48x48_S2x192x9x48x48_S2x192x25x48x48_d2) : (⟨S2x192x16x48x48, .f32⟩ : BufTy).Contents (Elt F) → (⟨S2x192x9x48x48, .f32⟩ : BufTy).Contents (Elt F) → (⟨S2x192x25x48x48, .f32⟩ : BufTy).Contents (Elt F)),
    reshape main_v53 main_v54 rfl shapeCasts_S2x192x25x48x48_S2x4800x2304,
    unary main_v54 main_v55 (broadcastInDim S2x1x4800x2304 ![0, 2, 3] bcast_S2x4800x2304_S2x1x4800x2304_0_2_3 : (⟨S2x4800x2304, .f32⟩ : BufTy).Contents (Elt F) → (⟨S2x1x4800x2304, .f32⟩ : BufTy).Contents (Elt F)) ]

/-- The group indices as floats, and their maximum. -/
def B2a : List (HloOp τ sig (Elt F)) :=
  [ unary main_arg1 main_v56 (sitofp (F := F) .f32 : (⟨S2x2x48x48, .i32⟩ : BufTy).Contents (Elt F) → (⟨S2x2x48x48, .f32⟩ : BufTy).Contents (Elt F)),
    nullary main_cst (constant S_ .f32 0xFF800000#32),
    binary main_v56 main_cst main_v57 ((fun x v => Host.reduce FloatOps.maximumf x v reducesTo_S2x2x48x48_S_d0_1_2_3 h_S_) : (⟨S2x2x48x48, .f32⟩ : BufTy).Contents (Elt F) → (⟨S_, .f32⟩ : BufTy).Contents (Elt F) → (⟨S_, .f32⟩ : BufTy).Contents (Elt F)) ]

/-- The offsets: group index minus the ceiling of the maximum, minus one; flattened per position; and the zero for the second padding call. -/
def B2b : List (HloOp τ sig (Elt F)) :=
  [ unary main_v57 main_v58 (Host.ceil : (⟨S_, .f32⟩ : BufTy).Contents (Elt F) → (⟨S_, .f32⟩ : BufTy).Contents (Elt F)),
    unary main_v58 main_v59 (broadcastInDim S2x2x48x48 ![] bcast_S_S2x2x48x48 : (⟨S_, .f32⟩ : BufTy).Contents (Elt F) → (⟨S2x2x48x48, .f32⟩ : BufTy).Contents (Elt F)),
    binary main_v56 main_v59 main_v60 (subf : (⟨S2x2x48x48, .f32⟩ : BufTy).Contents (Elt F) → (⟨S2x2x48x48, .f32⟩ : BufTy).Contents (Elt F) → (⟨S2x2x48x48, .f32⟩ : BufTy).Contents (Elt F)),
    nullary main_cst_0 (constant S_ .f32 0x3F800000#32),
    unary main_cst_0 main_v61 (broadcastInDim S2x2x48x48 ![] bcast_S_S2x2x48x48 : (⟨S_, .f32⟩ : BufTy).Contents (Elt F) → (⟨S2x2x48x48, .f32⟩ : BufTy).Contents (Elt F)),
    binary main_v60 main_v61 main_v62 (subf : (⟨S2x2x48x48, .f32⟩ : BufTy).Contents (Elt F) → (⟨S2x2x48x48, .f32⟩ : BufTy).Contents (Elt F) → (⟨S2x2x48x48, .f32⟩ : BufTy).Contents (Elt F)),
    reshape main_v62 main_v63 rfl shapeCasts_S2x2x48x48_S2x2x1x2304,
    nullary main_c_1 (constantI S_ 32 0#32) ]

/-- The second padding call's two operations: the offsets padded by two on each side with zero. -/
def B2c : List (HloOp τ sig (Elt F)) :=
  [ TRef.unary (TRef.of (T := ⟨S_, .i32⟩) main_c_1) (TRef.of (T := ⟨S_, .f32⟩) main_call1_v0) (sitofp (F := F) .f32),
    TRef.binary (TRef.of (T := ⟨S2x2x48x48, .f32⟩) main_v62) (TRef.of (T := ⟨S_, .f32⟩) main_call1_v0) (TRef.of (T := ⟨S2x2x52x52, .f32⟩) main_v64) (fun x v => pad S2x2x52x52 ![0, 0, 2, 2] ![0, 0, 2, 2] ![0, 0, 0, 0] x v pads_S2x2x48x48_S2x2x52x52_000_000_220_220 h_S_) ]

/-- The 25 shifted slices of the padded offsets. -/
def B3 : List (HloOp τ sig (Elt F)) :=
  [ unary main_v64 main_v65 ((extractStridedSlice S2x2x48x48 ![0, 0, 0, 0] · slices_S2x2x52x52_S2x2x48x48_0_0_0_0) : (⟨S2x2x52x52, .f32⟩ : BufTy).Contents (Elt F) → (⟨S2x2x48x48, .f32⟩ : BufTy).Contents (Elt F)),
    unary main_v64 main_v66 ((extractStridedSlice S2x2x48x48 ![0, 0, 0, 1] · slices_S2x2x52x52_S2x2x48x48_0_0_0_1) : (⟨S2x2x52x52, .f32⟩ : BufTy).Contents (Elt F) → (⟨S2x2x48x48, .f32⟩ : BufTy).Contents (Elt F)),
    unary main_v64 main_v67 ((extractStridedSlice S2x2x48x48 ![0, 0, 0, 2] · slices_S2x2x52x52_S2x2x48x48_0_0_0_2) : (⟨S2x2x52x52, .f32⟩ : BufTy).Contents (Elt F) → (⟨S2x2x48x48, .f32⟩ : BufTy).Contents (Elt F)),
    unary main_v64 main_v68 ((extractStridedSlice S2x2x48x48 ![0, 0, 0, 3] · slices_S2x2x52x52_S2x2x48x48_0_0_0_3) : (⟨S2x2x52x52, .f32⟩ : BufTy).Contents (Elt F) → (⟨S2x2x48x48, .f32⟩ : BufTy).Contents (Elt F)),
    unary main_v64 main_v69 ((extractStridedSlice S2x2x48x48 ![0, 0, 0, 4] · slices_S2x2x52x52_S2x2x48x48_0_0_0_4) : (⟨S2x2x52x52, .f32⟩ : BufTy).Contents (Elt F) → (⟨S2x2x48x48, .f32⟩ : BufTy).Contents (Elt F)),
    unary main_v64 main_v70 ((extractStridedSlice S2x2x48x48 ![0, 0, 1, 0] · slices_S2x2x52x52_S2x2x48x48_0_0_1_0) : (⟨S2x2x52x52, .f32⟩ : BufTy).Contents (Elt F) → (⟨S2x2x48x48, .f32⟩ : BufTy).Contents (Elt F)),
    unary main_v64 main_v71 ((extractStridedSlice S2x2x48x48 ![0, 0, 1, 1] · slices_S2x2x52x52_S2x2x48x48_0_0_1_1) : (⟨S2x2x52x52, .f32⟩ : BufTy).Contents (Elt F) → (⟨S2x2x48x48, .f32⟩ : BufTy).Contents (Elt F)),
    unary main_v64 main_v72 ((extractStridedSlice S2x2x48x48 ![0, 0, 1, 2] · slices_S2x2x52x52_S2x2x48x48_0_0_1_2) : (⟨S2x2x52x52, .f32⟩ : BufTy).Contents (Elt F) → (⟨S2x2x48x48, .f32⟩ : BufTy).Contents (Elt F)),
    unary main_v64 main_v73 ((extractStridedSlice S2x2x48x48 ![0, 0, 1, 3] · slices_S2x2x52x52_S2x2x48x48_0_0_1_3) : (⟨S2x2x52x52, .f32⟩ : BufTy).Contents (Elt F) → (⟨S2x2x48x48, .f32⟩ : BufTy).Contents (Elt F)),
    unary main_v64 main_v74 ((extractStridedSlice S2x2x48x48 ![0, 0, 1, 4] · slices_S2x2x52x52_S2x2x48x48_0_0_1_4) : (⟨S2x2x52x52, .f32⟩ : BufTy).Contents (Elt F) → (⟨S2x2x48x48, .f32⟩ : BufTy).Contents (Elt F)),
    unary main_v64 main_v75 ((extractStridedSlice S2x2x48x48 ![0, 0, 2, 0] · slices_S2x2x52x52_S2x2x48x48_0_0_2_0) : (⟨S2x2x52x52, .f32⟩ : BufTy).Contents (Elt F) → (⟨S2x2x48x48, .f32⟩ : BufTy).Contents (Elt F)),
    unary main_v64 main_v76 ((extractStridedSlice S2x2x48x48 ![0, 0, 2, 1] · slices_S2x2x52x52_S2x2x48x48_0_0_2_1) : (⟨S2x2x52x52, .f32⟩ : BufTy).Contents (Elt F) → (⟨S2x2x48x48, .f32⟩ : BufTy).Contents (Elt F)),
    unary main_v64 main_v77 ((extractStridedSlice S2x2x48x48 ![0, 0, 2, 2] · slices_S2x2x52x52_S2x2x48x48_0_0_2_2) : (⟨S2x2x52x52, .f32⟩ : BufTy).Contents (Elt F) → (⟨S2x2x48x48, .f32⟩ : BufTy).Contents (Elt F)),
    unary main_v64 main_v78 ((extractStridedSlice S2x2x48x48 ![0, 0, 2, 3] · slices_S2x2x52x52_S2x2x48x48_0_0_2_3) : (⟨S2x2x52x52, .f32⟩ : BufTy).Contents (Elt F) → (⟨S2x2x48x48, .f32⟩ : BufTy).Contents (Elt F)),
    unary main_v64 main_v79 ((extractStridedSlice S2x2x48x48 ![0, 0, 2, 4] · slices_S2x2x52x52_S2x2x48x48_0_0_2_4) : (⟨S2x2x52x52, .f32⟩ : BufTy).Contents (Elt F) → (⟨S2x2x48x48, .f32⟩ : BufTy).Contents (Elt F)),
    unary main_v64 main_v80 ((extractStridedSlice S2x2x48x48 ![0, 0, 3, 0] · slices_S2x2x52x52_S2x2x48x48_0_0_3_0) : (⟨S2x2x52x52, .f32⟩ : BufTy).Contents (Elt F) → (⟨S2x2x48x48, .f32⟩ : BufTy).Contents (Elt F)),
    unary main_v64 main_v81 ((extractStridedSlice S2x2x48x48 ![0, 0, 3, 1] · slices_S2x2x52x52_S2x2x48x48_0_0_3_1) : (⟨S2x2x52x52, .f32⟩ : BufTy).Contents (Elt F) → (⟨S2x2x48x48, .f32⟩ : BufTy).Contents (Elt F)),
    unary main_v64 main_v82 ((extractStridedSlice S2x2x48x48 ![0, 0, 3, 2] · slices_S2x2x52x52_S2x2x48x48_0_0_3_2) : (⟨S2x2x52x52, .f32⟩ : BufTy).Contents (Elt F) → (⟨S2x2x48x48, .f32⟩ : BufTy).Contents (Elt F)),
    unary main_v64 main_v83 ((extractStridedSlice S2x2x48x48 ![0, 0, 3, 3] · slices_S2x2x52x52_S2x2x48x48_0_0_3_3) : (⟨S2x2x52x52, .f32⟩ : BufTy).Contents (Elt F) → (⟨S2x2x48x48, .f32⟩ : BufTy).Contents (Elt F)),
    unary main_v64 main_v84 ((extractStridedSlice S2x2x48x48 ![0, 0, 3, 4] · slices_S2x2x52x52_S2x2x48x48_0_0_3_4) : (⟨S2x2x52x52, .f32⟩ : BufTy).Contents (Elt F) → (⟨S2x2x48x48, .f32⟩ : BufTy).Contents (Elt F)),
    unary main_v64 main_v85 ((extractStridedSlice S2x2x48x48 ![0, 0, 4, 0] · slices_S2x2x52x52_S2x2x48x48_0_0_4_0) : (⟨S2x2x52x52, .f32⟩ : BufTy).Contents (Elt F) → (⟨S2x2x48x48, .f32⟩ : BufTy).Contents (Elt F)),
    unary main_v64 main_v86 ((extractStridedSlice S2x2x48x48 ![0, 0, 4, 1] · slices_S2x2x52x52_S2x2x48x48_0_0_4_1) : (⟨S2x2x52x52, .f32⟩ : BufTy).Contents (Elt F) → (⟨S2x2x48x48, .f32⟩ : BufTy).Contents (Elt F)),
    unary main_v64 main_v87 ((extractStridedSlice S2x2x48x48 ![0, 0, 4, 2] · slices_S2x2x52x52_S2x2x48x48_0_0_4_2) : (⟨S2x2x52x52, .f32⟩ : BufTy).Contents (Elt F) → (⟨S2x2x48x48, .f32⟩ : BufTy).Contents (Elt F)),
    unary main_v64 main_v88 ((extractStridedSlice S2x2x48x48 ![0, 0, 4, 3] · slices_S2x2x52x52_S2x2x48x48_0_0_4_3) : (⟨S2x2x52x52, .f32⟩ : BufTy).Contents (Elt F) → (⟨S2x2x48x48, .f32⟩ : BufTy).Contents (Elt F)),
    unary main_v64 main_v89 ((extractStridedSlice S2x2x48x48 ![0, 0, 4, 4] · slices_S2x2x52x52_S2x2x48x48_0_0_4_4) : (⟨S2x2x52x52, .f32⟩ : BufTy).Contents (Elt F) → (⟨S2x2x48x48, .f32⟩ : BufTy).Contents (Elt F)) ]

/-- Each of them given a unit axis in third place. -/
def B4 : List (HloOp τ sig (Elt F)) :=
  [ unary main_v65 main_v90 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v66 main_v91 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v67 main_v92 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v68 main_v93 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v69 main_v94 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v70 main_v95 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v71 main_v96 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v72 main_v97 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v73 main_v98 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v74 main_v99 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v75 main_v100 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v76 main_v101 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v77 main_v102 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v78 main_v103 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v79 main_v104 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v80 main_v105 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v81 main_v106 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v82 main_v107 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v83 main_v108 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v84 main_v109 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v85 main_v110 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v86 main_v111 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v87 main_v112 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v88 main_v113 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v89 main_v114 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)) ]

/-- The first 16 offset slices stacked. -/
def C1a : List (HloOp τ sig (Elt F)) :=
  [ nary ![main_v90, main_v91, main_v92, main_v93, main_v94, main_v95, main_v96, main_v97, main_v98, main_v99, main_v100, main_v101, main_v102, main_v103, main_v104, main_v105] main_v115 (fun u => concatenate S2x2x16x48x48 2 [⟨S2x2x1x48x48, u 0⟩, ⟨S2x2x1x48x48, u 1⟩, ⟨S2x2x1x48x48, u 2⟩, ⟨S2x2x1x48x48, u 3⟩, ⟨S2x2x1x48x48, u 4⟩, ⟨S2x2x1x48x48, u 5⟩, ⟨S2x2x1x48x48, u 6⟩, ⟨S2x2x1x48x48, u 7⟩, ⟨S2x2x1x48x48, u 8⟩, ⟨S2x2x1x48x48, u 9⟩, ⟨S2x2x1x48x48, u 10⟩, ⟨S2x2x1x48x48, u 11⟩, ⟨S2x2x1x48x48, u 12⟩, ⟨S2x2x1x48x48, u 13⟩, ⟨S2x2x1x48x48, u 14⟩, ⟨S2x2x1x48x48, u 15⟩] concatenates_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x16x48x48_d2) ]

/-- The last 9 offset slices stacked. -/
def C1b : List (HloOp τ sig (Elt F)) :=
  [ nary ![main_v106, main_v107, main_v108, main_v109, main_v110, main_v111, main_v112, main_v113, main_v114] main_v116 (fun u => concatenate S2x2x9x48x48 2 [⟨S2x2x1x48x48, u 0⟩, ⟨S2x2x1x48x48, u 1⟩, ⟨S2x2x1x48x48, u 2⟩, ⟨S2x2x1x48x48, u 3⟩, ⟨S2x2x1x48x48, u 4⟩, ⟨S2x2x1x48x48, u 5⟩, ⟨S2x2x1x48x48, u 6⟩, ⟨S2x2x1x48x48, u 7⟩, ⟨S2x2x1x48x48, u 8⟩] concatenates_S2x2x1x48x48_S2x2x1x48x48_S2x2x1x48x48_S2x2x1x48x48_S2x2x1x48x48_S2x2x1x48x48_S2x2x1x48x48_S2x2x1x48x48_S2x2x1x48x48_S2x2x9x48x48_d2) ]

/-- All 25 offset slices joined and compared with the centre offset (the gate, 1 where the neighbour's offset is smaller), the gate laid out over the 4800 rows and multiplied into the image stack, the contraction with the weights, the bias added, and the result reshaped to [2, 384, 48, 48]. -/
def C2 : List (HloOp τ sig (Elt F)) :=
  [ binary main_v115 main_v116 main_v117 ((fun a b => concatenate S2x2x25x48x48 2 [⟨S2x2x16x48x48, a⟩, ⟨S2x2x9x48x48, b⟩] concatenates_S2x2x16x48x48_S2x2x9x48x48_S2x2x25x48x48_d2) : (⟨S2x2x16x48x48, .f32⟩ : BufTy).Contents (Elt F) → (⟨S2x2x9x48x48, .f32⟩ : BufTy).Contents (Elt F) → (⟨S2x2x25x48x48, .f32⟩ : BufTy).Contents (Elt F)),
    reshape main_v117 main_v118 rfl shapeCasts_S2x2x25x48x48_S2x50x2304,
    unary main_v118 main_v119 (broadcastInDim S2x1x50x2304 ![0, 2, 3] bcast_S2x50x2304_S2x1x50x2304_0_2_3 : (⟨S2x50x2304, .f32⟩ : BufTy).Contents (Elt F) → (⟨S2x1x50x2304, .f32⟩ : BufTy).Contents (Elt F)),
    unary main_v119 main_v120 (broadcastInDim S2x2x50x2304 ![0, 1, 2, 3] bcast_S2x1x50x2304_S2x2x50x2304_0_1_2_3 : (⟨S2x1x50x2304, .f32⟩ : BufTy).Contents (Elt F) → (⟨S2x2x50x2304, .f32⟩ : BufTy).Contents (Elt F)),
    unary main_v63 main_v121 (broadcastInDim S2x2x50x2304 ![0, 1, 2, 3] bcast_S2x2x1x2304_S2x2x50x2304_0_1_2_3 : (⟨S2x2x1x2304, .f32⟩ : BufTy).Contents (Elt F) → (⟨S2x2x50x2304, .f32⟩ : BufTy).Contents (Elt F)),
    binary main_v120 main_v121 main_v122 (cmpf (F := F) .olt : (⟨S2x2x50x2304, .f32⟩ : BufTy).Contents (Elt F) → (⟨S2x2x50x2304, .f32⟩ : BufTy).Contents (Elt F) → (⟨S2x2x50x2304, .i1⟩ : BufTy).Contents (Elt F)),
    reshape main_v122 main_v123 rfl shapeCasts_S2x2x50x2304_S2x2x2x1x25x2304,
    unary main_v123 main_v124 (broadcastInDim S2x2x2x96x25x2304 ![0, 1, 2, 3, 4, 5] bcast_S2x2x2x1x25x2304_S2x2x2x96x25x2304_0_1_2_3_4_5 : (⟨S2x2x2x1x25x2304, .i1⟩ : BufTy).Contents (Elt F) → (⟨S2x2x2x96x25x2304, .i1⟩ : BufTy).Contents (Elt F)),
    reshape main_v124 main_v125 rfl shapeCasts_S2x2x2x96x25x2304_S2x2x4800x2304,
    unary main_v125 main_v126 (uitofp (F := F) .f32 : (⟨S2x2x4800x2304, .i1⟩ : BufTy).Contents (Elt F) → (⟨S2x2x4800x2304, .f32⟩ : BufTy).Contents (Elt F)),
    unary main_v55 main_v127 (broadcastInDim S2x2x4800x2304 ![0, 1, 2, 3] bcast_S2x1x4800x2304_S2x2x4800x2304_0_1_2_3 : (⟨S2x1x4800x2304, .f32⟩ : BufTy).Contents (Elt F) → (⟨S2x2x4800x2304, .f32⟩ : BufTy).Contents (Elt F)),
    binary main_v127 main_v126 main_v128 (mulf : (⟨S2x2x4800x2304, .f32⟩ : BufTy).Contents (Elt F) → (⟨S2x2x4800x2304, .f32⟩ : BufTy).Contents (Elt F) → (⟨S2x2x4800x2304, .f32⟩ : BufTy).Contents (Elt F)),
    reshape main_arg2 main_v129 rfl shapeCasts_S2x2x192x4800x1_S2x2x192x4800,
    binary main_v129 main_v128 main_v130 ((fun l r => Host.dotGeneral dot_S2x2x192x4800_S2x2x4800x2304_S2x2x192x2304_3_2_2_3_01_01 none l r) : (⟨S2x2x192x4800, .f32⟩ : BufTy).Contents (Elt F) → (⟨S2x2x4800x2304, .f32⟩ : BufTy).Contents (Elt F) → (⟨S2x2x192x2304, .f32⟩ : BufTy).Contents (Elt F)),
    unary main_arg3 main_v131 (broadcastInDim S2x2x192x2304 ![0, 1, 2, 3] bcast_S2x2x192x1_S2x2x192x2304_0_1_2_3 : (⟨S2x2x192x1, .f32⟩ : BufTy).Contents (Elt F) → (⟨S2x2x192x2304, .f32⟩ : BufTy).Contents (Elt F)),
    binary main_v130 main_v131 main_v132 (addf : (⟨S2x2x192x2304, .f32⟩ : BufTy).Contents (Elt F) → (⟨S2x2x192x2304, .f32⟩ : BufTy).Contents (Elt F) → (⟨S2x2x192x2304, .f32⟩ : BufTy).Contents (Elt F)),
    reshape main_v132 main_v133 rfl shapeCasts_S2x2x192x2304_S2x384x48x48 ]

/-! ## @main is the run of its operations in order -/

/-- All 140 operations of @main in program order: the stretches one after the other. -/
def ops : List (HloOp τ sig (Elt F)) := List.flatten [A0, A1, A2, A3, B1a, B1b, B1c, B2a, B2b, B2c, B3, B4, C1a, C1b, C2]

/-- Running stretches one after the other is running their concatenation. -/
theorem chain_seq {Λ : Idealize.SL.Sem.Labels} (ls : List (List (HloOp τ sig (Elt F)))) :
    (Pipeline.chain (ls.map fun l => (seq l : Prog (TpuEff nD τ sig (Elt F) Λ .tc) PUnit))) = seq ls.flatten := by
  induction ls with
  | nil => rfl
  | cons l ls ih => rw [List.map_cons, Pipeline.chain_cons, ih, List.flatten_cons, seq_append]

/-- The first part of @main (through the maximum of the group indices) is its stretches in order, the last in tail position. -/
theorem main_part0_chain (c : Dev nD) : main_part0 (F := F) c = (Pipeline.chainK
  [ StableHlo.seq A0,
    StableHlo.seq A1,
    StableHlo.seq A2,
    StableHlo.seq A3,
    StableHlo.seq B1a,
    StableHlo.seq B1b,
    StableHlo.seq B1c ]
  (StableHlo.seq B2a) : Prog (TpuEff nD τ sig (Elt F) (Pipeline.Sig Λ₀ (Fin 0) fun p => (pcfgs (F := F) p).Adm) .tc) PUnit) := by
  chain_rfl
/-- The second part (through the first offset stack). -/
theorem main_part1_chain (c : Dev nD) : main_part1 (F := F) c = (Pipeline.chainK
  [ StableHlo.seq B2b,
    StableHlo.seq B2c,
    StableHlo.seq B3,
    StableHlo.seq B4 ]
  (StableHlo.seq C1a) : Prog (TpuEff nD τ sig (Elt F) (Pipeline.Sig Λ₀ (Fin 0) fun p => (pcfgs (F := F) p).Adm) .tc) PUnit) := by
  chain_rfl
/-- The last part. -/
theorem main_part2_chain (c : Dev nD) : main_part2 (F := F) c = (Pipeline.chain
  [ StableHlo.seq C1b,
    StableHlo.seq C2 ] : Prog (TpuEff nD τ sig (Elt F) (Pipeline.Sig Λ₀ (Fin 0) fun p => (pcfgs (F := F) p).Adm) .tc) PUnit) := by
  chain_rfl

/-- So @main is the run of all its operations in order. -/
theorem main_eq (c : Dev nD) : main (F := F) c = seq ops := by
  show (main_part0 (F := F) c >>= fun _ => main_part1 (F := F) c >>= fun _ => main_part2 (F := F) c) = _
  rw [main_part2_chain, main_part1_chain, Pipeline.chainK_bind_chain, main_part0_chain, Pipeline.chainK_bind_chain]
  exact chain_seq [A0, A1, A2, A3, B1a, B1b, B1c, B2a, B2b, B2c, B3, B4, C1a, C1b, C2]

theorem scopedRefs_eq : (Finset.univ.filter fun b : Ref sig .tc => b.isScoped) = ∅ := by decide
theorem scopedSems_eq : (Finset.univ.filter fun sm : SemLoc sig => sm.isScoped .tc) = ∅ := by decide

/-! ## Every operation touches device buffers only and allocates nothing -/

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem A0_sub : (A0 : List (HloOp τ sig (Elt F))).Forall fun op => op.bufs ⊆ tcRefs τ sig := by
  unfold A0; exact nullary_bufs_sub ..
theorem A1_sub : (A1 : List (HloOp τ sig (Elt F))).Forall fun op => op.bufs ⊆ tcRefs τ sig := by
  unfold A1; exact ⟨unary_bufs_sub .., binary_bufs_sub ..⟩
theorem A2_sub : (A2 : List (HloOp τ sig (Elt F))).Forall fun op => op.bufs ⊆ tcRefs τ sig := by
  unfold A2; exact ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem A3_sub : (A3 : List (HloOp τ sig (Elt F))).Forall fun op => op.bufs ⊆ tcRefs τ sig := by
  unfold A3; exact ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem B1a_sub : (B1a : List (HloOp τ sig (Elt F))).Forall fun op => op.bufs ⊆ tcRefs τ sig := by
  unfold B1a; exact nary_bufs_sub ..
theorem B1b_sub : (B1b : List (HloOp τ sig (Elt F))).Forall fun op => op.bufs ⊆ tcRefs τ sig := by
  unfold B1b; exact nary_bufs_sub ..
theorem B1c_sub : (B1c : List (HloOp τ sig (Elt F))).Forall fun op => op.bufs ⊆ tcRefs τ sig := by
  unfold B1c; exact ⟨binary_bufs_sub .., reshape_bufs_sub .., unary_bufs_sub ..⟩
theorem B2a_sub : (B2a : List (HloOp τ sig (Elt F))).Forall fun op => op.bufs ⊆ tcRefs τ sig := by
  unfold B2a; exact ⟨unary_bufs_sub .., nullary_bufs_sub .., binary_bufs_sub ..⟩
theorem B2b_sub : (B2b : List (HloOp τ sig (Elt F))).Forall fun op => op.bufs ⊆ tcRefs τ sig := by
  unfold B2b; exact ⟨unary_bufs_sub .., unary_bufs_sub .., binary_bufs_sub .., nullary_bufs_sub .., unary_bufs_sub .., binary_bufs_sub .., reshape_bufs_sub .., nullary_bufs_sub ..⟩
theorem B2c_sub : (B2c : List (HloOp τ sig (Elt F))).Forall fun op => op.bufs ⊆ tcRefs τ sig := by
  unfold B2c; exact ⟨unary_bufs_sub .., binary_bufs_sub ..⟩
theorem B3_sub : (B3 : List (HloOp τ sig (Elt F))).Forall fun op => op.bufs ⊆ tcRefs τ sig := by
  unfold B3; exact ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem B4_sub : (B4 : List (HloOp τ sig (Elt F))).Forall fun op => op.bufs ⊆ tcRefs τ sig := by
  unfold B4; exact ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem C1a_sub : (C1a : List (HloOp τ sig (Elt F))).Forall fun op => op.bufs ⊆ tcRefs τ sig := by
  unfold C1a; exact nary_bufs_sub ..
theorem C1b_sub : (C1b : List (HloOp τ sig (Elt F))).Forall fun op => op.bufs ⊆ tcRefs τ sig := by
  unfold C1b; exact nary_bufs_sub ..
theorem C2_sub : (C2 : List (HloOp τ sig (Elt F))).Forall fun op => op.bufs ⊆ tcRefs τ sig := by
  unfold C2; exact ⟨binary_bufs_sub .., reshape_bufs_sub .., unary_bufs_sub .., unary_bufs_sub .., unary_bufs_sub .., binary_bufs_sub .., reshape_bufs_sub .., unary_bufs_sub .., reshape_bufs_sub .., unary_bufs_sub .., unary_bufs_sub .., binary_bufs_sub .., reshape_bufs_sub .., binary_bufs_sub .., unary_bufs_sub .., binary_bufs_sub .., reshape_bufs_sub ..⟩
theorem A0_fresh : (A0 : List (HloOp τ sig (Elt F))).Forall fun op => op.fresh = ∅ := by
  unfold A0; simp only [List.Forall]; repeat' constructor
theorem A1_fresh : (A1 : List (HloOp τ sig (Elt F))).Forall fun op => op.fresh = ∅ := by
  unfold A1; simp only [List.Forall]; repeat' constructor
theorem A2_fresh : (A2 : List (HloOp τ sig (Elt F))).Forall fun op => op.fresh = ∅ := by
  unfold A2; simp only [List.Forall]; repeat' constructor
theorem A3_fresh : (A3 : List (HloOp τ sig (Elt F))).Forall fun op => op.fresh = ∅ := by
  unfold A3; simp only [List.Forall]; repeat' constructor
theorem B1a_fresh : (B1a : List (HloOp τ sig (Elt F))).Forall fun op => op.fresh = ∅ := by
  unfold B1a; simp only [List.Forall]; repeat' constructor
theorem B1b_fresh : (B1b : List (HloOp τ sig (Elt F))).Forall fun op => op.fresh = ∅ := by
  unfold B1b; simp only [List.Forall]; repeat' constructor
theorem B1c_fresh : (B1c : List (HloOp τ sig (Elt F))).Forall fun op => op.fresh = ∅ := by
  unfold B1c; simp only [List.Forall]; repeat' constructor
theorem B2a_fresh : (B2a : List (HloOp τ sig (Elt F))).Forall fun op => op.fresh = ∅ := by
  unfold B2a; simp only [List.Forall]; repeat' constructor
theorem B2b_fresh : (B2b : List (HloOp τ sig (Elt F))).Forall fun op => op.fresh = ∅ := by
  unfold B2b; simp only [List.Forall]; repeat' constructor
theorem B2c_fresh : (B2c : List (HloOp τ sig (Elt F))).Forall fun op => op.fresh = ∅ := by
  unfold B2c; simp only [List.Forall]; repeat' constructor
theorem B3_fresh : (B3 : List (HloOp τ sig (Elt F))).Forall fun op => op.fresh = ∅ := by
  unfold B3; simp only [List.Forall]; repeat' constructor
theorem B4_fresh : (B4 : List (HloOp τ sig (Elt F))).Forall fun op => op.fresh = ∅ := by
  unfold B4; simp only [List.Forall]; repeat' constructor
theorem C1a_fresh : (C1a : List (HloOp τ sig (Elt F))).Forall fun op => op.fresh = ∅ := by
  unfold C1a; simp only [List.Forall]; repeat' constructor
theorem C1b_fresh : (C1b : List (HloOp τ sig (Elt F))).Forall fun op => op.fresh = ∅ := by
  unfold C1b; simp only [List.Forall]; repeat' constructor
theorem C2_fresh : (C2 : List (HloOp τ sig (Elt F))).Forall fun op => op.fresh = ∅ := by
  unfold C2; simp only [List.Forall]; repeat' constructor

theorem ops_sub : (ops : List (HloOp τ sig (Elt F))).Forall fun op => op.bufs ⊆ tcRefs τ sig := by
  unfold ops; simp only [List.flatten_cons, List.flatten_nil]
  exact forall_append A0_sub (forall_append A1_sub (forall_append A2_sub (forall_append A3_sub (forall_append B1a_sub (forall_append B1b_sub (forall_append B1c_sub (forall_append B2a_sub (forall_append B2b_sub (forall_append B2c_sub (forall_append B3_sub (forall_append B4_sub (forall_append C1a_sub (forall_append C1b_sub (forall_append C2_sub trivial))))))))))))))
theorem ops_fresh : ∀ op ∈ (ops : List (HloOp τ sig (Elt F))), op.fresh = ∅ := by
  refine List.forall_iff_forall_mem.mp ?_
  unfold ops; simp only [List.flatten_cons, List.flatten_nil]
  exact forall_append A0_fresh (forall_append A1_fresh (forall_append A2_fresh (forall_append A3_fresh (forall_append B1a_fresh (forall_append B1b_fresh (forall_append B1c_fresh (forall_append B2a_fresh (forall_append B2b_fresh (forall_append B2c_fresh (forall_append B3_fresh (forall_append B4_fresh (forall_append C1a_fresh (forall_append C1b_fresh (forall_append C2_fresh trivial))))))))))))))

/-- Every run of @main terminates with each buffer at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefValue

end
-- ==== Proof.RefRunHand.ValA.lean ====
/-
  What the stretches of the reference's first part write: the padded image, its 25 shifted slices, their stack
  flattened to [2, 1, 4800, 2304], and the group indices as floats with their maximum.  Each lemma is over an arbitrary
  valuation: if it holds the read module's stages at the buffers a stretch reads, the buffers the stretch writes hold
  their stages afterwards.
  The one shape repeated: for an operation y = f(x₁, …, xₖ) of a stretch X and any valuation V, unfolding the fold of X
  down to that operation gives (after X V)(y) = f(V x₁, …, V xₖ) — later operations of X write other buffers — and the
  xᵢ are buffers X does not write, or earlier results of X treated the same way.  Replacing each V xᵢ by the stage it
  is assumed to hold gives f(stage₁, …, stageₖ), and that is the definition of y's stage.  A concatenation reads its
  operands off V one by one (the k-th operand is V at the k-th buffer of its literal list).
-/
import proofs.«113980_j13426067767599_1_alg».proof.Proof.RefRead
import Idealize.ShloMosaic.Lib.StableHlo.Run
import Idealize.ShloMosaic.Lib.Pipeline.Frame
import proofs.«113980_j13426067767599_1_alg».proof.Proof.RefRunHand.Ops

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The padded image. -/
theorem A01_val (V : Valuation τ sig (Elt F)) (x0 : (⟨S2x192x48x48, .f32⟩ : BufTy).Contents (Elt F)) (h0 : V (Proc.devRef .tc main_arg0) = x0) :
    after A1 (after A0 V) (Proc.devRef .tc main_v0) = val_main_v0 (F := F) x0 := by
  subst h0; unfold A0 A1; after_results; rfl

set_option maxHeartbeats 4000000 in
/-- The 25 shifted slices of the padded image. -/
theorem A2_val (V : Valuation τ sig (Elt F)) (x0 : (⟨S2x192x48x48, .f32⟩ : BufTy).Contents (Elt F)) (h : V (Proc.devRef .tc main_v0) = val_main_v0 (F := F) x0) :
    after A2 V (Proc.devRef .tc main_v1) = val_main_v1 (F := F) x0
      ∧ after A2 V (Proc.devRef .tc main_v2) = val_main_v2 (F := F) x0
      ∧ after A2 V (Proc.devRef .tc main_v3) = val_main_v3 (F := F) x0
      ∧ after A2 V (Proc.devRef .tc main_v4) = val_main_v4 (F := F) x0
      ∧ after A2 V (Proc.devRef .tc main_v5) = val_main_v5 (F := F) x0
      ∧ after A2 V (Proc.devRef .tc main_v6) = val_main_v6 (F := F) x0
      ∧ after A2 V (Proc.devRef .tc main_v7) = val_main_v7 (F := F) x0
      ∧ after A2 V (Proc.devRef .tc main_v8) = val_main_v8 (F := F) x0
      ∧ after A2 V (Proc.devRef .tc main_v9) = val_main_v9 (F := F) x0
      ∧ after A2 V (Proc.devRef .tc main_v10) = val_main_v10 (F := F) x0
      ∧ after A2 V (Proc.devRef .tc main_v11) = val_main_v11 (F := F) x0
      ∧ after A2 V (Proc.devRef .tc main_v12) = val_main_v12 (F := F) x0
      ∧ after A2 V (Proc.devRef .tc main_v13) = val_main_v13 (F := F) x0
      ∧ after A2 V (Proc.devRef .tc main_v14) = val_main_v14 (F := F) x0
      ∧ after A2 V (Proc.devRef .tc main_v15) = val_main_v15 (F := F) x0
      ∧ after A2 V (Proc.devRef .tc main_v16) = val_main_v16 (F := F) x0
      ∧ after A2 V (Proc.devRef .tc main_v17) = val_main_v17 (F := F) x0
      ∧ after A2 V (Proc.devRef .tc main_v18) = val_main_v18 (F := F) x0
      ∧ after A2 V (Proc.devRef .tc main_v19) = val_main_v19 (F := F) x0
      ∧ after A2 V (Proc.devRef .tc main_v20) = val_main_v20 (F := F) x0
      ∧ after A2 V (Proc.devRef .tc main_v21) = val_main_v21 (F := F) x0
      ∧ after A2 V (Proc.devRef .tc main_v22) = val_main_v22 (F := F) x0
      ∧ after A2 V (Proc.devRef .tc main_v23) = val_main_v23 (F := F) x0
      ∧ after A2 V (Proc.devRef .tc main_v24) = val_main_v24 (F := F) x0
      ∧ after A2 V (Proc.devRef .tc main_v25) = val_main_v25 (F := F) x0 := by
  refine ⟨?_, ?_, ?_, ?_, ?_, ?_, ?_, ?_, ?_, ?_, ?_, ?_, ?_, ?_, ?_, ?_, ?_, ?_, ?_, ?_, ?_, ?_, ?_, ?_, ?_⟩ <;> (unfold A2; after_results; rw [h]; rfl)

set_option maxHeartbeats 4000000 in
/-- The same with a unit axis. -/
theorem A3_val (V : Valuation τ sig (Elt F)) (x0 : (⟨S2x192x48x48, .f32⟩ : BufTy).Contents (Elt F))
    (h : V (Proc.devRef .tc main_v1) = val_main_v1 (F := F) x0
      ∧ V (Proc.devRef .tc main_v2) = val_main_v2 (F := F) x0
      ∧ V (Proc.devRef .tc main_v3) = val_main_v3 (F := F) x0
      ∧ V (Proc.devRef .tc main_v4) = val_main_v4 (F := F) x0
      ∧ V (Proc.devRef .tc main_v5) = val_main_v5 (F := F) x0
      ∧ V (Proc.devRef .tc main_v6) = val_main_v6 (F := F) x0
      ∧ V (Proc.devRef .tc main_v7) = val_main_v7 (F := F) x0
      ∧ V (Proc.devRef .tc main_v8) = val_main_v8 (F := F) x0
      ∧ V (Proc.devRef .tc main_v9) = val_main_v9 (F := F) x0
      ∧ V (Proc.devRef .tc main_v10) = val_main_v10 (F := F) x0
      ∧ V (Proc.devRef .tc main_v11) = val_main_v11 (F := F) x0
      ∧ V (Proc.devRef .tc main_v12) = val_main_v12 (F := F) x0
      ∧ V (Proc.devRef .tc main_v13) = val_main_v13 (F := F) x0
      ∧ V (Proc.devRef .tc main_v14) = val_main_v14 (F := F) x0
      ∧ V (Proc.devRef .tc main_v15) = val_main_v15 (F := F) x0
      ∧ V (Proc.devRef .tc main_v16) = val_main_v16 (F := F) x0
      ∧ V (Proc.devRef .tc main_v17) = val_main_v17 (F := F) x0
      ∧ V (Proc.devRef .tc main_v18) = val_main_v18 (F := F) x0
      ∧ V (Proc.devRef .tc main_v19) = val_main_v19 (F := F) x0
      ∧ V (Proc.devRef .tc main_v20) = val_main_v20 (F := F) x0
      ∧ V (Proc.devRef .tc main_v21) = val_main_v21 (F := F) x0
      ∧ V (Proc.devRef .tc main_v22) = val_main_v22 (F := F) x0
      ∧ V (Proc.devRef .tc main_v23) = val_main_v23 (F := F) x0
      ∧ V (Proc.devRef .tc main_v24) = val_main_v24 (F := F) x0
      ∧ V (Proc.devRef .tc main_v25) = val_main_v25 (F := F) x0) :
    after A3 V (Proc.devRef .tc main_v26) = val_main_v26 (F := F) x0
      ∧ after A3 V (Proc.devRef .tc main_v27) = val_main_v27 (F := F) x0
      ∧ after A3 V (Proc.devRef .tc main_v28) = val_main_v28 (F := F) x0
      ∧ after A3 V (Proc.devRef .tc main_v29) = val_main_v29 (F := F) x0
      ∧ after A3 V (Proc.devRef .tc main_v30) = val_main_v30 (F := F) x0
      ∧ after A3 V (Proc.devRef .tc main_v31) = val_main_v31 (F := F) x0
      ∧ after A3 V (Proc.devRef .tc main_v32) = val_main_v32 (F := F) x0
      ∧ after A3 V (Proc.devRef .tc main_v33) = val_main_v33 (F := F) x0
      ∧ after A3 V (Proc.devRef .tc main_v34) = val_main_v34 (F := F) x0
      ∧ after A3 V (Proc.devRef .tc main_v35) = val_main_v35 (F := F) x0
      ∧ after A3 V (Proc.devRef .tc main_v36) = val_main_v36 (F := F) x0
      ∧ after A3 V (Proc.devRef .tc main_v37) = val_main_v37 (F := F) x0
      ∧ after A3 V (Proc.devRef .tc main_v38) = val_main_v38 (F := F) x0
      ∧ after A3 V (Proc.devRef .tc main_v39) = val_main_v39 (F := F) x0
      ∧ after A3 V (Proc.devRef .tc main_v40) = val_main_v40 (F := F) x0
      ∧ after A3 V (Proc.devRef .tc main_v41) = val_main_v41 (F := F) x0
      ∧ after A3 V (Proc.devRef .tc main_v42) = val_main_v42 (F := F) x0
      ∧ after A3 V (Proc.devRef .tc main_v43) = val_main_v43 (F := F) x0
      ∧ after A3 V (Proc.devRef .tc main_v44) = val_main_v44 (F := F) x0
      ∧ after A3 V (Proc.devRef .tc main_v45) = val_main_v45 (F := F) x0
      ∧ after A3 V (Proc.devRef .tc main_v46) = val_main_v46 (F := F) x0
      ∧ after A3 V (Proc.devRef .tc main_v47) = val_main_v47 (F := F) x0
      ∧ after A3 V (Proc.devRef .tc main_v48) = val_main_v48 (F := F) x0
      ∧ after A3 V (Proc.devRef .tc main_v49) = val_main_v49 (F := F) x0
      ∧ after A3 V (Proc.devRef .tc main_v50) = val_main_v50 (F := F) x0 := by
  obtain ⟨h1, h2, h3, h4, h5, h6, h7, h8, h9, h10, h11, h12, h13, h14, h15, h16, h17, h18, h19, h20, h21, h22, h23, h24, h25⟩ := h
  refine ⟨?_, ?_, ?_, ?_, ?_, ?_, ?_, ?_, ?_, ?_, ?_, ?_, ?_, ?_, ?_, ?_, ?_, ?_, ?_, ?_, ?_, ?_, ?_, ?_, ?_⟩
  · unfold A3; after_results; rw [h1]; rfl
  · unfold A3; after_results; rw [h2]; rfl
  · unfold A3; after_results; rw [h3]; rfl
  · unfold A3; after_results; rw [h4]; rfl
  · unfold A3; after_results; rw [h5]; rfl
  · unfold A3; after_results; rw [h6]; rfl
  · unfold A3; after_results; rw [h7]; rfl
  · unfold A3; after_results; rw [h8]; rfl
  · unfold A3; after_results; rw [h9]; rfl
  · unfold A3; after_results; rw [h10]; rfl
  · unfold A3; after_results; rw [h11]; rfl
  · unfold A3; after_results; rw [h12]; rfl
  · unfold A3; after_results; rw [h13]; rfl
  · unfold A3; after_results; rw [h14]; rfl
  · unfold A3; after_results; rw [h15]; rfl
  · unfold A3; after_results; rw [h16]; rfl
  · unfold A3; after_results; rw [h17]; rfl
  · unfold A3; after_results; rw [h18]; rfl
  · unfold A3; after_results; rw [h19]; rfl
  · unfold A3; after_results; rw [h20]; rfl
  · unfold A3; after_results; rw [h21]; rfl
  · unfold A3; after_results; rw [h22]; rfl
  · unfold A3; after_results; rw [h23]; rfl
  · unfold A3; after_results; rw [h24]; rfl
  · unfold A3; after_results; rw [h25]; rfl

set_option maxHeartbeats 1000000 in
/-- The first 16 stacked: the operands of the concatenation are read off V one by one. -/
theorem B1a_val (V : Valuation τ sig (Elt F)) (x0 : (⟨S2x192x48x48, .f32⟩ : BufTy).Contents (Elt F))
    (h : V (Proc.devRef .tc main_v26) = val_main_v26 (F := F) x0
      ∧ V (Proc.devRef .tc main_v27) = val_main_v27 (F := F) x0
      ∧ V (Proc.devRef .tc main_v28) = val_main_v28 (F := F) x0
      ∧ V (Proc.devRef .tc main_v29) = val_main_v29 (F := F) x0
      ∧ V (Proc.devRef .tc main_v30) = val_main_v30 (F := F) x0
      ∧ V (Proc.devRef .tc main_v31) = val_main_v31 (F := F) x0
      ∧ V (Proc.devRef .tc main_v32) = val_main_v32 (F := F) x0
      ∧ V (Proc.devRef .tc main_v33) = val_main_v33 (F := F) x0
      ∧ V (Proc.devRef .tc main_v34) = val_main_v34 (F := F) x0
      ∧ V (Proc.devRef .tc main_v35) = val_main_v35 (F := F) x0
      ∧ V (Proc.devRef .tc main_v36) = val_main_v36 (F := F) x0
      ∧ V (Proc.devRef .tc main_v37) = val_main_v37 (F := F) x0
      ∧ V (Proc.devRef .tc main_v38) = val_main_v38 (F := F) x0
      ∧ V (Proc.devRef .tc main_v39) = val_main_v39 (F := F) x0
      ∧ V (Proc.devRef .tc main_v40) = val_main_v40 (F := F) x0
      ∧ V (Proc.devRef .tc main_v41) = val_main_v41 (F := F) x0) :
    after B1a V (Proc.devRef .tc main_v51) = val_main_v51 (F := F) x0 := by
  obtain ⟨h1, h2, h3, h4, h5, h6, h7, h8, h9, h10, h11, h12, h13, h14, h15, h16⟩ := h
  unfold B1a; after_results; dsimp only [Matrix.cons_val]
  rw [h1, h2, h3, h4, h5, h6, h7, h8, h9, h10, h11, h12, h13, h14, h15, h16]; rfl

set_option maxHeartbeats 1000000 in
/-- The last 9 stacked. -/
theorem B1b_val (V : Valuation τ sig (Elt F)) (x0 : (⟨S2x192x48x48, .f32⟩ : BufTy).Contents (Elt F))
    (h : V (Proc.devRef .tc main_v42) = val_main_v42 (F := F) x0
      ∧ V (Proc.devRef .tc main_v43) = val_main_v43 (F := F) x0
      ∧ V (Proc.devRef .tc main_v44) = val_main_v44 (F := F) x0
      ∧ V (Proc.devRef .tc main_v45) = val_main_v45 (F := F) x0
      ∧ V (Proc.devRef .tc main_v46) = val_main_v46 (F := F) x0
      ∧ V (Proc.devRef .tc main_v47) = val_main_v47 (F := F) x0
      ∧ V (Proc.devRef .tc main_v48) = val_main_v48 (F := F) x0
      ∧ V (Proc.devRef .tc main_v49) = val_main_v49 (F := F) x0
      ∧ V (Proc.devRef .tc main_v50) = val_main_v50 (F := F) x0) :
    after B1b V (Proc.devRef .tc main_v52) = val_main_v52 (F := F) x0 := by
  obtain ⟨h1, h2, h3, h4, h5, h6, h7, h8, h9⟩ := h
  unfold B1b; after_results; dsimp only [Matrix.cons_val]
  rw [h1, h2, h3, h4, h5, h6, h7, h8, h9]; rfl

/-- The whole stack, flattened, with its unit group axis. -/
theorem B1c_val (V : Valuation τ sig (Elt F)) (x0 : (⟨S2x192x48x48, .f32⟩ : BufTy).Contents (Elt F)) (h51 : V (Proc.devRef .tc main_v51) = val_main_v51 (F := F) x0) (h52 : V (Proc.devRef .tc main_v52) = val_main_v52 (F := F) x0) :
    after B1c V (Proc.devRef .tc main_v55) = val_main_v55 (F := F) x0 := by
  unfold B1c; after_results; rw [h51, h52]; rfl

/-- The group indices as floats and their maximum. -/
theorem B2a_val (V : Valuation τ sig (Elt F)) (x1 : (⟨S2x2x48x48, .i32⟩ : BufTy).Contents (Elt F)) (h1 : V (Proc.devRef .tc main_arg1) = x1) :
    after B2a V (Proc.devRef .tc main_v56) = val_main_v56 (F := F) x1 ∧ after B2a V (Proc.devRef .tc main_v57) = val_main_v57 (F := F) x1 := by
  subst h1
  refine ⟨?_, ?_⟩ <;> (unfold B2a; after_results; rfl)

end Cert.ReferenceIdeal.RefValue

end
-- ==== Proof.RefRunHand.ValB.lean ====
/-
  What the stretches of the reference's second and third parts write: the offsets, their padding, the 25 shifted
  offset slices and their two stacks, and finally the result from the stacks, the centre offsets, the image stack, the
  weights and the bias.  Each lemma is over an arbitrary valuation, as for the first part.
  The one shape repeated: for an operation y = f(x₁, …, xₖ) of a stretch X and any valuation V, unfolding the fold of X
  down to that operation gives (after X V)(y) = f(V x₁, …, V xₖ) — later operations of X write other buffers — and the
  xᵢ are buffers X does not write, or earlier results of X treated the same way.  Replacing each V xᵢ by the stage it
  is assumed to hold gives f(stage₁, …, stageₖ), and that is the definition of y's stage.  A concatenation reads its
  operands off V one by one (the k-th operand is V at the k-th buffer of its literal list).
-/
import proofs.«113980_j13426067767599_1_alg».proof.Proof.RefRead
import Idealize.ShloMosaic.Lib.StableHlo.Run
import Idealize.ShloMosaic.Lib.Pipeline.Frame
import proofs.«113980_j13426067767599_1_alg».proof.Proof.RefRunHand.Ops

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 2000000 in
/-- The offsets per position, and the offsets padded. -/
theorem B2bc_val (V : Valuation τ sig (Elt F)) (x1 : (⟨S2x2x48x48, .i32⟩ : BufTy).Contents (Elt F)) (h56 : V (Proc.devRef .tc main_v56) = val_main_v56 (F := F) x1) (h57 : V (Proc.devRef .tc main_v57) = val_main_v57 (F := F) x1) :
    after B2c (after B2b V) (Proc.devRef .tc main_v63) = val_main_v63 (F := F) x1 ∧ after B2c (after B2b V) (Proc.devRef .tc main_v64) = val_main_v64 (F := F) x1 := by
  refine ⟨?_, ?_⟩ <;> (unfold B2b B2c; after_results; rw [h56, h57]; rfl)

set_option maxHeartbeats 4000000 in
/-- The 25 shifted slices of the padded offsets. -/
theorem B3_val (V : Valuation τ sig (Elt F)) (x1 : (⟨S2x2x48x48, .i32⟩ : BufTy).Contents (Elt F)) (h : V (Proc.devRef .tc main_v64) = val_main_v64 (F := F) x1) :
    after B3 V (Proc.devRef .tc main_v65) = val_main_v65 (F := F) x1
      ∧ after B3 V (Proc.devRef .tc main_v66) = val_main_v66 (F := F) x1
      ∧ after B3 V (Proc.devRef .tc main_v67) = val_main_v67 (F := F) x1
      ∧ after B3 V (Proc.devRef .tc main_v68) = val_main_v68 (F := F) x1
      ∧ after B3 V (Proc.devRef .tc main_v69) = val_main_v69 (F := F) x1
      ∧ after B3 V (Proc.devRef .tc main_v70) = val_main_v70 (F := F) x1
      ∧ after B3 V (Proc.devRef .tc main_v71) = val_main_v71 (F := F) x1
      ∧ after B3 V (Proc.devRef .tc main_v72) = val_main_v72 (F := F) x1
      ∧ after B3 V (Proc.devRef .tc main_v73) = val_main_v73 (F := F) x1
      ∧ after B3 V (Proc.devRef .tc main_v74) = val_main_v74 (F := F) x1
      ∧ after B3 V (Proc.devRef .tc main_v75) = val_main_v75 (F := F) x1
      ∧ after B3 V (Proc.devRef .tc main_v76) = val_main_v76 (F := F) x1
      ∧ after B3 V (Proc.devRef .tc main_v77) = val_main_v77 (F := F) x1
      ∧ after B3 V (Proc.devRef .tc main_v78) = val_main_v78 (F := F) x1
      ∧ after B3 V (Proc.devRef .tc main_v79) = val_main_v79 (F := F) x1
      ∧ after B3 V (Proc.devRef .tc main_v80) = val_main_v80 (F := F) x1
      ∧ after B3 V (Proc.devRef .tc main_v81) = val_main_v81 (F := F) x1
      ∧ after B3 V (Proc.devRef .tc main_v82) = val_main_v82 (F := F) x1
      ∧ after B3 V (Proc.devRef .tc main_v83) = val_main_v83 (F := F) x1
      ∧ after B3 V (Proc.devRef .tc main_v84) = val_main_v84 (F := F) x1
      ∧ after B3 V (Proc.devRef .tc main_v85) = val_main_v85 (F := F) x1
      ∧ after B3 V (Proc.devRef .tc main_v86) = val_main_v86 (F := F) x1
      ∧ after B3 V (Proc.devRef .tc main_v87) = val_main_v87 (F := F) x1
      ∧ after B3 V (Proc.devRef .tc main_v88) = val_main_v88 (F := F) x1
      ∧ after B3 V (Proc.devRef .tc main_v89) = val_main_v89 (F := F) x1 := by
  refine ⟨?_, ?_, ?_, ?_, ?_, ?_, ?_, ?_, ?_, ?_, ?_, ?_, ?_, ?_, ?_, ?_, ?_, ?_, ?_, ?_, ?_, ?_, ?_, ?_, ?_⟩ <;> (unfold B3; after_results; rw [h]; rfl)

set_option maxHeartbeats 4000000 in
/-- The same with a unit axis. -/
theorem B4_val (V : Valuation τ sig (Elt F)) (x1 : (⟨S2x2x48x48, .i32⟩ : BufTy).Contents (Elt F))
    (h : V (Proc.devRef .tc main_v65) = val_main_v65 (F := F) x1
      ∧ V (Proc.devRef .tc main_v66) = val_main_v66 (F := F) x1
      ∧ V (Proc.devRef .tc main_v67) = val_main_v67 (F := F) x1
      ∧ V (Proc.devRef .tc main_v68) = val_main_v68 (F := F) x1
      ∧ V (Proc.devRef .tc main_v69) = val_main_v69 (F := F) x1
      ∧ V (Proc.devRef .tc main_v70) = val_main_v70 (F := F) x1
      ∧ V (Proc.devRef .tc main_v71) = val_main_v71 (F := F) x1
      ∧ V (Proc.devRef .tc main_v72) = val_main_v72 (F := F) x1
      ∧ V (Proc.devRef .tc main_v73) = val_main_v73 (F := F) x1
      ∧ V (Proc.devRef .tc main_v74) = val_main_v74 (F := F) x1
      ∧ V (Proc.devRef .tc main_v75) = val_main_v75 (F := F) x1
      ∧ V (Proc.devRef .tc main_v76) = val_main_v76 (F := F) x1
      ∧ V (Proc.devRef .tc main_v77) = val_main_v77 (F := F) x1
      ∧ V (Proc.devRef .tc main_v78) = val_main_v78 (F := F) x1
      ∧ V (Proc.devRef .tc main_v79) = val_main_v79 (F := F) x1
      ∧ V (Proc.devRef .tc main_v80) = val_main_v80 (F := F) x1
      ∧ V (Proc.devRef .tc main_v81) = val_main_v81 (F := F) x1
      ∧ V (Proc.devRef .tc main_v82) = val_main_v82 (F := F) x1
      ∧ V (Proc.devRef .tc main_v83) = val_main_v83 (F := F) x1
      ∧ V (Proc.devRef .tc main_v84) = val_main_v84 (F := F) x1
      ∧ V (Proc.devRef .tc main_v85) = val_main_v85 (F := F) x1
      ∧ V (Proc.devRef .tc main_v86) = val_main_v86 (F := F) x1
      ∧ V (Proc.devRef .tc main_v87) = val_main_v87 (F := F) x1
      ∧ V (Proc.devRef .tc main_v88) = val_main_v88 (F := F) x1
      ∧ V (Proc.devRef .tc main_v89) = val_main_v89 (F := F) x1) :
    after B4 V (Proc.devRef .tc main_v90) = val_main_v90 (F := F) x1
      ∧ after B4 V (Proc.devRef .tc main_v91) = val_main_v91 (F := F) x1
      ∧ after B4 V (Proc.devRef .tc main_v92) = val_main_v92 (F := F) x1
      ∧ after B4 V (Proc.devRef .tc main_v93) = val_main_v93 (F := F) x1
      ∧ after B4 V (Proc.devRef .tc main_v94) = val_main_v94 (F := F) x1
      ∧ after B4 V (Proc.devRef .tc main_v95) = val_main_v95 (F := F) x1
      ∧ after B4 V (Proc.devRef .tc main_v96) = val_main_v96 (F := F) x1
      ∧ after B4 V (Proc.devRef .tc main_v97) = val_main_v97 (F := F) x1
      ∧ after B4 V (Proc.devRef .tc main_v98) = val_main_v98 (F := F) x1
      ∧ after B4 V (Proc.devRef .tc main_v99) = val_main_v99 (F := F) x1
      ∧ after B4 V (Proc.devRef .tc main_v100) = val_main_v100 (F := F) x1
      ∧ after B4 V (Proc.devRef .tc main_v101) = val_main_v101 (F := F) x1
      ∧ after B4 V (Proc.devRef .tc main_v102) = val_main_v102 (F := F) x1
      ∧ after B4 V (Proc.devRef .tc main_v103) = val_main_v103 (F := F) x1
      ∧ after B4 V (Proc.devRef .tc main_v104) = val_main_v104 (F := F) x1
      ∧ after B4 V (Proc.devRef .tc main_v105) = val_main_v105 (F := F) x1
      ∧ after B4 V (Proc.devRef .tc main_v106) = val_main_v106 (F := F) x1
      ∧ after B4 V (Proc.devRef .tc main_v107) = val_main_v107 (F := F) x1
      ∧ after B4 V (Proc.devRef .tc main_v108) = val_main_v108 (F := F) x1
      ∧ after B4 V (Proc.devRef .tc main_v109) = val_main_v109 (F := F) x1
      ∧ after B4 V (Proc.devRef .tc main_v110) = val_main_v110 (F := F) x1
      ∧ after B4 V (Proc.devRef .tc main_v111) = val_main_v111 (F := F) x1
      ∧ after B4 V (Proc.devRef .tc main_v112) = val_main_v112 (F := F) x1
      ∧ after B4 V (Proc.devRef .tc main_v113) = val_main_v113 (F := F) x1
      ∧ after B4 V (Proc.devRef .tc main_v114) = val_main_v114 (F := F) x1 := by
  obtain ⟨h1, h2, h3, h4, h5, h6, h7, h8, h9, h10, h11, h12, h13, h14, h15, h16, h17, h18, h19, h20, h21, h22, h23, h24, h25⟩ := h
  refine ⟨?_, ?_, ?_, ?_, ?_, ?_, ?_, ?_, ?_, ?_, ?_, ?_, ?_, ?_, ?_, ?_, ?_, ?_, ?_, ?_, ?_, ?_, ?_, ?_, ?_⟩
  · unfold B4; after_results; rw [h1]; rfl
  · unfold B4; after_results; rw [h2]; rfl
  · unfold B4; after_results; rw [h3]; rfl
  · unfold B4; after_results; rw [h4]; rfl
  · unfold B4; after_results; rw [h5]; rfl
  · unfold B4; after_results; rw [h6]; rfl
  · unfold B4; after_results; rw [h7]; rfl
  · unfold B4; after_results; rw [h8]; rfl
  · unfold B4; after_results; rw [h9]; rfl
  · unfold B4; after_results; rw [h10]; rfl
  · unfold B4; after_results; rw [h11]; rfl
  · unfold B4; after_results; rw [h12]; rfl
  · unfold B4; after_results; rw [h13]; rfl
  · unfold B4; after_results; rw [h14]; rfl
  · unfold B4; after_results; rw [h15]; rfl
  · unfold B4; after_results; rw [h16]; rfl
  · unfold B4; after_results; rw [h17]; rfl
  · unfold B4; after_results; rw [h18]; rfl
  · unfold B4; after_results; rw [h19]; rfl
  · unfold B4; after_results; rw [h20]; rfl
  · unfold B4; after_results; rw [h21]; rfl
  · unfold B4; after_results; rw [h22]; rfl
  · unfold B4; after_results; rw [h23]; rfl
  · unfold B4; after_results; rw [h24]; rfl
  · unfold B4; after_results; rw [h25]; rfl

set_option maxHeartbeats 1000000 in
/-- The first 16 stacked. -/
theorem C1a_val (V : Valuation τ sig (Elt F)) (x1 : (⟨S2x2x48x48, .i32⟩ : BufTy).Contents (Elt F))
    (h : V (Proc.devRef .tc main_v90) = val_main_v90 (F := F) x1
      ∧ V (Proc.devRef .tc main_v91) = val_main_v91 (F := F) x1
      ∧ V (Proc.devRef .tc main_v92) = val_main_v92 (F := F) x1
      ∧ V (Proc.devRef .tc main_v93) = val_main_v93 (F := F) x1
      ∧ V (Proc.devRef .tc main_v94) = val_main_v94 (F := F) x1
      ∧ V (Proc.devRef .tc main_v95) = val_main_v95 (F := F) x1
      ∧ V (Proc.devRef .tc main_v96) = val_main_v96 (F := F) x1
      ∧ V (Proc.devRef .tc main_v97) = val_main_v97 (F := F) x1
      ∧ V (Proc.devRef .tc main_v98) = val_main_v98 (F := F) x1
      ∧ V (Proc.devRef .tc main_v99) = val_main_v99 (F := F) x1
      ∧ V (Proc.devRef .tc main_v100) = val_main_v100 (F := F) x1
      ∧ V (Proc.devRef .tc main_v101) = val_main_v101 (F := F) x1
      ∧ V (Proc.devRef .tc main_v102) = val_main_v102 (F := F) x1
      ∧ V (Proc.devRef .tc main_v103) = val_main_v103 (F := F) x1
      ∧ V (Proc.devRef .tc main_v104) = val_main_v104 (F := F) x1
      ∧ V (Proc.devRef .tc main_v105) = val_main_v105 (F := F) x1) :
    after C1a V (Proc.devRef .tc main_v115) = val_main_v115 (F := F) x1 := by
  obtain ⟨h1, h2, h3, h4, h5, h6, h7, h8, h9, h10, h11, h12, h13, h14, h15, h16⟩ := h
  unfold C1a; after_results; dsimp only [Matrix.cons_val]
  rw [h1, h2, h3, h4, h5, h6, h7, h8, h9, h10, h11, h12, h13, h14, h15, h16]; rfl

set_option maxHeartbeats 1000000 in
/-- The last 9 stacked. -/
theorem C1b_val (V : Valuation τ sig (Elt F)) (x1 : (⟨S2x2x48x48, .i32⟩ : BufTy).Contents (Elt F))
    (h : V (Proc.devRef .tc main_v106) = val_main_v106 (F := F) x1
      ∧ V (Proc.devRef .tc main_v107) = val_main_v107 (F := F) x1
      ∧ V (Proc.devRef .tc main_v108) = val_main_v108 (F := F) x1
      ∧ V (Proc.devRef .tc main_v109) = val_main_v109 (F := F) x1
      ∧ V (Proc.devRef .tc main_v110) = val_main_v110 (F := F) x1
      ∧ V (Proc.devRef .tc main_v111) = val_main_v111 (F := F) x1
      ∧ V (Proc.devRef .tc main_v112) = val_main_v112 (F := F) x1
      ∧ V (Proc.devRef .tc main_v113) = val_main_v113 (F := F) x1
      ∧ V (Proc.devRef .tc main_v114) = val_main_v114 (F := F) x1) :
    after C1b V (Proc.devRef .tc main_v116) = val_main_v116 (F := F) x1 := by
  obtain ⟨h1, h2, h3, h4, h5, h6, h7, h8, h9⟩ := h
  unfold C1b; after_results; dsimp only [Matrix.cons_val]
  rw [h1, h2, h3, h4, h5, h6, h7, h8, h9]; rfl

set_option maxHeartbeats 2000000 in
/-- The result, from the two offset stacks, the centre offsets, the image stack, the weights and the bias. -/
theorem C2_val (V : Valuation τ sig (Elt F)) (x0 : (⟨S2x192x48x48, .f32⟩ : BufTy).Contents (Elt F)) (x1 : (⟨S2x2x48x48, .i32⟩ : BufTy).Contents (Elt F)) (x2 : (⟨S2x2x192x4800x1, .f32⟩ : BufTy).Contents (Elt F)) (x3 : (⟨S2x2x192x1, .f32⟩ : BufTy).Contents (Elt F))
    (h115 : V (Proc.devRef .tc main_v115) = val_main_v115 (F := F) x1) (h116 : V (Proc.devRef .tc main_v116) = val_main_v116 (F := F) x1)
    (h63 : V (Proc.devRef .tc main_v63) = val_main_v63 (F := F) x1) (h55 : V (Proc.devRef .tc main_v55) = val_main_v55 (F := F) x0)
    (h2 : V (Proc.devRef .tc main_arg2) = x2) (h3 : V (Proc.devRef .tc main_arg3) = x3) :
    after C2 V (Proc.devRef .tc main_v133) = val_main_v133 (F := F) x0 x1 x2 x3 := by
  subst h2 h3
  unfold C2; after_results; rw [h115, h116, h63, h55]; rfl

end Cert.ReferenceIdeal.RefValue

end
-- ==== Proof.RefRunHand.Keep.lean ====
/-
  Which buffers the stretches leave alone.  Every operation writes its own result buffer and nothing else, so a buffer
  that is not one of a stretch's results holds after the stretch what it held before.  Listed here, stretch by stretch,
  for the four arguments (written by no operation at all) and for each intermediate buffer over the stretches that lie
  between the one that writes it and the one that reads it.
  The one shape repeated: buffer b is not written by any operation of stretch X, because each operation's set of written
  buffers is the singleton of its result and b is another reference than each of those results (decided reference by
  reference).
-/
import proofs.«113980_j13426067767599_1_alg».proof.Proof.RefRead
import Idealize.ShloMosaic.Lib.StableHlo.Run
import Idealize.ShloMosaic.Lib.Pipeline.Frame
import proofs.«113980_j13426067767599_1_alg».proof.Proof.RefRunHand.Ops

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The goal "no operation of the stretch writes this buffer", for a stretch given by name: each operation writes
    only its own result buffer, and that buffer is another one. -/
local macro "not_written" c:ident : tactic =>
  `(tactic| (unfold $c
             simp only [List.Forall, nullary_writes, unary_writes, binary_writes, ternary_writes, quaternary_writes,
               reshape_writes, binaryIndexed_writes, nary_writes, Finset.mem_singleton]
             repeat' apply And.intro
             all_goals exact devRef_ne_of_ne (by decide)))

/-- A buffer that no operation of a stretch writes holds after the stretch what it held before. -/
theorem keep (l : List (HloOp τ sig (Elt F))) (V : Valuation τ sig (Elt F)) (b : Ref sig .tc)
    (h : l.Forall fun op => Proc.devRef .tc b ∉ op.writes) : after l V (Proc.devRef .tc b) = V (Proc.devRef .tc b) :=
  after_of_forall_not_mem (b := Proc.devRef .tc b) l V (List.forall_iff_forall_mem.mp h)

theorem nw_A0_arg0 : (A0 : List (HloOp τ sig (Elt F))).Forall fun op => Proc.devRef .tc main_arg0 ∉ op.writes := by not_written A0
theorem nw_A1_arg0 : (A1 : List (HloOp τ sig (Elt F))).Forall fun op => Proc.devRef .tc main_arg0 ∉ op.writes := by not_written A1
theorem nw_A2_arg0 : (A2 : List (HloOp τ sig (Elt F))).Forall fun op => Proc.devRef .tc main_arg0 ∉ op.writes := by not_written A2
theorem nw_A3_arg0 : (A3 : List (HloOp τ sig (Elt F))).Forall fun op => Proc.devRef .tc main_arg0 ∉ op.writes := by not_written A3
theorem nw_B1a_arg0 : (B1a : List (HloOp τ sig (Elt F))).Forall fun op => Proc.devRef .tc main_arg0 ∉ op.writes := by not_written B1a
theorem nw_B1b_arg0 : (B1b : List (HloOp τ sig (Elt F))).Forall fun op => Proc.devRef .tc main_arg0 ∉ op.writes := by not_written B1b
theorem nw_B1c_arg0 : (B1c : List (HloOp τ sig (Elt F))).Forall fun op => Proc.devRef .tc main_arg0 ∉ op.writes := by not_written B1c
theorem nw_B2a_arg0 : (B2a : List (HloOp τ sig (Elt F))).Forall fun op => Proc.devRef .tc main_arg0 ∉ op.writes := by not_written B2a
theorem nw_B2b_arg0 : (B2b : List (HloOp τ sig (Elt F))).Forall fun op => Proc.devRef .tc main_arg0 ∉ op.writes := by not_written B2b
theorem nw_B2c_arg0 : (B2c : List (HloOp τ sig (Elt F))).Forall fun op => Proc.devRef .tc main_arg0 ∉ op.writes := by not_written B2c
theorem nw_B3_arg0 : (B3 : List (HloOp τ sig (Elt F))).Forall fun op => Proc.devRef .tc main_arg0 ∉ op.writes := by not_written B3
theorem nw_B4_arg0 : (B4 : List (HloOp τ sig (Elt F))).Forall fun op => Proc.devRef .tc main_arg0 ∉ op.writes := by not_written B4
theorem nw_C1a_arg0 : (C1a : List (HloOp τ sig (Elt F))).Forall fun op => Proc.devRef .tc main_arg0 ∉ op.writes := by not_written C1a
theorem nw_C1b_arg0 : (C1b : List (HloOp τ sig (Elt F))).Forall fun op => Proc.devRef .tc main_arg0 ∉ op.writes := by not_written C1b
theorem nw_C2_arg0 : (C2 : List (HloOp τ sig (Elt F))).Forall fun op => Proc.devRef .tc main_arg0 ∉ op.writes := by not_written C2
theorem nw_A0_arg1 : (A0 : List (HloOp τ sig (Elt F))).Forall fun op => Proc.devRef .tc main_arg1 ∉ op.writes := by not_written A0
theorem nw_A1_arg1 : (A1 : List (HloOp τ sig (Elt F))).Forall fun op => Proc.devRef .tc main_arg1 ∉ op.writes := by not_written A1
theorem nw_A2_arg1 : (A2 : List (HloOp τ sig (Elt F))).Forall fun op => Proc.devRef .tc main_arg1 ∉ op.writes := by not_written A2
theorem nw_A3_arg1 : (A3 : List (HloOp τ sig (Elt F))).Forall fun op => Proc.devRef .tc main_arg1 ∉ op.writes := by not_written A3
theorem nw_B1a_arg1 : (B1a : List (HloOp τ sig (Elt F))).Forall fun op => Proc.devRef .tc main_arg1 ∉ op.writes := by not_written B1a
theorem nw_B1b_arg1 : (B1b : List (HloOp τ sig (Elt F))).Forall fun op => Proc.devRef .tc main_arg1 ∉ op.writes := by not_written B1b
theorem nw_B1c_arg1 : (B1c : List (HloOp τ sig (Elt F))).Forall fun op => Proc.devRef .tc main_arg1 ∉ op.writes := by not_written B1c
theorem nw_B2a_arg1 : (B2a : List (HloOp τ sig (Elt F))).Forall fun op => Proc.devRef .tc main_arg1 ∉ op.writes := by not_written B2a
theorem nw_B2b_arg1 : (B2b : List (HloOp τ sig (Elt F))).Forall fun op => Proc.devRef .tc main_arg1 ∉ op.writes := by not_written B2b
theorem nw_B2c_arg1 : (B2c : List (HloOp τ sig (Elt F))).Forall fun op => Proc.devRef .tc main_arg1 ∉ op.writes := by not_written B2c
theorem nw_B3_arg1 : (B3 : List (HloOp τ sig (Elt F))).Forall fun op => Proc.devRef .tc main_arg1 ∉ op.writes := by not_written B3
theorem nw_B4_arg1 : (B4 : List (HloOp τ sig (Elt F))).Forall fun op => Proc.devRef .tc main_arg1 ∉ op.writes := by not_written B4
theorem nw_C1a_arg1 : (C1a : List (HloOp τ sig (Elt F))).Forall fun op => Proc.devRef .tc main_arg1 ∉ op.writes := by not_written C1a
theorem nw_C1b_arg1 : (C1b : List (HloOp τ sig (Elt F))).Forall fun op => Proc.devRef .tc main_arg1 ∉ op.writes := by not_written C1b
theorem nw_C2_arg1 : (C2 : List (HloOp τ sig (Elt F))).Forall fun op => Proc.devRef .tc main_arg1 ∉ op.writes := by not_written C2
theorem nw_A0_arg2 : (A0 : List (HloOp τ sig (Elt F))).Forall fun op => Proc.devRef .tc main_arg2 ∉ op.writes := by not_written A0
theorem nw_A1_arg2 : (A1 : List (HloOp τ sig (Elt F))).Forall fun op => Proc.devRef .tc main_arg2 ∉ op.writes := by not_written A1
theorem nw_A2_arg2 : (A2 : List (HloOp τ sig (Elt F))).Forall fun op => Proc.devRef .tc main_arg2 ∉ op.writes := by not_written A2
theorem nw_A3_arg2 : (A3 : List (HloOp τ sig (Elt F))).Forall fun op => Proc.devRef .tc main_arg2 ∉ op.writes := by not_written A3
theorem nw_B1a_arg2 : (B1a : List (HloOp τ sig (Elt F))).Forall fun op => Proc.devRef .tc main_arg2 ∉ op.writes := by not_written B1a
theorem nw_B1b_arg2 : (B1b : List (HloOp τ sig (Elt F))).Forall fun op => Proc.devRef .tc main_arg2 ∉ op.writes := by not_written B1b
theorem nw_B1c_arg2 : (B1c : List (HloOp τ sig (Elt F))).Forall fun op => Proc.devRef .tc main_arg2 ∉ op.writes := by not_written B1c
theorem nw_B2a_arg2 : (B2a : List (HloOp τ sig (Elt F))).Forall fun op => Proc.devRef .tc main_arg2 ∉ op.writes := by not_written B2a
theorem nw_B2b_arg2 : (B2b : List (HloOp τ sig (Elt F))).Forall fun op => Proc.devRef .tc main_arg2 ∉ op.writes := by not_written B2b
theorem nw_B2c_arg2 : (B2c : List (HloOp τ sig (Elt F))).Forall fun op => Proc.devRef .tc main_arg2 ∉ op.writes := by not_written B2c
theorem nw_B3_arg2 : (B3 : List (HloOp τ sig (Elt F))).Forall fun op => Proc.devRef .tc main_arg2 ∉ op.writes := by not_written B3
theorem nw_B4_arg2 : (B4 : List (HloOp τ sig (Elt F))).Forall fun op => Proc.devRef .tc main_arg2 ∉ op.writes := by not_written B4
theorem nw_C1a_arg2 : (C1a : List (HloOp τ sig (Elt F))).Forall fun op => Proc.devRef .tc main_arg2 ∉ op.writes := by not_written C1a
theorem nw_C1b_arg2 : (C1b : List (HloOp τ sig (Elt F))).Forall fun op => Proc.devRef .tc main_arg2 ∉ op.writes := by not_written C1b
theorem nw_C2_arg2 : (C2 : List (HloOp τ sig (Elt F))).Forall fun op => Proc.devRef .tc main_arg2 ∉ op.writes := by not_written C2
theorem nw_A0_arg3 : (A0 : List (HloOp τ sig (Elt F))).Forall fun op => Proc.devRef .tc main_arg3 ∉ op.writes := by not_written A0
theorem nw_A1_arg3 : (A1 : List (HloOp τ sig (Elt F))).Forall fun op => Proc.devRef .tc main_arg3 ∉ op.writes := by not_written A1
theorem nw_A2_arg3 : (A2 : List (HloOp τ sig (Elt F))).Forall fun op => Proc.devRef .tc main_arg3 ∉ op.writes := by not_written A2
theorem nw_A3_arg3 : (A3 : List (HloOp τ sig (Elt F))).Forall fun op => Proc.devRef .tc main_arg3 ∉ op.writes := by not_written A3
theorem nw_B1a_arg3 : (B1a : List (HloOp τ sig (Elt F))).Forall fun op => Proc.devRef .tc main_arg3 ∉ op.writes := by not_written B1a
theorem nw_B1b_arg3 : (B1b : List (HloOp τ sig (Elt F))).Forall fun op => Proc.devRef .tc main_arg3 ∉ op.writes := by not_written B1b
theorem nw_B1c_arg3 : (B1c : List (HloOp τ sig (Elt F))).Forall fun op => Proc.devRef .tc main_arg3 ∉ op.writes := by not_written B1c
theorem nw_B2a_arg3 : (B2a : List (HloOp τ sig (Elt F))).Forall fun op => Proc.devRef .tc main_arg3 ∉ op.writes := by not_written B2a
theorem nw_B2b_arg3 : (B2b : List (HloOp τ sig (Elt F))).Forall fun op => Proc.devRef .tc main_arg3 ∉ op.writes := by not_written B2b
theorem nw_B2c_arg3 : (B2c : List (HloOp τ sig (Elt F))).Forall fun op => Proc.devRef .tc main_arg3 ∉ op.writes := by not_written B2c
theorem nw_B3_arg3 : (B3 : List (HloOp τ sig (Elt F))).Forall fun op => Proc.devRef .tc main_arg3 ∉ op.writes := by not_written B3
theorem nw_B4_arg3 : (B4 : List (HloOp τ sig (Elt F))).Forall fun op => Proc.devRef .tc main_arg3 ∉ op.writes := by not_written B4
theorem nw_C1a_arg3 : (C1a : List (HloOp τ sig (Elt F))).Forall fun op => Proc.devRef .tc main_arg3 ∉ op.writes := by not_written C1a
theorem nw_C1b_arg3 : (C1b : List (HloOp τ sig (Elt F))).Forall fun op => Proc.devRef .tc main_arg3 ∉ op.writes := by not_written C1b
theorem nw_C2_arg3 : (C2 : List (HloOp τ sig (Elt F))).Forall fun op => Proc.devRef .tc main_arg3 ∉ op.writes := by not_written C2
theorem nw_B1a_v42 : (B1a : List (HloOp τ sig (Elt F))).Forall fun op => Proc.devRef .tc main_v42 ∉ op.writes := by not_written B1a
theorem nw_B1a_v43 : (B1a : List (HloOp τ sig (Elt F))).Forall fun op => Proc.devRef .tc main_v43 ∉ op.writes := by not_written B1a
theorem nw_B1a_v44 : (B1a : List (HloOp τ sig (Elt F))).Forall fun op => Proc.devRef .tc main_v44 ∉ op.writes := by not_written B1a
theorem nw_B1a_v45 : (B1a : List (HloOp τ sig (Elt F))).Forall fun op => Proc.devRef .tc main_v45 ∉ op.writes := by not_written B1a
theorem nw_B1a_v46 : (B1a : List (HloOp τ sig (Elt F))).Forall fun op => Proc.devRef .tc main_v46 ∉ op.writes := by not_written B1a
theorem nw_B1a_v47 : (B1a : List (HloOp τ sig (Elt F))).Forall fun op => Proc.devRef .tc main_v47 ∉ op.writes := by not_written B1a
theorem nw_B1a_v48 : (B1a : List (HloOp τ sig (Elt F))).Forall fun op => Proc.devRef .tc main_v48 ∉ op.writes := by not_written B1a
theorem nw_B1a_v49 : (B1a : List (HloOp τ sig (Elt F))).Forall fun op => Proc.devRef .tc main_v49 ∉ op.writes := by not_written B1a
theorem nw_B1a_v50 : (B1a : List (HloOp τ sig (Elt F))).Forall fun op => Proc.devRef .tc main_v50 ∉ op.writes := by not_written B1a
theorem nw_B1b_v51 : (B1b : List (HloOp τ sig (Elt F))).Forall fun op => Proc.devRef .tc main_v51 ∉ op.writes := by not_written B1b
theorem nw_C1a_v106 : (C1a : List (HloOp τ sig (Elt F))).Forall fun op => Proc.devRef .tc main_v106 ∉ op.writes := by not_written C1a
theorem nw_C1a_v107 : (C1a : List (HloOp τ sig (Elt F))).Forall fun op => Proc.devRef .tc main_v107 ∉ op.writes := by not_written C1a
theorem nw_C1a_v108 : (C1a : List (HloOp τ sig (Elt F))).Forall fun op => Proc.devRef .tc main_v108 ∉ op.writes := by not_written C1a
theorem nw_C1a_v109 : (C1a : List (HloOp τ sig (Elt F))).Forall fun op => Proc.devRef .tc main_v109 ∉ op.writes := by not_written C1a
theorem nw_C1a_v110 : (C1a : List (HloOp τ sig (Elt F))).Forall fun op => Proc.devRef .tc main_v110 ∉ op.writes := by not_written C1a
theorem nw_C1a_v111 : (C1a : List (HloOp τ sig (Elt F))).Forall fun op => Proc.devRef .tc main_v111 ∉ op.writes := by not_written C1a
theorem nw_C1a_v112 : (C1a : List (HloOp τ sig (Elt F))).Forall fun op => Proc.devRef .tc main_v112 ∉ op.writes := by not_written C1a
theorem nw_C1a_v113 : (C1a : List (HloOp τ sig (Elt F))).Forall fun op => Proc.devRef .tc main_v113 ∉ op.writes := by not_written C1a
theorem nw_C1a_v114 : (C1a : List (HloOp τ sig (Elt F))).Forall fun op => Proc.devRef .tc main_v114 ∉ op.writes := by not_written C1a
theorem nw_C1b_v115 : (C1b : List (HloOp τ sig (Elt F))).Forall fun op => Proc.devRef .tc main_v115 ∉ op.writes := by not_written C1b
theorem nw_B3_v63 : (B3 : List (HloOp τ sig (Elt F))).Forall fun op => Proc.devRef .tc main_v63 ∉ op.writes := by not_written B3
theorem nw_B4_v63 : (B4 : List (HloOp τ sig (Elt F))).Forall fun op => Proc.devRef .tc main_v63 ∉ op.writes := by not_written B4
theorem nw_C1a_v63 : (C1a : List (HloOp τ sig (Elt F))).Forall fun op => Proc.devRef .tc main_v63 ∉ op.writes := by not_written C1a
theorem nw_C1b_v63 : (C1b : List (HloOp τ sig (Elt F))).Forall fun op => Proc.devRef .tc main_v63 ∉ op.writes := by not_written C1b
theorem nw_B2a_v55 : (B2a : List (HloOp τ sig (Elt F))).Forall fun op => Proc.devRef .tc main_v55 ∉ op.writes := by not_written B2a
theorem nw_B2b_v55 : (B2b : List (HloOp τ sig (Elt F))).Forall fun op => Proc.devRef .tc main_v55 ∉ op.writes := by not_written B2b
theorem nw_B2c_v55 : (B2c : List (HloOp τ sig (Elt F))).Forall fun op => Proc.devRef .tc main_v55 ∉ op.writes := by not_written B2c
theorem nw_B3_v55 : (B3 : List (HloOp τ sig (Elt F))).Forall fun op => Proc.devRef .tc main_v55 ∉ op.writes := by not_written B3
theorem nw_B4_v55 : (B4 : List (HloOp τ sig (Elt F))).Forall fun op => Proc.devRef .tc main_v55 ∉ op.writes := by not_written B4
theorem nw_C1a_v55 : (C1a : List (HloOp τ sig (Elt F))).Forall fun op => Proc.devRef .tc main_v55 ∉ op.writes := by not_written C1a
theorem nw_C1b_v55 : (C1b : List (HloOp τ sig (Elt F))).Forall fun op => Proc.devRef .tc main_v55 ∉ op.writes := by not_written C1b

end Cert.ReferenceIdeal.RefValue

end
-- ==== Proof.RefRunHand.lean ====
/-
  The reference's run, read at its result.  The run theorem gives every buffer at the fold of the 140 operations over
  the launch contents.  Splitting the fold at the stretch boundaries and chaining the stretch lemmas — each buffer
  carried unchanged over the stretches between its writer and its reader — the result buffer holds the last stage of
  the read module at the four arguments' launch contents; and no operation writes an argument.
  The one shape repeated in the chains: with W₀ the launch contents and Wⱼ the contents after the j-th stretch, a buffer b
  that none of the stretches i+1 … j writes has Wⱼ(b) = Wⱼ₋₁(b) = … = Wᵢ(b), one step per stretch.
-/
import proofs.«113980_j13426067767599_1_alg».proof.Proof.RefRead
import Idealize.ShloMosaic.Lib.StableHlo.Run
import Idealize.ShloMosaic.Lib.Pipeline.Frame
import proofs.«113980_j13426067767599_1_alg».proof.Proof.RefRunHand.Ops
import proofs.«113980_j13426067767599_1_alg».proof.Proof.RefRunHand.ValA
import proofs.«113980_j13426067767599_1_alg».proof.Proof.RefRunHand.ValB
import proofs.«113980_j13426067767599_1_alg».proof.Proof.RefRunHand.Keep

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The whole fold -/

/-- The fold of all the operations over any contents M, read at the result buffer, is the reference's last stage at
    M's four arguments: the stretch lemmas chained, each buffer carried unchanged over the stretches between the one
    that writes it and the one that reads it. -/
theorem fold_v133 (M : Valuation τ sig (Elt F)) :
    after ops M (Proc.devRef .tc main_v133) = val_main_v133 (F := F) (M (Proc.devRef .tc main_arg0)) (M (Proc.devRef .tc main_arg1)) (M (Proc.devRef .tc main_arg2)) (M (Proc.devRef .tc main_arg3)) := by
  unfold ops
  simp only [List.flatten_cons, List.flatten_nil, List.append_nil, StableHlo.after_append]
  have e0 := A01_val (F := F) M _ rfl
  have e2 := A2_val (after A1 (after A0 M)) _ e0
  have e3 := A3_val (after A2 (after A1 (after A0 M))) _ e2
  obtain ⟨c26, c27, c28, c29, c30, c31, c32, c33, c34, c35, c36, c37, c38, c39, c40, c41, c42, c43, c44, c45, c46, c47, c48, c49, c50⟩ := e3
  have e51 := B1a_val (after A3 (after A2 (after A1 (after A0 M)))) _ ⟨c26, c27, c28, c29, c30, c31, c32, c33, c34, c35, c36, c37, c38, c39, c40, c41⟩
  have e52 := B1b_val (after B1a (after A3 (after A2 (after A1 (after A0 M))))) _ ⟨(keep B1a (after A3 (after A2 (after A1 (after A0 M)))) main_v42 nw_B1a_v42).trans c42, (keep B1a (after A3 (after A2 (after A1 (after A0 M)))) main_v43 nw_B1a_v43).trans c43, (keep B1a (after A3 (after A2 (after A1 (after A0 M)))) main_v44 nw_B1a_v44).trans c44, (keep B1a (after A3 (after A2 (after A1 (after A0 M)))) main_v45 nw_B1a_v45).trans c45, (keep B1a (after A3 (after A2 (after A1 (after A0 M)))) main_v46 nw_B1a_v46).trans c46, (keep B1a (after A3 (after A2 (after A1 (after A0 M)))) main_v47 nw_B1a_v47).trans c47, (keep B1a (after A3 (after A2 (after A1 (after A0 M)))) main_v48 nw_B1a_v48).trans c48, (keep B1a (after A3 (after A2 (after A1 (after A0 M)))) main_v49 nw_B1a_v49).trans c49, (keep B1a (after A3 (after A2 (after A1 (after A0 M)))) main_v50 nw_B1a_v50).trans c50⟩
  have e55 := B1c_val (after B1b (after B1a (after A3 (after A2 (after A1 (after A0 M)))))) _ ((keep B1b (after B1a (after A3 (after A2 (after A1 (after A0 M))))) main_v51 nw_B1b_v51).trans e51) e52
  obtain ⟨e56, e57⟩ := B2a_val (after B1c (after B1b (after B1a (after A3 (after A2 (after A1 (after A0 M))))))) _ ((keep B1c (after B1b (after B1a (after A3 (after A2 (after A1 (after A0 M)))))) main_arg1 nw_B1c_arg1).trans ((keep B1b (after B1a (after A3 (after A2 (after A1 (after A0 M))))) main_arg1 nw_B1b_arg1).trans ((keep B1a (after A3 (after A2 (after A1 (after A0 M)))) main_arg1 nw_B1a_arg1).trans ((keep A3 (after A2 (after A1 (after A0 M))) main_arg1 nw_A3_arg1).trans ((keep A2 (after A1 (after A0 M)) main_arg1 nw_A2_arg1).trans ((keep A1 (after A0 M) main_arg1 nw_A1_arg1).trans (keep A0 M main_arg1 nw_A0_arg1)))))))
  obtain ⟨e63, e64⟩ := B2bc_val (after B2a (after B1c (after B1b (after B1a (after A3 (after A2 (after A1 (after A0 M)))))))) _ e56 e57
  have e3' := B3_val (after B2c (after B2b (after B2a (after B1c (after B1b (after B1a (after A3 (after A2 (after A1 (after A0 M)))))))))) _ e64
  have e4' := B4_val (after B3 (after B2c (after B2b (after B2a (after B1c (after B1b (after B1a (after A3 (after A2 (after A1 (after A0 M))))))))))) _ e3'
  obtain ⟨d90, d91, d92, d93, d94, d95, d96, d97, d98, d99, d100, d101, d102, d103, d104, d105, d106, d107, d108, d109, d110, d111, d112, d113, d114⟩ := e4'
  have e115 := C1a_val (after B4 (after B3 (after B2c (after B2b (after B2a (after B1c (after B1b (after B1a (after A3 (after A2 (after A1 (after A0 M)))))))))))) _ ⟨d90, d91, d92, d93, d94, d95, d96, d97, d98, d99, d100, d101, d102, d103, d104, d105⟩
  have e116 := C1b_val (after C1a (after B4 (after B3 (after B2c (after B2b (after B2a (after B1c (after B1b (after B1a (after A3 (after A2 (after A1 (after A0 M))))))))))))) _ ⟨(keep C1a (after B4 (after B3 (after B2c (after B2b (after B2a (after B1c (after B1b (after B1a (after A3 (after A2 (after A1 (after A0 M)))))))))))) main_v106 nw_C1a_v106).trans d106, (keep C1a (after B4 (after B3 (after B2c (after B2b (after B2a (after B1c (after B1b (after B1a (after A3 (after A2 (after A1 (after A0 M)))))))))))) main_v107 nw_C1a_v107).trans d107, (keep C1a (after B4 (after B3 (after B2c (after B2b (after B2a (after B1c (after B1b (after B1a (after A3 (after A2 (after A1 (after A0 M)))))))))))) main_v108 nw_C1a_v108).trans d108, (keep C1a (after B4 (after B3 (after B2c (after B2b (after B2a (after B1c (after B1b (after B1a (after A3 (after A2 (after A1 (after A0 M)))))))))))) main_v109 nw_C1a_v109).trans d109, (keep C1a (after B4 (after B3 (after B2c (after B2b (after B2a (after B1c (after B1b (after B1a (after A3 (after A2 (after A1 (after A0 M)))))))))))) main_v110 nw_C1a_v110).trans d110, (keep C1a (after B4 (after B3 (after B2c (after B2b (after B2a (after B1c (after B1b (after B1a (after A3 (after A2 (after A1 (after A0 M)))))))))))) main_v111 nw_C1a_v111).trans d111, (keep C1a (after B4 (after B3 (after B2c (after B2b (after B2a (after B1c (after B1b (after B1a (after A3 (after A2 (after A1 (after A0 M)))))))))))) main_v112 nw_C1a_v112).trans d112, (keep C1a (after B4 (after B3 (after B2c (after B2b (after B2a (after B1c (after B1b (after B1a (after A3 (after A2 (after A1 (after A0 M)))))))))))) main_v113 nw_C1a_v113).trans d113, (keep C1a (after B4 (after B3 (after B2c (after B2b (after B2a (after B1c (after B1b (after B1a (after A3 (after A2 (after A1 (after A0 M)))))))))))) main_v114 nw_C1a_v114).trans d114⟩
  exact C2_val (after C1b (after C1a (after B4 (after B3 (after B2c (after B2b (after B2a (after B1c (after B1b (after B1a (after A3 (after A2 (after A1 (after A0 M)))))))))))))) _ _ _ _ ((keep C1b (after C1a (after B4 (after B3 (after B2c (after B2b (after B2a (after B1c (after B1b (after B1a (after A3 (after A2 (after A1 (after A0 M))))))))))))) main_v115 nw_C1b_v115).trans e115) e116
    (((keep C1b (after C1a (after B4 (after B3 (after B2c (after B2b (after B2a (after B1c (after B1b (after B1a (after A3 (after A2 (after A1 (after A0 M))))))))))))) main_v63 nw_C1b_v63).trans ((keep C1a (after B4 (after B3 (after B2c (after B2b (after B2a (after B1c (after B1b (after B1a (after A3 (after A2 (after A1 (after A0 M)))))))))))) main_v63 nw_C1a_v63).trans ((keep B4 (after B3 (after B2c (after B2b (after B2a (after B1c (after B1b (after B1a (after A3 (after A2 (after A1 (after A0 M))))))))))) main_v63 nw_B4_v63).trans (keep B3 (after B2c (after B2b (after B2a (after B1c (after B1b (after B1a (after A3 (after A2 (after A1 (after A0 M)))))))))) main_v63 nw_B3_v63)))).trans e63) (((keep C1b (after C1a (after B4 (after B3 (after B2c (after B2b (after B2a (after B1c (after B1b (after B1a (after A3 (after A2 (after A1 (after A0 M))))))))))))) main_v55 nw_C1b_v55).trans ((keep C1a (after B4 (after B3 (after B2c (after B2b (after B2a (after B1c (after B1b (after B1a (after A3 (after A2 (after A1 (after A0 M)))))))))))) main_v55 nw_C1a_v55).trans ((keep B4 (after B3 (after B2c (after B2b (after B2a (after B1c (after B1b (after B1a (after A3 (after A2 (after A1 (after A0 M))))))))))) main_v55 nw_B4_v55).trans ((keep B3 (after B2c (after B2b (after B2a (after B1c (after B1b (after B1a (after A3 (after A2 (after A1 (after A0 M)))))))))) main_v55 nw_B3_v55).trans ((keep B2c (after B2b (after B2a (after B1c (after B1b (after B1a (after A3 (after A2 (after A1 (after A0 M))))))))) main_v55 nw_B2c_v55).trans ((keep B2b (after B2a (after B1c (after B1b (after B1a (after A3 (after A2 (after A1 (after A0 M)))))))) main_v55 nw_B2b_v55).trans (keep B2a (after B1c (after B1b (after B1a (after A3 (after A2 (after A1 (after A0 M))))))) main_v55 nw_B2a_v55))))))).trans e55)
    ((keep C1b (after C1a (after B4 (after B3 (after B2c (after B2b (after B2a (after B1c (after B1b (after B1a (after A3 (after A2 (after A1 (after A0 M))))))))))))) main_arg2 nw_C1b_arg2).trans ((keep C1a (after B4 (after B3 (after B2c (after B2b (after B2a (after B1c (after B1b (after B1a (after A3 (after A2 (after A1 (after A0 M)))))))))))) main_arg2 nw_C1a_arg2).trans ((keep B4 (after B3 (after B2c (after B2b (after B2a (after B1c (after B1b (after B1a (after A3 (after A2 (after A1 (after A0 M))))))))))) main_arg2 nw_B4_arg2).trans ((keep B3 (after B2c (after B2b (after B2a (after B1c (after B1b (after B1a (after A3 (after A2 (after A1 (after A0 M)))))))))) main_arg2 nw_B3_arg2).trans ((keep B2c (after B2b (after B2a (after B1c (after B1b (after B1a (after A3 (after A2 (after A1 (after A0 M))))))))) main_arg2 nw_B2c_arg2).trans ((keep B2b (after B2a (after B1c (after B1b (after B1a (after A3 (after A2 (after A1 (after A0 M)))))))) main_arg2 nw_B2b_arg2).trans ((keep B2a (after B1c (after B1b (after B1a (after A3 (after A2 (after A1 (after A0 M))))))) main_arg2 nw_B2a_arg2).trans ((keep B1c (after B1b (after B1a (after A3 (after A2 (after A1 (after A0 M)))))) main_arg2 nw_B1c_arg2).trans ((keep B1b (after B1a (after A3 (after A2 (after A1 (after A0 M))))) main_arg2 nw_B1b_arg2).trans ((keep B1a (after A3 (after A2 (after A1 (after A0 M)))) main_arg2 nw_B1a_arg2).trans ((keep A3 (after A2 (after A1 (after A0 M))) main_arg2 nw_A3_arg2).trans ((keep A2 (after A1 (after A0 M)) main_arg2 nw_A2_arg2).trans ((keep A1 (after A0 M) main_arg2 nw_A1_arg2).trans (keep A0 M main_arg2 nw_A0_arg2)))))))))))))) ((keep C1b (after C1a (after B4 (after B3 (after B2c (after B2b (after B2a (after B1c (after B1b (after B1a (after A3 (after A2 (after A1 (after A0 M))))))))))))) main_arg3 nw_C1b_arg3).trans ((keep C1a (after B4 (after B3 (after B2c (after B2b (after B2a (after B1c (after B1b (after B1a (after A3 (after A2 (after A1 (after A0 M)))))))))))) main_arg3 nw_C1a_arg3).trans ((keep B4 (after B3 (after B2c (after B2b (after B2a (after B1c (after B1b (after B1a (after A3 (after A2 (after A1 (after A0 M))))))))))) main_arg3 nw_B4_arg3).trans ((keep B3 (after B2c (after B2b (after B2a (after B1c (after B1b (after B1a (after A3 (after A2 (after A1 (after A0 M)))))))))) main_arg3 nw_B3_arg3).trans ((keep B2c (after B2b (after B2a (after B1c (after B1b (after B1a (after A3 (after A2 (after A1 (after A0 M))))))))) main_arg3 nw_B2c_arg3).trans ((keep B2b (after B2a (after B1c (after B1b (after B1a (after A3 (after A2 (after A1 (after A0 M)))))))) main_arg3 nw_B2b_arg3).trans ((keep B2a (after B1c (after B1b (after B1a (after A3 (after A2 (after A1 (after A0 M))))))) main_arg3 nw_B2a_arg3).trans ((keep B1c (after B1b (after B1a (after A3 (after A2 (after A1 (after A0 M)))))) main_arg3 nw_B1c_arg3).trans ((keep B1b (after B1a (after A3 (after A2 (after A1 (after A0 M))))) main_arg3 nw_B1b_arg3).trans ((keep B1a (after A3 (after A2 (after A1 (after A0 M)))) main_arg3 nw_B1a_arg3).trans ((keep A3 (after A2 (after A1 (after A0 M))) main_arg3 nw_A3_arg3).trans ((keep A2 (after A1 (after A0 M)) main_arg3 nw_A2_arg3).trans ((keep A1 (after A0 M) main_arg3 nw_A1_arg3).trans (keep A0 M main_arg3 nw_A0_arg3))))))))))))))

/-- No operation writes argument 0. -/
theorem fold_arg0 (M : Valuation τ sig (Elt F)) : after ops M (Proc.devRef .tc main_arg0) = M (Proc.devRef .tc main_arg0) := by
  unfold ops
  simp only [List.flatten_cons, List.flatten_nil, List.append_nil, StableHlo.after_append]
  exact ((keep C2 (after C1b (after C1a (after B4 (after B3 (after B2c (after B2b (after B2a (after B1c (after B1b (after B1a (after A3 (after A2 (after A1 (after A0 M)))))))))))))) main_arg0 nw_C2_arg0).trans ((keep C1b (after C1a (after B4 (after B3 (after B2c (after B2b (after B2a (after B1c (after B1b (after B1a (after A3 (after A2 (after A1 (after A0 M))))))))))))) main_arg0 nw_C1b_arg0).trans ((keep C1a (after B4 (after B3 (after B2c (after B2b (after B2a (after B1c (after B1b (after B1a (after A3 (after A2 (after A1 (after A0 M)))))))))))) main_arg0 nw_C1a_arg0).trans ((keep B4 (after B3 (after B2c (after B2b (after B2a (after B1c (after B1b (after B1a (after A3 (after A2 (after A1 (after A0 M))))))))))) main_arg0 nw_B4_arg0).trans ((keep B3 (after B2c (after B2b (after B2a (after B1c (after B1b (after B1a (after A3 (after A2 (after A1 (after A0 M)))))))))) main_arg0 nw_B3_arg0).trans ((keep B2c (after B2b (after B2a (after B1c (after B1b (after B1a (after A3 (after A2 (after A1 (after A0 M))))))))) main_arg0 nw_B2c_arg0).trans ((keep B2b (after B2a (after B1c (after B1b (after B1a (after A3 (after A2 (after A1 (after A0 M)))))))) main_arg0 nw_B2b_arg0).trans ((keep B2a (after B1c (after B1b (after B1a (after A3 (after A2 (after A1 (after A0 M))))))) main_arg0 nw_B2a_arg0).trans ((keep B1c (after B1b (after B1a (after A3 (after A2 (after A1 (after A0 M)))))) main_arg0 nw_B1c_arg0).trans ((keep B1b (after B1a (after A3 (after A2 (after A1 (after A0 M))))) main_arg0 nw_B1b_arg0).trans ((keep B1a (after A3 (after A2 (after A1 (after A0 M)))) main_arg0 nw_B1a_arg0).trans ((keep A3 (after A2 (after A1 (after A0 M))) main_arg0 nw_A3_arg0).trans ((keep A2 (after A1 (after A0 M)) main_arg0 nw_A2_arg0).trans ((keep A1 (after A0 M) main_arg0 nw_A1_arg0).trans (keep A0 M main_arg0 nw_A0_arg0)))))))))))))))
/-- No operation writes argument 1. -/
theorem fold_arg1 (M : Valuation τ sig (Elt F)) : after ops M (Proc.devRef .tc main_arg1) = M (Proc.devRef .tc main_arg1) := by
  unfold ops
  simp only [List.flatten_cons, List.flatten_nil, List.append_nil, StableHlo.after_append]
  exact ((keep C2 (after C1b (after C1a (after B4 (after B3 (after B2c (after B2b (after B2a (after B1c (after B1b (after B1a (after A3 (after A2 (after A1 (after A0 M)))))))))))))) main_arg1 nw_C2_arg1).trans ((keep C1b (after C1a (after B4 (after B3 (after B2c (after B2b (after B2a (after B1c (after B1b (after B1a (after A3 (after A2 (after A1 (after A0 M))))))))))))) main_arg1 nw_C1b_arg1).trans ((keep C1a (after B4 (after B3 (after B2c (after B2b (after B2a (after B1c (after B1b (after B1a (after A3 (after A2 (after A1 (after A0 M)))))))))))) main_arg1 nw_C1a_arg1).trans ((keep B4 (after B3 (after B2c (after B2b (after B2a (after B1c (after B1b (after B1a (after A3 (after A2 (after A1 (after A0 M))))))))))) main_arg1 nw_B4_arg1).trans ((keep B3 (after B2c (after B2b (after B2a (after B1c (after B1b (after B1a (after A3 (after A2 (after A1 (after A0 M)))))))))) main_arg1 nw_B3_arg1).trans ((keep B2c (after B2b (after B2a (after B1c (after B1b (after B1a (after A3 (after A2 (after A1 (after A0 M))))))))) main_arg1 nw_B2c_arg1).trans ((keep B2b (after B2a (after B1c (after B1b (after B1a (after A3 (after A2 (after A1 (after A0 M)))))))) main_arg1 nw_B2b_arg1).trans ((keep B2a (after B1c (after B1b (after B1a (after A3 (after A2 (after A1 (after A0 M))))))) main_arg1 nw_B2a_arg1).trans ((keep B1c (after B1b (after B1a (after A3 (after A2 (after A1 (after A0 M)))))) main_arg1 nw_B1c_arg1).trans ((keep B1b (after B1a (after A3 (after A2 (after A1 (after A0 M))))) main_arg1 nw_B1b_arg1).trans ((keep B1a (after A3 (after A2 (after A1 (after A0 M)))) main_arg1 nw_B1a_arg1).trans ((keep A3 (after A2 (after A1 (after A0 M))) main_arg1 nw_A3_arg1).trans ((keep A2 (after A1 (after A0 M)) main_arg1 nw_A2_arg1).trans ((keep A1 (after A0 M) main_arg1 nw_A1_arg1).trans (keep A0 M main_arg1 nw_A0_arg1)))))))))))))))
/-- No operation writes argument 2. -/
theorem fold_arg2 (M : Valuation τ sig (Elt F)) : after ops M (Proc.devRef .tc main_arg2) = M (Proc.devRef .tc main_arg2) := by
  unfold ops
  simp only [List.flatten_cons, List.flatten_nil, List.append_nil, StableHlo.after_append]
  exact ((keep C2 (after C1b (after C1a (after B4 (after B3 (after B2c (after B2b (after B2a (after B1c (after B1b (after B1a (after A3 (after A2 (after A1 (after A0 M)))))))))))))) main_arg2 nw_C2_arg2).trans ((keep C1b (after C1a (after B4 (after B3 (after B2c (after B2b (after B2a (after B1c (after B1b (after B1a (after A3 (after A2 (after A1 (after A0 M))))))))))))) main_arg2 nw_C1b_arg2).trans ((keep C1a (after B4 (after B3 (after B2c (after B2b (after B2a (after B1c (after B1b (after B1a (after A3 (after A2 (after A1 (after A0 M)))))))))))) main_arg2 nw_C1a_arg2).trans ((keep B4 (after B3 (after B2c (after B2b (after B2a (after B1c (after B1b (after B1a (after A3 (after A2 (after A1 (after A0 M))))))))))) main_arg2 nw_B4_arg2).trans ((keep B3 (after B2c (after B2b (after B2a (after B1c (after B1b (after B1a (after A3 (after A2 (after A1 (after A0 M)))))))))) main_arg2 nw_B3_arg2).trans ((keep B2c (after B2b (after B2a (after B1c (after B1b (after B1a (after A3 (after A2 (after A1 (after A0 M))))))))) main_arg2 nw_B2c_arg2).trans ((keep B2b (after B2a (after B1c (after B1b (after B1a (after A3 (after A2 (after A1 (after A0 M)))))))) main_arg2 nw_B2b_arg2).trans ((keep B2a (after B1c (after B1b (after B1a (after A3 (after A2 (after A1 (after A0 M))))))) main_arg2 nw_B2a_arg2).trans ((keep B1c (after B1b (after B1a (after A3 (after A2 (after A1 (after A0 M)))))) main_arg2 nw_B1c_arg2).trans ((keep B1b (after B1a (after A3 (after A2 (after A1 (after A0 M))))) main_arg2 nw_B1b_arg2).trans ((keep B1a (after A3 (after A2 (after A1 (after A0 M)))) main_arg2 nw_B1a_arg2).trans ((keep A3 (after A2 (after A1 (after A0 M))) main_arg2 nw_A3_arg2).trans ((keep A2 (after A1 (after A0 M)) main_arg2 nw_A2_arg2).trans ((keep A1 (after A0 M) main_arg2 nw_A1_arg2).trans (keep A0 M main_arg2 nw_A0_arg2)))))))))))))))
/-- No operation writes argument 3. -/
theorem fold_arg3 (M : Valuation τ sig (Elt F)) : after ops M (Proc.devRef .tc main_arg3) = M (Proc.devRef .tc main_arg3) := by
  unfold ops
  simp only [List.flatten_cons, List.flatten_nil, List.append_nil, StableHlo.after_append]
  exact ((keep C2 (after C1b (after C1a (after B4 (after B3 (after B2c (after B2b (after B2a (after B1c (after B1b (after B1a (after A3 (after A2 (after A1 (after A0 M)))))))))))))) main_arg3 nw_C2_arg3).trans ((keep C1b (after C1a (after B4 (after B3 (after B2c (after B2b (after B2a (after B1c (after B1b (after B1a (after A3 (after A2 (after A1 (after A0 M))))))))))))) main_arg3 nw_C1b_arg3).trans ((keep C1a (after B4 (after B3 (after B2c (after B2b (after B2a (after B1c (after B1b (after B1a (after A3 (after A2 (after A1 (after A0 M)))))))))))) main_arg3 nw_C1a_arg3).trans ((keep B4 (after B3 (after B2c (after B2b (after B2a (after B1c (after B1b (after B1a (after A3 (after A2 (after A1 (after A0 M))))))))))) main_arg3 nw_B4_arg3).trans ((keep B3 (after B2c (after B2b (after B2a (after B1c (after B1b (after B1a (after A3 (after A2 (after A1 (after A0 M)))))))))) main_arg3 nw_B3_arg3).trans ((keep B2c (after B2b (after B2a (after B1c (after B1b (after B1a (after A3 (after A2 (after A1 (after A0 M))))))))) main_arg3 nw_B2c_arg3).trans ((keep B2b (after B2a (after B1c (after B1b (after B1a (after A3 (after A2 (after A1 (after A0 M)))))))) main_arg3 nw_B2b_arg3).trans ((keep B2a (after B1c (after B1b (after B1a (after A3 (after A2 (after A1 (after A0 M))))))) main_arg3 nw_B2a_arg3).trans ((keep B1c (after B1b (after B1a (after A3 (after A2 (after A1 (after A0 M)))))) main_arg3 nw_B1c_arg3).trans ((keep B1b (after B1a (after A3 (after A2 (after A1 (after A0 M))))) main_arg3 nw_B1b_arg3).trans ((keep B1a (after A3 (after A2 (after A1 (after A0 M)))) main_arg3 nw_B1a_arg3).trans ((keep A3 (after A2 (after A1 (after A0 M))) main_arg3 nw_A3_arg3).trans ((keep A2 (after A1 (after A0 M)) main_arg3 nw_A2_arg3).trans ((keep A1 (after A0 M) main_arg3 nw_A1_arg3).trans (keep A0 M main_arg3 nw_A0_arg3)))))))))))))))

/-! ## The run -/

/-- Every run of the reference terminates with the result buffer at the last stage of the read module, taken at the
    launch contents of the four arguments, and with the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = val_main_v133 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v133).trans (fold_v133 (launchContents m c)),
      (h c main_arg0).trans (fold_arg0 (launchContents m c)), (h c main_arg1).trans (fold_arg1 (launchContents m c)),
      (h c main_arg2).trans (fold_arg2 (launchContents m c)), (h c main_arg3).trans (fold_arg3 (launchContents m c))⟩) (run_fold m ρ)

end Cert.ReferenceIdeal.RefValue

end
-- ==== Proof.lean ====
/-
  A 5×5 masked convolution with per-image weights, as a Pallas kernel, against its jnp reference.

  Both programs pad the image and the group offsets by 2, take their 25 shifted slices, gate every tap by "the
  neighbour's offset, in the input channel's group, is strictly below the output group's offset at the centre", and
  contract the gated taps against the weights, adding the bias.  The kernel walks a grid (image, output group,
  shift): it zeroes a [192, 2304] accumulator at the first shift, adds at every shift the product of that shift's
  weight matrix with (shifted image × gate rows), and at the last shift writes accumulator + bias; its host part
  stacks the slices shift-major.  The reference stacks them channel-major and contracts once over the flat index
  channel·25 + shift.

  At the ideal instance every float is an extended real and every operation exact, so the two results are the same
  finite sum in two arrangements (Proof/Spec.lean); addition of extended reals is commutative and associative
  whatever the entries are, so the precondition (finite inputs) is never opened.  The idealization rewrote nothing
  (the ledger is empty), so preserves is trivially true.  The three frames: each kernel program's by the pipeline's
  frame run over the body's obligation, proved in each of the body's three control cases (Proof/KI, Proof/K), the
  reference's from its run.
-/
import proofs.«113980_j13426067767599_1_alg».proof.Defs
import proofs.«113980_j13426067767599_1_alg».proof.Proof.Gen.Kernel
import proofs.«113980_j13426067767599_1_alg».proof.Proof.Gen.KernelIdeal
import proofs.«113980_j13426067767599_1_alg».proof.Proof.Gen.ReferenceIdeal
import proofs.«113980_j13426067767599_1_alg».proof.Proof.Gen.Pre_finite_inputs
import proofs.«113980_j13426067767599_1_alg».proof.Proof.K.Frame
import proofs.«113980_j13426067767599_1_alg».proof.Proof.KI.Frame
import proofs.«113980_j13426067767599_1_alg».proof.Proof.KI.Value
import proofs.«113980_j13426067767599_1_alg».proof.Proof.RefSide
import proofs.«113980_j13426067767599_1_alg».proof.Proof.RefRunHand
import proofs.«113980_j13426067767599_1_alg».proof.Proof.Spec
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefValue.ref_run (F := Ideal) m ρ)

/-- The ideal pass rewrote nothing. -/
theorem preserves : Cert.preserves_Kernel_KernelIdeal := trivial

/-- From memories agreeing on the arguments both idealized programs end with the same result: the kernel's is the
    specification's sum arranged shift by shift, the reference's the same sum over the flat index, over the same
    padded image, padded offsets, offsets, weights and bias (the two programs compute those by the same operations);
    the two arrangements are one function, and both programs re-lay it by the same reshape. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.RefValue.ref_run (F := Ideal) m' ρ')
  rw [Cert.ReferenceIdeal.RefValue.result_eq, (hagree c).1, (hagree c).2.1,
    (hagree c).2.2.1, (hagree c).2.2.2, ← Cert.Spec.kerR_eq_refR]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
